-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v44_0)) (v2 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_v279) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3 : Shape := ⟨2, ![32768, 3]⟩
abbrev S16x2048 : Shape := ⟨2, ![16, 2048]⟩
abbrev S2x524288 : Shape := ⟨2, ![2, 524288]⟩
abbrev S3x12 : Shape := ⟨2, ![3, 12]⟩
abbrev S12 : Shape := ⟨1, ![12]⟩
abbrev S12x48 : Shape := ⟨2, ![12, 48]⟩
abbrev S48 : Shape := ⟨1, ![48]⟩
abbrev S48x192 : Shape := ⟨2, ![48, 192]⟩
abbrev S192 : Shape := ⟨1, ![192]⟩
abbrev S192x768 : Shape := ⟨2, ![192, 768]⟩
abbrev S768 : Shape := ⟨1, ![768]⟩
abbrev S768x768 : Shape := ⟨2, ![768, 768]⟩
abbrev S100x768 : Shape := ⟨2, ![100, 768]⟩
abbrev S25x768 : Shape := ⟨2, ![25, 768]⟩
abbrev S3 : Shape := ⟨1, ![3]⟩
abbrev S768x128 : Shape := ⟨2, ![768, 128]⟩
abbrev S128 : Shape := ⟨1, ![128]⟩
abbrev S128x128 : Shape := ⟨2, ![128, 128]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel
  bcast_S_S3x12 : S_.BroadcastsInDim S3x12 (![] : Fin 0 → Fin S3x12.rank)
  reducesTo_S3x12_S_d0_1 : S3x12.ReducesTo [0, 1] S_
  bcast_S_S12 : S_.BroadcastsInDim S12 (![] : Fin 0 → Fin S12.rank)
  reducesTo_S12_S_d0 : S12.ReducesTo [0] S_
  bcast_S_S12x48 : S_.BroadcastsInDim S12x48 (![] : Fin 0 → Fin S12x48.rank)
  reducesTo_S12x48_S_d0_1 : S12x48.ReducesTo [0, 1] S_
  bcast_S_S48 : S_.BroadcastsInDim S48 (![] : Fin 0 → Fin S48.rank)
  reducesTo_S48_S_d0 : S48.ReducesTo [0] S_
  bcast_S_S48x192 : S_.BroadcastsInDim S48x192 (![] : Fin 0 → Fin S48x192.rank)
  reducesTo_S48x192_S_d0_1 : S48x192.ReducesTo [0, 1] S_
  bcast_S_S192 : S_.BroadcastsInDim S192 (![] : Fin 0 → Fin S192.rank)
  reducesTo_S192_S_d0 : S192.ReducesTo [0] S_
  bcast_S_S192x768 : S_.BroadcastsInDim S192x768 (![] : Fin 0 → Fin S192x768.rank)
  reducesTo_S192x768_S_d0_1 : S192x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S100x768 : S_.BroadcastsInDim S100x768 (![] : Fin 0 → Fin S100x768.rank)
  reducesTo_S100x768_S_d0_1 : S100x768.ReducesTo [0, 1] S_
  bcast_S_S25x768 : S_.BroadcastsInDim S25x768 (![] : Fin 0 → Fin S25x768.rank)
  reducesTo_S25x768_S_d0_1 : S25x768.ReducesTo [0, 1] S_
  bcast_S_S3 : S_.BroadcastsInDim S3 (![] : Fin 0 → Fin S3.rank)
  reducesTo_S3_S_d0 : S3.ReducesTo [0] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x2048 : S_.BroadcastsInDim S16x2048 (![] : Fin 0 → Fin S16x2048.rank)
  reducesTo_S16x2048_S_d0_1 : S16x2048.ReducesTo [0, 1] S_
  bcast_S_S2x524288 : S_.BroadcastsInDim S2x524288 (![] : Fin 0 → Fin S2x524288.rank)
  reducesTo_S2x524288_S_d0_1 : S2x524288.ReducesTo [0, 1] S_

variable [Facts]

def fn_part8 {F : FTy → Type} [FloatOps F] (main_arg2 : IVec S16x2048 32) (main_arg3 : IVec S2x524288 32) (main_v135 : IVec S_ 1) : IVec S_ 1 :=
  let main_c_54 : IVec S_ 32 := constantI S_ 32 25#32
  let main_v136 : IVec S16x2048 32 := broadcastInDim S16x2048 ![] bcast_S_S16x2048 main_c_54
  let main_v137 : IVec S16x2048 1 := cmpi .slt main_arg2 main_v136
  let main_c_55 : IVec S_ 1 := constantI S_ 1 1#1
  let main_v138 : IVec S_ 1 := (fun x v => Host.reduce IntOp.andi x v reducesTo_S16x2048_S_d0_1 h_S_) main_v137 main_c_55
  let main_v139 : IVec S_ 1 := andi main_v135 main_v138
  let main_c_56 : IVec S_ 32 := constantI S_ 32 0#32
  let main_v140 : IVec S2x524288 32 := broadcastInDim S2x524288 ![] bcast_S_S2x524288 main_c_56
  let main_v141 : IVec S2x524288 1 := cmpi .sge main_arg3 main_v140
  let main_c_57 : IVec S_ 1 := constantI S_ 1 1#1
  let main_v142 : IVec S_ 1 := (fun x v => Host.reduce IntOp.andi x v reducesTo_S2x524288_S_d0_1 h_S_) main_v141 main_c_57
  let main_v143 : IVec S_ 1 := andi main_v139 main_v142
  let main_c_58 : IVec S_ 32 := constantI S_ 32 32768#32
  let main_v144 : IVec S2x524288 32 := broadcastInDim S2x524288 ![] bcast_S_S2x524288 main_c_58
  let main_v145 : IVec S2x524288 1 := cmpi .slt main_arg3 main_v144
  let main_c_59 : IVec S_ 1 := constantI S_ 1 1#1
  let main_v146 : IVec S_ 1 := (fun x v => Host.reduce IntOp.andi x v reducesTo_S2x524288_S_d0_1 h_S_) main_v145 main_c_59
  let main_v147 : IVec S_ 1 := andi main_v143 main_v146
  main_v147

def fn_part7 {F : FTy → Type} [FloatOps F] (main_arg1 : IVec S16x2048 32) (main_arg2 : IVec S16x2048 32) (main_arg3 : IVec S2x524288 32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_c_48 : IVec S_ 32 := constantI S_ 32 0#32
  let main_v124 : IVec S16x2048 32 := broadcastInDim S16x2048 ![] bcast_S_S16x2048 main_c_48
  let main_v125 : IVec S16x2048 1 := cmpi .sge main_arg1 main_v124
  let main_c_49 : IVec S_ 1 := constantI S_ 1 1#1
  let main_v126 : IVec S_ 1 := (fun x v => Host.reduce IntOp.andi x v reducesTo_S16x2048_S_d0_1 h_S_) main_v125 main_c_49
  let main_v127 : IVec S_ 1 := andi main_v123 main_v126
  let main_c_50 : IVec S_ 32 := constantI S_ 32 100#32
  let main_v128 : IVec S16x2048 32 := broadcastInDim S16x2048 ![] bcast_S_S16x2048 main_c_50
  let main_v129 : IVec S16x2048 1 := cmpi .slt main_arg1 main_v128
  let main_c_51 : IVec S_ 1 := constantI S_ 1 1#1
  let main_v130 : IVec S_ 1 := (fun x v => Host.reduce IntOp.andi x v reducesTo_S16x2048_S_d0_1 h_S_) main_v129 main_c_51
  let main_v131 : IVec S_ 1 := andi main_v127 main_v130
  let main_c_52 : IVec S_ 32 := constantI S_ 32 0#32
  let main_v132 : IVec S16x2048 32 := broadcastInDim S16x2048 ![] bcast_S_S16x2048 main_c_52
  let main_v133 : IVec S16x2048 1 := cmpi .sge main_arg2 main_v132
  let main_c_53 : IVec S_ 1 := constantI S_ 1 1#1
  let main_v134 : IVec S_ 1 := (fun x v => Host.reduce IntOp.andi x v reducesTo_S16x2048_S_d0_1 h_S_) main_v133 main_c_53
  let main_v135 : IVec S_ 1 := andi main_v131 main_v134
  fn_part8 (F := F) main_arg2 main_arg3 main_v135

def fn_part6 {F : FTy → Type} [FloatOps F] (main_arg1 : IVec S16x2048 32) (main_arg2 : IVec S16x2048 32) (main_arg3 : IVec S2x524288 32) (main_arg24 : FVec F S128x128 .f32) (main_arg25 : FVec F S128 .f32) (main_arg26 : FVec F S128 .f32) (main_arg27 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg24
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg26
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg27
  fn_part7 (F := F) main_arg1 main_arg2 main_arg3 main_v118 main_v119

def fn_part5 {F : FTy → Type} [FloatOps F] (main_arg1 : IVec S16x2048 32) (main_arg2 : IVec S16x2048 32) (main_arg3 : IVec S2x524288 32) (main_arg21 : FVec F S128 .f32) (main_arg22 : FVec F S128 .f32) (main_arg23 : FVec F S128 .f32) (main_arg24 : FVec F S128x128 .f32) (main_arg25 : FVec F S128 .f32) (main_arg26 : FVec F S128 .f32) (main_arg27 : FVec F S128 .f32) (main_v83 : IVec S_ 1) (main_v84 : FVec F S768x128 .f32) (main_cst_32 : FVec F S_ .f32) : IVec S_ 1 :=
  let main_v85 : FVec F S768x128 .f32 := broadcastInDim S768x128 ![] bcast_S_S768x128 main_cst_32
  let main_v86 : IVec S768x128 1 := cmpf .olt main_v84 main_v85
  let main_c_33 : IVec S_ 1 := constantI S_ 1 1#1
  let main_v87 : IVec S_ 1 := (fun x v => Host.reduce IntOp.andi x v reducesTo_S768x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg22
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg2 main_arg3 main_arg24 main_arg25 main_arg26 main_arg27 main_v98 main_v101 main_c_39

def fn_part4 {F : FTy → Type} [FloatOps F] (main_arg1 : IVec S16x2048 32) (main_arg2 : IVec S16x2048 32) (main_arg3 : IVec S2x524288 32) (main_arg17 : FVec F S3 .f32) (main_arg18 : FVec F S768 .f32) (main_arg19 : FVec F S768 .f32) (main_arg20 : FVec F S768x128 .f32) (main_arg21 : FVec F S128 .f32) (main_arg22 : FVec F S128 .f32) (main_arg23 : FVec F S128 .f32) (main_arg24 : FVec F S128x128 .f32) (main_arg25 : FVec F S128 .f32) (main_arg26 : FVec F S128 .f32) (main_arg27 : FVec F S128 .f32) (main_v63 : IVec S_ 1) (main_v67 : IVec S_ 1) : IVec S_ 1 :=
  let main_v68 : IVec S_ 1 := andi main_v63 main_v67
  let main_v69 : FVec F S3 .f32 := Host.absf main_arg17
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_v74 : FVec F S768 .f32 := Host.absf main_arg18
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S768 .f32 := Host.absf main_arg19
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768x128 .f32 := Host.absf main_arg20
  let main_cst_32 : FVec F S_ .f32 := constant S_ .f32 0x7F800000#32
  fn_part5 (F := F) main_arg1 main_arg2 main_arg3 main_arg21 main_arg22 main_arg23 main_arg24 main_arg25 main_arg26 main_arg27 main_v83 main_v84 main_cst_32

def fn_part3 {F : FTy → Type} [FloatOps F] (main_arg1 : IVec S16x2048 32) (main_arg2 : IVec S16x2048 32) (main_arg3 : IVec S2x524288 32) (main_arg14 : FVec F S100x768 .f32) (main_arg15 : FVec F S25x768 .f32) (main_arg16 : FVec F S3 .f32) (main_arg17 : FVec F S3 .f32) (main_arg18 : FVec F S768 .f32) (main_arg19 : FVec F S768 .f32) (main_arg20 : FVec F S768x128 .f32) (main_arg21 : FVec F S128 .f32) (main_arg22 : FVec F S128 .f32) (main_arg23 : FVec F S128 .f32) (main_arg24 : FVec F S128x128 .f32) (main_arg25 : FVec F S128 .f32) (main_arg26 : FVec F S128 .f32) (main_arg27 : FVec F S128 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S100x768 .f32 := Host.absf main_arg14
  let main_cst_20 : FVec F S_ .f32 := constant S_ .f32 0x7F800000#32
  let main_v55 : FVec F S100x768 .f32 := broadcastInDim S100x768 ![] bcast_S_S100x768 main_cst_20
  let main_v56 : IVec S100x768 1 := cmpf .olt main_v54 main_v55
  let main_c_21 : IVec S_ 1 := constantI S_ 1 1#1
  let main_v57 : IVec S_ 1 := (fun x v => Host.reduce IntOp.andi x v reducesTo_S100x768_S_d0_1 h_S_) main_v56 main_c_21
  let main_v58 : IVec S_ 1 := andi main_v53 main_v57
  let main_v59 : FVec F S25x768 .f32 := Host.absf main_arg15
  let main_cst_22 : FVec F S_ .f32 := constant S_ .f32 0x7F800000#32
  let main_v60 : FVec F S25x768 .f32 := broadcastInDim S25x768 ![] bcast_S_S25x768 main_cst_22
  let main_v61 : IVec S25x768 1 := cmpf .olt main_v59 main_v60
  let main_c_23 : IVec S_ 1 := constantI S_ 1 1#1
  let main_v62 : IVec S_ 1 := (fun x v => Host.reduce IntOp.andi x v reducesTo_S25x768_S_d0_1 h_S_) main_v61 main_c_23
  let main_v63 : IVec S_ 1 := andi main_v58 main_v62
  let main_v64 : FVec F S3 .f32 := Host.absf main_arg16
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg1 main_arg2 main_arg3 main_arg17 main_arg18 main_arg19 main_arg20 main_arg21 main_arg22 main_arg23 main_arg24 main_arg25 main_arg26 main_arg27 main_v63 main_v67

def fn_part2 {F : FTy → Type} [FloatOps F] (main_arg1 : IVec S16x2048 32) (main_arg2 : IVec S16x2048 32) (main_arg3 : IVec S2x524288 32) (main_arg10 : FVec F S192x768 .f32) (main_arg11 : FVec F S768 .f32) (main_arg12 : FVec F S768x768 .f32) (main_arg13 : FVec F S768 .f32) (main_arg14 : FVec F S100x768 .f32) (main_arg15 : FVec F S25x768 .f32) (main_arg16 : FVec F S3 .f32) (main_arg17 : FVec F S3 .f32) (main_arg18 : FVec F S768 .f32) (main_arg19 : FVec F S768 .f32) (main_arg20 : FVec F S768x128 .f32) (main_arg21 : FVec F S128 .f32) (main_arg22 : FVec F S128 .f32) (main_arg23 : FVec F S128 .f32) (main_arg24 : FVec F S128x128 .f32) (main_arg25 : FVec F S128 .f32) (main_arg26 : FVec F S128 .f32) (main_arg27 : FVec F S128 .f32) (main_v33 : IVec S_ 1) : IVec S_ 1 :=
  let main_v34 : FVec F S192x768 .f32 := Host.absf main_arg10
  let main_cst_12 : FVec F S_ .f32 := constant S_ .f32 0x7F800000#32
  let main_v35 : FVec F S192x768 .f32 := broadcastInDim S192x768 ![] bcast_S_S192x768 main_cst_12
  let main_v36 : IVec S192x768 1 := cmpf .olt main_v34 main_v35
  let main_c_13 : IVec S_ 1 := constantI S_ 1 1#1
  let main_v37 : IVec S_ 1 := (fun x v => Host.reduce IntOp.andi x v reducesTo_S192x768_S_d0_1 h_S_) main_v36 main_c_13
  let main_v38 : IVec S_ 1 := andi main_v33 main_v37
  let main_v39 : FVec F S768 .f32 := Host.absf main_arg11
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x768 .f32 := Host.absf main_arg12
  let main_cst_16 : FVec F S_ .f32 := constant S_ .f32 0x7F800000#32
  let main_v45 : FVec F S768x768 .f32 := broadcastInDim S768x768 ![] bcast_S_S768x768 main_cst_16
  let main_v46 : IVec S768x768 1 := cmpf .olt main_v44 main_v45
  let main_c_17 : IVec S_ 1 := constantI S_ 1 1#1
  let main_v47 : IVec S_ 1 := (fun x v => Host.reduce IntOp.andi x v reducesTo_S768x768_S_d0_1 h_S_) main_v46 main_c_17
  let main_v48 : IVec S_ 1 := andi main_v43 main_v47
  let main_v49 : FVec F S768 .f32 := Host.absf main_arg13
  let main_cst_18 : FVec F S_ .f32 := constant S_ .f32 0x7F800000#32
  let main_v50 : FVec F S768 .f32 := broadcastInDim S768 ![] bcast_S_S768 main_cst_18
  fn_part3 (F := F) main_arg1 main_arg2 main_arg3 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg1 : IVec S16x2048 32) (main_arg2 : IVec S16x2048 32) (main_arg3 : IVec S2x524288 32) (main_arg7 : FVec F S48 .f32) (main_arg8 : FVec F S48x192 .f32) (main_arg9 : FVec F S192 .f32) (main_arg10 : FVec F S192x768 .f32) (main_arg11 : FVec F S768 .f32) (main_arg12 : FVec F S768x768 .f32) (main_arg13 : FVec F S768 .f32) (main_arg14 : FVec F S100x768 .f32) (main_arg15 : FVec F S25x768 .f32) (main_arg16 : FVec F S3 .f32) (main_arg17 : FVec F S3 .f32) (main_arg18 : FVec F S768 .f32) (main_arg19 : FVec F S768 .f32) (main_arg20 : FVec F S768x128 .f32) (main_arg21 : FVec F S128 .f32) (main_arg22 : FVec F S128 .f32) (main_arg23 : FVec F S128 .f32) (main_arg24 : FVec F S128x128 .f32) (main_arg25 : FVec F S128 .f32) (main_arg26 : FVec F S128 .f32) (main_arg27 : FVec F S128 .f32) (main_v13 : IVec S_ 1) (main_v16 : IVec S12x48 1) : IVec S_ 1 :=
  let main_c_5 : IVec S_ 1 := constantI S_ 1 1#1
  let main_v17 : IVec S_ 1 := (fun x v => Host.reduce IntOp.andi x v reducesTo_S12x48_S_d0_1 h_S_) main_v16 main_c_5
  let main_v18 : IVec S_ 1 := andi main_v13 main_v17
  let main_v19 : FVec F S48 .f32 := Host.absf main_arg7
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48x192 .f32 := Host.absf main_arg8
  let main_cst_8 : FVec F S_ .f32 := constant S_ .f32 0x7F800000#32
  let main_v25 : FVec F S48x192 .f32 := broadcastInDim S48x192 ![] bcast_S_S48x192 main_cst_8
  let main_v26 : IVec S48x192 1 := cmpf .olt main_v24 main_v25
  let main_c_9 : IVec S_ 1 := constantI S_ 1 1#1
  let main_v27 : IVec S_ 1 := (fun x v => Host.reduce IntOp.andi x v reducesTo_S48x192_S_d0_1 h_S_) main_v26 main_c_9
  let main_v28 : IVec S_ 1 := andi main_v23 main_v27
  let main_v29 : FVec F S192 .f32 := Host.absf main_arg9
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg1 main_arg2 main_arg3 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S32768x3 .f32) (main_arg1 : IVec S16x2048 32) (main_arg2 : IVec S16x2048 32) (main_arg3 : IVec S2x524288 32) (main_arg4 : FVec F S3x12 .f32) (main_arg5 : FVec F S12 .f32) (main_arg6 : FVec F S12x48 .f32) (main_arg7 : FVec F S48 .f32) (main_arg8 : FVec F S48x192 .f32) (main_arg9 : FVec F S192 .f32) (main_arg10 : FVec F S192x768 .f32) (main_arg11 : FVec F S768 .f32) (main_arg12 : FVec F S768x768 .f32) (main_arg13 : FVec F S768 .f32) (main_arg14 : FVec F S100x768 .f32) (main_arg15 : FVec F S25x768 .f32) (main_arg16 : FVec F S3 .f32) (main_arg17 : FVec F S3 .f32) (main_arg18 : FVec F S768 .f32) (main_arg19 : FVec F S768 .f32) (main_arg20 : FVec F S768x128 .f32) (main_arg21 : FVec F S128 .f32) (main_arg22 : FVec F S128 .f32) (main_arg23 : FVec F S128 .f32) (main_arg24 : FVec F S128x128 .f32) (main_arg25 : FVec F S128 .f32) (main_arg26 : FVec F S128 .f32) (main_arg27 : FVec F S128 .f32) : IVec S_ 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  let main_v4 : FVec F S3x12 .f32 := Host.absf main_arg4
  let main_cst_0 : FVec F S_ .f32 := constant S_ .f32 0x7F800000#32
  let main_v5 : FVec F S3x12 .f32 := broadcastInDim S3x12 ![] bcast_S_S3x12 main_cst_0
  let main_v6 : IVec S3x12 1 := cmpf .olt main_v4 main_v5
  let main_c_1 : IVec S_ 1 := constantI S_ 1 1#1
  let main_v7 : IVec S_ 1 := (fun x v => Host.reduce IntOp.andi x v reducesTo_S3x12_S_d0_1 h_S_) main_v6 main_c_1
  let main_v8 : IVec S_ 1 := andi main_v3 main_v7
  let main_v9 : FVec F S12 .f32 := Host.absf main_arg5
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12x48 .f32 := Host.absf main_arg6
  let main_cst_4 : FVec F S_ .f32 := constant S_ .f32 0x7F800000#32
  let main_v15 : FVec F S12x48 .f32 := broadcastInDim S12x48 ![] bcast_S_S12x48 main_cst_4
  let main_v16 : IVec S12x48 1 := cmpf .olt main_v14 main_v15
  fn_part1 (F := F) main_arg1 main_arg2 main_arg3 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S32768x3 : Shape := ⟨2, ![32768, 3]⟩
abbrev S16x2048 : Shape := ⟨2, ![16, 2048]⟩
abbrev S2x524288 : Shape := ⟨2, ![2, 524288]⟩
abbrev S3x12 : Shape := ⟨2, ![3, 12]⟩
abbrev S12 : Shape := ⟨1, ![12]⟩
abbrev S12x48 : Shape := ⟨2, ![12, 48]⟩
abbrev S48 : Shape := ⟨1, ![48]⟩
abbrev S48x192 : Shape := ⟨2, ![48, 192]⟩
abbrev S192 : Shape := ⟨1, ![192]⟩
abbrev S192x768 : Shape := ⟨2, ![192, 768]⟩
abbrev S768 : Shape := ⟨1, ![768]⟩
abbrev S768x768 : Shape := ⟨2, ![768, 768]⟩
abbrev S100x768 : Shape := ⟨2, ![100, 768]⟩
abbrev S25x768 : Shape := ⟨2, ![25, 768]⟩
abbrev S3 : Shape := ⟨1, ![3]⟩
abbrev S768x128 : Shape := ⟨2, ![768, 128]⟩
abbrev S128 : Shape := ⟨1, ![128]⟩
abbrev S128x128 : Shape := ⟨2, ![128, 128]⟩
abbrev S32768 : Shape := ⟨1, ![32768]⟩
abbrev S32768x768 : Shape := ⟨2, ![32768, 768]⟩
abbrev S32768x128 : Shape := ⟨2, ![32768, 128]⟩
abbrev S2048x3 : Shape := ⟨2, ![2048, 3]⟩
abbrev S2048 : Shape := ⟨1, ![2048]⟩
abbrev S2048x768 : Shape := ⟨2, ![2048, 768]⟩
abbrev S2048x128 : Shape := ⟨2, ![2048, 128]⟩
abbrev S2048x1 : Shape := ⟨2, ![2048, 1]⟩
abbrev S1 : Shape := ⟨1, ![1]⟩
abbrev S1x1 : Shape := ⟨2, ![1, 1]⟩
abbrev S1x3 : Shape := ⟨2, ![1, 3]⟩
abbrev S2048x12 : Shape := ⟨2, ![2048, 12]⟩
abbrev S1x12 : Shape := ⟨2, ![1, 12]⟩
abbrev S2048x48 : Shape := ⟨2, ![2048, 48]⟩
abbrev S1x48 : Shape := ⟨2, ![1, 48]⟩
abbrev S2048x192 : Shape := ⟨2, ![2048, 192]⟩
abbrev S1x192 : Shape := ⟨2, ![1, 192]⟩
abbrev S1x768 : Shape := ⟨2, ![1, 768]⟩
abbrev S2048x100 : Shape := ⟨2, ![2048, 100]⟩
abbrev S2048x25 : Shape := ⟨2, ![2048, 25]⟩
abbrev S1x128 : Shape := ⟨2, ![1, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S16x2048x128 : Shape := ⟨3, ![16, 2048, 128]⟩
abbrev S16x32768x128 : Shape := ⟨3, ![16, 32768, 128]⟩
abbrev S16 : Shape := ⟨1, ![16]⟩
abbrev S16x1x1 : Shape := ⟨3, ![16, 1, 1]⟩
abbrev S16x1x128 : Shape := ⟨3, ![16, 1, 128]⟩
abbrev S557056x128 : Shape := ⟨2, ![557056, 128]⟩
abbrev S8192x128 : Shape := ⟨2, ![8192, 128]⟩
abbrev S1x1x128 : Shape := ⟨3, ![1, 1, 128]⟩
abbrev S1x2048x128 : Shape := ⟨3, ![1, 2048, 128]⟩
abbrev S16x128 : Shape := ⟨2, ![16, 128]⟩
abbrev S16x1 : Shape := ⟨2, ![16, 1]⟩

abbrev nBuf : Space → Nat
  | .hbm => 163
  | .vmem => 58
  | .smem => 0
  | _ => 0

abbrev hbmTy0_0 (i : Nat) : BufTy := match i % 128 with
  | 0 => ⟨S32768x3, .f32⟩
  | 1 => ⟨S16x2048, .i32⟩
  | 2 => ⟨S16x2048, .i32⟩
  | 3 => ⟨S2x524288, .i32⟩
  | 4 => ⟨S3x12, .f32⟩
  | 5 => ⟨S12, .f32⟩
  | 6 => ⟨S12x48, .f32⟩
  | 7 => ⟨S48, .f32⟩
  | 8 => ⟨S48x192, .f32⟩
  | 9 => ⟨S192, .f32⟩
  | 10 => ⟨S192x768, .f32⟩
  | 11 => ⟨S768, .f32⟩
  | 12 => ⟨S768x768, .f32⟩
  | 13 => ⟨S768, .f32⟩
  | 14 => ⟨S100x768, .f32⟩
  | 15 => ⟨S25x768, .f32⟩
  | 16 => ⟨S3, .f32⟩
  | 17 => ⟨S3, .f32⟩
  | 18 => ⟨S768, .f32⟩
  | 19 => ⟨S768, .f32⟩
  | 20 => ⟨S768x128, .f32⟩
  | 21 => ⟨S128, .f32⟩
  | 22 => ⟨S128, .f32⟩
  | 23 => ⟨S128, .f32⟩
  | 24 => ⟨S128x128, .f32⟩
  | 25 => ⟨S128, .f32⟩
  | 26 => ⟨S128, .f32⟩
  | 27 => ⟨S128, .f32⟩
  | 28 => ⟨S32768, .i32⟩
  | 29 => ⟨S32768, .i32⟩
  | 30 => ⟨S100x768, .bf16⟩
  | 31 => ⟨S100x768, .f32⟩
  | 32 => ⟨S100x768, .f32⟩
  | 33 => ⟨S100x768, .bf16⟩
  | 34 => ⟨S25x768, .bf16⟩
  | 35 => ⟨S25x768, .f32⟩
  | 36 => ⟨S25x768, .f32⟩
  | 37 => ⟨S25x768, .bf16⟩
  | 38 => ⟨S32768x768, .f32⟩
  | 39 => ⟨S32768x128, .f32⟩
  | 40 => ⟨S1x524288, .i32⟩
  | 41 => ⟨S524288, .i32⟩
  | 42 => ⟨S1x524288, .i32⟩
  | 43 => ⟨S524288, .i32⟩
  | 44 => ⟨S_, .i32⟩
  | 45 => ⟨S524288, .i32⟩
  | 46 => ⟨S524288, .i1⟩
  | 47 => ⟨S_, .i32⟩
  | 48 => ⟨S524288, .i32⟩
  | 49 => ⟨S524288, .i32⟩
  | 50 => ⟨S524288, .i32⟩
  | 51 => ⟨S524288x1, .i32⟩
  | 52 => ⟨S1, .i32⟩
  | 53 => ⟨S_, .i32⟩
  | 54 => ⟨S524288x1, .i32⟩
  | 55 => ⟨S524288x1, .i1⟩
  | 56 => ⟨S1x1, .i32⟩
  | 57 => ⟨S524288x1, .i32⟩
  | 58 => ⟨S524288x1, .i1⟩
  | 59 => ⟨S524288x1, .i1⟩
  | 60 => ⟨S_, .i1⟩
  | 61 => ⟨S524288, .i1⟩
  | 62 => ⟨S524288x128, .f32⟩
  | 63 => ⟨S524288x128, .i1⟩
  | 64 => ⟨S_, .f32⟩
  | 65 => ⟨S524288x128, .f32⟩
  | 66 => ⟨S524288x128, .f32⟩
  | 67 => ⟨S_, .i32⟩
  | 68 => ⟨S524288, .i32⟩
  | 69 => ⟨S524288, .i1⟩
  | 70 => ⟨S_, .i32⟩
  | 71 => ⟨S524288, .i32⟩
  | 72 => ⟨S524288, .i32⟩
  | 73 => ⟨S524288, .i32⟩
  | 74 => ⟨S524288x1, .i32⟩
  | 75 => ⟨S1, .i32⟩
  | 76 => ⟨S_, .i32⟩
  | 77 => ⟨S524288x1, .i32⟩
  | 78 => ⟨S524288x1, .i1⟩
  | 79 => ⟨S1x1, .i32⟩
  | 80 => ⟨S524288x1, .i32⟩
  | 81 => ⟨S524288x1, .i1⟩
  | 82 => ⟨S524288x1, .i1⟩
  | 83 => ⟨S_, .i1⟩
  | 84 => ⟨S524288, .i1⟩
  | 85 => ⟨S524288x128, .f32⟩
  | 86 => ⟨S524288x128, .i1⟩
  | 87 => ⟨S_, .f32⟩
  | 88 => ⟨S524288x128, .f32⟩
  | 89 => ⟨S524288x128, .f32⟩
  | 90 => ⟨S524288x128, .f32⟩
  | 91 => ⟨S_, .f32⟩
  | 92 => ⟨S524288x128, .f32⟩
  | 93 => ⟨S524288x128, .f32⟩
  | 94 => ⟨S16x2048x128, .f32⟩
  | 95 => ⟨S16x32768x128, .f32⟩
  | 96 => ⟨S_, .f32⟩
  | 97 => ⟨S16, .f32⟩
  | 98 => ⟨S16x32768x128, .f32⟩
  | 99 => ⟨S_, .f32⟩
  | 100 => ⟨S16, .f32⟩
  | 101 => ⟨S_, .f32⟩
  | 102 => ⟨S16, .f32⟩
  | 103 => ⟨S16x2048x128, .f32⟩
  | 104 => ⟨S_, .f32⟩
  | 105 => ⟨S16, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S16, .f32⟩
  | 116 => ⟨S_, .f32⟩
  | 117 => ⟨S16, .f32⟩
  | 118 => ⟨S16, .f32⟩
  | 119 => ⟨S16, .f32⟩
  | 120 => ⟨S16x1x1, .f32⟩
  | 121 => ⟨S16x1x128, .f32⟩
  | 122 => ⟨S16x1x1, .f32⟩
  | 123 => ⟨S16x1x128, .f32⟩
  | 124 => ⟨S557056x128, .f32⟩
  | 125 => ⟨S16x1x128, .f32⟩
  | 126 => ⟨S557056x128, .f32⟩
  | 127 => ⟨S16x1x128, .f32⟩
  | _ => ⟨S32768x3, .f32⟩

abbrev hbmTy0_1 (i : Nat) : BufTy := match i % 128 with
  | 0 => ⟨S16x128, .f32⟩
  | 1 => ⟨S16x128, .f32⟩
  | 2 => ⟨S16x128, .f32⟩
  | 3 => ⟨S_, .f32⟩
  | 4 => ⟨S16x128, .f32⟩
  | 5 => ⟨S16x128, .f32⟩
  | 6 => ⟨S_, .f32⟩
  | 7 => ⟨S16, .f32⟩
  | 8 => ⟨S16x1, .f32⟩
  | 9 => ⟨S_, .f32⟩
  | 10 => ⟨S16x1, .f32⟩
  | 11 => ⟨S16x1, .f32⟩
  | 12 => ⟨S16x128, .f32⟩
  | 13 => ⟨S16x128, .f32⟩
  | 14 => ⟨S16x128, .f32⟩
  | 15 => ⟨S_, .f32⟩
  | 16 => ⟨S16, .f32⟩
  | 17 => ⟨S16x1, .f32⟩
  | 18 => ⟨S_, .f32⟩
  | 19 => ⟨S16x1, .f32⟩
  | 20 => ⟨S16x1, .f32⟩
  | 21 => ⟨S16x128, .f32⟩
  | 22 => ⟨S16x128, .f32⟩
  | 23 => ⟨S_, .f32⟩
  | 24 => ⟨S16x1, .f32⟩
  | 25 => ⟨S16x1, .f32⟩
  | 26 => ⟨S16x1, .f32⟩
  | 27 => ⟨S16x128, .f32⟩
  | 28 => ⟨S16x128, .f32⟩
  | 29 => ⟨S1x128, .f32⟩
  | 30 => ⟨S16x128, .f32⟩
  | 31 => ⟨S16x128, .f32⟩
  | 32 => ⟨S1x128, .f32⟩
  | 33 => ⟨S16x128, .f32⟩
  | 34 => ⟨S16x128, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | .local _ .vmem, ⟨0, _⟩ => ⟨S2048x3, .f32⟩
  | .local _ .vmem, ⟨1, _⟩ => ⟨S2048x3, .f32⟩
  | .local _ .vmem, ⟨2, _⟩ => ⟨S2048, .i32⟩
  | .local _ .vmem, ⟨3, _⟩ => ⟨S2048, .i32⟩
  | .local _ .vmem, ⟨4, _⟩ => ⟨S2048, .i32⟩
  | .local _ .vmem, ⟨5, _⟩ => ⟨S2048, .i32⟩
  | .local _ .vmem, ⟨6, _⟩ => ⟨S3x12, .f32⟩
  | .local _ .vmem, ⟨7, _⟩ => ⟨S12, .f32⟩
  | .local _ .vmem, ⟨8, _⟩ => ⟨S12x48, .f32⟩
  | .local _ .vmem, ⟨9, _⟩ => ⟨S48, .f32⟩
  | .local _ .vmem, ⟨10, _⟩ => ⟨S48x192, .f32⟩
  | .local _ .vmem, ⟨11, _⟩ => ⟨S192, .f32⟩
  | .local _ .vmem, ⟨12, _⟩ => ⟨S192x768, .f32⟩
  | .local _ .vmem, ⟨13, _⟩ => ⟨S768, .f32⟩
  | .local _ .vmem, ⟨14, _⟩ => ⟨S768x768, .f32⟩
  | .local _ .vmem, ⟨15, _⟩ => ⟨S768, .f32⟩
  | .local _ .vmem, ⟨16, _⟩ => ⟨S100x768, .bf16⟩
  | .local _ .vmem, ⟨17, _⟩ => ⟨S100x768, .bf16⟩
  | .local _ .vmem, ⟨18, _⟩ => ⟨S25x768, .bf16⟩
  | .local _ .vmem, ⟨19, _⟩ => ⟨S25x768, .bf16⟩
  | .local _ .vmem, ⟨20, _⟩ => ⟨S3, .f32⟩
  | .local _ .vmem, ⟨21, _⟩ => ⟨S3, .f32⟩
  | .local _ .vmem, ⟨22, _⟩ => ⟨S768, .f32⟩
  | .local _ .vmem, ⟨23, _⟩ => ⟨S768, .f32⟩
  | .local _ .vmem, ⟨24, _⟩ => ⟨S768x128, .f32⟩
  | .local _ .vmem, ⟨25, _⟩ => ⟨S128, .f32⟩
  | .local _ .vmem, ⟨26, _⟩ => ⟨S2048x768, .f32⟩
  | .local _ .vmem, ⟨27, _⟩ => ⟨S2048x768, .f32⟩
  | .local _ .vmem, ⟨28, _⟩ => ⟨S2048x128, .f32⟩
  | .local _ .vmem, ⟨29, _⟩ => ⟨S2048x128, .f32⟩
  | .local _ .vmem, ⟨30, _⟩ => ⟨S8192x128, .f32⟩
  | .local _ .vmem, ⟨31, _⟩ => ⟨S8192x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S8192x128, .f32⟩
  | .local _ .vmem, ⟨41, _⟩ => ⟨S8192x128, .f32⟩
  | .local _ .vmem, ⟨42, _⟩ => ⟨S1x1x128, .f32⟩
  | .local _ .vmem, ⟨43, _⟩ => ⟨S1x1x128, .f32⟩
  | .local _ .vmem, ⟨44, _⟩ => ⟨S1x2048x128, .f32⟩
  | .local _ .vmem, ⟨45, _⟩ => ⟨S1x2048x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1x128, .f32⟩
  | .local _ .vmem, ⟨50, _⟩ => ⟨S128, .f32⟩
  | .local _ .vmem, ⟨51, _⟩ => ⟨S128, .f32⟩
  | .local _ .vmem, ⟨52, _⟩ => ⟨S128x128, .f32⟩
  | .local _ .vmem, ⟨53, _⟩ => ⟨S128, .f32⟩
  | .local _ .vmem, ⟨54, _⟩ => ⟨S2048x128, .f32⟩
  | .local _ .vmem, ⟨55, _⟩ => ⟨S2048x128, .f32⟩
  | .local _ .vmem, ⟨56, _⟩ => ⟨S1x1x128, .f32⟩
  | .local _ .vmem, ⟨57, _⟩ => ⟨S1x1x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10_0 : Ref sig .tc := ⟨.hbm, 38, rfl⟩
abbrev main_v10_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v15 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v16 : Ref sig .tc := ⟨.hbm, 89, rfl⟩
abbrev main_v17 : Ref sig .tc := ⟨.hbm, 90, rfl⟩
abbrev main_cst : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_cst_0 : Ref sig .tc := ⟨.hbm, 96, rfl⟩
abbrev main_v22 : Ref sig .tc := ⟨.hbm, 97, rfl⟩
abbrev main_v23 : Ref sig .tc := ⟨.hbm, 98, rfl⟩
abbrev main_cst_1 : Ref sig .tc := ⟨.hbm, 99, rfl⟩
abbrev main_v24 : Ref sig .tc := ⟨.hbm, 100, rfl⟩
abbrev main_cst_2 : Ref sig .tc := ⟨.hbm, 101, rfl⟩
abbrev main_v25 : Ref sig .tc := ⟨.hbm, 102, rfl⟩
abbrev main_v26 : Ref sig .tc := ⟨.hbm, 103, rfl⟩
abbrev main_cst_3 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_cst_4 : Ref sig .tc := ⟨.hbm, 108, rfl⟩
abbrev main_v30 : Ref sig .tc := ⟨.hbm, 109, rfl⟩
abbrev main_v31 : Ref sig .tc := ⟨.hbm, 110, rfl⟩
abbrev main_cst_5 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_cst_6 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_v43_0 : Ref sig .tc := ⟨.hbm, 124, rfl⟩
abbrev main_v43_1 : Ref sig .tc := ⟨.hbm, 125, rfl⟩
abbrev main_v44_0 : Ref sig .tc := ⟨.hbm, 126, rfl⟩
abbrev main_v44_1 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_cst_7 : Ref sig .tc := ⟨.hbm, 131, rfl⟩
abbrev main_v48 : Ref sig .tc := ⟨.hbm, 132, rfl⟩
abbrev main_v49 : Ref sig .tc := ⟨.hbm, 133, rfl⟩
abbrev main_cst_8 : Ref sig .tc := ⟨.hbm, 134, rfl⟩
abbrev main_v50 : Ref sig .tc := ⟨.hbm, 135, rfl⟩
abbrev main_v51 : Ref sig .tc := ⟨.hbm, 136, rfl⟩
abbrev main_cst_9 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_cst_10 : Ref sig .tc := ⟨.hbm, 143, rfl⟩
abbrev main_v57 : Ref sig .tc := ⟨.hbm, 144, rfl⟩
abbrev main_v58 : Ref sig .tc := ⟨.hbm, 145, rfl⟩
abbrev main_cst_11 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_cst_12 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg4_0 : Ref sig .tc := ⟨.vmem, 37, rfl⟩
abbrev cc1_stg5_0 : Ref sig .tc := ⟨.vmem, 38, rfl⟩
abbrev cc1_stg6_0 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg4_0 : Ref sig .tc := ⟨.vmem, 51, rfl⟩
abbrev cc2_stg5_0 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg7_1 : Ref sig .tc := ⟨.vmem, 55, rfl⟩
abbrev cc2_stg8_0 : Ref sig .tc := ⟨.vmem, 56, rfl⟩
abbrev cc2_stg8_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27
abbrev cc0_sem24_0 : DmaSem sig := 28
abbrev cc0_sem24_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem4_0 : DmaSem sig := 37
abbrev cc1_sem5_0 : DmaSem sig := 38
abbrev cc1_sem6_0 : DmaSem sig := 39
abbrev cc1_sem7_0 : DmaSem sig := 40
abbrev cc1_sem7_1 : DmaSem sig := 41
abbrev cc1_sem8_0 : DmaSem sig := 42
abbrev cc1_sem8_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem4_0 : DmaSem sig := 51
abbrev cc2_sem5_0 : DmaSem sig := 52
abbrev cc2_sem6_0 : DmaSem sig := 53
abbrev cc2_sem7_0 : DmaSem sig := 54
abbrev cc2_sem7_1 : DmaSem sig := 55
abbrev cc2_sem8_0 : DmaSem sig := 56
abbrev cc2_sem8_1 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S100x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S100x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S25x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S25x768 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S768x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2048x768 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![16], ![false]⟩

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S16x2048_S32768 : S16x2048.ShapeCasts S32768
  bitsLt_bf16_f32 : FTy.bits .bf16 < FTy.bits .f32
  inb_S2048x3_S2048x3_0_0 : ∀ a, (![0, 0] : Fin 2 → Nat) a + S2048x3.size a ≤ S2048x3.size a
  h_S2048x3 : 0 < S2048x3.numel
  reduces_S2048x3_S2048 : S2048x3.Reduces [1] S2048
  shapeCasts_S2048_S2048x1 : S2048.ShapeCasts S2048x1
  reduces_S2048x1_S1 : S2048x1.Reduces [0] S1
  shapeCasts_S1_S1x1 : S1.ShapeCasts S1x1
  broadcasts_S1x1_S2048x3 : S1x1.Broadcasts S2048x3
  inb_S3_S3_0 : ∀ a, (![0] : Fin 1 → Nat) a + S3.size a ≤ S3.size a
  h_S3 : 0 < S3.numel
  shapeCasts_S3_S1x3 : S3.ShapeCasts S1x3
  broadcasts_S1x3_S2048x3 : S1x3.Broadcasts S2048x3
  inb_S3x12_S3x12_0_0 : ∀ a, (![0, 0] : Fin 2 → Nat) a + S3x12.size a ≤ S3x12.size a
  h_S3x12 : 0 < S3x12.numel
  inb_S12_S12_0 : ∀ a, (![0] : Fin 1 → Nat) a + S12.size a ≤ S12.size a
  h_S12 : 0 < S12.numel
  shapeCasts_S12_S1x12 : S12.ShapeCasts S1x12
  broadcasts_S1x12_S2048x12 : S1x12.Broadcasts S2048x12
  inb_S12x48_S12x48_0_0 : ∀ a, (![0, 0] : Fin 2 → Nat) a + S12x48.size a ≤ S12x48.size a
  h_S12x48 : 0 < S12x48.numel
  inb_S48_S48_0 : ∀ a, (![0] : Fin 1 → Nat) a + S48.size a ≤ S48.size a
  h_S48 : 0 < S48.numel
  shapeCasts_S48_S1x48 : S48.ShapeCasts S1x48
  broadcasts_S1x48_S2048x48 : S1x48.Broadcasts S2048x48
  inb_S48x192_S48x192_0_0 : ∀ a, (![0, 0] : Fin 2 → Nat) a + S48x192.size a ≤ S48x192.size a
  h_S48x192 : 0 < S48x192.numel
  inb_S192_S192_0 : ∀ a, (![0] : Fin 1 → Nat) a + S192.size a ≤ S192.size a
  h_S192 : 0 < S192.numel
  shapeCasts_S192_S1x192 : S192.ShapeCasts S1x192
  broadcasts_S1x192_S2048x192 : S1x192.Broadcasts S2048x192
  inb_S192x768_S192x768_0_0 : ∀ a, (![0, 0] : Fin 2 → Nat) a + S192x768.size a ≤ S192x768.size a
  h_S192x768 : 0 < S192x768.numel
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  inb_S768x768_S768x768_0_0 : ∀ a, (![0, 0] : Fin 2 → Nat) a + S768x768.size a ≤ S768x768.size a
  h_S768x768 : 0 < S768x768.numel
  inb_S2048_S2048_0 : ∀ a, (![0] : Fin 1 → Nat) a + S2048.size a ≤ S2048.size a
  h_S2048 : 0 < S2048.numel
  shapeCasts_S2048_S2048 : S2048.ShapeCasts S2048
  iota_S2048x100_d1_w32 : S2048x100.Iotas .tc 32 [1]
  broadcasts_S2048x1_S2048x100 : S2048x1.Broadcasts S2048x100
  natLt_1_32 : 1 < 32
  inb_S100x768_S100x768_0_0 : ∀ a, (![0, 0] : Fin 2 → Nat) a + S100x768.size a ≤ S100x768.size a
  h_S100x768 : 0 < S100x768.numel
  shapeCasts_S100x768_S100x768 : S100x768.ShapeCasts S100x768
  iota_S2048x25_d1_w32 : S2048x25.Iotas .tc 32 [1]
  broadcasts_S2048x1_S2048x25 : S2048x1.Broadcasts S2048x25
  inb_S25x768_S25x768_0_0 : ∀ a, (![0, 0] : Fin 2 → Nat) a + S25x768.size a ≤ S25x768.size a
  h_S25x768 : 0 < S25x768.numel
  shapeCasts_S25x768_S25x768 : S25x768.ShapeCasts S25x768
  reduces_S2048x768_S2048 : S2048x768.Reduces [1] S2048
  broadcasts_S1x1_S2048x768 : S1x1.Broadcasts S2048x768
  inb_S2048x768_S2048x768_0_0 : ∀ a, (![0, 0] : Fin 2 → Nat) a + S2048x768.size a ≤ S2048x768.size a
  h_S2048x768 : 0 < S2048x768.numel
  inb_S768x128_S768x128_0_0 : ∀ a, (![0, 0] : Fin 2 → Nat) a + S768x128.size a ≤ S768x128.size a
  h_S768x128 : 0 < S768x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  shapeCasts_S32768x128_S16x2048x128 : S32768x128.ShapeCasts S16x2048x128
  shapeCasts_S524288x128_S16x32768x128 : S524288x128.ShapeCasts S16x32768x128
  reducesTo_S16x32768x128_S16_d1_2 : S16x32768x128.ReducesTo [1, 2] S16
  reducesTo_S16x2048x128_S16_d1_2 : S16x2048x128.ReducesTo [1, 2] S16
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x1x128_0_1_2 : S16x1x1.BroadcastsInDim S16x1x128 (![0, 1, 2] : Fin 3 → Fin S16x1x128.rank)
  inb_S1x1x128_S1x1x128_0_0_0 : ∀ a, (![0, 0, 0] : Fin 3 → Nat) a + S1x1x128.size a ≤ S1x1x128.size a
  h_S1x1x128 : 0 < S1x1x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S1x1x128_S1x1x128 : S1x1x128.ShapeCasts S1x1x128
  shapeCasts_S1x1x128_S1x128 : S1x1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  reduces_S8192x128_S128 : S8192x128.Reduces [0] S128
  shapeCasts_S1x128_S1x1x128 : S1x128.ShapeCasts S1x1x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S128 : S2048x128.Reduces [0] S128
  shapeCasts_S16x1x128_S16x128 : S16x1x128.ShapeCasts S16x128
  bcast_S_S16x128 : S_.BroadcastsInDim S16x128 (![] : Fin 0 → Fin S16x128.rank)
  reducesTo_S16x128_S16_d1 : S16x128.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  dot_S2048x3_S3x12_S2048x12_1_0_0_1_n_n_wf : DotDims.WF S2048x3 S3x12 S2048x12 [1] [0] [0] [1] [] []
  dot_S2048x12_S12x48_S2048x48_1_0_0_1_n_n_wf : DotDims.WF S2048x12 S12x48 S2048x48 [1] [0] [0] [1] [] []
  dot_S2048x48_S48x192_S2048x192_1_0_0_1_n_n_wf : DotDims.WF S2048x48 S48x192 S2048x192 [1] [0] [0] [1] [] []
  dot_S2048x192_S192x768_S2048x768_1_0_0_1_n_n_wf : DotDims.WF S2048x192 S192x768 S2048x768 [1] [0] [0] [1] [] []
  dot_S2048x768_S768x768_S2048x768_1_0_0_1_n_n_wf : DotDims.WF S2048x768 S768x768 S2048x768 [1] [0] [0] [1] [] []
  dot_S2048x100_S100x768_S2048x768_1_0_0_1_n_n_wf : DotDims.WF S2048x100 S100x768 S2048x768 [1] [0] [0] [1] [] []
  dot_S2048x25_S25x768_S2048x768_1_0_0_1_n_n_wf : DotDims.WF S2048x25 S25x768 S2048x768 [1] [0] [0] [1] [] []
  dot_S2048x768_S768x128_S2048x128_1_0_0_1_n_n_wf : DotDims.WF S2048x768 S768x128 S2048x128 [1] [0] [0] [1] [] []
  gather_S32768x128_S524288x1_S524288x128_1_0_n_n_0_1_1128_wf : GatherDims.WF S32768x128 S524288x1 S524288x128 [1] [0] [] [0] [] 1 ![1, 128]
  dot_S8192x128_S128x128_S8192x128_1_0_0_1_n_n_wf : DotDims.WF S8192x128 S128x128 S8192x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S32768x3.size a
  hwx0_0 : ∀ i : grid0.Coords, EltTy.bits .f32 = 32 ∨ (Rect.block (s := S32768x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S32768.size a
  hwx0_1 : ∀ i : grid0.Coords, EltTy.bits .i32 = 32 ∨ (Rect.block (s := S32768) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S32768.size a
  hwx0_2 : ∀ i : grid0.Coords, EltTy.bits .i32 = 32 ∨ (Rect.block (s := S32768) S2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x12.size a ≤ S3x12.size a
  hwx0_3 : ∀ i : grid0.Coords, EltTy.bits .f32 = 32 ∨ (Rect.block (s := S3x12) S3x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x48.size a ≤ S12x48.size a
  hwx0_5 : ∀ i : grid0.Coords, EltTy.bits .f32 = 32 ∨ (Rect.block (s := S12x48) S12x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48.size a ≤ S48.size a
  hwx0_6 : ∀ i : grid0.Coords, EltTy.bits .f32 = 32 ∨ (Rect.block (s := S48) S48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x192.size a ≤ S48x192.size a
  hwx0_7 : ∀ i : grid0.Coords, EltTy.bits .f32 = 32 ∨ (Rect.block (s := S48x192) S48x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192.size a ≤ S192.size a
  hwx0_8 : ∀ i : grid0.Coords, EltTy.bits .f32 = 32 ∨ (Rect.block (s := S192) S192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x768.size a ≤ S192x768.size a
  hwx0_9 : ∀ i : grid0.Coords, EltTy.bits .f32 = 32 ∨ (Rect.block (s := S192x768) S192x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768.size a ≤ S768.size a
  hwx0_10 : ∀ i : grid0.Coords, EltTy.bits .f32 = 32 ∨ (Rect.block (s := S768) S768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768x768.size a ≤ S768x768.size a
  hwx0_11 : ∀ i : grid0.Coords, EltTy.bits .f32 = 32 ∨ (Rect.block (s := S768x768) S768x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768.size a ≤ S768.size a
  hwx0_12 : ∀ i : grid0.Coords, EltTy.bits .f32 = 32 ∨ (Rect.block (s := S768) S768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S100x768.size a ≤ S100x768.size a
  hwx0_13 : ∀ i : grid0.Coords, EltTy.bits .bf16 = 32 ∨ (Rect.block (s := S100x768) S100x768.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S100x768.size a ≤ S100x768.size a
  hwx0_14 : ∀ i : grid0.Coords, EltTy.bits .bf16 = 32 ∨ (Rect.block (s := S100x768) S100x768.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S25x768.size a ≤ S25x768.size a
  hwx0_15 : ∀ i : grid0.Coords, EltTy.bits .bf16 = 32 ∨ (Rect.block (s := S25x768) S25x768.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S25x768.size a ≤ S25x768.size a
  hwx0_16 : ∀ i : grid0.Coords, EltTy.bits .bf16 = 32 ∨ (Rect.block (s := S25x768) S25x768.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3.size a ≤ S3.size a
  hwx0_17 : ∀ i : grid0.Coords, EltTy.bits .f32 = 32 ∨ (Rect.block (s := S3) S3.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S3.size a ≤ S3.size a
  hwx0_18 : ∀ i : grid0.Coords, EltTy.bits .f32 = 32 ∨ (Rect.block (s := S3) S3.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S768.size a ≤ S768.size a
  hwx0_19 : ∀ i : grid0.Coords, EltTy.bits .f32 = 32 ∨ (Rect.block (s := S768) S768.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S768.size a ≤ S768.size a
  hwx0_20 : ∀ i : grid0.Coords, EltTy.bits .f32 = 32 ∨ (Rect.block (s := S768) S768.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S768x128.size a ≤ S768x128.size a
  hwx0_21 : ∀ i : grid0.Coords, EltTy.bits .f32 = 32 ∨ (Rect.block (s := S768x128) S768x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x768.size a ≤ S32768x768.size a
  hwx0_23 : ∀ i : grid0.Coords, EltTy.bits .f32 = 32 ∨ (Rect.block (s := S32768x768) S2048x768.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x128.size a ≤ S32768x128.size a
  hwx0_24 : ∀ i : grid0.Coords, EltTy.bits .f32 = 32 ∨ (Rect.block (s := S32768x128) S2048x128.size (cc0_transform_24 i) (hinb0_24 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S16x1x128.size a
  hwx1_1 : ∀ i : grid1.Coords, EltTy.bits .f32 = 32 ∨ (Rect.block (s := S16x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S16x1x128.size a
  hwx1_2 : ∀ i : grid1.Coords, EltTy.bits .f32 = 32 ∨ (Rect.block (s := S16x1x128) S1x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x128.size a ≤ S557056x128.size a
  hwx1_7 : ∀ i : grid1.Coords, EltTy.bits .f32 = 32 ∨ (Rect.block (s := S557056x128) S8192x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S16x1x128.size a
  hwx1_8 : ∀ i : grid1.Coords, EltTy.bits .f32 = 32 ∨ (Rect.block (s := S16x1x128) S1x1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1x2048x128.size a ≤ S16x2048x128.size a
  hwx2_0 : ∀ i : grid2.Coords, EltTy.bits .f32 = 32 ∨ (Rect.block (s := S16x2048x128) S1x2048x128.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S1x1x128.size a ≤ S16x1x128.size a
  hwx2_1 : ∀ i : grid2.Coords, EltTy.bits .f32 = 32 ∨ (Rect.block (s := S16x1x128) S1x1x128.size (cc2_transform_2 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_3 i = cc2_transform_3 i'
  hinb2_2 : ∀ (i : grid2.Coords) a, (cc2_transform_3 i a + 1) * S1x1x128.size a ≤ S16x1x128.size a
  hwx2_2 : ∀ i : grid2.Coords, EltTy.bits .f32 = 32 ∨ (Rect.block (s := S16x1x128) S1x1x128.size (cc2_transform_3 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_4 i = cc2_transform_4 i'
  hinb2_3 : ∀ (i : grid2.Coords) a, (cc2_transform_4 i a + 1) * S128.size a ≤ S128.size a
  hwx2_3 : ∀ i : grid2.Coords, EltTy.bits .f32 = 32 ∨ (Rect.block (s := S128) S128.size (cc2_transform_4 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_5 i = cc2_transform_5 i'
  hinb2_4 : ∀ (i : grid2.Coords) a, (cc2_transform_5 i a + 1) * S128.size a ≤ S128.size a
  hwx2_4 : ∀ i : grid2.Coords, EltTy.bits .f32 = 32 ∨ (Rect.block (s := S128) S128.size (cc2_transform_5 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_6 i = cc2_transform_6 i'
  hinb2_5 : ∀ (i : grid2.Coords) a, (cc2_transform_6 i a + 1) * S128x128.size a ≤ S128x128.size a
  hwx2_5 : ∀ i : grid2.Coords, EltTy.bits .f32 = 32 ∨ (Rect.block (s := S128x128) S128x128.size (cc2_transform_6 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_7 i = cc2_transform_7 i'
  hinb2_6 : ∀ (i : grid2.Coords) a, (cc2_transform_7 i a + 1) * S128.size a ≤ S128.size a
  hwx2_6 : ∀ i : grid2.Coords, EltTy.bits .f32 = 32 ∨ (Rect.block (s := S128) S128.size (cc2_transform_7 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_8 i = cc2_transform_8 i'
  hinb2_7 : ∀ (i : grid2.Coords) a, (cc2_transform_8 i a + 1) * S2048x128.size a ≤ S557056x128.size a
  hwx2_7 : ∀ i : grid2.Coords, EltTy.bits .f32 = 32 ∨ (Rect.block (s := S557056x128) S2048x128.size (cc2_transform_8 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_9 i = cc2_transform_9 i'
  hinb2_8 : ∀ (i : grid2.Coords) a, (cc2_transform_9 i a + 1) * S1x1x128.size a ≤ S16x1x128.size a
  hwx2_8 : ∀ i : grid2.Coords, EltTy.bits .f32 = 32 ∨ (Rect.block (s := S16x1x128) S1x1x128.size (cc2_transform_9 i) (hinb2_8 i)).WholeWords (EltTy.packing .f32)

variable [Facts₀]

def dot_S2048x3_S3x12_S2048x12_1_0_0_1_n_n : DotDims S2048x3 S3x12 S2048x12 where
  lhsContracting := [1]
  rhsContracting := [0]
  lhsNonContracting := [0]
  rhsNonContracting := [1]
  lhsBatch := []
  rhsBatch := []
  wf := dot_S2048x3_S3x12_S2048x12_1_0_0_1_n_n_wf
def dot_S2048x12_S12x48_S2048x48_1_0_0_1_n_n : DotDims S2048x12 S12x48 S2048x48 where
  lhsContracting := [1]
  rhsContracting := [0]
  lhsNonContracting := [0]
  rhsNonContracting := [1]
  lhsBatch := []
  rhsBatch := []
  wf := dot_S2048x12_S12x48_S2048x48_1_0_0_1_n_n_wf
def dot_S2048x48_S48x192_S2048x192_1_0_0_1_n_n : DotDims S2048x48 S48x192 S2048x192 where
  lhsContracting := [1]
  rhsContracting := [0]
  lhsNonContracting := [0]
  rhsNonContracting := [1]
  lhsBatch := []
  rhsBatch := []
  wf := dot_S2048x48_S48x192_S2048x192_1_0_0_1_n_n_wf
def dot_S2048x192_S192x768_S2048x768_1_0_0_1_n_n : DotDims S2048x192 S192x768 S2048x768 where
  lhsContracting := [1]
  rhsContracting := [0]
  lhsNonContracting := [0]
  rhsNonContracting := [1]
  lhsBatch := []
  rhsBatch := []
  wf := dot_S2048x192_S192x768_S2048x768_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x100_S100x768_S2048x768_1_0_0_1_n_n : DotDims S2048x100 S100x768 S2048x768 where
  lhsContracting := [1]
  rhsContracting := [0]
  lhsNonContracting := [0]
  rhsNonContracting := [1]
  lhsBatch := []
  rhsBatch := []
  wf := dot_S2048x100_S100x768_S2048x768_1_0_0_1_n_n_wf
def dot_S2048x25_S25x768_S2048x768_1_0_0_1_n_n : DotDims S2048x25 S25x768 S2048x768 where
  lhsContracting := [1]
  rhsContracting := [0]
  lhsNonContracting := [0]
  rhsNonContracting := [1]
  lhsBatch := []
  rhsBatch := []
  wf := dot_S2048x25_S25x768_S2048x768_1_0_0_1_n_n_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S12x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S48x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S192x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S768x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S100x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S100x768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S25x768.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S25x768.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S3.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S3.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S768.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S768.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg20) S768x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg21) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v10_0) S2048x768.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v10_1) S2048x128.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

abbrev win1_0 : Pipeline.Window sig grid1 :=
  Pipeline.Window.ofSpec (Memref.whole main_v19) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg22) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg23) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg24) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg25) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43_0) S8192x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v43_1) S1x1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v20) S1x2048x128.size cc2_transform_1 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x1x128.size cc2_transform_2 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x1x128.size cc2_transform_3 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg22) S128.size cc2_transform_4 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg23) S128.size cc2_transform_5 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg24) S128x128.size cc2_transform_6 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg25) S128.size cc2_transform_7 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44_0) S2048x128.size cc2_transform_8 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v44_1) S1x1x128.size cc2_transform_9 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S32768x3 : Shape := ⟨2, ![32768, 3]⟩
abbrev S16x2048 : Shape := ⟨2, ![16, 2048]⟩
abbrev S2x524288 : Shape := ⟨2, ![2, 524288]⟩
abbrev S3x12 : Shape := ⟨2, ![3, 12]⟩
abbrev S12 : Shape := ⟨1, ![12]⟩
abbrev S12x48 : Shape := ⟨2, ![12, 48]⟩
abbrev S48 : Shape := ⟨1, ![48]⟩
abbrev S48x192 : Shape := ⟨2, ![48, 192]⟩
abbrev S192 : Shape := ⟨1, ![192]⟩
abbrev S192x768 : Shape := ⟨2, ![192, 768]⟩
abbrev S768 : Shape := ⟨1, ![768]⟩
abbrev S768x768 : Shape := ⟨2, ![768, 768]⟩
abbrev S100x768 : Shape := ⟨2, ![100, 768]⟩
abbrev S25x768 : Shape := ⟨2, ![25, 768]⟩
abbrev S3 : Shape := ⟨1, ![3]⟩
abbrev S768x128 : Shape := ⟨2, ![768, 128]⟩
abbrev S128 : Shape := ⟨1, ![128]⟩
abbrev S128x128 : Shape := ⟨2, ![128, 128]⟩
abbrev S16 : Shape := ⟨1, ![16]⟩
abbrev S32768 : Shape := ⟨1, ![32768]⟩
abbrev S16x32768 : Shape := ⟨2, ![16, 32768]⟩
abbrev S524288 : Shape := ⟨1, ![524288]⟩
abbrev S557056 : Shape := ⟨1, ![557056]⟩
abbrev S1x524288 : Shape := ⟨2, ![1, 524288]⟩
abbrev S_ : Shape := ⟨0, ![]⟩
abbrev S32768x1 : Shape := ⟨2, ![32768, 1]⟩
abbrev S1x3 : Shape := ⟨2, ![1, 3]⟩
abbrev S32768x12 : Shape := ⟨2, ![32768, 12]⟩
abbrev S1x12 : Shape := ⟨2, ![1, 12]⟩
abbrev S32768x48 : Shape := ⟨2, ![32768, 48]⟩
abbrev S1x48 : Shape := ⟨2, ![1, 48]⟩
abbrev S32768x192 : Shape := ⟨2, ![32768, 192]⟩
abbrev S1x192 : Shape := ⟨2, ![1, 192]⟩
abbrev S32768x768 : Shape := ⟨2, ![32768, 768]⟩
abbrev S1x768 : Shape := ⟨2, ![1, 768]⟩
abbrev S16x2048x1 : Shape := ⟨3, ![16, 2048, 1]⟩
abbrev S16x2048x768 : Shape := ⟨3, ![16, 2048, 768]⟩
abbrev S32768x128 : Shape := ⟨2, ![32768, 128]⟩
abbrev S1x128 : Shape := ⟨2, ![1, 128]⟩
abbrev S557056x1 : Shape := ⟨2, ![557056, 1]⟩
abbrev S557056x128 : Shape := ⟨2, ![557056, 128]⟩
abbrev S16x128 : Shape := ⟨2, ![16, 128]⟩
abbrev S16x1 : Shape := ⟨2, ![16, 1]⟩

abbrev nBuf : Space → Nat
  | .hbm => 382
  | .vmem => 0
  | .smem => 0
  | _ => 0

abbrev hbmTy0_0 (i : Nat) : BufTy := match i % 128 with
  | 0 => ⟨S32768x3, .f32⟩
  | 1 => ⟨S16x2048, .i32⟩
  | 2 => ⟨S16x2048, .i32⟩
  | 3 => ⟨S2x524288, .i32⟩
  | 4 => ⟨S3x12, .f32⟩
  | 5 => ⟨S12, .f32⟩
  | 6 => ⟨S12x48, .f32⟩
  | 7 => ⟨S48, .f32⟩
  | 8 => ⟨S48x192, .f32⟩
  | 9 => ⟨S192, .f32⟩
  | 10 => ⟨S192x768, .f32⟩
  | 11 => ⟨S768, .f32⟩
  | 12 => ⟨S768x768, .f32⟩
  | 13 => ⟨S768, .f32⟩
  | 14 => ⟨S100x768, .f32⟩
  | 15 => ⟨S25x768, .f32⟩
  | 16 => ⟨S3, .f32⟩
  | 17 => ⟨S3, .f32⟩
  | 18 => ⟨S768, .f32⟩
  | 19 => ⟨S768, .f32⟩
  | 20 => ⟨S768x128, .f32⟩
  | 21 => ⟨S128, .f32⟩
  | 22 => ⟨S128, .f32⟩
  | 23 => ⟨S128, .f32⟩
  | 24 => ⟨S128x128, .f32⟩
  | 25 => ⟨S128, .f32⟩
  | 26 => ⟨S128, .f32⟩
  | 27 => ⟨S128, .f32⟩
  | 28 => ⟨S16, .i32⟩
  | 29 => ⟨S16x2048, .i32⟩
  | 30 => ⟨S32768, .i32⟩
  | 31 => ⟨S16, .i32⟩
  | 32 => ⟨S16x32768, .i32⟩
  | 33 => ⟨S524288, .i32⟩
  | 34 => ⟨S557056, .i32⟩
  | 35 => ⟨S1x524288, .i32⟩
  | 36 => ⟨S524288, .i32⟩
  | 37 => ⟨S32768, .i32⟩
  | 38 => ⟨S557056, .i32⟩
  | 39 => ⟨S1x524288, .i32⟩
  | 40 => ⟨S524288, .i32⟩
  | 41 => ⟨S32768, .i32⟩
  | 42 => ⟨S557056, .i32⟩
  | 43 => ⟨S_, .f32⟩
  | 44 => ⟨S32768, .f32⟩
  | 45 => ⟨S_, .f32⟩
  | 46 => ⟨S16, .f32⟩
  | 47 => ⟨S32768x1, .i32⟩
  | 48 => ⟨S16, .f32⟩
  | 49 => ⟨S_, .f32⟩
  | 50 => ⟨S16, .f32⟩
  | 51 => ⟨S16, .f32⟩
  | 52 => ⟨S_, .f32⟩
  | 53 => ⟨S32768, .f32⟩
  | 54 => ⟨S_, .f32⟩
  | 55 => ⟨S16, .f32⟩
  | 56 => ⟨S32768x1, .i32⟩
  | 57 => ⟨S16, .f32⟩
  | 58 => ⟨S16, .f32⟩
  | 59 => ⟨S_, .i32⟩
  | 60 => ⟨S32768, .i32⟩
  | 61 => ⟨S32768, .i1⟩
  | 62 => ⟨S_, .i32⟩
  | 63 => ⟨S32768, .i32⟩
  | 64 => ⟨S32768, .i32⟩
  | 65 => ⟨S32768, .i32⟩
  | 66 => ⟨S32768x1, .i32⟩
  | 67 => ⟨S32768, .f32⟩
  | 68 => ⟨S32768x1, .f32⟩
  | 69 => ⟨S32768x3, .f32⟩
  | 70 => ⟨S32768x3, .f32⟩
  | 71 => ⟨S32768x3, .f32⟩
  | 72 => ⟨S_, .f32⟩
  | 73 => ⟨S32768, .f32⟩
  | 74 => ⟨S_, .f32⟩
  | 75 => ⟨S16, .f32⟩
  | 76 => ⟨S32768x1, .i32⟩
  | 77 => ⟨S16, .f32⟩
  | 78 => ⟨S16, .f32⟩
  | 79 => ⟨S_, .f32⟩
  | 80 => ⟨S16, .f32⟩
  | 81 => ⟨S16, .f32⟩
  | 82 => ⟨S16, .f32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S32768x1, .i32⟩
  | 91 => ⟨S32768, .f32⟩
  | 92 => ⟨S32768x1, .f32⟩
  | 93 => ⟨S32768x3, .f32⟩
  | 94 => ⟨S32768x3, .f32⟩
  | 95 => ⟨S1x3, .f32⟩
  | 96 => ⟨S32768x3, .f32⟩
  | 97 => ⟨S32768x3, .f32⟩
  | 98 => ⟨S1x3, .f32⟩
  | 99 => ⟨S32768x3, .f32⟩
  | 100 => ⟨S32768x3, .f32⟩
  | 101 => ⟨S32768x12, .f32⟩
  | 102 => ⟨S1x12, .f32⟩
  | 103 => ⟨S32768x12, .f32⟩
  | 104 => ⟨S32768x12, .f32⟩
  | 105 => ⟨S_, .f32⟩
  | 106 => ⟨S32768x12, .f32⟩
  | 107 => ⟨S32768x12, .f32⟩
  | 108 => ⟨S32768x48, .f32⟩
  | 109 => ⟨S1x48, .f32⟩
  | 110 => ⟨S32768x48, .f32⟩
  | 111 => ⟨S32768x48, .f32⟩
  | 112 => ⟨S_, .f32⟩
  | 113 => ⟨S32768x48, .f32⟩
  | 114 => ⟨S32768x48, .f32⟩
  | 115 => ⟨S32768x192, .f32⟩
  | 116 => ⟨S1x192, .f32⟩
  | 117 => ⟨S32768x192, .f32⟩
  | 118 => ⟨S32768x192, .f32⟩
  | 119 => ⟨S_, .f32⟩
  | 120 => ⟨S32768x192, .f32⟩
  | 121 => ⟨S32768x192, .f32⟩
  | 122 => ⟨S32768x768, .f32⟩
  | 123 => ⟨S1x768, .f32⟩
  | 124 => ⟨S32768x768, .f32⟩
  | 125 => ⟨S32768x768, .f32⟩
  | 126 => ⟨S_, .f32⟩
  | 127 => ⟨S32768x768, .f32⟩
  | _ => ⟨S32768x3, .f32⟩

abbrev hbmTy0_1 (i : Nat) : BufTy := match i % 128 with
  | 0 => ⟨S32768x768, .f32⟩
  | 1 => ⟨S32768x768, .f32⟩
  | 2 => ⟨S1x768, .f32⟩
  | 3 => ⟨S32768x768, .f32⟩
  | 4 => ⟨S32768x768, .f32⟩
  | 5 => ⟨S_, .f32⟩
  | 6 => ⟨S32768x768, .f32⟩
  | 7 => ⟨S32768x768, .f32⟩
  | 8 => ⟨S_, .i32⟩
  | 9 => ⟨S16x2048, .i32⟩
  | 10 => ⟨S16x2048, .i1⟩
  | 11 => ⟨S_, .i32⟩
  | 12 => ⟨S16x2048, .i32⟩
  | 13 => ⟨S16x2048, .i32⟩
  | 14 => ⟨S16x2048, .i32⟩
  | 15 => ⟨S16x2048x1, .i32⟩
  | 16 => ⟨S16x2048x768, .f32⟩
  | 17 => ⟨S32768x768, .f32⟩
  | 18 => ⟨S_, .i32⟩
  | 19 => ⟨S16x2048, .i32⟩
  | 20 => ⟨S16x2048, .i1⟩
  | 21 => ⟨S_, .i32⟩
  | 22 => ⟨S16x2048, .i32⟩
  | 23 => ⟨S16x2048, .i32⟩
  | 24 => ⟨S16x2048, .i32⟩
  | 25 => ⟨S16x2048x1, .i32⟩
  | 26 => ⟨S16x2048x768, .f32⟩
  | 27 => ⟨S32768x768, .f32⟩
  | 28 => ⟨S32768x768, .f32⟩
  | 29 => ⟨S32768x768, .f32⟩
  | 30 => ⟨S_, .f32⟩
  | 31 => ⟨S32768, .f32⟩
  | 32 => ⟨S_, .f32⟩
  | 33 => ⟨S16, .f32⟩
  | 34 => ⟨S32768x1, .i32⟩
  | 35 => ⟨S16, .f32⟩
  | 36 => ⟨S_, .f32⟩
  | 37 => ⟨S16, .f32⟩
  | 38 => ⟨S16, .f32⟩
  | 39 => ⟨S_, .f32⟩
  | 40 => ⟨S32768, .f32⟩
  | 41 => ⟨S_, .f32⟩
  | 42 => ⟨S16, .f32⟩
  | 43 => ⟨S32768x1, .i32⟩
  | 44 => ⟨S16, .f32⟩
  | 45 => ⟨S16, .f32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S32768x1, .i32⟩
  | 54 => ⟨S32768, .f32⟩
  | 55 => ⟨S32768x1, .f32⟩
  | 56 => ⟨S32768x768, .f32⟩
  | 57 => ⟨S32768x768, .f32⟩
  | 58 => ⟨S32768x768, .f32⟩
  | 59 => ⟨S_, .f32⟩
  | 60 => ⟨S32768, .f32⟩
  | 61 => ⟨S_, .f32⟩
  | 62 => ⟨S16, .f32⟩
  | 63 => ⟨S32768x1, .i32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S32768x1, .i32⟩
  | 78 => ⟨S32768, .f32⟩
  | 79 => ⟨S32768x1, .f32⟩
  | 80 => ⟨S32768x768, .f32⟩
  | 81 => ⟨S32768x768, .f32⟩
  | 82 => ⟨S1x768, .f32⟩
  | 83 => ⟨S32768x768, .f32⟩
  | 84 => ⟨S32768x768, .f32⟩
  | 85 => ⟨S1x768, .f32⟩
  | 86 => ⟨S32768x768, .f32⟩
  | 87 => ⟨S32768x768, .f32⟩
  | 88 => ⟨S32768x128, .f32⟩
  | 89 => ⟨S1x128, .f32⟩
  | 90 => ⟨S32768x128, .f32⟩
  | 91 => ⟨S32768x128, .f32⟩
  | 92 => ⟨S_, .f32⟩
  | 93 => ⟨S32768x128, .f32⟩
  | 94 => ⟨S32768x128, .f32⟩
  | 95 => ⟨S_, .i32⟩
  | 96 => ⟨S557056, .i32⟩
  | 97 => ⟨S557056, .i1⟩
  | 98 => ⟨S_, .i32⟩
  | 99 => ⟨S557056, .i32⟩
  | 100 => ⟨S557056, .i32⟩
  | 101 => ⟨S557056, .i32⟩
  | 102 => ⟨S557056x1, .i32⟩
  | 103 => ⟨S557056x128, .f32⟩
  | 104 => ⟨S_, .i32⟩
  | 105 => ⟨S557056, .i32⟩
  | 106 => ⟨S557056, .i1⟩
  | 107 => ⟨S_, .i32⟩
  | 108 => ⟨S557056, .i32⟩
  | 109 => ⟨S557056, .i32⟩
  | 110 => ⟨S557056, .i32⟩
  | 111 => ⟨S557056x1, .i32⟩
  | 112 => ⟨S557056x128, .f32⟩
  | 113 => ⟨S557056x128, .f32⟩
  | 114 => ⟨S_, .f32⟩
  | 115 => ⟨S557056x128, .f32⟩
  | 116 => ⟨S557056x128, .f32⟩
  | 117 => ⟨S_, .f32⟩
  | 118 => ⟨S557056, .f32⟩
  | 119 => ⟨S_, .f32⟩
  | 120 => ⟨S16, .f32⟩
  | 121 => ⟨S557056x1, .i32⟩
  | 122 => ⟨S16, .f32⟩
  | 123 => ⟨S_, .f32⟩
  | 124 => ⟨S16, .f32⟩
  | 125 => ⟨S16, .f32⟩
  | 126 => ⟨S_, .f32⟩
  | 127 => ⟨S557056, .f32⟩
  | _ => ⟨S32768x3, .f32⟩

abbrev hbmTy0_2 (i : Nat) : BufTy := match i % 128 with
  | 0 => ⟨S_, .f32⟩
  | 1 => ⟨S16, .f32⟩
  | 2 => ⟨S557056x1, .i32⟩
  | 3 => ⟨S16, .f32⟩
  | 4 => ⟨S16, .f32⟩
  | 5 => ⟨S_, .i32⟩
  | 6 => ⟨S557056, .i32⟩
  | 7 => ⟨S557056, .i1⟩
  | 8 => ⟨S_, .i32⟩
  | 9 => ⟨S557056, .i32⟩
  | 10 => ⟨S557056, .i32⟩
  | 11 => ⟨S557056, .i32⟩
  | 12 => ⟨S557056x1, .i32⟩
  | 13 => ⟨S557056, .f32⟩
  | 14 => ⟨S557056x1, .f32⟩
  | 15 => ⟨S557056x128, .f32⟩
  | 16 => ⟨S557056x128, .f32⟩
  | 17 => ⟨S557056x128, .f32⟩
  | 18 => ⟨S_, .f32⟩
  | 19 => ⟨S557056, .f32⟩
  | 20 => ⟨S_, .f32⟩
  | 21 => ⟨S16, .f32⟩
  | 22 => ⟨S557056x1, .i32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S_, .i32⟩
  | 30 => ⟨S557056, .i32⟩
  | 31 => ⟨S557056, .i1⟩
  | 32 => ⟨S_, .i32⟩
  | 33 => ⟨S557056, .i32⟩
  | 34 => ⟨S557056, .i32⟩
  | 35 => ⟨S557056, .i32⟩
  | 36 => ⟨S557056x1, .i32⟩
  | 37 => ⟨S557056, .f32⟩
  | 38 => ⟨S557056x1, .f32⟩
  | 39 => ⟨S557056x128, .f32⟩
  | 40 => ⟨S557056x128, .f32⟩
  | 41 => ⟨S1x128, .f32⟩
  | 42 => ⟨S557056x128, .f32⟩
  | 43 => ⟨S557056x128, .f32⟩
  | 44 => ⟨S1x128, .f32⟩
  | 45 => ⟨S557056x128, .f32⟩
  | 46 => ⟨S557056x128, .f32⟩
  | 47 => ⟨S557056x128, .f32⟩
  | 48 => ⟨S1x128, .f32⟩
  | 49 => ⟨S557056x128, .f32⟩
  | 50 => ⟨S557056x128, .f32⟩
  | 51 => ⟨S_, .f32⟩
  | 52 => ⟨S557056x128, .f32⟩
  | 53 => ⟨S557056x128, .f32⟩
  | 54 => ⟨S_, .f32⟩
  | 55 => ⟨S557056, .f32⟩
  | 56 => ⟨S_, .f32⟩
  | 57 => ⟨S16, .f32⟩
  | 58 => ⟨S557056x1, .i32⟩
  | 59 => ⟨S16, .f32⟩
  | 60 => ⟨S_, .f32⟩
  | 61 => ⟨S16x128, .f32⟩
  | 62 => ⟨S557056x1, .i32⟩
  | 63 => ⟨S16x128, .f32⟩
  | 64 => ⟨S16x1, .f32⟩
  | 65 => ⟨S16x128, .f32⟩
  | 66 => ⟨S16x128, .f32⟩
  | 67 => ⟨S16, .i32⟩
  | 68 => ⟨S_, .f32⟩
  | 69 => ⟨S16, .f32⟩
  | 70 => ⟨S_, .f32⟩
  | 71 => ⟨S16, .f32⟩
  | 72 => ⟨S16x1, .i32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S_, .f32⟩
  | 80 => ⟨S16, .f32⟩
  | 81 => ⟨S16x1, .i32⟩
  | 82 => ⟨S16, .f32⟩
  | 83 => ⟨S16, .f32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S16x1, .i32⟩
  | 92 => ⟨S16, .f32⟩
  | 93 => ⟨S16x1, .f32⟩
  | 94 => ⟨S16x128, .f32⟩
  | 95 => ⟨S16x128, .f32⟩
  | 96 => ⟨S16x128, .f32⟩
  | 97 => ⟨S_, .f32⟩
  | 98 => ⟨S16, .f32⟩
  | 99 => ⟨S_, .f32⟩
  | 100 => ⟨S16, .f32⟩
  | 101 => ⟨S16x1, .i32⟩
  | 102 => ⟨S16, .f32⟩
  | 103 => ⟨S16, .f32⟩
  | 104 => ⟨S_, .f32⟩
  | 105 => ⟨S16, .f32⟩
  | 106 => ⟨S16, .f32⟩
  | 107 => ⟨S16, .f32⟩
  | 108 => ⟨S_, .i32⟩
  | 109 => ⟨S16, .i32⟩
  | 110 => ⟨S16, .i1⟩
  | 111 => ⟨S_, .i32⟩
  | 112 => ⟨S16, .i32⟩
  | 113 => ⟨S16, .i32⟩
  | 114 => ⟨S16, .i32⟩
  | 115 => ⟨S16x1, .i32⟩
  | 116 => ⟨S16, .f32⟩
  | 117 => ⟨S16x1, .f32⟩
  | 118 => ⟨S16x128, .f32⟩
  | 119 => ⟨S16x128, .f32⟩
  | 120 => ⟨S1x128, .f32⟩
  | 121 => ⟨S16x128, .f32⟩
  | 122 => ⟨S16x128, .f32⟩
  | 123 => ⟨S1x128, .f32⟩
  | 124 => ⟨S16x128, .f32⟩
  | 125 => ⟨S16x128, .f32⟩
  | _ => ⟨S32768x3, .f32⟩

abbrev hbmTy (i : Nat) : BufTy := match i / 128 with
  | 0 => hbmTy0_0 i
  | 1 => hbmTy0_1 i
  | 2 => hbmTy0_2 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c : Ref sig .tc := ⟨.hbm, 59, rfl⟩
abbrev main_v26 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_cst_6 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_7 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_8 : Ref sig .tc := ⟨.hbm, 83, rfl⟩
abbrev main_v45 : Ref sig .tc := ⟨.hbm, 84, rfl⟩
abbrev main_v46 : Ref sig .tc := ⟨.hbm, 85, rfl⟩
abbrev main_c_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call0_cst : Ref sig .tc := ⟨.hbm, 105, rfl⟩
abbrev main_call0_v0 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call1_cst : Ref sig .tc := ⟨.hbm, 112, rfl⟩
abbrev main_call1_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call2_cst : Ref sig .tc := ⟨.hbm, 119, rfl⟩
abbrev main_call2_v0 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call3_cst : Ref sig .tc := ⟨.hbm, 126, rfl⟩
abbrev main_call3_v0 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call4_cst : Ref sig .tc := ⟨.hbm, 133, rfl⟩
abbrev main_call4_v0 : Ref sig .tc := ⟨.hbm, 134, rfl⟩
abbrev main_v85 : Ref sig .tc := ⟨.hbm, 135, rfl⟩
abbrev main_c_10 : Ref sig .tc := ⟨.hbm, 136, rfl⟩
abbrev main_v86 : Ref sig .tc := ⟨.hbm, 137, rfl⟩
abbrev main_v87 : Ref sig .tc := ⟨.hbm, 138, rfl⟩
abbrev main_c_11 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_c_12 : Ref sig .tc := ⟨.hbm, 146, rfl⟩
abbrev main_v94 : Ref sig .tc := ⟨.hbm, 147, rfl⟩
abbrev main_v95 : Ref sig .tc := ⟨.hbm, 148, rfl⟩
abbrev main_c_13 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_14 : Ref sig .tc := ⟨.hbm, 158, rfl⟩
abbrev main_v104 : Ref sig .tc := ⟨.hbm, 159, rfl⟩
abbrev main_cst_15 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_16 : Ref sig .tc := ⟨.hbm, 164, rfl⟩
abbrev main_v108 : Ref sig .tc := ⟨.hbm, 165, rfl⟩
abbrev main_v109 : Ref sig .tc := ⟨.hbm, 166, rfl⟩
abbrev main_cst_17 : Ref sig .tc := ⟨.hbm, 167, rfl⟩
abbrev main_v110 : Ref sig .tc := ⟨.hbm, 168, rfl⟩
abbrev main_cst_18 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_c_19 : Ref sig .tc := ⟨.hbm, 174, rfl⟩
abbrev main_v115 : Ref sig .tc := ⟨.hbm, 175, rfl⟩
abbrev main_v116 : Ref sig .tc := ⟨.hbm, 176, rfl⟩
abbrev main_c_20 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_21 : Ref sig .tc := ⟨.hbm, 187, rfl⟩
abbrev main_v126 : Ref sig .tc := ⟨.hbm, 188, rfl⟩
abbrev main_cst_22 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_23 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_c_24 : Ref sig .tc := ⟨.hbm, 198, rfl⟩
abbrev main_v134 : Ref sig .tc := ⟨.hbm, 199, rfl⟩
abbrev main_v135 : Ref sig .tc := ⟨.hbm, 200, rfl⟩
abbrev main_c_25 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_call5_cst : Ref sig .tc := ⟨.hbm, 220, rfl⟩
abbrev main_call5_v0 : Ref sig .tc := ⟨.hbm, 221, rfl⟩
abbrev main_v154 : Ref sig .tc := ⟨.hbm, 222, rfl⟩
abbrev main_c_26 : Ref sig .tc := ⟨.hbm, 223, rfl⟩
abbrev main_v155 : Ref sig .tc := ⟨.hbm, 224, rfl⟩
abbrev main_v156 : Ref sig .tc := ⟨.hbm, 225, rfl⟩
abbrev main_c_27 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_c_28 : Ref sig .tc := ⟨.hbm, 232, rfl⟩
abbrev main_v162 : Ref sig .tc := ⟨.hbm, 233, rfl⟩
abbrev main_v163 : Ref sig .tc := ⟨.hbm, 234, rfl⟩
abbrev main_c_29 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_cst_30 : Ref sig .tc := ⟨.hbm, 242, rfl⟩
abbrev main_v170 : Ref sig .tc := ⟨.hbm, 243, rfl⟩
abbrev main_v171 : Ref sig .tc := ⟨.hbm, 244, rfl⟩
abbrev main_cst_31 : Ref sig .tc := ⟨.hbm, 245, rfl⟩
abbrev main_v172 : Ref sig .tc := ⟨.hbm, 246, rfl⟩
abbrev main_cst_32 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_cst_33 : Ref sig .tc := ⟨.hbm, 251, rfl⟩
abbrev main_v176 : Ref sig .tc := ⟨.hbm, 252, rfl⟩
abbrev main_v177 : Ref sig .tc := ⟨.hbm, 253, rfl⟩
abbrev main_cst_34 : Ref sig .tc := ⟨.hbm, 254, rfl⟩
abbrev main_v178 : Ref sig .tc := ⟨.hbm, 255, rfl⟩
abbrev main_cst_35 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_c_36 : Ref sig .tc := ⟨.hbm, 261, rfl⟩
abbrev main_v183 : Ref sig .tc := ⟨.hbm, 262, rfl⟩
abbrev main_v184 : Ref sig .tc := ⟨.hbm, 263, rfl⟩
abbrev main_c_37 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_38 : Ref sig .tc := ⟨.hbm, 274, rfl⟩
abbrev main_v194 : Ref sig .tc := ⟨.hbm, 275, rfl⟩
abbrev main_cst_39 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_cst_40 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_c_41 : Ref sig .tc := ⟨.hbm, 285, rfl⟩
abbrev main_v202 : Ref sig .tc := ⟨.hbm, 286, rfl⟩
abbrev main_v203 : Ref sig .tc := ⟨.hbm, 287, rfl⟩
abbrev main_c_42 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_call6_cst : Ref sig .tc := ⟨.hbm, 307, rfl⟩
abbrev main_call6_v0 : Ref sig .tc := ⟨.hbm, 308, rfl⟩
abbrev main_v222 : Ref sig .tc := ⟨.hbm, 309, rfl⟩
abbrev main_cst_43 : Ref sig .tc := ⟨.hbm, 310, rfl⟩
abbrev main_v223 : Ref sig .tc := ⟨.hbm, 311, rfl⟩
abbrev main_cst_44 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_45 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_cst_46 : Ref sig .tc := ⟨.hbm, 324, rfl⟩
abbrev main_v234 : Ref sig .tc := ⟨.hbm, 325, rfl⟩
abbrev main_cst_47 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_cst_48 : Ref sig .tc := ⟨.hbm, 330, rfl⟩
abbrev main_v238 : Ref sig .tc := ⟨.hbm, 331, rfl⟩
abbrev main_v239 : Ref sig .tc := ⟨.hbm, 332, rfl⟩
abbrev main_cst_49 : Ref sig .tc := ⟨.hbm, 333, rfl⟩
abbrev main_v240 : Ref sig .tc := ⟨.hbm, 334, rfl⟩
abbrev main_cst_50 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_c_51 : Ref sig .tc := ⟨.hbm, 340, rfl⟩
abbrev main_v245 : Ref sig .tc := ⟨.hbm, 341, rfl⟩
abbrev main_v246 : Ref sig .tc := ⟨.hbm, 342, rfl⟩
abbrev main_c_52 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_cst_53 : Ref sig .tc := ⟨.hbm, 353, rfl⟩
abbrev main_v256 : Ref sig .tc := ⟨.hbm, 354, rfl⟩
abbrev main_cst_54 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_cst_55 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_c_56 : Ref sig .tc := ⟨.hbm, 364, rfl⟩
abbrev main_v264 : Ref sig .tc := ⟨.hbm, 365, rfl⟩
abbrev main_v265 : Ref sig .tc := ⟨.hbm, 366, rfl⟩
abbrev main_c_57 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_v279 : Ref sig .tc := ⟨.hbm, 381, rfl⟩

abbrev nD : Nat := 1
abbrev τ : Topo := Topo.v7x

variable {F : FTy → Type} [FloatOps F]

class Facts₀ : Prop where
  bcast_S16_S16x2048_0 : S16.BroadcastsInDim S16x2048 (![0] : Fin 1 → Fin S16x2048.rank)
  shapeCasts_S16x2048_S32768 : S16x2048.ShapeCasts S32768
  bcast_S16_S16x32768_0 : S16.BroadcastsInDim S16x32768 (![0] : Fin 1 → Fin S16x32768.rank)
  shapeCasts_S16x32768_S524288 : S16x32768.ShapeCasts S524288
  concatenates_S524288_S32768_S557056_d0 : Shape.Concatenates [S524288, S32768] S557056 0
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S32768 : S_.BroadcastsInDim S32768 (![] : Fin 0 → Fin S32768.rank)
  bcast_S_S16 : S_.BroadcastsInDim S16 (![] : Fin 0 → Fin S16.rank)
  bcast_S32768_S32768x1_0 : S32768.BroadcastsInDim S32768x1 (![0] : Fin 1 → Fin S32768x1.rank)
  reducesTo_S32768x3_S32768_d1 : S32768x3.ReducesTo [1] S32768
  h_S_ : 0 < S_.numel
  bcast_S32768x1_S32768x3_0_1 : S32768x1.BroadcastsInDim S32768x3 (![0, 1] : Fin 2 → Fin S32768x3.rank)
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  bcast_S12_S1x12_1 : S12.BroadcastsInDim S1x12 (![1] : Fin 1 → Fin S1x12.rank)
  bcast_S1x12_S32768x12_0_1 : S1x12.BroadcastsInDim S32768x12 (![0, 1] : Fin 2 → Fin S32768x12.rank)
  bcast_S_S32768x12 : S_.BroadcastsInDim S32768x12 (![] : Fin 0 → Fin S32768x12.rank)
  bcast_S48_S1x48_1 : S48.BroadcastsInDim S1x48 (![1] : Fin 1 → Fin S1x48.rank)
  bcast_S1x48_S32768x48_0_1 : S1x48.BroadcastsInDim S32768x48 (![0, 1] : Fin 2 → Fin S32768x48.rank)
  bcast_S_S32768x48 : S_.BroadcastsInDim S32768x48 (![] : Fin 0 → Fin S32768x48.rank)
  bcast_S192_S1x192_1 : S192.BroadcastsInDim S1x192 (![1] : Fin 1 → Fin S1x192.rank)
  bcast_S1x192_S32768x192_0_1 : S1x192.BroadcastsInDim S32768x192 (![0, 1] : Fin 2 → Fin S32768x192.rank)
  bcast_S_S32768x192 : S_.BroadcastsInDim S32768x192 (![] : Fin 0 → Fin S32768x192.rank)
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  bcast_S_S32768x768 : S_.BroadcastsInDim S32768x768 (![] : Fin 0 → Fin S32768x768.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  shapeCasts_S16x2048x768_S32768x768 : S16x2048x768.ShapeCasts S32768x768
  reducesTo_S32768x768_S32768_d1 : S32768x768.ReducesTo [1] S32768
  bcast_S32768x1_S32768x768_0_1 : S32768x1.BroadcastsInDim S32768x768 (![0, 1] : Fin 2 → Fin S32768x768.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S_S557056 : S_.BroadcastsInDim S557056 (![] : Fin 0 → Fin S557056.rank)
  bcast_S557056_S557056x1_0 : S557056.BroadcastsInDim S557056x1 (![0] : Fin 1 → Fin S557056x1.rank)
  bcast_S_S557056x128 : S_.BroadcastsInDim S557056x128 (![] : Fin 0 → Fin S557056x128.rank)
  reducesTo_S557056x128_S557056_d1 : S557056x128.ReducesTo [1] S557056
  bcast_S557056x1_S557056x128_0_1 : S557056x1.BroadcastsInDim S557056x128 (![0, 1] : Fin 2 → Fin S557056x128.rank)
  bcast_S1x128_S557056x128_0_1 : S1x128.BroadcastsInDim S557056x128 (![0, 1] : Fin 2 → Fin S557056x128.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  reducesTo_S16x128_S16_d1 : S16x128.ReducesTo [1] S16
  bcast_S1x128_S16x128_0_1 : S1x128.BroadcastsInDim S16x128 (![0, 1] : Fin 2 → Fin S16x128.rank)
  scatter_S16_S32768x1_S32768_n_0_0_1_wf : ScatterDims.WF S16 S32768x1 S32768 [] [0] [0] 1
  gather_S16_S32768x1_S32768_n_0_n_n_0_1_1_wf : GatherDims.WF S16 S32768x1 S32768 [] [0] [] [0] [] 1 ![1]
  dot_S32768x3_S3x12_S32768x12_1_0_0_1_n_n_wf : DotDims.WF S32768x3 S3x12 S32768x12 [1] [0] [0] [1] [] []
  dot_S32768x12_S12x48_S32768x48_1_0_0_1_n_n_wf : DotDims.WF S32768x12 S12x48 S32768x48 [1] [0] [0] [1] [] []
  dot_S32768x48_S48x192_S32768x192_1_0_0_1_n_n_wf : DotDims.WF S32768x48 S48x192 S32768x192 [1] [0] [0] [1] [] []
  dot_S32768x192_S192x768_S32768x768_1_0_0_1_n_n_wf : DotDims.WF S32768x192 S192x768 S32768x768 [1] [0] [0] [1] [] []
  dot_S32768x768_S768x768_S32768x768_1_0_0_1_n_n_wf : DotDims.WF S32768x768 S768x768 S32768x768 [1] [0] [0] [1] [] []
  gather_S100x768_S16x2048x1_S16x2048x768_2_0_n_n_0_2_1768_wf : GatherDims.WF S100x768 S16x2048x1 S16x2048x768 [2] [0] [] [0] [] 2 ![1, 768]
  gather_S25x768_S16x2048x1_S16x2048x768_2_0_n_n_0_2_1768_wf : GatherDims.WF S25x768 S16x2048x1 S16x2048x768 [2] [0] [] [0] [] 2 ![1, 768]
  dot_S32768x768_S768x128_S32768x128_1_0_0_1_n_n_wf : DotDims.WF S32768x768 S768x128 S32768x128 [1] [0] [0] [1] [] []
  gather_S32768x128_S557056x1_S557056x128_1_0_n_n_0_1_1128_wf : GatherDims.WF S32768x128 S557056x1 S557056x128 [1] [0] [] [0] [] 1 ![1, 128]
  scatter_S16_S557056x1_S557056_n_0_0_1_wf : ScatterDims.WF S16 S557056x1 S557056 [] [0] [0] 1
  gather_S16_S557056x1_S557056_n_0_n_n_0_1_1_wf : GatherDims.WF S16 S557056x1 S557056 [] [0] [] [0] [] 1 ![1]
  dot_S557056x128_S128x128_S557056x128_1_0_0_1_n_n_wf : DotDims.WF S557056x128 S128x128 S557056x128 [1] [0] [0] [1] [] []
  scatter_S16x128_S557056x1_S557056x128_1_0_0_1_wf : ScatterDims.WF S16x128 S557056x1 S557056x128 [1] [0] [0] 1
  scatter_S16_S16x1_S16_n_0_0_1_wf : ScatterDims.WF S16 S16x1 S16 [] [0] [0] 1
  gather_S16_S16x1_S16_n_0_n_n_0_1_1_wf : GatherDims.WF S16 S16x1 S16 [] [0] [] [0] [] 1 ![1]

variable [Facts₀]

def scatter_S16_S32768x1_S32768_n_0_0_1 : ScatterDims S16 S32768x1 S32768 where
  updateWindowDims := []
  insertedWindowDims := [0]
  scatterDimsToOperandDims := [0]
  indexVectorDim := 1
  wf := scatter_S16_S32768x1_S32768_n_0_0_1_wf
def gather_S16_S32768x1_S32768_n_0_n_n_0_1_1 : GatherDims S16 S32768x1 S32768 where
  offsetDims := []
  collapsedSliceDims := [0]
  operandBatchingDims := []
  startIndicesBatchingDims := []
  startIndexMap := [0]
  indexVectorDim := 1
  sliceSizes := ![1]
  wf := gather_S16_S32768x1_S32768_n_0_n_n_0_1_1_wf
def dot_S32768x3_S3x12_S32768x12_1_0_0_1_n_n : DotDims S32768x3 S3x12 S32768x12 where
  lhsContracting := [1]
  rhsContracting := [0]
  lhsNonContracting := [0]
  rhsNonContracting := [1]
  lhsBatch := []
  rhsBatch := []
  wf := dot_S32768x3_S3x12_S32768x12_1_0_0_1_n_n_wf
def dot_S32768x12_S12x48_S32768x48_1_0_0_1_n_n : DotDims S32768x12 S12x48 S32768x48 where
  lhsContracting := [1]
  rhsContracting := [0]
  lhsNonContracting := [0]
  rhsNonContracting := [1]
  lhsBatch := []
  rhsBatch := []
  wf := dot_S32768x12_S12x48_S32768x48_1_0_0_1_n_n_wf
def dot_S32768x48_S48x192_S32768x192_1_0_0_1_n_n : DotDims S32768x48 S48x192 S32768x192 where
  lhsContracting := [1]
  rhsContracting := [0]
  lhsNonContracting := [0]
  rhsNonContracting := [1]
  lhsBatch := []
  rhsBatch := []
  wf := dot_S32768x48_S48x192_S32768x192_1_0_0_1_n_n_wf
def dot_S32768x192_S192x768_S32768x768_1_0_0_1_n_n : DotDims S32768x192 S192x768 S32768x768 where
  lhsContracting := [1]
  rhsContracting := [0]
  lhsNonContracting := [0]
  rhsNonContracting := [1]
  lhsBatch := []
  rhsBatch := []
  wf := dot_S32768x192_S192x768_S32768x768_1_0_0_1_n_n_wf
def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf
def gather_S100x768_S16x2048x1_S16x2048x768_2_0_n_n_0_2_1768 : GatherDims S100x768 S16x2048x1 S16x2048x768 where
  offsetDims := [2]
  collapsedSliceDims := [0]
  operandBatchingDims := []
  startIndicesBatchingDims := []
  startIndexMap := [0]
  indexVectorDim := 2
  sliceSizes := ![1, 768]
  wf := gather_S100x768_S16x2048x1_S16x2048x768_2_0_n_n_0_2_1768_wf
def gather_S25x768_S16x2048x1_S16x2048x768_2_0_n_n_0_2_1768 : GatherDims S25x768 S16x2048x1 S16x2048x768 where
  offsetDims := [2]
  collapsedSliceDims := [0]
  operandBatchingDims := []
  startIndicesBatchingDims := []
  startIndexMap := [0]
  indexVectorDim := 2
  sliceSizes := ![1, 768]
  wf := gather_S25x768_S16x2048x1_S16x2048x768_2_0_n_n_0_2_1768_wf
def dot_S32768x768_S768x128_S32768x128_1_0_0_1_n_n : DotDims S32768x768 S768x128 S32768x128 where
  lhsContracting := [1]
  rhsContracting := [0]
  lhsNonContracting := [0]
  rhsNonContracting := [1]
  lhsBatch := []
  rhsBatch := []
  wf := dot_S32768x768_S768x128_S32768x128_1_0_0_1_n_n_wf
def gather_S32768x128_S557056x1_S557056x128_1_0_n_n_0_1_1128 : GatherDims S32768x128 S557056x1 S557056x128 where
  offsetDims := [1]
  collapsedSliceDims := [0]
  operandBatchingDims := []
  startIndicesBatchingDims := []
  startIndexMap := [0]
  indexVectorDim := 1
  sliceSizes := ![1, 128]
  wf := gather_S32768x128_S557056x1_S557056x128_1_0_n_n_0_1_1128_wf
def scatter_S16_S557056x1_S557056_n_0_0_1 : ScatterDims S16 S557056x1 S557056 where
  updateWindowDims := []
  insertedWindowDims := [0]
  scatterDimsToOperandDims := [0]
  indexVectorDim := 1
  wf := scatter_S16_S557056x1_S557056_n_0_0_1_wf
def gather_S16_S557056x1_S557056_n_0_n_n_0_1_1 : GatherDims S16 S557056x1 S557056 where
  offsetDims := []
  collapsedSliceDims := [0]
  operandBatchingDims := []
  startIndicesBatchingDims := []
  startIndexMap := [0]
  indexVectorDim := 1
  sliceSizes := ![1]
  wf := gather_S16_S557056x1_S557056_n_0_n_n_0_1_1_wf
def dot_S557056x128_S128x128_S557056x128_1_0_0_1_n_n : DotDims S557056x128 S128x128 S557056x128 where
  lhsContracting := [1]
  rhsContracting := [0]
  lhsNonContracting := [0]
  rhsNonContracting := [1]
  lhsBatch := []
  rhsBatch := []
  wf := dot_S557056x128_S128x128_S557056x128_1_0_0_1_n_n_wf
def scatter_S16x128_S557056x1_S557056x128_1_0_0_1 : ScatterDims S16x128 S557056x1 S557056x128 where
  updateWindowDims := [1]
  insertedWindowDims := [0]
  scatterDimsToOperandDims := [0]
  indexVectorDim := 1
  wf := scatter_S16x128_S557056x1_S557056x128_1_0_0_1_wf
def scatter_S16_S16x1_S16_n_0_0_1 : ScatterDims S16 S16x1 S16 where
  updateWindowDims := []
  insertedWindowDims := [0]
  scatterDimsToOperandDims := [0]
  indexVectorDim := 1
  wf := scatter_S16_S16x1_S16_n_0_0_1_wf
def gather_S16_S16x1_S16_n_0_n_n_0_1_1 : GatherDims S16 S16x1 S16 where
  offsetDims := []
  collapsedSliceDims := [0]
  operandBatchingDims := []
  startIndicesBatchingDims := []
  startIndexMap := [0]
  indexVectorDim := 1
  sliceSizes := ![1]
  wf := gather_S16_S16x1_S16_n_0_n_n_0_1_1_wf

class Facts : Prop extends Facts₀ where

variable [Facts]
-- ==== Proof.Spec.lean ====
/-
  The mathematics both programs compute, over the extended reals, as functions of the 28 argument arrays.

  A batch of 16 graphs of 2048 nodes each (node n belongs to graph n / 2048) with 3 coordinates per node; 524288
  edges in 16 runs of 32768 (edge e belongs to graph e / 32768) followed by one self loop per node, 557056 rows in all.

  * graph layer norm `gln`: over the rows of one graph and all their features, the mean, the centred values, the mean
    of their squares, and (x - mean) * rsqrt (var + eps) * w + b;
  * `dense`: an affine layer followed by max (·, 0);
  * node features: layer norm of the coordinates, five dense layers 3 → 12 → 48 → 192 → 768 → 768, plus the two
    embedding rows the node's atom and amino-acid ids select, layer norm again (`h`, the first result), then the dense
    layer 768 → 128 (`he`);
  * edge features: for an edge the half sum of `he` at its two endpoints, for a self loop `he` of its node; layer norm
    per graph over the graph's edges and self loops together (`attr`, the second result);
  * global features: a dense layer 128 → 128 on `attr`, averaged per graph over its 34816 rows, then a layer norm of each
    graph's 128 averages by themselves (`u`, the third result).
-/
import Idealize.ShloMosaic.PureOps.Ideal
import Idealize.ShloMosaic.Lib.ValueIdx

noncomputable section

namespace Cert.Spec

open Idealize.ShloMosaic Idealize.ShloMosaic.ValueIdx

/-- A rank-2 and a rank-1 literal shape. -/
abbrev Sh2 (a b : ℕ) : Shape := ⟨2, ![a, b]⟩
abbrev Sh1 (a : ℕ) : Shape := ⟨1, ![a]⟩

/-- The 28 argument arrays. -/
structure Args where
  x : Vec Ideal (Sh2 32768 3) .f32
  atom : Vec Ideal (Sh2 16 2048) .i32
  aa : Vec Ideal (Sh2 16 2048) .i32
  ei : Vec Ideal (Sh2 2 524288) .i32
  W1 : Vec Ideal (Sh2 3 12) .f32
  b1 : Vec Ideal (Sh1 12) .f32
  W2 : Vec Ideal (Sh2 12 48) .f32
  b2 : Vec Ideal (Sh1 48) .f32
  W3 : Vec Ideal (Sh2 48 192) .f32
  b3 : Vec Ideal (Sh1 192) .f32
  W4 : Vec Ideal (Sh2 192 768) .f32
  b4 : Vec Ideal (Sh1 768) .f32
  Wd : Vec Ideal (Sh2 768 768) .f32
  bd : Vec Ideal (Sh1 768) .f32
  atomEmb : Vec Ideal (Sh2 100 768) .f32
  aaEmb : Vec Ideal (Sh2 25 768) .f32
  wc : Vec Ideal (Sh1 3) .f32
  bc : Vec Ideal (Sh1 3) .f32
  wn : Vec Ideal (Sh1 768) .f32
  bn : Vec Ideal (Sh1 768) .f32
  We : Vec Ideal (Sh2 768 128) .f32
  be : Vec Ideal (Sh1 128) .f32
  wle : Vec Ideal (Sh1 128) .f32
  ble : Vec Ideal (Sh1 128) .f32
  Wg : Vec Ideal (Sh2 128 128) .f32
  bg : Vec Ideal (Sh1 128) .f32
  wlg : Vec Ideal (Sh1 128) .f32
  blg : Vec Ideal (Sh1 128) .f32

/-- An extended real that is a real number. -/
def IsReal (v : EReal) : Prop := ∃ r : ℝ, v = (r : EReal)

/-- The domain the statement is made on: every float entry a real number, every id and edge endpoint in range. -/
structure Args.Ok (A : Args) : Prop where
  x : ∀ i, IsReal (A.x i)
  W1 : ∀ i, IsReal (A.W1 i)
  b1 : ∀ i, IsReal (A.b1 i)
  W2 : ∀ i, IsReal (A.W2 i)
  b2 : ∀ i, IsReal (A.b2 i)
  W3 : ∀ i, IsReal (A.W3 i)
  b3 : ∀ i, IsReal (A.b3 i)
  W4 : ∀ i, IsReal (A.W4 i)
  b4 : ∀ i, IsReal (A.b4 i)
  Wd : ∀ i, IsReal (A.Wd i)
  bd : ∀ i, IsReal (A.bd i)
  atomEmb : ∀ i, IsReal (A.atomEmb i)
  aaEmb : ∀ i, IsReal (A.aaEmb i)
  wc : ∀ i, IsReal (A.wc i)
  bc : ∀ i, IsReal (A.bc i)
  wn : ∀ i, IsReal (A.wn i)
  bn : ∀ i, IsReal (A.bn i)
  We : ∀ i, IsReal (A.We i)
  be : ∀ i, IsReal (A.be i)
  wle : ∀ i, IsReal (A.wle i)
  ble : ∀ i, IsReal (A.ble i)
  Wg : ∀ i, IsReal (A.Wg i)
  bg : ∀ i, IsReal (A.bg i)
  wlg : ∀ i, IsReal (A.wlg i)
  blg : ∀ i, IsReal (A.blg i)
  atom : ∀ i, 0 ≤ (A.atom i).toInt ∧ (A.atom i).toInt < 100
  aa : ∀ i, 0 ≤ (A.aa i).toInt ∧ (A.aa i).toInt < 25
  ei : ∀ i, 0 ≤ (A.ei i).toInt ∧ (A.ei i).toInt < 32768

/-! ## Constants -/

/-- The layer norms' epsilon, as both programs spell it. -/
def eps : EReal := Ideal.ofBits .f32 0x3727C5AC#32
/-- One half, as both programs spell it. -/
def half : EReal := Ideal.ofBits .f32 0x3F000000#32

/-- Entries per graph: 2048 nodes × 3 coordinates, 2048 × 768 node features, 34816 edge rows × 128 features,
    34816 edge rows, 128 global features. -/
def cntC : EReal := ((6144 : ℝ) : EReal)
def cntN : EReal := ((1572864 : ℝ) : EReal)
def cntE : EReal := ((4456448 : ℝ) : EReal)
def cntP : EReal := ((34816 : ℝ) : EReal)
def cntG : EReal := ((128 : ℝ) : EReal)

/-! ## Graphs of rows -/

/-- The graph of node n. -/
def gN (n : Fin 32768) : Fin 16 := ⟨n.val / 2048, by omega⟩
/-- The place of node n inside its graph. -/
def rN (n : Fin 32768) : Fin 2048 := ⟨n.val % 2048, by omega⟩
/-- The graph of edge row e: the 524288 edges in 16 runs of 32768, then the self loops in 16 runs of 2048. -/
def gE (e : Fin 557056) : Fin 16 :=
  if h : e.val < 524288 then ⟨e.val / 32768, by omega⟩ else ⟨(e.val - 524288) / 2048, by omega⟩

/-! ## Layers -/

section
variable {R C : ℕ} (grp : Fin R → Fin 16) (cnt : EReal) (X : Fin R → Fin C → EReal)

/-- The mean of graph g's entries. -/
def gmean (g : Fin 16) : EReal :=
  Ideal.div (∑ n ∈ Finset.univ.filter (fun n => grp n = g), ∑ c, X n c) cnt
/-- An entry minus its graph's mean. -/
def gcen (n : Fin R) (c : Fin C) : EReal := X n c - gmean grp cnt X (grp n)
/-- The mean of the squares of graph g's centred entries. -/
def gvar (g : Fin 16) : EReal :=
  Ideal.div (∑ n ∈ Finset.univ.filter (fun n => grp n = g), ∑ c, gcen grp cnt X n c * gcen grp cnt X n c) cnt
/-- The graph layer norm. -/
def gln (w b : Fin C → EReal) (n : Fin R) (c : Fin C) : EReal :=
  gcen grp cnt X n c * Ideal.rsqrt (gvar grp cnt X (grp n) + eps) * w c + b c
end

/-- An affine layer followed by max (·, 0). -/
def dense {R K J : ℕ} (X : Fin R → Fin K → EReal) (W : Vec Ideal (Sh2 K J) .f32) (b : Vec Ideal (Sh1 J) .f32)
    (n : Fin R) (j : Fin J) : EReal :=
  max (∑ k, X n k * W (ix2 k j) + b (ix1 j)) 0

/-- The row of a table a signed index word selects, clamped into the table. -/
def rowAt {N C : ℕ} (hN : 0 < N) (T : Vec Ideal (Sh2 N C) .f32) (w : BitVec 32) (c : Fin C) : EReal :=
  T (ix2 ⟨min w.toInt.toNat (N - 1), by omega⟩ c)

/-! ## The stages -/

variable (A : Args)

def xin (n : Fin 32768) (c : Fin 3) : EReal := A.x (ix2 n c)
def h0 : Fin 32768 → Fin 3 → EReal :=
  gln gN cntC (xin A) (fun c => A.wc (ix1 c)) (fun c => A.bc (ix1 c))
def h1 : Fin 32768 → Fin 12 → EReal := dense (h0 A) A.W1 A.b1
def h2 : Fin 32768 → Fin 48 → EReal := dense (h1 A) A.W2 A.b2
def h3 : Fin 32768 → Fin 192 → EReal := dense (h2 A) A.W3 A.b3
def h4 : Fin 32768 → Fin 768 → EReal := dense (h3 A) A.W4 A.b4
def h5 : Fin 32768 → Fin 768 → EReal := dense (h4 A) A.Wd A.bd
/-- The two embedding rows of node n, added. -/
def emb (n : Fin 32768) (c : Fin 768) : EReal :=
  rowAt (by decide) A.atomEmb (A.atom (ix2 (gN n) (rN n))) c + rowAt (by decide) A.aaEmb (A.aa (ix2 (gN n) (rN n))) c
def pre (n : Fin 32768) (c : Fin 768) : EReal := h5 A n c + emb A n c
/-- THE FIRST RESULT. -/
def h : Fin 32768 → Fin 768 → EReal :=
  gln gN cntN (pre A) (fun c => A.wn (ix1 c)) (fun c => A.bn (ix1 c))
def he : Fin 32768 → Fin 128 → EReal := dense (h A) A.We A.be

/-- The node an edge endpoint word names, clamped. -/
def nodeOf (w : BitVec 32) : Fin 32768 := ⟨min w.toInt.toNat 32767, by omega⟩
/-- Edge row e's input: the half sum of `he` at the edge's endpoints; for a self loop, `he` of its node. -/
def avg (e : Fin 557056) (c : Fin 128) : EReal :=
  if h : e.val < 524288 then
    (he A (nodeOf (A.ei (ix2 (0 : Fin 2) (⟨e.val, h⟩ : Fin 524288)))) c
      + he A (nodeOf (A.ei (ix2 (1 : Fin 2) (⟨e.val, h⟩ : Fin 524288)))) c) * half
  else he A ⟨e.val - 524288, by omega⟩ c
/-- THE SECOND RESULT. -/
def attr : Fin 557056 → Fin 128 → EReal :=
  gln gE cntE (avg A) (fun c => A.wle (ix1 c)) (fun c => A.ble (ix1 c))
def gact : Fin 557056 → Fin 128 → EReal := dense (attr A) A.Wg A.bg
/-- Graph g's average of `gact` over its 34816 edge rows. -/
def pooled (g : Fin 16) (c : Fin 128) : EReal :=
  Ideal.div (∑ e ∈ Finset.univ.filter (fun e => gE e = g), gact A e c) cntP
/-- THE THIRD RESULT: each graph's 128 averages normalised by themselves. -/
def u : Fin 16 → Fin 128 → EReal :=
  gln (fun g : Fin 16 => g) cntG (pooled A) (fun c => A.wlg (ix1 c)) (fun c => A.blg (ix1 c))

end Cert.Spec

end
-- ==== Proof.KArgs.lean ====
/-
  The 28 argument arrays of a launch memory, packed as the specification's record: for the kernel's program and for the
  reference's. Argument k of either program is field k of the record, in the order of the entry point's parameters.
-/
import proofs.«402160_j53730040873195_3_alg».proof.KernelIdeal
import proofs.«402160_j53730040873195_3_alg».proof.ReferenceIdeal
import proofs.«402160_j53730040873195_3_alg».proof.Proof.Spec

noncomputable section

namespace Cert.KArgs

open Idealize.ShloMosaic Idealize.SL.Sem

/-- The kernel program's arguments on device c. -/
def argsK (m : (ℓ : Loc Cert.KernelIdeal.nD Cert.KernelIdeal.τ Cert.KernelIdeal.sig) → Buf (Elt Ideal) ℓ)
    (c : Dev Cert.KernelIdeal.nD) : Cert.Spec.Args where
  x := m ((c.tc : Thread Cert.KernelIdeal.nD Cert.KernelIdeal.τ).loc Cert.KernelIdeal.main_arg0)
  atom := m ((c.tc : Thread Cert.KernelIdeal.nD Cert.KernelIdeal.τ).loc Cert.KernelIdeal.main_arg1)
  aa := m ((c.tc : Thread Cert.KernelIdeal.nD Cert.KernelIdeal.τ).loc Cert.KernelIdeal.main_arg2)
  ei := m ((c.tc : Thread Cert.KernelIdeal.nD Cert.KernelIdeal.τ).loc Cert.KernelIdeal.main_arg3)
  W1 := m ((c.tc : Thread Cert.KernelIdeal.nD Cert.KernelIdeal.τ).loc Cert.KernelIdeal.main_arg4)
  b1 := m ((c.tc : Thread Cert.KernelIdeal.nD Cert.KernelIdeal.τ).loc Cert.KernelIdeal.main_arg5)
  W2 := m ((c.tc : Thread Cert.KernelIdeal.nD Cert.KernelIdeal.τ).loc Cert.KernelIdeal.main_arg6)
  b2 := m ((c.tc : Thread Cert.KernelIdeal.nD Cert.KernelIdeal.τ).loc Cert.KernelIdeal.main_arg7)
  W3 := m ((c.tc : Thread Cert.KernelIdeal.nD Cert.KernelIdeal.τ).loc Cert.KernelIdeal.main_arg8)
  b3 := m ((c.tc : Thread Cert.KernelIdeal.nD Cert.KernelIdeal.τ).loc Cert.KernelIdeal.main_arg9)
  W4 := m ((c.tc : Thread Cert.KernelIdeal.nD Cert.KernelIdeal.τ).loc Cert.KernelIdeal.main_arg10)
  b4 := m ((c.tc : Thread Cert.KernelIdeal.nD Cert.KernelIdeal.τ).loc Cert.KernelIdeal.main_arg11)
  Wd := m ((c.tc : Thread Cert.KernelIdeal.nD Cert.KernelIdeal.τ).loc Cert.KernelIdeal.main_arg12)
  bd := m ((c.tc : Thread Cert.KernelIdeal.nD Cert.KernelIdeal.τ).loc Cert.KernelIdeal.main_arg13)
  atomEmb := m ((c.tc : Thread Cert.KernelIdeal.nD Cert.KernelIdeal.τ).loc Cert.KernelIdeal.main_arg14)
  aaEmb := m ((c.tc : Thread Cert.KernelIdeal.nD Cert.KernelIdeal.τ).loc Cert.KernelIdeal.main_arg15)
  wc := m ((c.tc : Thread Cert.KernelIdeal.nD Cert.KernelIdeal.τ).loc Cert.KernelIdeal.main_arg16)
  bc := m ((c.tc : Thread Cert.KernelIdeal.nD Cert.KernelIdeal.τ).loc Cert.KernelIdeal.main_arg17)
  wn := m ((c.tc : Thread Cert.KernelIdeal.nD Cert.KernelIdeal.τ).loc Cert.KernelIdeal.main_arg18)
  bn := m ((c.tc : Thread Cert.KernelIdeal.nD Cert.KernelIdeal.τ).loc Cert.KernelIdeal.main_arg19)
  We := m ((c.tc : Thread Cert.KernelIdeal.nD Cert.KernelIdeal.τ).loc Cert.KernelIdeal.main_arg20)
  be := m ((c.tc : Thread Cert.KernelIdeal.nD Cert.KernelIdeal.τ).loc Cert.KernelIdeal.main_arg21)
  wle := m ((c.tc : Thread Cert.KernelIdeal.nD Cert.KernelIdeal.τ).loc Cert.KernelIdeal.main_arg22)
  ble := m ((c.tc : Thread Cert.KernelIdeal.nD Cert.KernelIdeal.τ).loc Cert.KernelIdeal.main_arg23)
  Wg := m ((c.tc : Thread Cert.KernelIdeal.nD Cert.KernelIdeal.τ).loc Cert.KernelIdeal.main_arg24)
  bg := m ((c.tc : Thread Cert.KernelIdeal.nD Cert.KernelIdeal.τ).loc Cert.KernelIdeal.main_arg25)
  wlg := m ((c.tc : Thread Cert.KernelIdeal.nD Cert.KernelIdeal.τ).loc Cert.KernelIdeal.main_arg26)
  blg := m ((c.tc : Thread Cert.KernelIdeal.nD Cert.KernelIdeal.τ).loc Cert.KernelIdeal.main_arg27)

/-- The reference program's arguments on device c. -/
def argsR (m : (ℓ : Loc Cert.ReferenceIdeal.nD Cert.ReferenceIdeal.τ Cert.ReferenceIdeal.sig) → Buf (Elt Ideal) ℓ)
    (c : Dev Cert.ReferenceIdeal.nD) : Cert.Spec.Args where
  x := m ((c.tc : Thread Cert.ReferenceIdeal.nD Cert.ReferenceIdeal.τ).loc Cert.ReferenceIdeal.main_arg0)
  atom := m ((c.tc : Thread Cert.ReferenceIdeal.nD Cert.ReferenceIdeal.τ).loc Cert.ReferenceIdeal.main_arg1)
  aa := m ((c.tc : Thread Cert.ReferenceIdeal.nD Cert.ReferenceIdeal.τ).loc Cert.ReferenceIdeal.main_arg2)
  ei := m ((c.tc : Thread Cert.ReferenceIdeal.nD Cert.ReferenceIdeal.τ).loc Cert.ReferenceIdeal.main_arg3)
  W1 := m ((c.tc : Thread Cert.ReferenceIdeal.nD Cert.ReferenceIdeal.τ).loc Cert.ReferenceIdeal.main_arg4)
  b1 := m ((c.tc : Thread Cert.ReferenceIdeal.nD Cert.ReferenceIdeal.τ).loc Cert.ReferenceIdeal.main_arg5)
  W2 := m ((c.tc : Thread Cert.ReferenceIdeal.nD Cert.ReferenceIdeal.τ).loc Cert.ReferenceIdeal.main_arg6)
  b2 := m ((c.tc : Thread Cert.ReferenceIdeal.nD Cert.ReferenceIdeal.τ).loc Cert.ReferenceIdeal.main_arg7)
  W3 := m ((c.tc : Thread Cert.ReferenceIdeal.nD Cert.ReferenceIdeal.τ).loc Cert.ReferenceIdeal.main_arg8)
  b3 := m ((c.tc : Thread Cert.ReferenceIdeal.nD Cert.ReferenceIdeal.τ).loc Cert.ReferenceIdeal.main_arg9)
  W4 := m ((c.tc : Thread Cert.ReferenceIdeal.nD Cert.ReferenceIdeal.τ).loc Cert.ReferenceIdeal.main_arg10)
  b4 := m ((c.tc : Thread Cert.ReferenceIdeal.nD Cert.ReferenceIdeal.τ).loc Cert.ReferenceIdeal.main_arg11)
  Wd := m ((c.tc : Thread Cert.ReferenceIdeal.nD Cert.ReferenceIdeal.τ).loc Cert.ReferenceIdeal.main_arg12)
  bd := m ((c.tc : Thread Cert.ReferenceIdeal.nD Cert.ReferenceIdeal.τ).loc Cert.ReferenceIdeal.main_arg13)
  atomEmb := m ((c.tc : Thread Cert.ReferenceIdeal.nD Cert.ReferenceIdeal.τ).loc Cert.ReferenceIdeal.main_arg14)
  aaEmb := m ((c.tc : Thread Cert.ReferenceIdeal.nD Cert.ReferenceIdeal.τ).loc Cert.ReferenceIdeal.main_arg15)
  wc := m ((c.tc : Thread Cert.ReferenceIdeal.nD Cert.ReferenceIdeal.τ).loc Cert.ReferenceIdeal.main_arg16)
  bc := m ((c.tc : Thread Cert.ReferenceIdeal.nD Cert.ReferenceIdeal.τ).loc Cert.ReferenceIdeal.main_arg17)
  wn := m ((c.tc : Thread Cert.ReferenceIdeal.nD Cert.ReferenceIdeal.τ).loc Cert.ReferenceIdeal.main_arg18)
  bn := m ((c.tc : Thread Cert.ReferenceIdeal.nD Cert.ReferenceIdeal.τ).loc Cert.ReferenceIdeal.main_arg19)
  We := m ((c.tc : Thread Cert.ReferenceIdeal.nD Cert.ReferenceIdeal.τ).loc Cert.ReferenceIdeal.main_arg20)
  be := m ((c.tc : Thread Cert.ReferenceIdeal.nD Cert.ReferenceIdeal.τ).loc Cert.ReferenceIdeal.main_arg21)
  wle := m ((c.tc : Thread Cert.ReferenceIdeal.nD Cert.ReferenceIdeal.τ).loc Cert.ReferenceIdeal.main_arg22)
  ble := m ((c.tc : Thread Cert.ReferenceIdeal.nD Cert.ReferenceIdeal.τ).loc Cert.ReferenceIdeal.main_arg23)
  Wg := m ((c.tc : Thread Cert.ReferenceIdeal.nD Cert.ReferenceIdeal.τ).loc Cert.ReferenceIdeal.main_arg24)
  bg := m ((c.tc : Thread Cert.ReferenceIdeal.nD Cert.ReferenceIdeal.τ).loc Cert.ReferenceIdeal.main_arg25)
  wlg := m ((c.tc : Thread Cert.ReferenceIdeal.nD Cert.ReferenceIdeal.τ).loc Cert.ReferenceIdeal.main_arg26)
  blg := m ((c.tc : Thread Cert.ReferenceIdeal.nD Cert.ReferenceIdeal.τ).loc Cert.ReferenceIdeal.main_arg27)

end Cert.KArgs

end
-- ==== Proof.BlockSpec.lean ====
/-
  One graph's nodes by themselves: the node stages of the specification restricted to graph g's 2048 rows
  (row r of graph g is node g * 2048 + r). A graph layer norm only looks at its own graph's rows, and a dense layer
  and the embedding rows at one row, so the restricted chain is the whole chain read at the graph's rows.
-/
import proofs.«402160_j53730040873195_3_alg».proof.Proof.Spec

noncomputable section

namespace Cert.Spec

open Idealize.ShloMosaic Idealize.ShloMosaic.ValueIdx

/-- Row r of graph g. -/
def row (g : Fin 16) (r : Fin 2048) : Fin 32768 := ⟨g.val * 2048 + r.val, by omega⟩

variable (A : Args) (g : Fin 16)

def bx (r : Fin 2048) (c : Fin 3) : EReal := A.x (ix2 (row g r) c)
def bh0 : Fin 2048 → Fin 3 → EReal :=
  gln (fun _ : Fin 2048 => g) cntC (bx A g) (fun c => A.wc (ix1 c)) (fun c => A.bc (ix1 c))
def bh1 : Fin 2048 → Fin 12 → EReal := dense (bh0 A g) A.W1 A.b1
def bh2 : Fin 2048 → Fin 48 → EReal := dense (bh1 A g) A.W2 A.b2
def bh3 : Fin 2048 → Fin 192 → EReal := dense (bh2 A g) A.W3 A.b3
def bh4 : Fin 2048 → Fin 768 → EReal := dense (bh3 A g) A.W4 A.b4
def bh5 : Fin 2048 → Fin 768 → EReal := dense (bh4 A g) A.Wd A.bd
def bemb (r : Fin 2048) (c : Fin 768) : EReal :=
  rowAt (by decide) A.atomEmb (A.atom (ix2 g r)) c + rowAt (by decide) A.aaEmb (A.aa (ix2 g r)) c
def bpre (r : Fin 2048) (c : Fin 768) : EReal := bh5 A g r c + bemb A g r c
def bh : Fin 2048 → Fin 768 → EReal :=
  gln (fun _ : Fin 2048 => g) cntN (bpre A g) (fun c => A.wn (ix1 c)) (fun c => A.bn (ix1 c))
def bhe : Fin 2048 → Fin 128 → EReal := dense (bh A g) A.We A.be

end Cert.Spec

end
-- ==== Proof.LibReal.lean ====
/-
  Real-valued extended reals: closure of "is a real number" under the operations the programs use, the constants'
  values, and the three laws that need finiteness: a quotient by a square root against a product with the reciprocal
  square root, x - x = 0, and the mean of squares of centred values against the mean square minus the squared mean.
-/
import proofs.«402160_j53730040873195_3_alg».proof.Proof.Spec

noncomputable section

namespace Cert.LibReal

open Idealize.ShloMosaic Cert.Spec

theorem isReal_coe (r : ℝ) : IsReal (r : EReal) := ⟨r, rfl⟩
theorem isReal_zero : IsReal 0 := ⟨0, rfl⟩
theorem IsReal.add {a b : EReal} (ha : IsReal a) (hb : IsReal b) : IsReal (a + b) := by
  obtain ⟨x, rfl⟩ := ha; obtain ⟨y, rfl⟩ := hb
  exact ⟨x + y, (EReal.coe_add x y).symm⟩
theorem IsReal.sub {a b : EReal} (ha : IsReal a) (hb : IsReal b) : IsReal (a - b) := by
  obtain ⟨x, rfl⟩ := ha; obtain ⟨y, rfl⟩ := hb
  exact ⟨x - y, (EReal.coe_sub x y).symm⟩
theorem IsReal.mul {a b : EReal} (ha : IsReal a) (hb : IsReal b) : IsReal (a * b) := by
  obtain ⟨x, rfl⟩ := ha; obtain ⟨y, rfl⟩ := hb
  exact ⟨x * y, (EReal.coe_mul x y).symm⟩
theorem IsReal.max {a b : EReal} (ha : IsReal a) (hb : IsReal b) : IsReal (max a b) := by
  rcases le_total a b with h | h
  · rw [max_eq_right h]; exact hb
  · rw [max_eq_left h]; exact ha
theorem IsReal.sum {ι : Type} (s : Finset ι) (f : ι → EReal) (h : ∀ i ∈ s, IsReal (f i)) : IsReal (∑ i ∈ s, f i) :=
  Finset.sum_induction f IsReal (fun _ _ hx hy => IsReal.add hx hy) isReal_zero h
/-- A quotient by a nonzero real. -/
theorem IsReal.div_coe {a : EReal} (ha : IsReal a) {y : ℝ} (hy : y ≠ 0) : IsReal (Ideal.div a (y : EReal)) := by
  rw [Ideal.div_coe hy]; exact IsReal.mul ha (isReal_coe _)

/-- A real-valued extended real is the coercion of its real part. -/
private theorem coe_toReal_of_isReal {a : EReal} (h : IsReal a) : ((a.toReal : ℝ) : EReal) = a := by
  obtain ⟨r, rfl⟩ := h; rw [EReal.toReal_coe]

/-- The coercion of the reals into the extended reals commutes with finite sums. -/
private theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real-valued extended reals is the coercion of the sum of the real parts. -/
private theorem sum_eq_coe {ι : Type} (s : Finset ι) (f : ι → EReal) (hf : ∀ i ∈ s, IsReal (f i)) :
    ∑ i ∈ s, f i = ((∑ i ∈ s, (f i).toReal : ℝ) : EReal) := by
  rw [coe_finset_sum]
  exact Finset.sum_congr rfl (fun i hi => (coe_toReal_of_isReal (hf i hi)).symm)

/-- Square root and reciprocal square root at a positive real. -/
private theorem sqrt_coe_pos {t : ℝ} (ht : 0 < t) : Ideal.sqrt (t : EReal) = ((Real.sqrt t : ℝ) : EReal) := by
  rw [Ideal.sqrt_coe, if_neg (not_lt.mpr ht.le)]
private theorem rsqrt_coe_pos {t : ℝ} (ht : 0 < t) :
    Ideal.rsqrt (t : EReal) = (((Real.sqrt t)⁻¹ : ℝ) : EReal) := by
  rw [Ideal.rsqrt_coe, if_neg (not_lt.mpr ht.le), if_neg ht.ne']

/-- Over the reals: with m the mean, the mean of (g i - m)² is the mean of g i² minus m², the divisor being the
    number of terms. -/
private theorem real_var_identity {ι : Type} (s : Finset ι) (g : ι → ℝ) (y : ℝ) (hy : (s.card : ℝ) = y)
    (hy0 : y ≠ 0) :
    (∑ i ∈ s, (g i - (∑ j ∈ s, g j) * (1 / y)) * (g i - (∑ j ∈ s, g j) * (1 / y))) * (1 / y)
      = (∑ i ∈ s, g i * g i) * (1 / y) - (∑ j ∈ s, g j) * (1 / y) * ((∑ j ∈ s, g j) * (1 / y)) := by
  generalize hS : ∑ j ∈ s, g j = S
  have e : ∀ i, (g i - S * (1 / y)) * (g i - S * (1 / y))
      = g i * g i - 2 * (S * (1 / y)) * g i + S * (1 / y) * (S * (1 / y)) := fun i => by ring
  rw [Finset.sum_congr rfl (fun i _ => e i), Finset.sum_add_distrib, Finset.sum_sub_distrib, ← Finset.mul_sum,
    Finset.sum_const, nsmul_eq_mul, hS, hy]
  generalize ∑ i ∈ s, g i * g i = Q
  field_simp
  ring

/-- The layer norms' epsilon is a positive real. -/
theorem eps_pos : ∃ r : ℝ, 0 < r ∧ eps = (r : EReal) := by
  refine ⟨(10995116 : ℝ) * (2 : ℝ) ^ (-40 : ℤ), by positivity, ?_⟩
  simp [eps, Ideal.ofBits, Ideal.ieee, -EReal.coe_mul]
theorem half_eq : half = ((1 / 2 : ℝ) : EReal) := by
  simp [half, Ideal.ofBits, Ideal.ieee, -EReal.coe_mul]; norm_num
/-- The zero word. -/
theorem ofBits_zero : Ideal.ofBits .f32 0x00000000#32 = 0 := by
  simp [Ideal.ofBits, Ideal.ieee]
/-- The counts as the kernel's words spell them: 6144, 1572864, 4456448, 34816, 128. -/
theorem ofBits_6144 : Ideal.ofBits .f32 0x45C00000#32 = cntC := by
  simp [cntC, Ideal.ofBits, Ideal.ieee, -EReal.coe_mul]; norm_num
theorem ofBits_1572864 : Ideal.ofBits .f32 0x49C00000#32 = cntN := by
  simp [cntN, Ideal.ofBits, Ideal.ieee, -EReal.coe_mul]; norm_num
theorem ofBits_4456448 : Ideal.ofBits .f32 0x4A880000#32 = cntE := by
  simp [cntE, Ideal.ofBits, Ideal.ieee, -EReal.coe_mul]; norm_num
theorem ofBits_34816 : Ideal.ofBits .f32 0x47080000#32 = cntP := by
  simp [cntP, Ideal.ofBits, Ideal.ieee, -EReal.coe_mul]; norm_num
theorem ofBits_128 : Ideal.ofBits .f32 0x43000000#32 = cntG := by
  simp [cntG, Ideal.ofBits, Ideal.ieee, -EReal.coe_mul]; norm_num
/-- The reference's words one, three, 768. -/
theorem ofBits_one : Ideal.ofBits .f32 0x3F800000#32 = 1 := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_768 : Ideal.ofBits .f32 0x44400000#32 = ((768 : ℝ) : EReal) := by
  simp [Ideal.ofBits, Ideal.ieee, -EReal.coe_mul]; norm_num

/-- A non-negative real plus epsilon is a positive real. -/
private theorem add_eps_pos {v : EReal} (hv : IsReal v) (h0 : 0 ≤ v) : ∃ t : ℝ, 0 < t ∧ v + eps = (t : EReal) := by
  obtain ⟨r, rfl⟩ := hv
  obtain ⟨e, he, hE⟩ := eps_pos
  refine ⟨r + e, add_pos_of_nonneg_of_pos (EReal.coe_nonneg.mp h0) he, ?_⟩
  rw [hE, EReal.coe_add]

/-- Sums of products of real-valued extended reals, shifted or not, as coercions of the sums over the real parts. -/
private theorem sum_sq_sub_eq_coe {ι : Type} (s : Finset ι) (f : ι → EReal) (hf : ∀ i ∈ s, IsReal (f i)) (m : ℝ) :
    ∑ i ∈ s, (f i - (m : EReal)) * (f i - (m : EReal))
      = ((∑ i ∈ s, ((f i).toReal - m) * ((f i).toReal - m) : ℝ) : EReal) := by
  rw [coe_finset_sum]
  refine Finset.sum_congr rfl (fun i hi => ?_)
  obtain ⟨r, hr⟩ := hf i hi
  rw [hr, EReal.toReal_coe, ← EReal.coe_sub, ← EReal.coe_mul]
private theorem sum_sq_eq_coe {ι : Type} (s : Finset ι) (f : ι → EReal) (hf : ∀ i ∈ s, IsReal (f i)) :
    ∑ i ∈ s, f i * f i = ((∑ i ∈ s, (f i).toReal * (f i).toReal : ℝ) : EReal) := by
  rw [coe_finset_sum]
  refine Finset.sum_congr rfl (fun i hi => ?_)
  obtain ⟨r, hr⟩ := hf i hi
  rw [hr, EReal.toReal_coe, ← EReal.coe_mul]

/-- The reciprocal square root of a non-negative real plus epsilon is a real. -/
theorem IsReal.rsqrt_add_eps {v : EReal} (hv : IsReal v) (h0 : 0 ≤ v) : IsReal (Ideal.rsqrt (v + eps)) := by
  obtain ⟨t, ht, hE⟩ := add_eps_pos hv h0
  rw [hE, rsqrt_coe_pos ht]; exact isReal_coe _
/-- Dividing by the square root is multiplying by the reciprocal square root, above zero. -/
theorem div_sqrt_eq_mul_rsqrt (a v : EReal) (hv : IsReal v) (h0 : 0 ≤ v) :
    Ideal.div a (Ideal.sqrt (v + eps)) = a * Ideal.rsqrt (v + eps) := by
  obtain ⟨t, ht, hE⟩ := add_eps_pos hv h0
  rw [hE, sqrt_coe_pos ht, rsqrt_coe_pos ht, Ideal.div_coe (Real.sqrt_pos.mpr ht).ne', one_div]
theorem sub_self_of_isReal {a : EReal} (h : IsReal a) : a - a = 0 := by
  obtain ⟨r, rfl⟩ := h; rw [← EReal.coe_sub, sub_self, EReal.coe_zero]
theorem add_self_mul_half {a : EReal} (h : IsReal a) : (a + a) * half = a := by
  obtain ⟨r, rfl⟩ := h
  rw [half_eq, ← EReal.coe_add, ← EReal.coe_mul]; congr 1; ring
/-- A sum of squares of reals over a positive real is non-negative and real. -/
theorem div_sum_sq_nonneg {ι : Type} (s : Finset ι) (f : ι → EReal) (hf : ∀ i ∈ s, IsReal (f i)) {y : ℝ} (hy : 0 < y) :
    0 ≤ Ideal.div (∑ i ∈ s, f i * f i) (y : EReal) := by
  have hsq : ∀ i ∈ s, IsReal (f i * f i) := fun i hi => IsReal.mul (hf i hi) (hf i hi)
  rw [Ideal.div_coe hy.ne', sum_eq_coe s _ hsq, ← EReal.coe_mul, EReal.coe_nonneg]
  refine mul_nonneg (Finset.sum_nonneg fun i hi => ?_) (one_div_pos.mpr hy).le
  obtain ⟨r, hr⟩ := hf i hi
  rw [hr, ← EReal.coe_mul, EReal.toReal_coe]; exact mul_self_nonneg r
/-- The mean of the squares of the centred values is the mean square minus the squared mean, for real values and
    the count as divisor. -/
theorem var_identity {ι : Type} (s : Finset ι) (f : ι → EReal) (hf : ∀ i ∈ s, IsReal (f i)) (y : ℝ)
    (hy : (s.card : ℝ) = y) (hy0 : y ≠ 0) :
    Ideal.div (∑ i ∈ s, (f i - Ideal.div (∑ j ∈ s, f j) (y : EReal)) * (f i - Ideal.div (∑ j ∈ s, f j) (y : EReal))) (y : EReal)
      = Ideal.div (∑ i ∈ s, f i * f i) (y : EReal)
        - Ideal.div (∑ j ∈ s, f j) (y : EReal) * Ideal.div (∑ j ∈ s, f j) (y : EReal) := by
  have hm : Ideal.div (∑ j ∈ s, f j) (y : EReal) = (((∑ j ∈ s, (f j).toReal) * (1 / y) : ℝ) : EReal) := by
    rw [Ideal.div_coe hy0, sum_eq_coe s f hf, ← EReal.coe_mul]
  rw [hm, sum_sq_sub_eq_coe s f hf, sum_sq_eq_coe s f hf, Ideal.div_coe hy0, Ideal.div_coe hy0,
    ← EReal.coe_mul, ← EReal.coe_mul, ← EReal.coe_mul, ← EReal.coe_sub]
  congr 1
  exact real_var_identity s (fun i => (f i).toReal) y hy hy0

end Cert.LibReal

end
-- ==== Proof.LibSeg.lean ====
/-
  Sums over the rows of one graph: the rows whose graph is g, as the graph's own run of consecutive rows; the block
  specification read at a graph's rows.
-/
import proofs.«402160_j53730040873195_3_alg».proof.Proof.BlockSpec

noncomputable section

namespace Cert.LibSeg

open Idealize.ShloMosaic Idealize.ShloMosaic.ValueIdx Cert.Spec

variable {M : Type} [AddCommMonoid M]

theorem gN_row (g : Fin 16) (r : Fin 2048) : gN (row g r) = g := by
  apply Fin.ext
  simp only [gN, row]
  omega
theorem rN_row (g : Fin 16) (r : Fin 2048) : rN (row g r) = r := by
  apply Fin.ext
  simp only [rN, row]
  omega
theorem row_gN_rN (n : Fin 32768) : row (gN n) (rN n) = n := by
  apply Fin.ext
  simp only [gN, rN, row]
  omega

/-- The nodes of graph g are its 2048 consecutive rows. -/
theorem sum_filter_gN (v : Fin 32768 → M) (g : Fin 16) :
    ∑ n ∈ Finset.univ.filter (fun n => gN n = g), v n = ∑ r : Fin 2048, v (row g r) := by
  refine Finset.sum_nbij' (fun n => rN n) (fun r => row g r) ?_ ?_ ?_ ?_ ?_
  · intro n _; exact Finset.mem_univ _
  · intro r _
    rw [Finset.mem_filter]
    exact ⟨Finset.mem_univ _, gN_row g r⟩
  · intro n hn
    rw [Finset.mem_filter] at hn
    rw [← hn.2]; exact row_gN_rN n
  · intro r _; exact rN_row g r
  · intro n hn
    rw [Finset.mem_filter] at hn
    rw [← hn.2, row_gN_rN n]

/-- The graph of an edge row below 524288 and of a self-loop row. -/
theorem gE_val_lt (e : Fin 557056) (h : e.val < 524288) : (gE e).val = e.val / 32768 := by
  unfold gE; rw [dif_pos h]
theorem gE_val_ge (e : Fin 557056) (h : ¬ e.val < 524288) : (gE e).val = (e.val - 524288) / 2048 := by
  unfold gE; rw [dif_neg h]

/-- The edges proper of graph g. -/
theorem sum_filter_gE_lt (v : Fin 557056 → M) (g : Fin 16) :
    ∑ e ∈ (Finset.univ.filter (fun e => gE e = g)).filter (fun e : Fin 557056 => e.val < 524288), v e
      = ∑ r : Fin 32768, v ⟨g.val * 32768 + r.val, by omega⟩ := by
  refine Finset.sum_nbij' (fun e => (⟨e.val % 32768, by omega⟩ : Fin 32768))
    (fun r => (⟨g.val * 32768 + r.val, by omega⟩ : Fin 557056)) ?_ ?_ ?_ ?_ ?_
  · intro e _; exact Finset.mem_univ _
  · intro r _
    have hr : g.val * 32768 + r.val < 524288 := by omega
    rw [Finset.mem_filter, Finset.mem_filter]
    refine ⟨⟨Finset.mem_univ _, ?_⟩, hr⟩
    apply Fin.ext
    rw [gE_val_lt _ hr]
    show (g.val * 32768 + r.val) / 32768 = g.val
    omega
  · intro e he
    rw [Finset.mem_filter, Finset.mem_filter] at he
    have h1 := gE_val_lt e he.2
    have h2 : (gE e).val = g.val := congrArg Fin.val he.1.2
    apply Fin.ext
    show g.val * 32768 + e.val % 32768 = e.val
    omega
  · intro r _
    apply Fin.ext
    show (g.val * 32768 + r.val) % 32768 = r.val
    omega
  · intro e he
    rw [Finset.mem_filter, Finset.mem_filter] at he
    have h1 := gE_val_lt e he.2
    have h2 : (gE e).val = g.val := congrArg Fin.val he.1.2
    refine congrArg v (Fin.ext ?_)
    show e.val = g.val * 32768 + e.val % 32768
    omega

/-- The self loops of graph g. -/
theorem sum_filter_gE_ge (v : Fin 557056 → M) (g : Fin 16) :
    ∑ e ∈ (Finset.univ.filter (fun e => gE e = g)).filter (fun e : Fin 557056 => ¬ e.val < 524288), v e
      = ∑ r : Fin 2048, v ⟨524288 + g.val * 2048 + r.val, by omega⟩ := by
  refine Finset.sum_nbij' (fun e => (⟨(e.val - 524288) % 2048, by omega⟩ : Fin 2048))
    (fun r => (⟨524288 + g.val * 2048 + r.val, by omega⟩ : Fin 557056)) ?_ ?_ ?_ ?_ ?_
  · intro e _; exact Finset.mem_univ _
  · intro r _
    have hr : ¬ (524288 + g.val * 2048 + r.val < 524288) := by omega
    rw [Finset.mem_filter, Finset.mem_filter]
    refine ⟨⟨Finset.mem_univ _, ?_⟩, hr⟩
    apply Fin.ext
    rw [gE_val_ge _ hr]
    show (524288 + g.val * 2048 + r.val - 524288) / 2048 = g.val
    omega
  · intro e he
    rw [Finset.mem_filter, Finset.mem_filter] at he
    have h1 := gE_val_ge e he.2
    have h2 : (gE e).val = g.val := congrArg Fin.val he.1.2
    have h3 := e.isLt
    apply Fin.ext
    show 524288 + g.val * 2048 + (e.val - 524288) % 2048 = e.val
    omega
  · intro r _
    apply Fin.ext
    show (524288 + g.val * 2048 + r.val - 524288) % 2048 = r.val
    omega
  · intro e he
    rw [Finset.mem_filter, Finset.mem_filter] at he
    have h1 := gE_val_ge e he.2
    have h2 : (gE e).val = g.val := congrArg Fin.val he.1.2
    have h3 := e.isLt
    refine congrArg v (Fin.ext ?_)
    show e.val = 524288 + g.val * 2048 + (e.val - 524288) % 2048
    omega

/-- The edge rows of graph g: its run of 32768 edges, then its run of 2048 self loops. -/
theorem sum_filter_gE (v : Fin 557056 → M) (g : Fin 16) :
    ∑ e ∈ Finset.univ.filter (fun e => gE e = g), v e
      = (∑ r : Fin 32768, v ⟨g.val * 32768 + r.val, by omega⟩) + ∑ r : Fin 2048, v ⟨524288 + g.val * 2048 + r.val, by omega⟩ := by
  rw [← sum_filter_gE_lt v g, ← sum_filter_gE_ge v g]
  exact (Finset.sum_filter_add_sum_filter_not _ _ _).symm

/-- A graph's run of 32768 edges as four chunks of 8192. -/
theorem sum_chunks (v : Fin 32768 → M) :
    ∑ r : Fin 32768, v r = ∑ k : Fin 4, ∑ j : Fin 8192, v ⟨k.val * 8192 + j.val, by omega⟩ := by
  rw [← Fintype.sum_prod_type' (f := fun (k : Fin 4) (j : Fin 8192) => v ⟨k.val * 8192 + j.val, by omega⟩)]
  refine Finset.sum_nbij' (fun r => ((⟨r.val / 8192, by omega⟩ : Fin 4), (⟨r.val % 8192, by omega⟩ : Fin 8192)))
    (fun p => (⟨p.1.val * 8192 + p.2.val, by omega⟩ : Fin 32768)) ?_ ?_ ?_ ?_ ?_
  · intro r _; exact Finset.mem_univ _
  · intro p _; exact Finset.mem_univ _
  · intro r _
    apply Fin.ext
    show r.val / 8192 * 8192 + r.val % 8192 = r.val
    omega
  · intro p _
    apply Prod.ext
    · apply Fin.ext
      show (p.1.val * 8192 + p.2.val) / 8192 = p.1.val
      omega
    · apply Fin.ext
      show (p.1.val * 8192 + p.2.val) % 8192 = p.2.val
      omega
  · intro r _
    refine congrArg v (Fin.ext ?_)
    show r.val = r.val / 8192 * 8192 + r.val % 8192
    omega

theorem sum_filter_eq (v : Fin 16 → M) (g : Fin 16) :
    ∑ n ∈ Finset.univ.filter (fun n : Fin 16 => n = g), v n = v g := by
  rw [Finset.filter_eq', if_pos (Finset.mem_univ _), Finset.sum_singleton]

theorem card_filter_gN (g : Fin 16) : (Finset.univ.filter (fun n => gN n = g)).card = 2048 := by
  rw [Finset.card_eq_sum_ones, sum_filter_gN (fun _ => 1) g]
  simp
theorem card_filter_gE (g : Fin 16) : (Finset.univ.filter (fun e => gE e = g)).card = 34816 := by
  rw [Finset.card_eq_sum_ones, sum_filter_gE (fun _ => 1) g]
  simp

section
variable {C : ℕ} (cnt : EReal) (X : Fin 32768 → Fin C → EReal) (g : Fin 16)

/-- Over a constant group every row belongs to the group. -/
theorem filter_const (g : Fin 16) :
    (Finset.univ.filter (fun _ : Fin 2048 => g = g)) = Finset.univ :=
  Finset.filter_true_of_mem (fun _ _ => rfl)

/-- Graph g's mean over all nodes is the mean of its own rows. -/
theorem gmean_row : gmean gN cnt X g = gmean (fun _ : Fin 2048 => g) cnt (fun r c => X (row g r) c) g := by
  unfold gmean
  rw [sum_filter_gN (fun n => ∑ c, X n c) g, filter_const g]

/-- A centred entry at a row of graph g. -/
theorem gcen_row (r : Fin 2048) (c : Fin C) :
    gcen gN cnt X (row g r) c = gcen (fun _ : Fin 2048 => g) cnt (fun r c => X (row g r) c) r c := by
  unfold gcen
  rw [gN_row g r, gmean_row cnt X g]

/-- Graph g's variance over all nodes is the variance of its own rows. -/
theorem gvar_row : gvar gN cnt X g = gvar (fun _ : Fin 2048 => g) cnt (fun r c => X (row g r) c) g := by
  unfold gvar
  rw [sum_filter_gN (fun n => ∑ c, gcen gN cnt X n c * gcen gN cnt X n c) g, filter_const g]
  refine congrArg (fun s => Ideal.div s cnt) ?_
  refine Finset.sum_congr rfl (fun r _ => Finset.sum_congr rfl (fun c _ => ?_))
  rw [gcen_row cnt X g r c]
end

/-- The graph layer norm over all nodes, read at a row of graph g, is the layer norm of graph g's rows by themselves. -/
theorem gln_row {C : ℕ} (cnt : EReal) (X : Fin 32768 → Fin C → EReal) (w b : Fin C → EReal) (g : Fin 16) (r : Fin 2048) (c : Fin C) :
    gln gN cnt X w b (row g r) c = gln (fun _ : Fin 2048 => g) cnt (fun r c => X (row g r) c) w b r c := by
  unfold gln
  rw [gcen_row cnt X g r c, gN_row g r, gvar_row cnt X g]

/-- A dense layer reads one row of its input. -/
theorem dense_row {R R' K J : ℕ} (X : Fin R → Fin K → EReal) (Y : Fin R' → Fin K → EReal)
    (W : Vec Ideal (Sh2 K J) .f32) (b : Vec Ideal (Sh1 J) .f32) (n : Fin R) (m : Fin R') (hXY : ∀ k, X n k = Y m k) (j : Fin J) :
    dense X W b n j = dense Y W b m j := by
  unfold dense
  refine congrArg (fun s => max (s + b (ix1 j)) 0) ?_
  exact Finset.sum_congr rfl (fun k _ => by rw [hXY k])

section
variable (A : Args) (g : Fin 16) (r : Fin 2048)

theorem bh0_eq (c : Fin 3) : bh0 A g r c = h0 A (row g r) c := by
  unfold bh0 h0
  exact (gln_row cntC (xin A) _ _ g r c).symm
theorem bh1_eq (c : Fin 12) : bh1 A g r c = h1 A (row g r) c :=
  dense_row _ _ _ _ r (row g r) (bh0_eq A g r) c
theorem bh2_eq (c : Fin 48) : bh2 A g r c = h2 A (row g r) c :=
  dense_row _ _ _ _ r (row g r) (bh1_eq A g r) c
theorem bh3_eq (c : Fin 192) : bh3 A g r c = h3 A (row g r) c :=
  dense_row _ _ _ _ r (row g r) (bh2_eq A g r) c
theorem bh4_eq (c : Fin 768) : bh4 A g r c = h4 A (row g r) c :=
  dense_row _ _ _ _ r (row g r) (bh3_eq A g r) c
theorem bh5_eq (c : Fin 768) : bh5 A g r c = h5 A (row g r) c :=
  dense_row _ _ _ _ r (row g r) (bh4_eq A g r) c
theorem bemb_eq (c : Fin 768) : bemb A g r c = emb A (row g r) c := by
  unfold bemb emb
  rw [gN_row g r, rN_row g r]
theorem bpre_eq (c : Fin 768) : bpre A g r c = pre A (row g r) c := by
  unfold bpre pre
  rw [bh5_eq A g r c, bemb_eq A g r c]
end

/-- The block chain is the whole chain at the graph's rows. -/
theorem bh_eq (A : Args) (g : Fin 16) (r : Fin 2048) (c : Fin 768) : bh A g r c = h A (row g r) c := by
  have hpre : bpre A g = fun r c => pre A (row g r) c := funext (fun r => funext (fun c => bpre_eq A g r c))
  unfold bh h
  rw [hpre]
  exact (gln_row cntN (pre A) _ _ g r c).symm
theorem bhe_eq (A : Args) (g : Fin 16) (r : Fin 2048) (c : Fin 128) : bhe A g r c = he A (row g r) c :=
  dense_row _ _ _ _ r (row g r) (bh_eq A g r) c

end Cert.LibSeg

end
-- ==== Proof.SpecFinite.lean ====
/-
  On the statement's domain every stage of the specification is a real number, and every variance is non-negative.

  Realness is closed under sums, differences, products, maxima, finite sums and quotients by a nonzero real, so
  it passes through a mean; a variance is a quotient of a sum of real squares by a positive real, hence real and
  non-negative, so its reciprocal square root after adding epsilon is real too. Every stage is built from such
  pieces out of entries that the domain makes real.
-/
import proofs.«402160_j53730040873195_3_alg».proof.Proof.LibReal
import proofs.«402160_j53730040873195_3_alg».proof.Proof.LibSeg

noncomputable section

namespace Cert.SpecFinite

open Idealize.ShloMosaic Cert.Spec Cert.LibReal

variable (A : Args)

/-- The sum of one graph's entries, rows then features, is real when every entry is. -/
theorem gsum_real {R C : ℕ} (grp : Fin R → Fin 16) (X : Fin R → Fin C → EReal) (hX : ∀ n c, IsReal (X n c)) (g : Fin 16) :
    IsReal (∑ n ∈ Finset.univ.filter (fun n => grp n = g), ∑ c, X n c) :=
  IsReal.sum _ _ (fun n _ => IsReal.sum _ _ (fun c _ => hX n c))

theorem gmean_real {R C : ℕ} (grp : Fin R → Fin 16) (y : ℝ) (hy : 0 < y) (X : Fin R → Fin C → EReal) (hX : ∀ n c, IsReal (X n c)) (g : Fin 16) :
    IsReal (gmean grp (y : EReal) X g) := by
  unfold gmean
  exact IsReal.div_coe (gsum_real grp X hX g) (ne_of_gt hy)

/-- A centred entry is a difference of two reals. -/
theorem gcen_real {R C : ℕ} (grp : Fin R → Fin 16) (y : ℝ) (hy : 0 < y) (X : Fin R → Fin C → EReal) (hX : ∀ n c, IsReal (X n c))
    (n : Fin R) (c : Fin C) : IsReal (gcen grp (y : EReal) X n c) := by
  unfold gcen
  exact IsReal.sub (hX n c) (gmean_real grp y hy X hX (grp n))

/-- A graph layer norm of real entries by real weights, with a positive real count, is real; its variance is non-negative and real. -/
theorem gvar_nonneg {R C : ℕ} (grp : Fin R → Fin 16) (y : ℝ) (hy : 0 < y) (X : Fin R → Fin C → EReal) (hX : ∀ n c, IsReal (X n c)) (g : Fin 16) :
    0 ≤ gvar grp (y : EReal) X g ∧ IsReal (gvar grp (y : EReal) X g) := by
  have hc := gcen_real grp y hy X hX
  refine ⟨?_, ?_⟩
  · -- the rows-then-features double sum is one sum over pairs, every term the square of a real
    unfold gvar
    rw [← Finset.sum_product' (Finset.univ.filter (fun n => grp n = g)) Finset.univ
      (fun n c => gcen grp (y : EReal) X n c * gcen grp (y : EReal) X n c)]
    exact div_sum_sq_nonneg _ (fun p : Fin R × Fin C => gcen grp (y : EReal) X p.1 p.2) (fun p _ => hc p.1 p.2) hy
  · unfold gvar
    exact IsReal.div_coe (gsum_real grp _ (fun n c => IsReal.mul (hc n c) (hc n c)) g) (ne_of_gt hy)

theorem gln_real {R C : ℕ} (grp : Fin R → Fin 16) (y : ℝ) (hy : 0 < y) (X : Fin R → Fin C → EReal) (hX : ∀ n c, IsReal (X n c))
    (w b : Fin C → EReal) (hw : ∀ c, IsReal (w c)) (hb : ∀ c, IsReal (b c)) (n : Fin R) (c : Fin C) :
    IsReal (gln grp (y : EReal) X w b n c) := by
  obtain ⟨h0, hr⟩ := gvar_nonneg grp y hy X hX (grp n)
  unfold gln
  exact IsReal.add (IsReal.mul (IsReal.mul (gcen_real grp y hy X hX n c) (IsReal.rsqrt_add_eps hr h0)) (hw c)) (hb c)

theorem dense_real {R K J : ℕ} (X : Fin R → Fin K → EReal) (hX : ∀ n k, IsReal (X n k)) (W : Vec Ideal (Sh2 K J) .f32) (hW : ∀ i, IsReal (W i))
    (b : Vec Ideal (Sh1 J) .f32) (hb : ∀ i, IsReal (b i)) (n : Fin R) (j : Fin J) : IsReal (dense X W b n j) := by
  unfold dense
  exact IsReal.max (IsReal.add (IsReal.sum _ _ (fun k _ => IsReal.mul (hX n k) (hW _))) (hb _)) isReal_zero

theorem h0_real (hA : A.Ok) : ∀ n c, IsReal (h0 A n c) := by
  intro n c
  unfold h0 cntC
  exact gln_real gN 6144 (by norm_num) (xin A) (fun n c => hA.x _) _ _ (fun c => hA.wc _) (fun c => hA.bc _) n c
theorem h1_real (hA : A.Ok) : ∀ n c, IsReal (h1 A n c) := by
  intro n c
  unfold h1
  exact dense_real _ (h0_real A hA) _ hA.W1 _ hA.b1 n c
theorem h2_real (hA : A.Ok) : ∀ n c, IsReal (h2 A n c) := by
  intro n c
  unfold h2
  exact dense_real _ (h1_real A hA) _ hA.W2 _ hA.b2 n c
theorem h3_real (hA : A.Ok) : ∀ n c, IsReal (h3 A n c) := by
  intro n c
  unfold h3
  exact dense_real _ (h2_real A hA) _ hA.W3 _ hA.b3 n c
theorem h4_real (hA : A.Ok) : ∀ n c, IsReal (h4 A n c) := by
  intro n c
  unfold h4
  exact dense_real _ (h3_real A hA) _ hA.W4 _ hA.b4 n c
theorem h5_real (hA : A.Ok) : ∀ n c, IsReal (h5 A n c) := by
  intro n c
  unfold h5
  exact dense_real _ (h4_real A hA) _ hA.Wd _ hA.bd n c
theorem emb_real (hA : A.Ok) : ∀ n c, IsReal (emb A n c) := by
  intro n c
  unfold emb rowAt
  exact IsReal.add (hA.atomEmb _) (hA.aaEmb _)
theorem pre_real (hA : A.Ok) : ∀ n c, IsReal (pre A n c) := by
  intro n c
  unfold pre
  exact IsReal.add (h5_real A hA n c) (emb_real A hA n c)
theorem h_real (hA : A.Ok) : ∀ n c, IsReal (h A n c) := by
  intro n c
  unfold h cntN
  exact gln_real gN 1572864 (by norm_num) (pre A) (pre_real A hA) _ _ (fun c => hA.wn _) (fun c => hA.bn _) n c
theorem he_real (hA : A.Ok) : ∀ n c, IsReal (he A n c) := by
  intro n c
  unfold he
  exact dense_real _ (h_real A hA) _ hA.We _ hA.be n c
theorem avg_real (hA : A.Ok) : ∀ n c, IsReal (avg A n c) := by
  intro n c
  have hh : IsReal half := by rw [half_eq]; exact isReal_coe _
  unfold avg
  split
  · exact IsReal.mul (IsReal.add (he_real A hA _ c) (he_real A hA _ c)) hh
  · exact he_real A hA _ c
theorem attr_real (hA : A.Ok) : ∀ n c, IsReal (attr A n c) := by
  intro n c
  unfold attr cntE
  exact gln_real gE 4456448 (by norm_num) (avg A) (avg_real A hA) _ _ (fun c => hA.wle _) (fun c => hA.ble _) n c
theorem gact_real (hA : A.Ok) : ∀ n c, IsReal (gact A n c) := by
  intro n c
  unfold gact
  exact dense_real _ (attr_real A hA) _ hA.Wg _ hA.bg n c
theorem pooled_real (hA : A.Ok) : ∀ g c, IsReal (pooled A g c) := by
  intro g c
  unfold pooled cntP
  exact IsReal.div_coe (IsReal.sum _ _ (fun e _ => gact_real A hA e c)) (by norm_num)
theorem u_real (hA : A.Ok) : ∀ g c, IsReal (u A g c) := by
  intro g c
  unfold u cntG
  exact gln_real (fun g : Fin 16 => g) 128 (by norm_num) (pooled A) (pooled_real A hA) _ _ (fun c => hA.wlg _) (fun c => hA.blg _) g c

end Cert.SpecFinite

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.KNodeBodyAux1.lean ====
/-
  Reading the first kernel's vector operations at an index, over the extended reals, for any extents: a bias row
  spread over the rows, the sum along the lanes, the total of a column, a single value spread over a matrix, a column
  spread over the lanes, the matrix product into a zero accumulator, and the product of a one-hot row with a table.
-/
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Idealize.ShloMosaic.Lib.StableHlo.Predicate

noncomputable section

namespace Cert.KNodeAux

open Idealize.ShloMosaic Idealize.ShloMosaic.ValueIdx Idealize.ShloMosaic.StableHlo

variable {α : Type} {a b : ℕ}

/-- A row [b] viewed [1, b] and spread over a rows reads, at (p, c), the row at c. -/
theorem rowSpread_apply (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) := by
  rw [broadcastTo_1b_ab_apply, shapeCast_a_1a_apply]

/-- A single value [1, 1] spread over a matrix reads that value everywhere. -/
theorem oneSpread_apply (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column [a, 1] spread over b lanes reads, at (p, c), the column at p. -/
theorem colSpread_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (p, u), the vector at p. -/
theorem colCast_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the lanes of a matrix, at row r. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  match d with
  | ⟨0, _⟩ => exact Fin.ext rfl
  | ⟨1, _⟩ => exact Fin.ext rfl

/-- The total of a column [a, 1] into [1], at its one index. -/
theorem colTotal_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun c _ => congrArg src ?_
  funext d
  match d with
  | ⟨0, _⟩ => exact Fin.ext rfl
  | ⟨1, _⟩ => exact Fin.ext (by show (u : ℕ) = 0; omega)

/-- The kernel's total of a matrix: lane sums, as a column, summed, viewed [1, 1]. -/
theorem total_apply (src : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ hφ' : FKind.Formats .f32) (hacc hacc' : (0x00000000#32 : BitVec 32) = 0x00000000#32) :
    shapeCast ⟨2, ![1, 1]⟩ (multiReduction .add [0] ⟨1, ![1]⟩
        (shapeCast ⟨2, ![a, 1]⟩ (multiReduction .add [1] ⟨1, ![a]⟩ src 0x00000000#32 h1 hφ hacc) h2)
        0x00000000#32 h3 hφ' hacc') h4 (ix2 (0 : Fin 1) (0 : Fin 1))
      = ∑ r : Fin a, ∑ c : Fin b, src (ix2 r c) := by
  rw [shapeCast_a_1a_apply, colTotal_apply]
  refine Finset.sum_congr rfl fun r _ => ?_
  rw [colCast_apply, laneSum_apply]

/-- The total of a column of row sums already formed: as a column, summed, viewed [1, 1]. -/
theorem colTotal11_apply (src : FVec Ideal ⟨2, ![a, 1]⟩ .f32) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32) :
    shapeCast ⟨2, ![1, 1]⟩ (multiReduction .add [0] ⟨1, ![1]⟩ src 0x00000000#32 h3 hφ hacc) h4 (ix2 (0 : Fin 1) (0 : Fin 1))
      = ∑ r : Fin a, src (ix2 r (0 : Fin 1)) := by
  rw [shapeCast_a_1a_apply, colTotal_apply]

/-- The kernel's total of a matrix read before the last view: lane sums, as a column, summed, at the one index. -/
theorem total1_apply (src : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (hφ hφ' : FKind.Formats .f32) (hacc hacc' : (0x00000000#32 : BitVec 32) = 0x00000000#32)
    (u : Fin 1) :
    multiReduction .add [0] ⟨1, ![1]⟩
        (shapeCast ⟨2, ![a, 1]⟩ (multiReduction .add [1] ⟨1, ![a]⟩ src 0x00000000#32 h1 hφ hacc) h2)
        0x00000000#32 h3 hφ' hacc' (ix1 u)
      = ∑ r : Fin a, ∑ c : Fin b, src (ix2 r c) := by
  rw [colTotal_apply]
  refine Finset.sum_congr rfl fun r _ => ?_
  rw [colCast_apply, laneSum_apply]

/-- A matrix minus its mean over every entry (the total over a count), at (p, c), the entries named by P. -/
theorem centre_apply (V : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩) (h5 : (⟨2, ![1, 1]⟩ : Shape).Broadcasts ⟨2, ![a, b]⟩)
    (hφ hφ' : FKind.Formats .f32) (hacc hacc' : (0x00000000#32 : BitVec 32) = 0x00000000#32) (cst : Ideal .f32)
    (P : Fin a → Fin b → EReal) (hV : ∀ r k, V (ix2 r k) = P r k) (p : Fin a) (c : Fin b) :
    subf V (broadcastTo ⟨2, ![a, b]⟩ (divf (shapeCast ⟨2, ![1, 1]⟩ (multiReduction .add [0] ⟨1, ![1]⟩
        (shapeCast ⟨2, ![a, 1]⟩ (multiReduction .add [1] ⟨1, ![a]⟩ V 0x00000000#32 h1 hφ hacc) h2)
        0x00000000#32 h3 hφ' hacc') h4) (broadcast ⟨2, ![1, 1]⟩ cst)) h5) (ix2 p c)
      = P p c - Ideal.div (∑ r, ∑ k, P r k) cst := by
  rw [subf_apply, oneSpread_apply, divf_apply, total_apply, broadcast_apply]
  simp only [hV]

/-- The reciprocal square root of a vector read at an index. -/
theorem rsqrt_apply {s : Shape} {φ : FTy} (x : FVec Ideal s φ) (i : s.Idx) : rsqrt x i = Ideal.rsqrt (x i) := rfl

/-- The scale of a layer norm spread over a matrix: the reciprocal square root of (a column's total over a count,
    plus a constant), at any (p, c). -/
theorem scale_apply (col : FVec Ideal ⟨2, ![a, 1]⟩ .f32) (h3 : (⟨2, ![a, 1]⟩ : Shape).Reduces [0] ⟨1, ![1]⟩)
    (h4 : (⟨1, ![1]⟩ : Shape).ShapeCasts ⟨2, ![1, 1]⟩) (h5 : (⟨2, ![1, 1]⟩ : Shape).Broadcasts ⟨2, ![a, b]⟩)
    (hφ : FKind.Formats .f32) (hacc : (0x00000000#32 : BitVec 32) = 0x00000000#32) (cst e : Ideal .f32)
    (p : Fin a) (c : Fin b) :
    broadcastTo ⟨2, ![a, b]⟩ (rsqrt (addf (divf (shapeCast ⟨2, ![1, 1]⟩ (multiReduction .add [0] ⟨1, ![1]⟩ col
        0x00000000#32 h3 hφ hacc) h4) (broadcast ⟨2, ![1, 1]⟩ cst)) (broadcast ⟨2, ![1, 1]⟩ e))) h5 (ix2 p c)
      = Ideal.rsqrt (Ideal.div (∑ r : Fin a, col (ix2 r (0 : Fin 1))) cst + e) := by
  rw [oneSpread_apply, rsqrt_apply, addf_apply, divf_apply, colTotal11_apply, broadcast_apply, broadcast_apply]

/-- An integer comparison of two vectors read at an index. -/
theorem cmpi_apply {s : Shape} {w : ℕ} (p : CmpIPredicate) (x y : IVec s w) (i : s.Idx) :
    cmpi p x y i = IntOp.cmpi p (x i) (y i) := rfl

/-- An integer read as a float, on the extended reals: its signed value. -/
theorem sitofp_ideal {w : ℕ} (φ : FTy) (x : BitVec w) : FloatOps.sitofp (F := Ideal) φ x = ((x.toInt : ℝ) : EReal) := rfl

/-- The lane number of a matrix, at (p, c): c. -/
theorem laneIota_apply (κ : Kind) (w : ℕ) (h : (⟨2, ![a, b]⟩ : Shape).Iotas κ w [1]) (p : Fin a) (c : Fin b) :
    iota κ ⟨2, ![a, b]⟩ w [1] h (ix2 p c) = BitVec.ofNat w c.val := by
  rw [iota_single_apply]; rfl

/-- The matrix product of a plain record into the zero accumulator, at (p, q). -/
theorem matmul0_apply {m k n : ℕ} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (p : Fin m) (q : Fin n) :
    matmul D prec A B (constant (F := Ideal) ⟨2, ![m, n]⟩ .f32 0x00000000#32) (ix2 p q)
      = ∑ c : Fin k, A (ix2 p c) * B (ix2 c q) := by
  subst hD
  have h := StackMember.dotGeneral_plain_apply (m := m) (n := n) prec A B p q
  rw [← h]
  show FloatOps.matmul _ prec A B _ (ix2 p q) = FloatOps.dotGeneral _ prec _ A B (ix2 p q)
  rw [Ideal.matmul_constant_zero_apply, Ideal.dotGeneral_apply]

/-- A non-negative signed word reads as its unsigned value. -/
theorem toInt_eq_toNat_of_nonneg (w : BitVec 32) (h : 0 ≤ w.toInt) : w.toInt = (w.toNat : ℤ) := by
  have hc := BitVec.toInt_eq_toNat_cond w
  have hlt := w.isLt
  by_cases hh : 2 * w.toNat < 2 ^ 32
  · rw [if_pos hh] at hc; exact hc
  · rw [if_neg hh] at hc; omega

/-- A one-hot row against a table: the sum over k of [w = k] * T k is T at w's place, when w names a row. -/
theorem oneHot_sum {N : ℕ} (hN : 0 < N) (hN' : N < 2 ^ 31) (w : BitVec 32) (hw0 : 0 ≤ w.toInt) (hw1 : w.toInt < N) (T : Fin N → EReal) :
    ∑ k : Fin N, (((((IntOp.cmpi .eq w (BitVec.ofNat 32 k.val)).setWidth 32).toInt : ℝ) : EReal)) * T k
      = T ⟨min w.toInt.toNat (N - 1), by omega⟩ := by
  have hlt : w.toInt.toNat < N := by omega
  have hmin : min w.toInt.toNat (N - 1) = w.toInt.toNat := by omega
  have hwn := toInt_eq_toNat_of_nonneg w hw0
  have hwlt := w.isLt
  rw [Finset.sum_eq_single (⟨w.toInt.toNat, hlt⟩ : Fin N)]
  · have e : IntOp.cmpi .eq w (BitVec.ofNat 32 w.toInt.toNat) = 1#1 := by
      rw [StableHlo.Predicate.cmpi_eq_iff]
      apply BitVec.eq_of_toNat_eq
      rw [BitVec.toNat_ofNat]
      omega
    rw [e]
    have h1 : ((1#1 : BitVec 1).setWidth 32).toInt = 1 := by decide
    simp only [hmin]
    rw [h1, Int.cast_one, EReal.coe_one, one_mul]
  · intro k _ hk
    have e : IntOp.cmpi .eq w (BitVec.ofNat 32 k.val) = 0#1 := by
      apply eq_zero_of_ne_one
      rw [StableHlo.Predicate.cmpi_eq_iff]
      intro hc
      apply hk
      apply Fin.ext
      show k.val = w.toInt.toNat
      have hk' := k.isLt
      have h3 : w.toNat = k.val % 2 ^ 32 := by rw [hc, BitVec.toNat_ofNat]
      omega
    rw [e]
    have h0 : ((0#1 : BitVec 1).setWidth 32).toInt = 0 := by decide
    rw [h0, Int.cast_zero, EReal.coe_zero, zero_mul]
  · intro h; exact absurd (Finset.mem_univ _) h

end Cert.KNodeAux

end
-- ==== Proof.KNodeMLP.lean ====
/-
  The node kernel's dense layers by themselves: the body's first two stages read at an index. From one graph's 2048 coordinate
  rows the first stage is the coordinates' layer norm followed by the dense layer 3 → 12; the second the dense layers
  12 → 48 → 192 → 768 → 768.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import proofs.«402160_j53730040873195_3_alg».proof.Proof.KNodeBodyAux1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

section Generic

variable {a b : ℕ}

/-- Over a constant group the layer norm's statistics run over all rows. -/
theorem gln_const (g : Fin 16) (cnt : EReal) (X : Fin a → Fin b → EReal) (w bb : Fin b → EReal) (p : Fin a) (c : Fin b) :
    gln (fun _ : Fin a => g) cnt X w bb p c
      = (X p c - Ideal.div (∑ n, ∑ c', X n c') cnt)
          * Ideal.rsqrt (Ideal.div (∑ n, ∑ c', (X n c' - Ideal.div (∑ n, ∑ c', X n c') cnt)
              * (X n c' - Ideal.div (∑ n, ∑ c', X n c') cnt)) cnt + eps)
          * w c + bb c := by
  simp only [gln, gcen, gvar, gmean, Finset.filter_true]

/-- One dense layer of the kernel, read at an index: the product with the weights into a zero accumulator, the bias row
    spread over the rows, and the maximum with zero. -/
theorem denseK_apply {m k n : ℕ} (D : DotDims ⟨2, ![m, k]⟩ ⟨2, ![k, n]⟩ ⟨2, ![m, n]⟩) (hD : D = DotDims.plain m k n)
    (X : FVec Ideal ⟨2, ![m, k]⟩ .f32) (W : FVec Ideal ⟨2, ![k, n]⟩ .f32) (bia : FVec Ideal ⟨1, ![n]⟩ .f32)
    (hb : FTy.bits .bf16 < FTy.bits .f32)
    (h1 : (⟨1, ![n]⟩ : Shape).ShapeCasts ⟨2, ![1, n]⟩) (h2 : (⟨2, ![1, n]⟩ : Shape).Broadcasts ⟨2, ![m, n]⟩)
    (X' : Fin m → Fin k → EReal) (W' : Vec Ideal (Sh2 k n) .f32) (b' : Vec Ideal (Sh1 n) .f32)
    (hX : ∀ p c, X (ix2 p c) = X' p c) (hW : ∀ i, W i = W' i) (hbia : ∀ i, bia i = b' i) (p : Fin m) (q : Fin n) :
    maximumf (addf (matmul D none (truncf .bf16 X hb) (truncf .bf16 W hb) (constant (F := Ideal) ⟨2, ![m, n]⟩ .f32 0x00000000#32))
        (broadcastTo ⟨2, ![m, n]⟩ (shapeCast ⟨2, ![1, n]⟩ bia h1) h2))
      (broadcast ⟨2, ![m, n]⟩ (Scalar.ofBits (F := Ideal) .f32 0x00000000#32)) (ix2 p q)
      = dense X' W' b' p q := by
  rw [maximumf_apply, addf_apply, broadcast_apply, KNodeAux.matmul0_apply D hD, KNodeAux.rowSpread_apply]
  simp only [truncf_apply, hX, hW, hbia]
  unfold dense
  show max _ (Ideal.ofBits .f32 0x00000000#32) = _
  rw [Ideal.ofBits_zero_f32]

/-- The kernel's total of a matrix: lane sums, as a column, summed, viewed [1, 1]. -/
abbrev totK (x : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32) : FVec Ideal ⟨2, ![1, 1]⟩ .f32 :=
  shapeCast ⟨2, ![1, 1]⟩ (multiReduction .add [0] ⟨1, ![1]⟩
    (shapeCast ⟨2, ![a, 1]⟩ (multiReduction .add [1] ⟨1, ![a]⟩ x 0x00000000#32 h1 hφ hacc) h2)
    0x00000000#32 h3 hφ hacc) h4

/-- The kernel's mean of a matrix's entries, as a [1, 1] value: the total over the count word. -/
abbrev meanK (cw : BitVec 32) (x : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32) : FVec Ideal ⟨2, ![1, 1]⟩ .f32 :=
  divf (totK x h1 h2 h3 h4 hφ hacc) (broadcast ⟨2, ![1, 1]⟩ (Scalar.ofBits (F := Ideal) .f32 cw))

/-- The kernel's centred matrix. -/
abbrev cenK (cw : BitVec 32) (x : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32)
    (h5 : (⟨2, ![1, 1]⟩ : Shape).Broadcasts ⟨2, ![a, b]⟩) : FVec Ideal ⟨2, ![a, b]⟩ .f32 :=
  subf x (broadcastTo ⟨2, ![a, b]⟩ (meanK cw x h1 h2 h3 h4 hφ hacc) h5)

theorem meanK_apply (cw : BitVec 32) (x : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32) :
    meanK cw x h1 h2 h3 h4 hφ hacc (ix2 (0 : Fin 1) (0 : Fin 1))
      = Ideal.div (∑ r : Fin a, ∑ c : Fin b, x (ix2 r c)) (Ideal.ofBits .f32 cw) := by
  show Ideal.div (totK x h1 h2 h3 h4 hφ hacc (ix2 (0 : Fin 1) (0 : Fin 1))) (Ideal.ofBits .f32 cw) = _
  rw [show totK x h1 h2 h3 h4 hφ hacc (ix2 (0 : Fin 1) (0 : Fin 1)) = _ from KNodeAux.total_apply x h1 h2 h3 h4 hφ hφ hacc hacc]

theorem cenK_apply (cw : BitVec 32) (x : FVec Ideal ⟨2, ![a, b]⟩ .f32) (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32)
    (h5 : (⟨2, ![1, 1]⟩ : Shape).Broadcasts ⟨2, ![a, b]⟩) (p : Fin a) (c : Fin b) :
    cenK cw x h1 h2 h3 h4 hφ hacc h5 (ix2 p c)
      = x (ix2 p c) - Ideal.div (∑ r : Fin a, ∑ c : Fin b, x (ix2 r c)) (Ideal.ofBits .f32 cw) := by
  show x (ix2 p c) - broadcastTo ⟨2, ![a, b]⟩ (meanK cw x h1 h2 h3 h4 hφ hacc) h5 (ix2 p c) = _
  rw [KNodeAux.oneSpread_apply, meanK_apply]

/-- The kernel's layer norm of a matrix by its own statistics (two passes: the mean, then the mean of the squares of the
    centred entries), scaled and shifted by two rows, read at an index: the specification's graph layer norm over a
    constant group. -/
theorem lnK_apply (g : Fin 16) (cw : BitVec 32) (x : FVec Ideal ⟨2, ![a, b]⟩ .f32) (w bb : FVec Ideal ⟨1, ![b]⟩ .f32)
    (h1 : (⟨2, ![a, b]⟩ : Shape).Reduces [1] ⟨1, ![a]⟩)
    (h2 : (⟨1, ![a]⟩ : Shape).ShapeCasts ⟨2, ![a, 1]⟩) (h3 : (⟨2, ![a, 1]⟩ : Shape).Reduces [0] ⟨1, ![1]⟩)
    (h4 : (⟨1, ![1]⟩ : Shape).ShapeCasts ⟨2, ![1, 1]⟩)
    (hφ : FKind.Formats .f32) (hacc : (0x00000000#32 : BitVec 32) = 0x00000000#32)
    (h5 : (⟨2, ![1, 1]⟩ : Shape).Broadcasts ⟨2, ![a, b]⟩)
    (h6 : (⟨1, ![b]⟩ : Shape).ShapeCasts ⟨2, ![1, b]⟩) (h7 : (⟨2, ![1, b]⟩ : Shape).Broadcasts ⟨2, ![a, b]⟩)
    (p : Fin a) (c : Fin b) :
    addf (mulf (mulf (cenK cw x h1 h2 h3 h4 hφ hacc h5)
          (broadcastTo ⟨2, ![a, b]⟩
            (rsqrt (addf (meanK cw (mulf (cenK cw x h1 h2 h3 h4 hφ hacc h5) (cenK cw x h1 h2 h3 h4 hφ hacc h5)) h1 h2 h3 h4 hφ hacc)
              (broadcast ⟨2, ![1, 1]⟩ (Scalar.ofBits (F := Ideal) .f32 0x3727C5AC#32)))) h5))
        (broadcastTo ⟨2, ![a, b]⟩ (shapeCast ⟨2, ![1, b]⟩ w h6) h7))
      (broadcastTo ⟨2, ![a, b]⟩ (shapeCast ⟨2, ![1, b]⟩ bb h6) h7) (ix2 p c)
      = gln (fun _ : Fin a => g) (Ideal.ofBits .f32 cw) (fun r c => x (ix2 r c)) (fun c => w (ix1 c)) (fun c => bb (ix1 c)) p c := by
  rw [gln_const, addf_apply, mulf_apply, mulf_apply, KNodeAux.rowSpread_apply, KNodeAux.rowSpread_apply,
    KNodeAux.oneSpread_apply, cenK_apply]
  show _ * Ideal.rsqrt (meanK cw (mulf (cenK cw x h1 h2 h3 h4 hφ hacc h5) (cenK cw x h1 h2 h3 h4 hφ hacc h5)) h1 h2 h3 h4 hφ hacc
      (ix2 (0 : Fin 1) (0 : Fin 1)) + eps) * _ + _ = _
  rw [meanK_apply]
  simp only [mulf_apply, cenK_apply]

end Generic

theorem pay3_apply (A : Args) (hA : A.Ok) (g : Fin 16)
    (v0 : Vec Ideal S2048x3 .f32) (v21 : Vec Ideal S3 .f32) (v25 : Vec Ideal S3 .f32) (v29 : Vec Ideal S3x12 .f32) (v30 : Vec Ideal S12 .f32)
    (h0 : ∀ r c, v0 (ix2 r c) = A.x (ix2 (row g r) c))
    (h21 : ∀ i, v21 i = A.wc i) (h25 : ∀ i, v25 i = A.bc i) (h29 : ∀ i, v29 i = A.W1 i) (h30 : ∀ i, v30 i = A.b1 i)
    (r : Fin 2048) (f : Fin 12) :
    k0_pay3 (F := Ideal) v0 v21 v25 v29 v30 (ix2 r f) = bh1 A g r f := by
  unfold k0_pay3
  refine denseK_apply dot_S2048x3_S3x12_S2048x12_1_0_0_1_n_n rfl _ v29 v30 _ _ _ (bh0 A g) A.W1 A.b1 ?_ h29 h30 r f
  intro p c
  refine (lnK_apply g 0x45C00000#32 v0 v21 v25 _ _ _ _ _ _ _ _ _ p c).trans ?_
  unfold bh0 bx
  rw [LibReal.ofBits_6144]
  simp only [h0, h21, h25]

theorem pay4_apply (A : Args) (hA : A.Ok) (g : Fin 16)
    (v38 : Vec Ideal S2048x12 .f32) (v39 : Vec Ideal S12x48 .f32) (v40 : Vec Ideal S48 .f32) (v49 : Vec Ideal S48x192 .f32) (v50 : Vec Ideal S192 .f32)
    (v59 : Vec Ideal S192x768 .f32) (v60 : Vec Ideal S768 .f32) (v69 : Vec Ideal S768x768 .f32) (v70 : Vec Ideal S768 .f32)
    (h38 : ∀ r f, v38 (ix2 r f) = bh1 A g r f)
    (h39 : ∀ i, v39 i = A.W2 i) (h40 : ∀ i, v40 i = A.b2 i) (h49 : ∀ i, v49 i = A.W3 i) (h50 : ∀ i, v50 i = A.b3 i)
    (h59 : ∀ i, v59 i = A.W4 i) (h60 : ∀ i, v60 i = A.b4 i) (h69 : ∀ i, v69 i = A.Wd i) (h70 : ∀ i, v70 i = A.bd i)
    (r : Fin 2048) (f : Fin 768) :
    k0_pay4 (F := Ideal) v38 v39 v40 v49 v50 v59 v60 v69 v70 (ix2 r f) = bh5 A g r f := by
  unfold k0_pay4
  refine denseK_apply dot_S2048x768_S768x768_S2048x768_1_0_0_1_n_n rfl _ v69 v70 _ _ _ (bh4 A g) A.Wd A.bd ?_ h69 h70 r f
  intro p c
  refine denseK_apply dot_S2048x192_S192x768_S2048x768_1_0_0_1_n_n rfl _ v59 v60 _ _ _ (bh3 A g) A.W4 A.b4 ?_ h59 h60 p c
  intro p c
  refine denseK_apply dot_S2048x48_S48x192_S2048x192_1_0_0_1_n_n rfl _ v49 v50 _ _ _ (bh2 A g) A.W3 A.b3 ?_ h49 h50 p c
  intro p c
  exact denseK_apply dot_S2048x12_S12x48_S2048x48_1_0_0_1_n_n rfl v38 v39 v40 _ _ _ (bh1 A g) A.W2 A.b2 h38 h39 h40 p c

end Cert.KVal

end
-- ==== Proof.KNodeBodyAux2.lean ====
/-
  The first kernel's later payloads read at an index: the id column, the embedding rows added to the dense chain and
  centred, the row sums of the squares, the node layer norm and the dense layer to the edge width on it.
-/
import proofs.«402160_j53730040873195_3_alg».proof.Proof.Gen.KernelIdeal.Skeleton
import proofs.«402160_j53730040873195_3_alg».proof.Proof.BlockSpec
import proofs.«402160_j53730040873195_3_alg».proof.Proof.LibReal
import proofs.«402160_j53730040873195_3_alg».proof.Proof.KNodeBodyAux1

set_option maxRecDepth 16384

noncomputable section

namespace Cert.KNodeAux

open Cert.KernelIdeal Cert.KernelIdeal.Gen Cert.Spec Idealize.ShloMosaic Idealize.ShloMosaic.ValueIdx

/-! ## One graph's rows by themselves: the sums run over every row -/

theorem gcen_one {R C : ℕ} (g : Fin 16) (cnt : EReal) (X : Fin R → Fin C → EReal) (n : Fin R) (c : Fin C) :
    gcen (fun _ : Fin R => g) cnt X n c = X n c - Ideal.div (∑ r, ∑ k, X r k) cnt := by
  unfold gcen gmean
  beta_reduce
  rw [Finset.filter_true_of_mem (s := Finset.univ) (p := fun _ : Fin R => g = g) (fun _ _ => rfl)]

theorem gln_one {R C : ℕ} (g : Fin 16) (cnt : EReal) (X : Fin R → Fin C → EReal) (w b : Fin C → EReal) (n : Fin R) (c : Fin C) :
    gln (fun _ : Fin R => g) cnt X w b n c
      = gcen (fun _ : Fin R => g) cnt X n c
          * Ideal.rsqrt (Ideal.div (∑ r, ∑ k, gcen (fun _ : Fin R => g) cnt X r k * gcen (fun _ : Fin R => g) cnt X r k) cnt + eps)
          * w c + b c := by
  unfold gln gvar
  beta_reduce
  rw [Finset.filter_true_of_mem (s := Finset.univ) (p := fun _ : Fin R => g = g) (fun _ _ => rfl)]

/-! ## The payloads -/

/-- The id column: the ids viewed [2048, 1]. -/
theorem pay5_apply (v79 : Vec Ideal S2048 .i32) (r : Fin 2048) (u : Fin 1) :
    k0_pay5 (F := Ideal) v79 (ix2 r u) = v79 (ix1 r) := by
  unfold k0_pay5
  simp only [shapeCast_self, colCast_apply]

section
variable (A : Args) (hA : A.Ok) (g : Fin 16)
  (v78 : FVec Ideal S2048x768 .f32) (v81 : IVec S2048x1 32) (v82 : Vec Ideal S2048 .i32)
  (v91 v94 : Vec Ideal S100x768 .bf16) (v105 v108 : Vec Ideal S25x768 .bf16)
  (h78 : ∀ r f, v78 (ix2 r f) = bh5 A g r f)
  (h81 : ∀ r, v81 (ix2 r (0 : Fin 1)) = A.atom (ix2 g r))
  (h82 : ∀ r, v82 (ix1 r) = A.aa (ix2 g r))
  (h91 : ∀ i, v91 i = A.atomEmb i) (h94 : ∀ i, v94 i = 0)
  (h105 : ∀ i, v105 i = A.aaEmb i) (h108 : ∀ i, v108 i = 0)

include hA h78 h81 h82 h91 h94 h105 h108

/-- The dense chain plus the two embedding rows, minus the graph's mean. -/
theorem pay6_apply (r : Fin 2048) (f : Fin 768) :
    k0_pay6 (F := Ideal) v78 v81 v82 v91 v94 v105 v108 (ix2 r f) = gcen (fun _ : Fin 2048 => g) cntN (bpre A g) r f := by
  unfold k0_pay6
  dsimp only
  refine (centre_apply _ _ _ _ _ _ _ _ _ _ _ (bpre A g) (fun r k => ?_) r f).trans ?_
  · simp only [addf_apply, truncf_apply, sitofp_apply, extui_apply, cmpi_apply, iota_single_apply, sitofp_ideal,
      shapeCast_self, colCast_apply, colSpread_apply,
      matmul0_apply dot_S2048x100_S100x768_S2048x768_1_0_0_1_n_n rfl,
      matmul0_apply dot_S2048x25_S25x768_S2048x768_1_0_0_1_n_n rfl]
    rw [h78, h81, h82]
    simp only [h91, h94, h105, h108, mul_zero, Finset.sum_const_zero, add_zero]
    unfold bpre bemb rowAt
    rw [add_assoc]
    have hi : ∀ x : Fin 100, iota Kind.tc S2048x100 32 [1] iota_S2048x100_d1_w32 (ix2 r x) = BitVec.ofNat 32 x.val :=
      fun x => (iota_single_apply Kind.tc S2048x100 32 1 iota_S2048x100_d1_w32 (ix2 r x)).trans rfl
    have hj : ∀ x : Fin 25, iota Kind.tc S2048x25 32 [1] iota_S2048x25_d1_w32 (ix2 r x) = BitVec.ofNat 32 x.val :=
      fun x => (iota_single_apply Kind.tc S2048x25 32 1 iota_S2048x25_d1_w32 (ix2 r x)).trans rfl
    simp only [hi, hj]
    congr 1
    congr 1
    · exact oneHot_sum (N := 100) (by decide) (by norm_num) (A.atom (ix2 g r)) (hA.atom _).1
        (by exact_mod_cast (hA.atom _).2) (fun x => A.atomEmb (ix2 x k))
    · exact oneHot_sum (N := 25) (by decide) (by norm_num) (A.aa (ix2 g r)) (hA.aa _).1
        (by exact_mod_cast (hA.aa _).2) (fun x => A.aaEmb (ix2 x k))
  · rw [gcen_one, ← LibReal.ofBits_1572864]
    rfl

/-- The row sums of the squares of the centred values. -/
theorem pay7_apply (r : Fin 2048) (u : Fin 1) :
    k0_pay7 (F := Ideal) v78 v81 v82 v91 v94 v105 v108 (ix2 r u)
      = ∑ f, gcen (fun _ : Fin 2048 => g) cntN (bpre A g) r f * gcen (fun _ : Fin 2048 => g) cntN (bpre A g) r f := by
  unfold k0_pay7
  dsimp only
  rw [colCast_apply, laneSum_apply]
  refine Finset.sum_congr rfl fun f _ => ?_
  rw [mulf_apply, pay6_apply A hA g v78 v81 v82 v91 v94 v105 v108 h78 h81 h82 h91 h94 h105 h108]
end

section
variable (A : Args) (hA : A.Ok) (g : Fin 16)
  (v120 : FVec Ideal S2048x768 .f32) (v123 : FVec Ideal S2048x1 .f32) (v133 v137 : Vec Ideal S768 .f32)
  (h120 : ∀ r f, v120 (ix2 r f) = gcen (fun _ : Fin 2048 => g) cntN (bpre A g) r f)
  (h123 : ∀ r, v123 (ix2 r (0 : Fin 1))
      = ∑ f, gcen (fun _ : Fin 2048 => g) cntN (bpre A g) r f * gcen (fun _ : Fin 2048 => g) cntN (bpre A g) r f)
  (h133 : ∀ i, v133 i = A.wn i) (h137 : ∀ i, v137 i = A.bn i)

include h120 h123 h133 h137

/-- The node layer norm. -/
theorem pay1_apply (r : Fin 2048) (f : Fin 768) :
    k0_pay1 (F := Ideal) v120 v123 v133 v137 (ix2 r f) = bh A g r f := by
  unfold k0_pay1
  dsimp only
  rw [addf_apply, mulf_apply, mulf_apply, scale_apply, rowSpread_apply, rowSpread_apply, h120, h133, h137]
  simp only [h123]
  unfold bh
  rw [gln_one, ← LibReal.ofBits_1572864]
  rfl

/-- The dense layer to the edge width on the node layer norm. -/
theorem pay2_apply (v142 : Vec Ideal S768x128 .f32) (v143 : Vec Ideal S128 .f32)
    (h142 : ∀ i, v142 i = A.We i) (h143 : ∀ i, v143 i = A.be i) (r : Fin 2048) (f : Fin 128) :
    k0_pay2 (F := Ideal) v120 v123 v133 v137 v142 v143 (ix2 r f) = bhe A g r f := by
  unfold k0_pay2
  rw [maximumf_apply, addf_apply, matmul0_apply dot_S2048x768_S768x128_S2048x128_1_0_0_1_n_n rfl, rowSpread_apply, broadcast_apply]
  simp only [truncf_apply, pay1_apply A g v120 v123 v133 v137 h120 h123 h133 h137, h142, h143]
  unfold bhe dense
  rw [show (Scalar.ofBits (F := Ideal) .f32 0x00000000#32 : EReal) = 0 from Ideal.ofBits_zero_f32]
end

end Cert.KNodeAux

end
-- ==== Proof.KNodeBody.lean ====
/-
  What the first kernel leaves in its two output blocks at a grid point, index by index: with the point's input blocks
  the rows of graph g (the low halves of the split embedding tables zero), the first block holds graph g's node layer
  norm and the second the dense layer to the edge width on it.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import proofs.«402160_j53730040873195_3_alg».proof.Proof.KNodeMLP
import proofs.«402160_j53730040873195_3_alg».proof.Proof.KNodeBodyAux2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

/-- The zero offsets of a whole rank-2 and a whole rank-1 rectangle, as the constant function. -/
private theorem off2_zero : (![0, 0] : Fin 2 → ℕ) = fun _ => 0 := by
  funext a; match a with | ⟨0, _⟩ => rfl | ⟨1, _⟩ => rfl
private theorem off1_zero : (![0] : Fin 1 → ℕ) = fun _ => 0 := by
  funext a; match a with | ⟨0, _⟩ => rfl

section Prefix
variable (A : Args) (hA : A.Ok) (g : Fin 16)
    (x0 : Vec Ideal S2048x3 .f32) (x1 : Vec Ideal S2048 .i32) (x2 : Vec Ideal S2048 .i32) (x3 : Vec Ideal S3x12 .f32) (x4 : Vec Ideal S12 .f32) (x5 : Vec Ideal S12x48 .f32) (x6 : Vec Ideal S48 .f32) (x7 : Vec Ideal S48x192 .f32) (x8 : Vec Ideal S192 .f32) (x9 : Vec Ideal S192x768 .f32) (x10 : Vec Ideal S768 .f32) (x11 : Vec Ideal S768x768 .f32) (x12 : Vec Ideal S768 .f32) (x13 : Vec Ideal S100x768 .bf16) (x14 : Vec Ideal S100x768 .bf16) (x15 : Vec Ideal S25x768 .bf16) (x16 : Vec Ideal S25x768 .bf16) (x17 : Vec Ideal S3 .f32) (x18 : Vec Ideal S3 .f32) (x19 : Vec Ideal S768 .f32) (x20 : Vec Ideal S768 .f32) (x21 : Vec Ideal S768x128 .f32) (x22 : Vec Ideal S128 .f32)
    (h0 : ∀ r c, x0 (ix2 r c) = A.x (ix2 (row g r) c))
    (h1 : ∀ r, x1 (ix1 r) = A.atom (ix2 g r))
    (h2 : ∀ r, x2 (ix1 r) = A.aa (ix2 g r))
    (h3 : ∀ i, x3 i = A.W1 i)
    (h4 : ∀ i, x4 i = A.b1 i)
    (h5 : ∀ i, x5 i = A.W2 i)
    (h6 : ∀ i, x6 i = A.b2 i)
    (h7 : ∀ i, x7 i = A.W3 i)
    (h8 : ∀ i, x8 i = A.b3 i)
    (h9 : ∀ i, x9 i = A.W4 i)
    (h10 : ∀ i, x10 i = A.b4 i)
    (h11 : ∀ i, x11 i = A.Wd i)
    (h12 : ∀ i, x12 i = A.bd i)
    (h13 : ∀ i, x13 i = A.atomEmb i)
    (h15 : ∀ i, x15 i = A.aaEmb i)
    (h17 : ∀ i, x17 i = A.wc i)
    (h18 : ∀ i, x18 i = A.bc i)
    (h19 : ∀ i, x19 i = A.wn i)
    (h20 : ∀ i, x20 i = A.bn i)
    (h21 : ∀ i, x21 i = A.We i)
    (h22 : ∀ i, x22 i = A.be i)
    (h14 : ∀ i, x14 i = 0)
    (h16 : ∀ i, x16 i = 0)

include hA h0 h1 h2 h3 h4 h5 h6 h7 h8 h9 h10 h11 h12 h13 h14 h15 h16 h17 h18

/-- The shared prefix of the two outputs: the dense chain on the coordinates' layer norm plus the embedding rows,
    centred on graph g's mean. -/
theorem centred_apply (r : Fin 2048) (f : Fin 768) :
    k0_pay6 (F := Ideal) (k0_pay4 (k0_pay3 x0 x17 x18 x3 x4) x5 x6 x7 x8 x9 x10 x11 x12) (k0_pay5 x1) x2 x13 x14 x15 x16 (ix2 r f)
      = gcen (fun _ : Fin 2048 => g) cntN (bpre A g) r f := by
  refine Cert.KNodeAux.pay6_apply A hA g _ _ _ _ _ _ _ ?_ ?_ h2 h13 h14 h15 h16 r f
  · intro r f
    refine pay4_apply A hA g _ _ _ _ _ _ _ _ _ ?_ h5 h6 h7 h8 h9 h10 h11 h12 r f
    intro r f
    exact pay3_apply A hA g x0 x17 x18 x3 x4 h0 h17 h18 h3 h4 r f
  · intro r
    exact (Cert.KNodeAux.pay5_apply x1 r 0).trans (h1 r)

/-- … and the row sums of its squares. -/
theorem sqsum_apply (r : Fin 2048) :
    k0_pay7 (F := Ideal) (k0_pay4 (k0_pay3 x0 x17 x18 x3 x4) x5 x6 x7 x8 x9 x10 x11 x12) (k0_pay5 x1) x2 x13 x14 x15 x16 (ix2 r (0 : Fin 1))
      = ∑ f, gcen (fun _ : Fin 2048 => g) cntN (bpre A g) r f * gcen (fun _ : Fin 2048 => g) cntN (bpre A g) r f := by
  refine Cert.KNodeAux.pay7_apply A hA g _ _ _ _ _ _ _ ?_ ?_ h2 h13 h14 h15 h16 r 0
  · intro r f
    refine pay4_apply A hA g _ _ _ _ _ _ _ _ _ ?_ h5 h6 h7 h8 h9 h10 h11 h12 r f
    intro r f
    exact pay3_apply A hA g x0 x17 x18 x3 x4 h0 h17 h18 h3 h4 r f
  · intro r
    exact (Cert.KNodeAux.pay5_apply x1 r 0).trans (h1 r)

end Prefix

theorem out0_23_apply (A : Args) (hA : A.Ok) (g : Fin 16)
    (x0 : Vec Ideal S2048x3 .f32) (x1 : Vec Ideal S2048 .i32) (x2 : Vec Ideal S2048 .i32) (x3 : Vec Ideal S3x12 .f32) (x4 : Vec Ideal S12 .f32) (x5 : Vec Ideal S12x48 .f32) (x6 : Vec Ideal S48 .f32) (x7 : Vec Ideal S48x192 .f32) (x8 : Vec Ideal S192 .f32) (x9 : Vec Ideal S192x768 .f32) (x10 : Vec Ideal S768 .f32) (x11 : Vec Ideal S768x768 .f32) (x12 : Vec Ideal S768 .f32) (x13 : Vec Ideal S100x768 .bf16) (x14 : Vec Ideal S100x768 .bf16) (x15 : Vec Ideal S25x768 .bf16) (x16 : Vec Ideal S25x768 .bf16) (x17 : Vec Ideal S3 .f32) (x18 : Vec Ideal S3 .f32) (x19 : Vec Ideal S768 .f32) (x20 : Vec Ideal S768 .f32) (x21 : Vec Ideal S768x128 .f32) (x22 : Vec Ideal S128 .f32)
    (h0 : ∀ r c, x0 (ix2 r c) = A.x (ix2 (row g r) c))
    (h1 : ∀ r, x1 (ix1 r) = A.atom (ix2 g r))
    (h2 : ∀ r, x2 (ix1 r) = A.aa (ix2 g r))
    (h3 : ∀ i, x3 i = A.W1 i)
    (h4 : ∀ i, x4 i = A.b1 i)
    (h5 : ∀ i, x5 i = A.W2 i)
    (h6 : ∀ i, x6 i = A.b2 i)
    (h7 : ∀ i, x7 i = A.W3 i)
    (h8 : ∀ i, x8 i = A.b3 i)
    (h9 : ∀ i, x9 i = A.W4 i)
    (h10 : ∀ i, x10 i = A.b4 i)
    (h11 : ∀ i, x11 i = A.Wd i)
    (h12 : ∀ i, x12 i = A.bd i)
    (h13 : ∀ i, x13 i = A.atomEmb i)
    (h15 : ∀ i, x15 i = A.aaEmb i)
    (h17 : ∀ i, x17 i = A.wc i)
    (h18 : ∀ i, x18 i = A.bc i)
    (h19 : ∀ i, x19 i = A.wn i)
    (h20 : ∀ i, x20 i = A.bn i)
    (h21 : ∀ i, x21 i = A.We i)
    (h22 : ∀ i, x22 i = A.be i)
    (h14 : ∀ i, x14 i = 0)
    (h16 : ∀ i, x16 i = 0)
    (r : Fin 2048) (f : Fin 768) :
    out0_23 (F := Ideal) x0 x1 x2 x3 x4 x5 x6 x7 x8 x9 x10 x11 x12 x13 x14 x15 x16 x17 x18 x19 x20 x21 x22 (ix2 r f) = bh A g r f := by
  unfold out0_23
  rw [View.canon_unit_zero off2_zero]
  simp only [View.ld_unit_zero (S := S2048x3) off2_zero,
    View.ld_unit_zero (S := S3x12) off2_zero,
    View.ld_unit_zero (S := S12x48) off2_zero,
    View.ld_unit_zero (S := S48x192) off2_zero,
    View.ld_unit_zero (S := S192x768) off2_zero,
    View.ld_unit_zero (S := S768x768) off2_zero,
    View.ld_unit_zero (S := S100x768) off2_zero,
    View.ld_unit_zero (S := S25x768) off2_zero,
    View.ld_unit_zero (S := S768x128) off2_zero,
    View.ld_unit_zero (S := S3) off1_zero,
    View.ld_unit_zero (S := S12) off1_zero,
    View.ld_unit_zero (S := S48) off1_zero,
    View.ld_unit_zero (S := S192) off1_zero,
    View.ld_unit_zero (S := S768) off1_zero,
    View.ld_unit_zero (S := S2048) off1_zero,
    View.ld_unit_zero (S := S128) off1_zero]
  exact Cert.KNodeAux.pay1_apply A g _ _ _ _
    (fun r f => centred_apply A hA g x0 x1 x2 x3 x4 x5 x6 x7 x8 x9 x10 x11 x12 x13 x14 x15 x16 x17 x18 h0 h1 h2 h3 h4 h5 h6 h7 h8 h9 h10 h11 h12 h13 h15 h17 h18 h14 h16 r f)
    (fun r => sqsum_apply A hA g x0 x1 x2 x3 x4 x5 x6 x7 x8 x9 x10 x11 x12 x13 x14 x15 x16 x17 x18 h0 h1 h2 h3 h4 h5 h6 h7 h8 h9 h10 h11 h12 h13 h15 h17 h18 h14 h16 r)
    h19 h20 r f

theorem out0_24_apply (A : Args) (hA : A.Ok) (g : Fin 16)
    (x0 : Vec Ideal S2048x3 .f32) (x1 : Vec Ideal S2048 .i32) (x2 : Vec Ideal S2048 .i32) (x3 : Vec Ideal S3x12 .f32) (x4 : Vec Ideal S12 .f32) (x5 : Vec Ideal S12x48 .f32) (x6 : Vec Ideal S48 .f32) (x7 : Vec Ideal S48x192 .f32) (x8 : Vec Ideal S192 .f32) (x9 : Vec Ideal S192x768 .f32) (x10 : Vec Ideal S768 .f32) (x11 : Vec Ideal S768x768 .f32) (x12 : Vec Ideal S768 .f32) (x13 : Vec Ideal S100x768 .bf16) (x14 : Vec Ideal S100x768 .bf16) (x15 : Vec Ideal S25x768 .bf16) (x16 : Vec Ideal S25x768 .bf16) (x17 : Vec Ideal S3 .f32) (x18 : Vec Ideal S3 .f32) (x19 : Vec Ideal S768 .f32) (x20 : Vec Ideal S768 .f32) (x21 : Vec Ideal S768x128 .f32) (x22 : Vec Ideal S128 .f32)
    (h0 : ∀ r c, x0 (ix2 r c) = A.x (ix2 (row g r) c))
    (h1 : ∀ r, x1 (ix1 r) = A.atom (ix2 g r))
    (h2 : ∀ r, x2 (ix1 r) = A.aa (ix2 g r))
    (h3 : ∀ i, x3 i = A.W1 i)
    (h4 : ∀ i, x4 i = A.b1 i)
    (h5 : ∀ i, x5 i = A.W2 i)
    (h6 : ∀ i, x6 i = A.b2 i)
    (h7 : ∀ i, x7 i = A.W3 i)
    (h8 : ∀ i, x8 i = A.b3 i)
    (h9 : ∀ i, x9 i = A.W4 i)
    (h10 : ∀ i, x10 i = A.b4 i)
    (h11 : ∀ i, x11 i = A.Wd i)
    (h12 : ∀ i, x12 i = A.bd i)
    (h13 : ∀ i, x13 i = A.atomEmb i)
    (h15 : ∀ i, x15 i = A.aaEmb i)
    (h17 : ∀ i, x17 i = A.wc i)
    (h18 : ∀ i, x18 i = A.bc i)
    (h19 : ∀ i, x19 i = A.wn i)
    (h20 : ∀ i, x20 i = A.bn i)
    (h21 : ∀ i, x21 i = A.We i)
    (h22 : ∀ i, x22 i = A.be i)
    (h14 : ∀ i, x14 i = 0)
    (h16 : ∀ i, x16 i = 0)
    (r : Fin 2048) (f : Fin 128) :
    out0_24 (F := Ideal) x0 x1 x2 x3 x4 x5 x6 x7 x8 x9 x10 x11 x12 x13 x14 x15 x16 x17 x18 x19 x20 x21 x22 (ix2 r f) = bhe A g r f := by
  unfold out0_24
  rw [View.canon_unit_zero off2_zero]
  simp only [View.ld_unit_zero (S := S2048x3) off2_zero,
    View.ld_unit_zero (S := S3x12) off2_zero,
    View.ld_unit_zero (S := S12x48) off2_zero,
    View.ld_unit_zero (S := S48x192) off2_zero,
    View.ld_unit_zero (S := S192x768) off2_zero,
    View.ld_unit_zero (S := S768x768) off2_zero,
    View.ld_unit_zero (S := S100x768) off2_zero,
    View.ld_unit_zero (S := S25x768) off2_zero,
    View.ld_unit_zero (S := S768x128) off2_zero,
    View.ld_unit_zero (S := S3) off1_zero,
    View.ld_unit_zero (S := S12) off1_zero,
    View.ld_unit_zero (S := S48) off1_zero,
    View.ld_unit_zero (S := S192) off1_zero,
    View.ld_unit_zero (S := S768) off1_zero,
    View.ld_unit_zero (S := S2048) off1_zero,
    View.ld_unit_zero (S := S128) off1_zero]
  exact Cert.KNodeAux.pay2_apply A g _ _ _ _
    (fun r f => centred_apply A hA g x0 x1 x2 x3 x4 x5 x6 x7 x8 x9 x10 x11 x12 x13 x14 x15 x16 x17 x18 h0 h1 h2 h3 h4 h5 h6 h7 h8 h9 h10 h11 h12 h13 h15 h17 h18 h14 h16 r f)
    (fun r => sqsum_apply A hA g x0 x1 x2 x3 x4 x5 x6 x7 x8 x9 x10 x11 x12 x13 x14 x15 x16 x17 x18 h0 h1 h2 h3 h4 h5 h6 h7 h8 h9 h10 h11 h12 h13 h15 h17 h18 h14 h16 r)
    h19 h20 _ _ h21 h22 r f

end Cert.KVal

end
-- ==== Proof.KNodeArr.lean ====
/-
  After the first kernel: its two output arrays hold the node layer norm and the dense layer to the edge width, row by row.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«402160_j53730040873195_3_alg».proof.Proof.KNodeBody

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-! ### The first kernel's entry contents: the arguments as launched, the two id tables flattened, and the two
    embedding tables split into a rounded part (in the extended reals: the table itself) and the remainder (zero) -/

private theorem W1_main_arg0 : W1 m ρ c (Proc.devRef .tc main_arg0) = m ((c.tc : Thread nD τ).loc main_arg0) := by
  show StableHlo.after hostOps0 (W0 m ρ c) (Proc.devRef .tc main_arg0) = _
  after_results
private theorem W1_main_arg4 : W1 m ρ c (Proc.devRef .tc main_arg4) = m ((c.tc : Thread nD τ).loc main_arg4) := by
  show StableHlo.after hostOps0 (W0 m ρ c) (Proc.devRef .tc main_arg4) = _
  after_results
private theorem W1_main_arg5 : W1 m ρ c (Proc.devRef .tc main_arg5) = m ((c.tc : Thread nD τ).loc main_arg5) := by
  show StableHlo.after hostOps0 (W0 m ρ c) (Proc.devRef .tc main_arg5) = _
  after_results
private theorem W1_main_arg6 : W1 m ρ c (Proc.devRef .tc main_arg6) = m ((c.tc : Thread nD τ).loc main_arg6) := by
  show StableHlo.after hostOps0 (W0 m ρ c) (Proc.devRef .tc main_arg6) = _
  after_results
private theorem W1_main_arg7 : W1 m ρ c (Proc.devRef .tc main_arg7) = m ((c.tc : Thread nD τ).loc main_arg7) := by
  show StableHlo.after hostOps0 (W0 m ρ c) (Proc.devRef .tc main_arg7) = _
  after_results
private theorem W1_main_arg8 : W1 m ρ c (Proc.devRef .tc main_arg8) = m ((c.tc : Thread nD τ).loc main_arg8) := by
  show StableHlo.after hostOps0 (W0 m ρ c) (Proc.devRef .tc main_arg8) = _
  after_results
private theorem W1_main_arg9 : W1 m ρ c (Proc.devRef .tc main_arg9) = m ((c.tc : Thread nD τ).loc main_arg9) := by
  show StableHlo.after hostOps0 (W0 m ρ c) (Proc.devRef .tc main_arg9) = _
  after_results
private theorem W1_main_arg10 : W1 m ρ c (Proc.devRef .tc main_arg10) = m ((c.tc : Thread nD τ).loc main_arg10) := by
  show StableHlo.after hostOps0 (W0 m ρ c) (Proc.devRef .tc main_arg10) = _
  after_results
private theorem W1_main_arg11 : W1 m ρ c (Proc.devRef .tc main_arg11) = m ((c.tc : Thread nD τ).loc main_arg11) := by
  show StableHlo.after hostOps0 (W0 m ρ c) (Proc.devRef .tc main_arg11) = _
  after_results
private theorem W1_main_arg12 : W1 m ρ c (Proc.devRef .tc main_arg12) = m ((c.tc : Thread nD τ).loc main_arg12) := by
  show StableHlo.after hostOps0 (W0 m ρ c) (Proc.devRef .tc main_arg12) = _
  after_results
private theorem W1_main_arg13 : W1 m ρ c (Proc.devRef .tc main_arg13) = m ((c.tc : Thread nD τ).loc main_arg13) := by
  show StableHlo.after hostOps0 (W0 m ρ c) (Proc.devRef .tc main_arg13) = _
  after_results
private theorem W1_main_arg16 : W1 m ρ c (Proc.devRef .tc main_arg16) = m ((c.tc : Thread nD τ).loc main_arg16) := by
  show StableHlo.after hostOps0 (W0 m ρ c) (Proc.devRef .tc main_arg16) = _
  after_results
private theorem W1_main_arg17 : W1 m ρ c (Proc.devRef .tc main_arg17) = m ((c.tc : Thread nD τ).loc main_arg17) := by
  show StableHlo.after hostOps0 (W0 m ρ c) (Proc.devRef .tc main_arg17) = _
  after_results
private theorem W1_main_arg18 : W1 m ρ c (Proc.devRef .tc main_arg18) = m ((c.tc : Thread nD τ).loc main_arg18) := by
  show StableHlo.after hostOps0 (W0 m ρ c) (Proc.devRef .tc main_arg18) = _
  after_results
private theorem W1_main_arg19 : W1 m ρ c (Proc.devRef .tc main_arg19) = m ((c.tc : Thread nD τ).loc main_arg19) := by
  show StableHlo.after hostOps0 (W0 m ρ c) (Proc.devRef .tc main_arg19) = _
  after_results
private theorem W1_main_arg20 : W1 m ρ c (Proc.devRef .tc main_arg20) = m ((c.tc : Thread nD τ).loc main_arg20) := by
  show StableHlo.after hostOps0 (W0 m ρ c) (Proc.devRef .tc main_arg20) = _
  after_results
private theorem W1_main_arg21 : W1 m ρ c (Proc.devRef .tc main_arg21) = m ((c.tc : Thread nD τ).loc main_arg21) := by
  show StableHlo.after hostOps0 (W0 m ρ c) (Proc.devRef .tc main_arg21) = _
  after_results
/-- The flattened id table at position g * 2048 + r is the table at (g, r). -/
private theorem W1_main_v0 (g : Fin 16) (r : Fin 2048) (j : S32768.Idx) (hj : (j 0).val = g.val * 2048 + r.val) :
    (W1 m ρ c (Proc.devRef .tc main_v0) : Vec Ideal S32768 .i32) j = (m ((c.tc : Thread nD τ).loc main_arg1) : Vec Ideal S16x2048 .i32) (ix2 g r) := by
  show StableHlo.after hostOps0 (W0 m ρ c) (Proc.devRef .tc main_v0) j = _
  after_results
  refine (shapeCast_apply _ _ j (ix2 g r) ?_).trans rfl
  rw [Shape.rowMajor_val_two, Shape.rowMajor_val_one]
  show g.val * 2048 + r.val = (j 0).val
  omega
/-- The flattened id table at position g * 2048 + r is the table at (g, r). -/
private theorem W1_main_v1 (g : Fin 16) (r : Fin 2048) (j : S32768.Idx) (hj : (j 0).val = g.val * 2048 + r.val) :
    (W1 m ρ c (Proc.devRef .tc main_v1) : Vec Ideal S32768 .i32) j = (m ((c.tc : Thread nD τ).loc main_arg2) : Vec Ideal S16x2048 .i32) (ix2 g r) := by
  show StableHlo.after hostOps0 (W0 m ρ c) (Proc.devRef .tc main_v1) j = _
  after_results
  refine (shapeCast_apply _ _ j (ix2 g r) ?_).trans rfl
  rw [Shape.rowMajor_val_two, Shape.rowMajor_val_one]
  show g.val * 2048 + r.val = (j 0).val
  omega
/-- Rounding to the narrow format is the identity on extended reals. -/
private theorem W1_main_v2 (i : S100x768.Idx) : (W1 m ρ c (Proc.devRef .tc main_v2) : Vec Ideal S100x768 .bf16) i = (m ((c.tc : Thread nD τ).loc main_arg14) : Vec Ideal S100x768 .f32) i := by
  show StableHlo.after hostOps0 (W0 m ρ c) (Proc.devRef .tc main_v2) i = _
  after_results
  rfl
/-- So the remainder after rounding is x - x, zero at a real entry. -/
private theorem W1_main_v5 (i : S100x768.Idx) (hr : IsReal ((m ((c.tc : Thread nD τ).loc main_arg14) : Vec Ideal S100x768 .f32) i)) :
    (W1 m ρ c (Proc.devRef .tc main_v5) : Vec Ideal S100x768 .bf16) i = (0 : EReal) := by
  show StableHlo.after hostOps0 (W0 m ρ c) (Proc.devRef .tc main_v5) i = _
  after_results
  exact Cert.LibReal.sub_self_of_isReal hr
/-- Rounding to the narrow format is the identity on extended reals. -/
private theorem W1_main_v6 (i : S25x768.Idx) : (W1 m ρ c (Proc.devRef .tc main_v6) : Vec Ideal S25x768 .bf16) i = (m ((c.tc : Thread nD τ).loc main_arg15) : Vec Ideal S25x768 .f32) i := by
  show StableHlo.after hostOps0 (W0 m ρ c) (Proc.devRef .tc main_v6) i = _
  after_results
  rfl
/-- So the remainder after rounding is x - x, zero at a real entry. -/
private theorem W1_main_v9 (i : S25x768.Idx) (hr : IsReal ((m ((c.tc : Thread nD τ).loc main_arg15) : Vec Ideal S25x768 .f32) i)) :
    (W1 m ρ c (Proc.devRef .tc main_v9) : Vec Ideal S25x768 .bf16) i = (0 : EReal) := by
  show StableHlo.after hostOps0 (W0 m ρ c) (Proc.devRef .tc main_v9) i = _
  after_results
  exact Cert.LibReal.sub_self_of_isReal hr

/-! ### The index maps, decided over the grid -/

/-- The grid has sixteen points. -/
private theorem tlt : ∀ t : Fin cfg0.N, t.val < 16 := (by decide +kernel : ∀ t : Fin grid0.N, t.val < 16)
private theorem idx0_0 : ∀ t : Fin cfg0.N, win0_0.index t (0 : Fin 2) = t.val ∧ win0_0.index t (1 : Fin 2) = 0 :=
  (by decide +kernel : ∀ t : Fin grid0.N, _)
private theorem idx0_1 : ∀ t : Fin cfg0.N, win0_1.index t (0 : Fin 1) = t.val :=
  (by decide +kernel : ∀ t : Fin grid0.N, _)
private theorem idx0_2 : ∀ t : Fin cfg0.N, win0_2.index t (0 : Fin 1) = t.val :=
  (by decide +kernel : ∀ t : Fin grid0.N, _)
private theorem idx0_3 : ∀ t : Fin cfg0.N, win0_3.index t (0 : Fin 2) = 0 ∧ win0_3.index t (1 : Fin 2) = 0 :=
  (by decide +kernel : ∀ t : Fin grid0.N, _)
private theorem idx0_4 : ∀ t : Fin cfg0.N, win0_4.index t (0 : Fin 1) = 0 :=
  (by decide +kernel : ∀ t : Fin grid0.N, _)
private theorem idx0_5 : ∀ t : Fin cfg0.N, win0_5.index t (0 : Fin 2) = 0 ∧ win0_5.index t (1 : Fin 2) = 0 :=
  (by decide +kernel : ∀ t : Fin grid0.N, _)
private theorem idx0_6 : ∀ t : Fin cfg0.N, win0_6.index t (0 : Fin 1) = 0 :=
  (by decide +kernel : ∀ t : Fin grid0.N, _)
private theorem idx0_7 : ∀ t : Fin cfg0.N, win0_7.index t (0 : Fin 2) = 0 ∧ win0_7.index t (1 : Fin 2) = 0 :=
  (by decide +kernel : ∀ t : Fin grid0.N, _)
private theorem idx0_8 : ∀ t : Fin cfg0.N, win0_8.index t (0 : Fin 1) = 0 :=
  (by decide +kernel : ∀ t : Fin grid0.N, _)
private theorem idx0_9 : ∀ t : Fin cfg0.N, win0_9.index t (0 : Fin 2) = 0 ∧ win0_9.index t (1 : Fin 2) = 0 :=
  (by decide +kernel : ∀ t : Fin grid0.N, _)
private theorem idx0_10 : ∀ t : Fin cfg0.N, win0_10.index t (0 : Fin 1) = 0 :=
  (by decide +kernel : ∀ t : Fin grid0.N, _)
private theorem idx0_11 : ∀ t : Fin cfg0.N, win0_11.index t (0 : Fin 2) = 0 ∧ win0_11.index t (1 : Fin 2) = 0 :=
  (by decide +kernel : ∀ t : Fin grid0.N, _)
private theorem idx0_12 : ∀ t : Fin cfg0.N, win0_12.index t (0 : Fin 1) = 0 :=
  (by decide +kernel : ∀ t : Fin grid0.N, _)
private theorem idx0_13 : ∀ t : Fin cfg0.N, win0_13.index t (0 : Fin 2) = 0 ∧ win0_13.index t (1 : Fin 2) = 0 :=
  (by decide +kernel : ∀ t : Fin grid0.N, _)
private theorem idx0_14 : ∀ t : Fin cfg0.N, win0_14.index t (0 : Fin 2) = 0 ∧ win0_14.index t (1 : Fin 2) = 0 :=
  (by decide +kernel : ∀ t : Fin grid0.N, _)
private theorem idx0_15 : ∀ t : Fin cfg0.N, win0_15.index t (0 : Fin 2) = 0 ∧ win0_15.index t (1 : Fin 2) = 0 :=
  (by decide +kernel : ∀ t : Fin grid0.N, _)
private theorem idx0_16 : ∀ t : Fin cfg0.N, win0_16.index t (0 : Fin 2) = 0 ∧ win0_16.index t (1 : Fin 2) = 0 :=
  (by decide +kernel : ∀ t : Fin grid0.N, _)
private theorem idx0_17 : ∀ t : Fin cfg0.N, win0_17.index t (0 : Fin 1) = 0 :=
  (by decide +kernel : ∀ t : Fin grid0.N, _)
private theorem idx0_18 : ∀ t : Fin cfg0.N, win0_18.index t (0 : Fin 1) = 0 :=
  (by decide +kernel : ∀ t : Fin grid0.N, _)
private theorem idx0_19 : ∀ t : Fin cfg0.N, win0_19.index t (0 : Fin 1) = 0 :=
  (by decide +kernel : ∀ t : Fin grid0.N, _)
private theorem idx0_20 : ∀ t : Fin cfg0.N, win0_20.index t (0 : Fin 1) = 0 :=
  (by decide +kernel : ∀ t : Fin grid0.N, _)
private theorem idx0_21 : ∀ t : Fin cfg0.N, win0_21.index t (0 : Fin 2) = 0 ∧ win0_21.index t (1 : Fin 2) = 0 :=
  (by decide +kernel : ∀ t : Fin grid0.N, _)
private theorem idx0_22 : ∀ t : Fin cfg0.N, win0_22.index t (0 : Fin 1) = 0 :=
  (by decide +kernel : ∀ t : Fin grid0.N, _)
private theorem idx0_23 : ∀ t : Fin cfg0.N, win0_23.index t (0 : Fin 2) = t.val ∧ win0_23.index t (1 : Fin 2) = 0 :=
  (by decide +kernel : ∀ t : Fin grid0.N, _)
private theorem idx0_24 : ∀ t : Fin cfg0.N, win0_24.index t (0 : Fin 2) = t.val ∧ win0_24.index t (1 : Fin 2) = 0 :=
  (by decide +kernel : ∀ t : Fin grid0.N, _)

/-! ### The first kernel's input blocks at a grid point: point t sees graph t's rows of the node arrays and every table whole -/

private theorem iblk_0 (t : Fin cfg0.N) (r : Fin 2048) (k : Fin 3) :
    (iblk0 (V1 m ρ) c 0 t : Vec Ideal S2048x3 .f32) (ix2 r k) = (m ((c.tc : Thread nD τ).loc main_arg0) : Vec Ideal S32768x3 .f32) (ix2 (row ⟨t.val, tlt t⟩ r) k) := by
  obtain ⟨e0, e1⟩ := idx0_0 t
  have he : (((cfg0.win 0).blk t).view.emb (ix2 r k) : S32768x3.Idx) = ix2 (row ⟨t.val, tlt t⟩ r) k := by
    funext a; apply Fin.ext
    match a with
    | ⟨0, _⟩ => show win0_0.index t (0 : Fin 2) * 2048 + 1 * r.val = t.val * 2048 + r.val; omega
    | ⟨1, _⟩ => show win0_0.index t (1 : Fin 2) * 3 + 1 * k.val = k.val; omega
  show W1 m ρ c (Proc.devRef .tc main_arg0) (((cfg0.win 0).blk t).view.emb (ix2 r k)) = _
  rw [he, W1_main_arg0]
private theorem iblk_1 (t : Fin cfg0.N) (r : Fin 2048) :
    (iblk0 (V1 m ρ) c 1 t : Vec Ideal S2048 .i32) (ix1 r) = (m ((c.tc : Thread nD τ).loc main_arg1) : Vec Ideal S16x2048 .i32) (ix2 ⟨t.val, tlt t⟩ r) := by
  obtain e0 := idx0_1 t
  show W1 m ρ c (Proc.devRef .tc main_v0) (((cfg0.win 1).blk t).view.emb (ix1 r)) = _
  refine W1_main_v0 m ρ c ⟨t.val, tlt t⟩ r _ ?_
  show win0_1.index t (0 : Fin 1) * 2048 + 1 * r.val = t.val * 2048 + r.val
  omega
private theorem iblk_2 (t : Fin cfg0.N) (r : Fin 2048) :
    (iblk0 (V1 m ρ) c 2 t : Vec Ideal S2048 .i32) (ix1 r) = (m ((c.tc : Thread nD τ).loc main_arg2) : Vec Ideal S16x2048 .i32) (ix2 ⟨t.val, tlt t⟩ r) := by
  obtain e0 := idx0_2 t
  show W1 m ρ c (Proc.devRef .tc main_v1) (((cfg0.win 2).blk t).view.emb (ix1 r)) = _
  refine W1_main_v1 m ρ c ⟨t.val, tlt t⟩ r _ ?_
  show win0_2.index t (0 : Fin 1) * 2048 + 1 * r.val = t.val * 2048 + r.val
  omega
private theorem iblk_3 (t : Fin cfg0.N) (i : S3x12.Idx) :
    (iblk0 (V1 m ρ) c 3 t : Vec Ideal S3x12 .f32) i = (m ((c.tc : Thread nD τ).loc main_arg4) : Vec Ideal S3x12 .f32) i := by
  obtain ⟨e0, e1⟩ := idx0_3 t
  have he : (((cfg0.win 3).blk t).view.emb i : S3x12.Idx) = i := by
    funext a; apply Fin.ext
    match a with
    | ⟨0, _⟩ => show win0_3.index t (0 : Fin 2) * 3 + 1 * (i 0).val = (i 0).val; omega
    | ⟨1, _⟩ => show win0_3.index t (1 : Fin 2) * 12 + 1 * (i 1).val = (i 1).val; omega
  show W1 m ρ c (Proc.devRef .tc main_arg4) (((cfg0.win 3).blk t).view.emb i) = _
  rw [he, W1_main_arg4]
private theorem iblk_4 (t : Fin cfg0.N) (i : S12.Idx) :
    (iblk0 (V1 m ρ) c 4 t : Vec Ideal S12 .f32) i = (m ((c.tc : Thread nD τ).loc main_arg5) : Vec Ideal S12 .f32) i := by
  obtain e0 := idx0_4 t
  have he : (((cfg0.win 4).blk t).view.emb i : S12.Idx) = i := by
    funext a; apply Fin.ext
    match a with
    | ⟨0, _⟩ => show win0_4.index t (0 : Fin 1) * 12 + 1 * (i 0).val = (i 0).val; omega
  show W1 m ρ c (Proc.devRef .tc main_arg5) (((cfg0.win 4).blk t).view.emb i) = _
  rw [he, W1_main_arg5]
private theorem iblk_5 (t : Fin cfg0.N) (i : S12x48.Idx) :
    (iblk0 (V1 m ρ) c 5 t : Vec Ideal S12x48 .f32) i = (m ((c.tc : Thread nD τ).loc main_arg6) : Vec Ideal S12x48 .f32) i := by
  obtain ⟨e0, e1⟩ := idx0_5 t
  have he : (((cfg0.win 5).blk t).view.emb i : S12x48.Idx) = i := by
    funext a; apply Fin.ext
    match a with
    | ⟨0, _⟩ => show win0_5.index t (0 : Fin 2) * 12 + 1 * (i 0).val = (i 0).val; omega
    | ⟨1, _⟩ => show win0_5.index t (1 : Fin 2) * 48 + 1 * (i 1).val = (i 1).val; omega
  show W1 m ρ c (Proc.devRef .tc main_arg6) (((cfg0.win 5).blk t).view.emb i) = _
  rw [he, W1_main_arg6]
private theorem iblk_6 (t : Fin cfg0.N) (i : S48.Idx) :
    (iblk0 (V1 m ρ) c 6 t : Vec Ideal S48 .f32) i = (m ((c.tc : Thread nD τ).loc main_arg7) : Vec Ideal S48 .f32) i := by
  obtain e0 := idx0_6 t
  have he : (((cfg0.win 6).blk t).view.emb i : S48.Idx) = i := by
    funext a; apply Fin.ext
    match a with
    | ⟨0, _⟩ => show win0_6.index t (0 : Fin 1) * 48 + 1 * (i 0).val = (i 0).val; omega
  show W1 m ρ c (Proc.devRef .tc main_arg7) (((cfg0.win 6).blk t).view.emb i) = _
  rw [he, W1_main_arg7]
private theorem iblk_7 (t : Fin cfg0.N) (i : S48x192.Idx) :
    (iblk0 (V1 m ρ) c 7 t : Vec Ideal S48x192 .f32) i = (m ((c.tc : Thread nD τ).loc main_arg8) : Vec Ideal S48x192 .f32) i := by
  obtain ⟨e0, e1⟩ := idx0_7 t
  have he : (((cfg0.win 7).blk t).view.emb i : S48x192.Idx) = i := by
    funext a; apply Fin.ext
    match a with
    | ⟨0, _⟩ => show win0_7.index t (0 : Fin 2) * 48 + 1 * (i 0).val = (i 0).val; omega
    | ⟨1, _⟩ => show win0_7.index t (1 : Fin 2) * 192 + 1 * (i 1).val = (i 1).val; omega
  show W1 m ρ c (Proc.devRef .tc main_arg8) (((cfg0.win 7).blk t).view.emb i) = _
  rw [he, W1_main_arg8]
private theorem iblk_8 (t : Fin cfg0.N) (i : S192.Idx) :
    (iblk0 (V1 m ρ) c 8 t : Vec Ideal S192 .f32) i = (m ((c.tc : Thread nD τ).loc main_arg9) : Vec Ideal S192 .f32) i := by
  obtain e0 := idx0_8 t
  have he : (((cfg0.win 8).blk t).view.emb i : S192.Idx) = i := by
    funext a; apply Fin.ext
    match a with
    | ⟨0, _⟩ => show win0_8.index t (0 : Fin 1) * 192 + 1 * (i 0).val = (i 0).val; omega
  show W1 m ρ c (Proc.devRef .tc main_arg9) (((cfg0.win 8).blk t).view.emb i) = _
  rw [he, W1_main_arg9]
private theorem iblk_9 (t : Fin cfg0.N) (i : S192x768.Idx) :
    (iblk0 (V1 m ρ) c 9 t : Vec Ideal S192x768 .f32) i = (m ((c.tc : Thread nD τ).loc main_arg10) : Vec Ideal S192x768 .f32) i := by
  obtain ⟨e0, e1⟩ := idx0_9 t
  have he : (((cfg0.win 9).blk t).view.emb i : S192x768.Idx) = i := by
    funext a; apply Fin.ext
    match a with
    | ⟨0, _⟩ => show win0_9.index t (0 : Fin 2) * 192 + 1 * (i 0).val = (i 0).val; omega
    | ⟨1, _⟩ => show win0_9.index t (1 : Fin 2) * 768 + 1 * (i 1).val = (i 1).val; omega
  show W1 m ρ c (Proc.devRef .tc main_arg10) (((cfg0.win 9).blk t).view.emb i) = _
  rw [he, W1_main_arg10]
private theorem iblk_10 (t : Fin cfg0.N) (i : S768.Idx) :
    (iblk0 (V1 m ρ) c 10 t : Vec Ideal S768 .f32) i = (m ((c.tc : Thread nD τ).loc main_arg11) : Vec Ideal S768 .f32) i := by
  obtain e0 := idx0_10 t
  have he : (((cfg0.win 10).blk t).view.emb i : S768.Idx) = i := by
    funext a; apply Fin.ext
    match a with
    | ⟨0, _⟩ => show win0_10.index t (0 : Fin 1) * 768 + 1 * (i 0).val = (i 0).val; omega
  show W1 m ρ c (Proc.devRef .tc main_arg11) (((cfg0.win 10).blk t).view.emb i) = _
  rw [he, W1_main_arg11]
private theorem iblk_11 (t : Fin cfg0.N) (i : S768x768.Idx) :
    (iblk0 (V1 m ρ) c 11 t : Vec Ideal S768x768 .f32) i = (m ((c.tc : Thread nD τ).loc main_arg12) : Vec Ideal S768x768 .f32) i := by
  obtain ⟨e0, e1⟩ := idx0_11 t
  have he : (((cfg0.win 11).blk t).view.emb i : S768x768.Idx) = i := by
    funext a; apply Fin.ext
    match a with
    | ⟨0, _⟩ => show win0_11.index t (0 : Fin 2) * 768 + 1 * (i 0).val = (i 0).val; omega
    | ⟨1, _⟩ => show win0_11.index t (1 : Fin 2) * 768 + 1 * (i 1).val = (i 1).val; omega
  show W1 m ρ c (Proc.devRef .tc main_arg12) (((cfg0.win 11).blk t).view.emb i) = _
  rw [he, W1_main_arg12]
private theorem iblk_12 (t : Fin cfg0.N) (i : S768.Idx) :
    (iblk0 (V1 m ρ) c 12 t : Vec Ideal S768 .f32) i = (m ((c.tc : Thread nD τ).loc main_arg13) : Vec Ideal S768 .f32) i := by
  obtain e0 := idx0_12 t
  have he : (((cfg0.win 12).blk t).view.emb i : S768.Idx) = i := by
    funext a; apply Fin.ext
    match a with
    | ⟨0, _⟩ => show win0_12.index t (0 : Fin 1) * 768 + 1 * (i 0).val = (i 0).val; omega
  show W1 m ρ c (Proc.devRef .tc main_arg13) (((cfg0.win 12).blk t).view.emb i) = _
  rw [he, W1_main_arg13]
private theorem iblk_13 (t : Fin cfg0.N) (i : S100x768.Idx) :
    (iblk0 (V1 m ρ) c 13 t : Vec Ideal S100x768 .bf16) i = (m ((c.tc : Thread nD τ).loc main_arg14) : Vec Ideal S100x768 .f32) i := by
  obtain ⟨e0, e1⟩ := idx0_13 t
  have he : (((cfg0.win 13).blk t).view.emb i : S100x768.Idx) = i := by
    funext a; apply Fin.ext
    match a with
    | ⟨0, _⟩ => show win0_13.index t (0 : Fin 2) * 100 + 1 * (i 0).val = (i 0).val; omega
    | ⟨1, _⟩ => show win0_13.index t (1 : Fin 2) * 768 + 1 * (i 1).val = (i 1).val; omega
  show W1 m ρ c (Proc.devRef .tc main_v2) (((cfg0.win 13).blk t).view.emb i) = _
  rw [he]
  exact W1_main_v2 m ρ c i
private theorem iblk_14 (t : Fin cfg0.N) (i : S100x768.Idx) (hr : IsReal ((m ((c.tc : Thread nD τ).loc main_arg14) : Vec Ideal S100x768 .f32) i)) :
    (iblk0 (V1 m ρ) c 14 t : Vec Ideal S100x768 .bf16) i = (0 : EReal) := by
  obtain ⟨e0, e1⟩ := idx0_14 t
  have he : (((cfg0.win 14).blk t).view.emb i : S100x768.Idx) = i := by
    funext a; apply Fin.ext
    match a with
    | ⟨0, _⟩ => show win0_14.index t (0 : Fin 2) * 100 + 1 * (i 0).val = (i 0).val; omega
    | ⟨1, _⟩ => show win0_14.index t (1 : Fin 2) * 768 + 1 * (i 1).val = (i 1).val; omega
  show W1 m ρ c (Proc.devRef .tc main_v5) (((cfg0.win 14).blk t).view.emb i) = _
  rw [he]
  exact W1_main_v5 m ρ c i hr
private theorem iblk_15 (t : Fin cfg0.N) (i : S25x768.Idx) :
    (iblk0 (V1 m ρ) c 15 t : Vec Ideal S25x768 .bf16) i = (m ((c.tc : Thread nD τ).loc main_arg15) : Vec Ideal S25x768 .f32) i := by
  obtain ⟨e0, e1⟩ := idx0_15 t
  have he : (((cfg0.win 15).blk t).view.emb i : S25x768.Idx) = i := by
    funext a; apply Fin.ext
    match a with
    | ⟨0, _⟩ => show win0_15.index t (0 : Fin 2) * 25 + 1 * (i 0).val = (i 0).val; omega
    | ⟨1, _⟩ => show win0_15.index t (1 : Fin 2) * 768 + 1 * (i 1).val = (i 1).val; omega
  show W1 m ρ c (Proc.devRef .tc main_v6) (((cfg0.win 15).blk t).view.emb i) = _
  rw [he]
  exact W1_main_v6 m ρ c i
private theorem iblk_16 (t : Fin cfg0.N) (i : S25x768.Idx) (hr : IsReal ((m ((c.tc : Thread nD τ).loc main_arg15) : Vec Ideal S25x768 .f32) i)) :
    (iblk0 (V1 m ρ) c 16 t : Vec Ideal S25x768 .bf16) i = (0 : EReal) := by
  obtain ⟨e0, e1⟩ := idx0_16 t
  have he : (((cfg0.win 16).blk t).view.emb i : S25x768.Idx) = i := by
    funext a; apply Fin.ext
    match a with
    | ⟨0, _⟩ => show win0_16.index t (0 : Fin 2) * 25 + 1 * (i 0).val = (i 0).val; omega
    | ⟨1, _⟩ => show win0_16.index t (1 : Fin 2) * 768 + 1 * (i 1).val = (i 1).val; omega
  show W1 m ρ c (Proc.devRef .tc main_v9) (((cfg0.win 16).blk t).view.emb i) = _
  rw [he]
  exact W1_main_v9 m ρ c i hr
private theorem iblk_17 (t : Fin cfg0.N) (i : S3.Idx) :
    (iblk0 (V1 m ρ) c 17 t : Vec Ideal S3 .f32) i = (m ((c.tc : Thread nD τ).loc main_arg16) : Vec Ideal S3 .f32) i := by
  obtain e0 := idx0_17 t
  have he : (((cfg0.win 17).blk t).view.emb i : S3.Idx) = i := by
    funext a; apply Fin.ext
    match a with
    | ⟨0, _⟩ => show win0_17.index t (0 : Fin 1) * 3 + 1 * (i 0).val = (i 0).val; omega
  show W1 m ρ c (Proc.devRef .tc main_arg16) (((cfg0.win 17).blk t).view.emb i) = _
  rw [he, W1_main_arg16]
private theorem iblk_18 (t : Fin cfg0.N) (i : S3.Idx) :
    (iblk0 (V1 m ρ) c 18 t : Vec Ideal S3 .f32) i = (m ((c.tc : Thread nD τ).loc main_arg17) : Vec Ideal S3 .f32) i := by
  obtain e0 := idx0_18 t
  have he : (((cfg0.win 18).blk t).view.emb i : S3.Idx) = i := by
    funext a; apply Fin.ext
    match a with
    | ⟨0, _⟩ => show win0_18.index t (0 : Fin 1) * 3 + 1 * (i 0).val = (i 0).val; omega
  show W1 m ρ c (Proc.devRef .tc main_arg17) (((cfg0.win 18).blk t).view.emb i) = _
  rw [he, W1_main_arg17]
private theorem iblk_19 (t : Fin cfg0.N) (i : S768.Idx) :
    (iblk0 (V1 m ρ) c 19 t : Vec Ideal S768 .f32) i = (m ((c.tc : Thread nD τ).loc main_arg18) : Vec Ideal S768 .f32) i := by
  obtain e0 := idx0_19 t
  have he : (((cfg0.win 19).blk t).view.emb i : S768.Idx) = i := by
    funext a; apply Fin.ext
    match a with
    | ⟨0, _⟩ => show win0_19.index t (0 : Fin 1) * 768 + 1 * (i 0).val = (i 0).val; omega
  show W1 m ρ c (Proc.devRef .tc main_arg18) (((cfg0.win 19).blk t).view.emb i) = _
  rw [he, W1_main_arg18]
private theorem iblk_20 (t : Fin cfg0.N) (i : S768.Idx) :
    (iblk0 (V1 m ρ) c 20 t : Vec Ideal S768 .f32) i = (m ((c.tc : Thread nD τ).loc main_arg19) : Vec Ideal S768 .f32) i := by
  obtain e0 := idx0_20 t
  have he : (((cfg0.win 20).blk t).view.emb i : S768.Idx) = i := by
    funext a; apply Fin.ext
    match a with
    | ⟨0, _⟩ => show win0_20.index t (0 : Fin 1) * 768 + 1 * (i 0).val = (i 0).val; omega
  show W1 m ρ c (Proc.devRef .tc main_arg19) (((cfg0.win 20).blk t).view.emb i) = _
  rw [he, W1_main_arg19]
private theorem iblk_21 (t : Fin cfg0.N) (i : S768x128.Idx) :
    (iblk0 (V1 m ρ) c 21 t : Vec Ideal S768x128 .f32) i = (m ((c.tc : Thread nD τ).loc main_arg20) : Vec Ideal S768x128 .f32) i := by
  obtain ⟨e0, e1⟩ := idx0_21 t
  have he : (((cfg0.win 21).blk t).view.emb i : S768x128.Idx) = i := by
    funext a; apply Fin.ext
    match a with
    | ⟨0, _⟩ => show win0_21.index t (0 : Fin 2) * 768 + 1 * (i 0).val = (i 0).val; omega
    | ⟨1, _⟩ => show win0_21.index t (1 : Fin 2) * 128 + 1 * (i 1).val = (i 1).val; omega
  show W1 m ρ c (Proc.devRef .tc main_arg20) (((cfg0.win 21).blk t).view.emb i) = _
  rw [he, W1_main_arg20]
private theorem iblk_22 (t : Fin cfg0.N) (i : S128.Idx) :
    (iblk0 (V1 m ρ) c 22 t : Vec Ideal S128 .f32) i = (m ((c.tc : Thread nD τ).loc main_arg21) : Vec Ideal S128 .f32) i := by
  obtain e0 := idx0_22 t
  have he : (((cfg0.win 22).blk t).view.emb i : S128.Idx) = i := by
    funext a; apply Fin.ext
    match a with
    | ⟨0, _⟩ => show win0_22.index t (0 : Fin 1) * 128 + 1 * (i 0).val = (i 0).val; omega
  show W1 m ρ c (Proc.devRef .tc main_arg21) (((cfg0.win 22).blk t).view.emb i) = _
  rw [he, W1_main_arg21]

/-! ### What a grid point writes back, and the arrays after the last point -/

/-- The node layer norm as one array. -/
private abbrev Gh (A : Args) : S32768x768.Idx → EReal := fun i => h A (i 0) (i 1)
/-- The dense layer to the edge width as one array. -/
private abbrev Ghe (A : Args) : S32768x128.Idx → EReal := fun i => he A (i 0) (i 1)

/-- Point t's block of output 0, index by index: graph t's rows of the stage. -/
private theorem flushed23_apply (hA : (argsK m c).Ok) (t : Fin cfg0.N) (r : Fin 2048) (f : Fin 768) :
    ((dat0 (V1 m ρ) c).flushed 23 t : Vec Ideal S2048x768 .f32) (ix2 r f) = bh (argsK m c) ⟨t.val, tlt t⟩ r f := by
  show ((cfg0.win 23).cut (grid0.coords t) ((dat0 (V1 m ρ) c).after 23 t) : Vec Ideal S2048x768 .f32) (ix2 r f) = _
  rw [after0_23]
  exact out0_23_apply (argsK m c) hA ⟨t.val, tlt t⟩
    (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) (iblk0 (V1 m ρ) c 18 t) (iblk0 (V1 m ρ) c 19 t) (iblk0 (V1 m ρ) c 20 t) (iblk0 (V1 m ρ) c 21 t) (iblk0 (V1 m ρ) c 22 t)
    (fun r k => iblk_0 m ρ c t r k)
    (fun r => iblk_1 m ρ c t r)
    (fun r => iblk_2 m ρ c t r)
    (fun i => iblk_3 m ρ c t i)
    (fun i => iblk_4 m ρ c t i)
    (fun i => iblk_5 m ρ c t i)
    (fun i => iblk_6 m ρ c t i)
    (fun i => iblk_7 m ρ c t i)
    (fun i => iblk_8 m ρ c t i)
    (fun i => iblk_9 m ρ c t i)
    (fun i => iblk_10 m ρ c t i)
    (fun i => iblk_11 m ρ c t i)
    (fun i => iblk_12 m ρ c t i)
    (fun i => iblk_13 m ρ c t i)
    (fun i => iblk_15 m ρ c t i)
    (fun i => iblk_17 m ρ c t i)
    (fun i => iblk_18 m ρ c t i)
    (fun i => iblk_19 m ρ c t i)
    (fun i => iblk_20 m ρ c t i)
    (fun i => iblk_21 m ρ c t i)
    (fun i => iblk_22 m ρ c t i)
    (fun i => iblk_14 m ρ c t i (hA.atomEmb i))
    (fun i => iblk_16 m ρ c t i (hA.aaEmb i))
    r f

/-- What point t writes back is its block of the one array. -/
private theorem flushed23_eq (hA : (argsK m c).Ok) (t : Fin cfg0.N) :
    (dat0 (V1 m ρ) c).flushed 23 t = ((cfg0.win 23).blk t).view.read (Elt Ideal) (Gh (argsK m c)) := by
  obtain ⟨e0, e1⟩ := idx0_23 t
  funext y
  obtain ⟨r, f, rfl⟩ : ∃ (r : Fin 2048) (f : Fin 768), y = ix2 r f := ⟨y 0, y 1, eq_ix2 y⟩
  refine (flushed23_apply m ρ c hA t r f).trans ?_
  refine (Cert.LibSeg.bh_eq (argsK m c) ⟨t.val, tlt t⟩ r f).trans ?_
  show h (argsK m c) (row ⟨t.val, tlt t⟩ r) f = h (argsK m c) ((((cfg0.win 23).blk t).view.emb (ix2 r f)) 0) ((((cfg0.win 23).blk t).view.emb (ix2 r f)) 1)
  exact congrArg₂ (h (argsK m c))
    (Fin.ext (by show t.val * 2048 + r.val = win0_23.index t (0 : Fin 2) * 2048 + 1 * r.val; omega))
    (Fin.ext (by show f.val = win0_23.index t (1 : Fin 2) * 768 + 1 * f.val; omega))

/-- An index of the array is in point t's block iff each coordinate is in the block's range on its axis. -/
private theorem mem_blk23 (t : Fin cfg0.N) (i : S32768x768.Idx) :
    i ∈ ((cfg0.win 23).blk t).view.set ↔ ∀ a : Fin 2, win0_23.index t a * S2048x768.size a ≤ (i a).val ∧ (i a).val < win0_23.index t a * S2048x768.size a + S2048x768.size a := by
  show i ∈ ((View.whole main_v10_0).slice (win0_23.rect t)).set ↔ _
  rw [View.set_slice_whole, Rect.mem_set_unit]
  exact Iff.rfl

/-- Every block row is some point's. -/
private theorem idx_onto23 : ∀ q : Fin 16, ∃ t : Fin cfg0.N, win0_23.index t = ![q.val, 0] :=
  (by decide +kernel : ∀ q : Fin 16, ∃ t : Fin grid0.N, win0_23.index t = ![q.val, 0])

/-- The blocks cover the array: node n is in the block of point n / 2048. -/
private theorem cover23 (i : S32768x768.Idx) : ∃ t : Fin cfg0.N, (cfg0.win 23).flush t = true ∧ i ∈ ((cfg0.win 23).blk t).view.set := by
  have hi0 : (i 0).val < 32768 := (i 0).isLt
  have hi1 : (i 1).val < 768 := (i 1).isLt
  obtain ⟨t, ht⟩ := idx_onto23 ⟨(i 0).val / 2048, by omega⟩
  have q0 : win0_23.index t (0 : Fin 2) = (i 0).val / 2048 := congrFun ht 0
  have q1 : win0_23.index t (1 : Fin 2) = 0 := congrFun ht 1
  refine ⟨t, flush0_23 t, ?_⟩
  rw [mem_blk23]
  intro a
  match a with
  | ⟨0, _⟩ => show win0_23.index t (0 : Fin 2) * 2048 ≤ (i 0).val ∧ (i 0).val < win0_23.index t (0 : Fin 2) * 2048 + 2048; omega
  | ⟨1, _⟩ => show win0_23.index t (1 : Fin 2) * 768 ≤ (i 1).val ∧ (i 1).val < win0_23.index t (1 : Fin 2) * 768 + 768; omega

/-- The array after the last point. -/
private theorem final23 (hA : (argsK m c).Ok) : (dat0 (V1 m ρ) c).arrAt 23 cfg0.N = Gh (argsK m c) :=
  (dat0 (V1 m ρ) c).arrAt_eq_of_cover 23 (Gh (argsK m c)) (fun t _ => flushed23_eq m ρ c hA t) (cover23)

/-- Point t's block of output 1, index by index: graph t's rows of the stage. -/
private theorem flushed24_apply (hA : (argsK m c).Ok) (t : Fin cfg0.N) (r : Fin 2048) (f : Fin 128) :
    ((dat0 (V1 m ρ) c).flushed 24 t : Vec Ideal S2048x128 .f32) (ix2 r f) = bhe (argsK m c) ⟨t.val, tlt t⟩ r f := by
  show ((cfg0.win 24).cut (grid0.coords t) ((dat0 (V1 m ρ) c).after 24 t) : Vec Ideal S2048x128 .f32) (ix2 r f) = _
  rw [after0_24]
  exact out0_24_apply (argsK m c) hA ⟨t.val, tlt t⟩
    (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) (iblk0 (V1 m ρ) c 18 t) (iblk0 (V1 m ρ) c 19 t) (iblk0 (V1 m ρ) c 20 t) (iblk0 (V1 m ρ) c 21 t) (iblk0 (V1 m ρ) c 22 t)
    (fun r k => iblk_0 m ρ c t r k)
    (fun r => iblk_1 m ρ c t r)
    (fun r => iblk_2 m ρ c t r)
    (fun i => iblk_3 m ρ c t i)
    (fun i => iblk_4 m ρ c t i)
    (fun i => iblk_5 m ρ c t i)
    (fun i => iblk_6 m ρ c t i)
    (fun i => iblk_7 m ρ c t i)
    (fun i => iblk_8 m ρ c t i)
    (fun i => iblk_9 m ρ c t i)
    (fun i => iblk_10 m ρ c t i)
    (fun i => iblk_11 m ρ c t i)
    (fun i => iblk_12 m ρ c t i)
    (fun i => iblk_13 m ρ c t i)
    (fun i => iblk_15 m ρ c t i)
    (fun i => iblk_17 m ρ c t i)
    (fun i => iblk_18 m ρ c t i)
    (fun i => iblk_19 m ρ c t i)
    (fun i => iblk_20 m ρ c t i)
    (fun i => iblk_21 m ρ c t i)
    (fun i => iblk_22 m ρ c t i)
    (fun i => iblk_14 m ρ c t i (hA.atomEmb i))
    (fun i => iblk_16 m ρ c t i (hA.aaEmb i))
    r f

/-- What point t writes back is its block of the one array. -/
private theorem flushed24_eq (hA : (argsK m c).Ok) (t : Fin cfg0.N) :
    (dat0 (V1 m ρ) c).flushed 24 t = ((cfg0.win 24).blk t).view.read (Elt Ideal) (Ghe (argsK m c)) := by
  obtain ⟨e0, e1⟩ := idx0_24 t
  funext y
  obtain ⟨r, f, rfl⟩ : ∃ (r : Fin 2048) (f : Fin 128), y = ix2 r f := ⟨y 0, y 1, eq_ix2 y⟩
  refine (flushed24_apply m ρ c hA t r f).trans ?_
  refine (Cert.LibSeg.bhe_eq (argsK m c) ⟨t.val, tlt t⟩ r f).trans ?_
  show he (argsK m c) (row ⟨t.val, tlt t⟩ r) f = he (argsK m c) ((((cfg0.win 24).blk t).view.emb (ix2 r f)) 0) ((((cfg0.win 24).blk t).view.emb (ix2 r f)) 1)
  exact congrArg₂ (he (argsK m c))
    (Fin.ext (by show t.val * 2048 + r.val = win0_24.index t (0 : Fin 2) * 2048 + 1 * r.val; omega))
    (Fin.ext (by show f.val = win0_24.index t (1 : Fin 2) * 128 + 1 * f.val; omega))

/-- An index of the array is in point t's block iff each coordinate is in the block's range on its axis. -/
private theorem mem_blk24 (t : Fin cfg0.N) (i : S32768x128.Idx) :
    i ∈ ((cfg0.win 24).blk t).view.set ↔ ∀ a : Fin 2, win0_24.index t a * S2048x128.size a ≤ (i a).val ∧ (i a).val < win0_24.index t a * S2048x128.size a + S2048x128.size a := by
  show i ∈ ((View.whole main_v10_1).slice (win0_24.rect t)).set ↔ _
  rw [View.set_slice_whole, Rect.mem_set_unit]
  exact Iff.rfl

/-- Every block row is some point's. -/
private theorem idx_onto24 : ∀ q : Fin 16, ∃ t : Fin cfg0.N, win0_24.index t = ![q.val, 0] :=
  (by decide +kernel : ∀ q : Fin 16, ∃ t : Fin grid0.N, win0_24.index t = ![q.val, 0])

/-- The blocks cover the array: node n is in the block of point n / 2048. -/
private theorem cover24 (i : S32768x128.Idx) : ∃ t : Fin cfg0.N, (cfg0.win 24).flush t = true ∧ i ∈ ((cfg0.win 24).blk t).view.set := by
  have hi0 : (i 0).val < 32768 := (i 0).isLt
  have hi1 : (i 1).val < 128 := (i 1).isLt
  obtain ⟨t, ht⟩ := idx_onto24 ⟨(i 0).val / 2048, by omega⟩
  have q0 : win0_24.index t (0 : Fin 2) = (i 0).val / 2048 := congrFun ht 0
  have q1 : win0_24.index t (1 : Fin 2) = 0 := congrFun ht 1
  refine ⟨t, flush0_24 t, ?_⟩
  rw [mem_blk24]
  intro a
  match a with
  | ⟨0, _⟩ => show win0_24.index t (0 : Fin 2) * 2048 ≤ (i 0).val ∧ (i 0).val < win0_24.index t (0 : Fin 2) * 2048 + 2048; omega
  | ⟨1, _⟩ => show win0_24.index t (1 : Fin 2) * 128 ≤ (i 1).val ∧ (i 1).val < win0_24.index t (1 : Fin 2) * 128 + 128; omega

/-- The array after the last point. -/
private theorem final24 (hA : (argsK m c).Ok) : (dat0 (V1 m ρ) c).arrAt 24 cfg0.N = Ghe (argsK m c) :=
  (dat0 (V1 m ρ) c).arrAt_eq_of_cover 24 (Ghe (argsK m c)) (fun t _ => flushed24_eq m ρ c hA t) (cover24)

theorem W2_h (hA : (argsK m c).Ok) (n : Fin 32768) (f : Fin 768) :
    (W2 m ρ c (Proc.devRef .tc main_v10_0) : Vec Ideal S32768x768 .f32) (ix2 n f) = h (argsK m c) n f :=
  congrFun ((W2_arr m ρ c 23).trans (final23 m ρ c hA)) (ix2 n f)
theorem W2_he (hA : (argsK m c).Ok) (n : Fin 32768) (f : Fin 128) :
    (W2 m ρ c (Proc.devRef .tc main_v10_1) : Vec Ideal S32768x128 .f32) (ix2 n f) = he (argsK m c) n f :=
  congrFun ((W2_arr m ρ c 24).trans (final24 m ρ c hA)) (ix2 n f)

end Cert.KVal

end
-- ==== Proof.KHost1Aux1.lean ====
/-
  The take of table rows at a vector of row numbers, as the host spells it, read at an index: a negative row number is
  moved up by the table's height, the row number is tested against the table's range, the row is gathered at the clamped
  number, and a row out of range is replaced by a constant. At a row number inside the range the result is the table's row.
-/
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import proofs.«402160_j53730040873195_3_alg».proof.Proof.LibHostIdx2

noncomputable section

namespace Cert.KHost1Aux

open Idealize.ShloMosaic Idealize.ShloMosaic.ValueIdx

abbrev T0 : Shape := ⟨0, ![]⟩
abbrev T1 : Shape := ⟨1, ![1]⟩
abbrev T11 : Shape := ⟨2, ![1, 1]⟩
abbrev TR : Shape := ⟨1, ![524288]⟩
abbrev TR1 : Shape := ⟨2, ![524288, 1]⟩
abbrev TRC : Shape := ⟨2, ![524288, 128]⟩
abbrev TNC : Shape := ⟨2, ![32768, 128]⟩

/-- The shape facts the take's operations carry. -/
structure TakeFacts : Prop where
  b0 : T0.BroadcastsInDim TR (![] : Fin 0 → Fin TR.rank)
  b1 : TR.BroadcastsInDim TR1 (![0] : Fin 1 → Fin TR1.rank)
  b2 : T0.BroadcastsInDim TR1 (![] : Fin 0 → Fin TR1.rank)
  b3 : T1.BroadcastsInDim T11 (![1] : Fin 1 → Fin T11.rank)
  b4 : T11.BroadcastsInDim TR1 (![0, 1] : Fin 2 → Fin TR1.rank)
  r : TR1.ReducesTo [1] TR
  u : 0 < T0.numel
  b5 : TR.BroadcastsInDim TRC (![0] : Fin 1 → Fin TRC.rank)
  b6 : T0.BroadcastsInDim TRC (![] : Fin 0 → Fin TRC.rank)

variable (K : TakeFacts)

/-- The column of row numbers: a negative number moved up by the table's height. -/
def idxCol (w : IVec TR 32) : IVec TR1 32 :=
  broadcastInDim TR1 ![0] K.b1
    (select (cmpi .slt w (broadcastInDim TR ![] K.b0 (constantI T0 32 0#32)))
      (addi w (broadcastInDim TR ![] K.b0 (constantI T0 32 32768#32))) w)

/-- Whether a row number lies in the table. -/
def inRange (v : IVec TR1 32) : IVec TR 1 :=
  Host.reduce IntOp.andi
    (andi (cmpi .sge v (broadcastInDim TR1 ![] K.b2 (constantI T0 32 0#32)))
      (cmpi .sle v (broadcastInDim TR1 ![0, 1] K.b4 (broadcastInDim T11 ![1] K.b3 (constantI T1 32 32767#32)))))
    (constantI T0 1 1#1) K.r K.u

/-- The take. -/
def takeV (d : GatherDims TNC TR1 TRC) (x : FVec Ideal TNC .f32) (w : IVec TR 32) : FVec Ideal TRC .f32 :=
  select (broadcastInDim TRC ![0] K.b5 (inRange K (idxCol K w)))
    (Host.gather d x (idxCol K w))
    (broadcastInDim TRC ![] K.b6 (constant (F := Ideal) T0 .f32 0x7FC00000#32))

/-- A non-negative row number is kept. -/
theorem idxCol_apply (w : IVec TR 32) (e : Fin 524288) (h0 : 0 ≤ (w (ix1 e)).toInt) :
    idxCol K w (ix2 e (0 : Fin 1)) = w (ix1 e) := by
  unfold idxCol
  rw [broadcastInDim_apply ![0] K.b1 _ (ix2 e (0 : Fin 1)) (ix1 e)
    (fun a => by obtain rfl : a = 0 := Subsingleton.elim _ _; rfl)]
  rw [select_apply]
  have hc : cmpi .slt w (broadcastInDim TR ![] K.b0 (constantI T0 32 0#32)) (ix1 e) = 0#1 := by
    apply eq_zero_of_ne_one
    show ¬ IntOp.cmpi .slt (w (ix1 e)) (broadcastInDim TR ![] K.b0 (constantI T0 32 0#32) (ix1 e)) = 1#1
    rw [broadcastInDim_scalar_apply, constantI_apply, IntOp.cmpi_slt]
    have : (0#32 : BitVec 32).toInt = 0 := by decide
    omega
  rw [hc, select_zero]

/-- A fold over a one-element range is the operation at the one element and the start. -/
theorem fold_fin_one {α : Type} (f : α → α → α) [Std.Commutative f] [Std.Associative f] (b : α) {n : ℕ} (hn : n = 1)
    (g : Fin n → α) : (Finset.univ : Finset (Fin n)).fold f b g = f (g ⟨0, by omega⟩) b := by
  subst hn
  rw [Finset.univ_unique, Finset.fold_singleton]
  rfl

/-- A row number inside the table passes the range test. -/
theorem inRange_apply (v : IVec TR1 32) (e : Fin 524288) (h0 : 0 ≤ (v (ix2 e (0 : Fin 1))).toInt)
    (h1 : (v (ix2 e (0 : Fin 1))).toInt ≤ 32767) : inRange K v (ix1 e) = 1#1 := by
  unfold inRange
  have hR : TR1.Reduces [1] TR := by decide
  rw [Host.reduce_eq_fold_single IntOp.andi _ _ K.r hR K.u (ix1 e)]
  have hq : ∀ q : Fin (TR1.size 1), hR.lift (ix1 e) q = ix2 e (0 : Fin 1) := by
    intro q
    have hq1 : q.val < 1 := q.isLt
    funext a
    match a with
    | ⟨0, _⟩ => rfl
    | ⟨1, _⟩ => exact Fin.ext (by show q.val = 0; omega)
  rw [fold_fin_one IntOp.andi _ (rfl : TR1.size 1 = 1)]
  show IntOp.andi (IntOp.andi (IntOp.cmpi .sge (v (hR.lift (ix1 e) _)) _) (IntOp.cmpi .sle (v (hR.lift (ix1 e) _)) _)) _ = 1#1
  rw [hq]
  have ha : IntOp.cmpi .sge (v (ix2 e (0 : Fin 1))) (broadcastInDim TR1 ![] K.b2 (constantI T0 32 0#32) (ix2 e (0 : Fin 1))) = 1#1 := by
    rw [broadcastInDim_scalar_apply, constantI_apply, IntOp.cmpi_sge]
    have : (0#32 : BitVec 32).toInt = 0 := by decide
    omega
  have hb : IntOp.cmpi .sle (v (ix2 e (0 : Fin 1)))
      (broadcastInDim TR1 ![0, 1] K.b4 (broadcastInDim T11 ![1] K.b3 (constantI T1 32 32767#32)) (ix2 e (0 : Fin 1))) = 1#1 := by
    rw [IntOp.cmpi_sle]
    have : (broadcastInDim TR1 ![0, 1] K.b4 (broadcastInDim T11 ![1] K.b3 (constantI T1 32 32767#32)) (ix2 e (0 : Fin 1))) = 32767#32 := rfl
    rw [this]
    have : (32767#32 : BitVec 32).toInt = 32767 := by decide
    omega
  rw [ha, hb, constantI_apply]
  decide

/-- THE TAKE READ AT (e, f): at a row number inside the table, the table's row of that number. -/
theorem takeV_apply (d : GatherDims TNC TR1 TRC)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, 128])
    (x : FVec Ideal TNC .f32) (w : IVec TR 32) (e : Fin 524288) (f : Fin 128)
    (h0 : 0 ≤ (w (ix1 e)).toInt) (h1 : (w (ix1 e)).toInt < 32768)
    (k : Fin 32768) (hk : k.val = min (w (ix1 e)).toInt.toNat 32767) :
    takeV K d x w (ix2 e f) = x (ix2 k f) := by
  unfold takeV
  rw [select_apply]
  rw [broadcastInDim_apply ![0] K.b5 _ (ix2 e f) (ix1 e)
    (fun a => by obtain rfl : a = 0 := Subsingleton.elim _ _; rfl)]
  have hv := idxCol_apply K w e h0
  rw [inRange_apply K (idxCol K w) e (by rw [hv]; exact h0) (by rw [hv]; omega), select_one]
  rw [Idealize.ShloMosaic.HostIdx2.gather_rows_apply (by decide) d hod hcd hob hsb hsim hiv hss x (idxCol K w) e f]
  refine congrArg x (congrArg (fun r => ix2 r f) (Fin.ext ?_))
  show min (idxCol K w (ix2 e (0 : Fin 1))).toInt.toNat (32768 - 1) = k.val
  rw [hv, hk]

end Cert.KHost1Aux

end
-- ==== Proof.KHost1.lean ====
/-
  The host stretch between the first and the second kernel: the edges' half sums, the node features by graph, and each
  graph's mean and reciprocal standard deviation over its edge rows, broadcast along the features.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«402160_j53730040873195_3_alg».proof.Proof.KNodeArr
import proofs.«402160_j53730040873195_3_alg».proof.Proof.KHost1Aux1

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The shape facts of the two takes. -/
private theorem takeFacts : Cert.KHost1Aux.TakeFacts :=
  ⟨Facts₀.bcast_S_S524288, Facts₀.bcast_S524288_S524288x1_0, Facts₀.bcast_S_S524288x1, Facts₀.bcast_S1_S1x1_1,
    Facts₀.bcast_S1x1_S524288x1_0_1, Facts₀.reducesTo_S524288x1_S524288_d1, Facts₀.h_S_,
    Facts₀.bcast_S524288_S524288x128_0, Facts₀.bcast_S_S524288x128⟩

/-! ## What the first kernel and the earlier host operations leave untouched -/

/-- The edge endpoints are as launched: no window of the first kernel is their array, and no host operation writes them. -/
private theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by
          dsimp only [W1, hostOps0]
          after_results <;> rfl
    _ = m ((c : Thread nD τ).loc main_arg3) := rfl

/-! ## The two endpoint vectors -/

private theorem W3_v12_eq : (W3 m ρ c (Proc.devRef .tc main_v12) : Vec Ideal S524288 .i32)
    = shapeCast S524288 (extractStridedSlice S1x524288 ![0, 0] (W2 m ρ c (Proc.devRef .tc main_arg3) : Vec Ideal S2x524288 .i32)
        Facts₀.slices_S2x524288_S1x524288_0_0) Facts₀.shapeCasts_S1x524288_S524288 := by
  dsimp only [W3, hostOps1]
  after_results
  rfl
private theorem W3_v14_eq : (W3 m ρ c (Proc.devRef .tc main_v14) : Vec Ideal S524288 .i32)
    = shapeCast S524288 (extractStridedSlice S1x524288 ![1, 0] (W2 m ρ c (Proc.devRef .tc main_arg3) : Vec Ideal S2x524288 .i32)
        Facts₀.slices_S2x524288_S1x524288_1_0) Facts₀.shapeCasts_S1x524288_S524288 := by
  dsimp only [W3, hostOps1]
  after_results
  rfl

/-- The first endpoint of edge e. -/
private theorem W3_v12 (e : Fin 524288) :
    (W3 m ρ c (Proc.devRef .tc main_v12) : Vec Ideal S524288 .i32) (ix1 e) = (argsK m c).ei (ix2 (0 : Fin 2) e) := by
  rw [W3_v12_eq, W2_arg3]
  rw [shapeCast_apply _ _ (ix1 e) (ix2 (0 : Fin 1) e)
    (by rw [Shape.rowMajor_val_two, Shape.rowMajor_val_one]; show 0 * 524288 + e.val = e.val; omega)]
  rw [slice2_axis0_apply 0 _ _ (0 : Fin 1) e (0 : Fin 2) rfl]
  rfl
/-- The second endpoint of edge e. -/
private theorem W3_v14 (e : Fin 524288) :
    (W3 m ρ c (Proc.devRef .tc main_v14) : Vec Ideal S524288 .i32) (ix1 e) = (argsK m c).ei (ix2 (1 : Fin 2) e) := by
  rw [W3_v14_eq, W2_arg3]
  rw [shapeCast_apply _ _ (ix1 e) (ix2 (0 : Fin 1) e)
    (by rw [Shape.rowMajor_val_two, Shape.rowMajor_val_one]; show 0 * 524288 + e.val = e.val; omega)]
  rw [slice2_axis0_apply 1 _ _ (0 : Fin 1) e (1 : Fin 2) rfl]
  rfl

/-! ## The node rows and the second endpoint vector pass through the stretches that do not write them -/

private theorem W3_he : W3 m ρ c (Proc.devRef .tc main_v10_1) = W2 m ρ c (Proc.devRef .tc main_v10_1) := by
  dsimp only [W3, hostOps1]
  after_results <;> rfl
private theorem W4_he : W4 m ρ c (Proc.devRef .tc main_v10_1) = W3 m ρ c (Proc.devRef .tc main_v10_1) := by
  dsimp only [W4, hostOps1_1]
  after_results <;> rfl
private theorem W5_he : W5 m ρ c (Proc.devRef .tc main_v10_1) = W4 m ρ c (Proc.devRef .tc main_v10_1) := by
  dsimp only [W5, hostOps1_2]
  after_results <;> rfl
private theorem W4_v14 : W4 m ρ c (Proc.devRef .tc main_v14) = W3 m ρ c (Proc.devRef .tc main_v14) := by
  dsimp only [W4, hostOps1_1]
  after_results <;> rfl
/-- The second take does not write the first take's result. -/
private theorem after1_2_v15 (V : Valuation τ sig (Elt Ideal)) :
    StableHlo.after hostOps1_2 V (Proc.devRef .tc main_v15) = V (Proc.devRef .tc main_v15) := by
  dsimp only [hostOps1_2]
  after_results_simp
private theorem W5_v15 : W5 m ρ c (Proc.devRef .tc main_v15) = W4 m ρ c (Proc.devRef .tc main_v15) :=
  after1_2_v15 (W4 m ρ c)

/-! ## The two takes -/

set_option maxHeartbeats 1000000 in
/-- The first take's operations, from any contents: the take of the node rows at the first endpoint vector. -/
private theorem after1_1_v15 (V : Valuation τ sig (Elt Ideal)) :
    (StableHlo.after hostOps1_1 V (Proc.devRef .tc main_v15) : Vec Ideal S524288x128 .f32)
      = Cert.KHost1Aux.takeV takeFacts gather_S32768x128_S524288x1_S524288x128_1_0_n_n_0_1_1128
          (V (Proc.devRef .tc main_v10_1) : Vec Ideal S32768x128 .f32)
          (V (Proc.devRef .tc main_v12) : Vec Ideal S524288 .i32) := by
  dsimp only [hostOps1_1]
  after_results_simp
  dsimp only [StableHlo.TRef.ofBuf, StableHlo.TRef.toBuf]
  simp only [cast_cast, cast_eq]
  all_goals rfl
set_option maxHeartbeats 1000000 in
/-- The second take's operations, from any contents: the take of the node rows at the second endpoint vector. -/
private theorem after1_2_v16 (V : Valuation τ sig (Elt Ideal)) :
    (StableHlo.after hostOps1_2 V (Proc.devRef .tc main_v16) : Vec Ideal S524288x128 .f32)
      = Cert.KHost1Aux.takeV takeFacts gather_S32768x128_S524288x1_S524288x128_1_0_n_n_0_1_1128
          (V (Proc.devRef .tc main_v10_1) : Vec Ideal S32768x128 .f32)
          (V (Proc.devRef .tc main_v14) : Vec Ideal S524288 .i32) := by
  dsimp only [hostOps1_2]
  after_results_simp
  dsimp only [StableHlo.TRef.ofBuf, StableHlo.TRef.toBuf]
  simp only [cast_cast, cast_eq]
  all_goals rfl
private theorem W4_v15_eq : (W4 m ρ c (Proc.devRef .tc main_v15) : Vec Ideal S524288x128 .f32)
    = Cert.KHost1Aux.takeV takeFacts gather_S32768x128_S524288x1_S524288x128_1_0_n_n_0_1_1128
        (W3 m ρ c (Proc.devRef .tc main_v10_1) : Vec Ideal S32768x128 .f32)
        (W3 m ρ c (Proc.devRef .tc main_v12) : Vec Ideal S524288 .i32) :=
  after1_1_v15 (W3 m ρ c)
private theorem W5_v16_eq : (W5 m ρ c (Proc.devRef .tc main_v16) : Vec Ideal S524288x128 .f32)
    = Cert.KHost1Aux.takeV takeFacts gather_S32768x128_S524288x1_S524288x128_1_0_n_n_0_1_1128
        (W4 m ρ c (Proc.devRef .tc main_v10_1) : Vec Ideal S32768x128 .f32)
        (W4 m ρ c (Proc.devRef .tc main_v14) : Vec Ideal S524288 .i32) :=
  after1_2_v16 (W4 m ρ c)

/-- The rows of the dense layer at the first endpoints. -/
private theorem W5_v15_apply (hA : (argsK m c).Ok) (e : Fin 524288) (f : Fin 128) :
    (W5 m ρ c (Proc.devRef .tc main_v15) : Vec Ideal S524288x128 .f32) (ix2 e f)
      = he (argsK m c) (nodeOf ((argsK m c).ei (ix2 (0 : Fin 2) e))) f := by
  rw [W5_v15, W4_v15_eq]
  rw [Cert.KHost1Aux.takeV_apply takeFacts _ rfl rfl rfl rfl rfl rfl rfl _ _ e f
    (by rw [W3_v12]; exact (hA.ei _).1) (by rw [W3_v12]; exact (hA.ei _).2)
    (nodeOf ((argsK m c).ei (ix2 (0 : Fin 2) e))) (by rw [W3_v12]; rfl)]
  rw [W3_he]
  exact W2_he m ρ c hA _ f
/-- The rows of the dense layer at the second endpoints. -/
private theorem W5_v16_apply (hA : (argsK m c).Ok) (e : Fin 524288) (f : Fin 128) :
    (W5 m ρ c (Proc.devRef .tc main_v16) : Vec Ideal S524288x128 .f32) (ix2 e f)
      = he (argsK m c) (nodeOf ((argsK m c).ei (ix2 (1 : Fin 2) e))) f := by
  rw [W5_v16_eq]
  rw [Cert.KHost1Aux.takeV_apply takeFacts _ rfl rfl rfl rfl rfl rfl rfl _ _ e f
    (by rw [W4_v14, W3_v14]; exact (hA.ei _).1) (by rw [W4_v14, W3_v14]; exact (hA.ei _).2)
    (nodeOf ((argsK m c).ei (ix2 (1 : Fin 2) e))) (by rw [W4_v14, W3_v14]; rfl)]
  rw [W4_he, W3_he]
  exact W2_he m ρ c hA _ f

/-! ## The last stretch -/

set_option maxHeartbeats 1000000 in
/-- The last stretch, from any contents: the two takes added and halved. -/
private theorem after1_3_v19 (V : Valuation τ sig (Elt Ideal)) :
    (StableHlo.after hostOps1_3 V (Proc.devRef .tc main_v19) : Vec Ideal S524288x128 .f32)
      = mulf (addf (V (Proc.devRef .tc main_v15) : Vec Ideal S524288x128 .f32)
            (V (Proc.devRef .tc main_v16) : Vec Ideal S524288x128 .f32))
          (broadcastInDim S524288x128 ![] Facts₀.bcast_S_S524288x128 (constant (F := Ideal) S_ .f32 0x3F000000#32)) := by
  dsimp only [hostOps1_3]
  after_results_simp
  all_goals rfl
set_option maxHeartbeats 1000000 in
/-- The last stretch, from any contents: the node rows regrouped by graph. -/
private theorem after1_3_v20 (V : Valuation τ sig (Elt Ideal)) :
    (StableHlo.after hostOps1_3 V (Proc.devRef .tc main_v20) : Vec Ideal S16x2048x128 .f32)
      = shapeCast S16x2048x128 (V (Proc.devRef .tc main_v10_1) : Vec Ideal S32768x128 .f32)
          Facts₀.shapeCasts_S32768x128_S16x2048x128 := by
  dsimp only [hostOps1_3]
  after_results_simp
  all_goals rfl
private theorem W6_v19_eq : (W6 m ρ c (Proc.devRef .tc main_v19) : Vec Ideal S524288x128 .f32)
    = mulf (addf (W5 m ρ c (Proc.devRef .tc main_v15) : Vec Ideal S524288x128 .f32)
          (W5 m ρ c (Proc.devRef .tc main_v16) : Vec Ideal S524288x128 .f32))
        (broadcastInDim S524288x128 ![] Facts₀.bcast_S_S524288x128 (constant (F := Ideal) S_ .f32 0x3F000000#32)) :=
  after1_3_v19 (W5 m ρ c)
private theorem W6_v20_eq : (W6 m ρ c (Proc.devRef .tc main_v20) : Vec Ideal S16x2048x128 .f32)
    = shapeCast S16x2048x128 (W5 m ρ c (Proc.devRef .tc main_v10_1) : Vec Ideal S32768x128 .f32)
        Facts₀.shapeCasts_S32768x128_S16x2048x128 :=
  after1_3_v20 (W5 m ρ c)

theorem W6_avg (hA : (argsK m c).Ok) (e : Fin 524288) (f : Fin 128) :
    (W6 m ρ c (Proc.devRef .tc main_v19) : Vec Ideal S524288x128 .f32) (ix2 e f) = avg (argsK m c) ⟨e.val, by omega⟩ f := by
  rw [W6_v19_eq, mulf_apply, addf_apply, W5_v15_apply m ρ c hA e f, W5_v16_apply m ρ c hA e f,
    broadcastInDim_scalar_apply, constant_apply]
  unfold avg
  rw [dif_pos (show (⟨e.val, by omega⟩ : Fin 557056).val < 524288 from e.isLt)]
  rfl
theorem W6_he3 (hA : (argsK m c).Ok) (g : Fin 16) (r : Fin 2048) (f : Fin 128) :
    (W6 m ρ c (Proc.devRef .tc main_v20) : Vec Ideal S16x2048x128 .f32) (ix3 g r f) = he (argsK m c) (row g r) f := by
  rw [W6_v20_eq]
  rw [shapeCast_apply _ _ (ix3 g r f) (ix2 (row g r) f)
    (by rw [Shape.rowMajor_val_two, Shape.rowMajor_val_three]
        show (g.val * 2048 + r.val) * 128 + f.val = (g.val * 2048 + r.val) * 128 + f.val
        rfl)]
  rw [W5_he, W4_he, W3_he]
  exact W2_he m ρ c hA _ f

end Cert.KVal

end
-- ==== Proof.KHost1StatsAux1.lean ====
/-
  The edge rows' per-graph statistics as totals: a graph's mean is its total over the count of its entries, and its variance
  (the mean of the squares of the centred entries) is the mean square minus the squared mean.
-/
import proofs.«402160_j53730040873195_3_alg».proof.Proof.Spec
import proofs.«402160_j53730040873195_3_alg».proof.Proof.LibReal
import proofs.«402160_j53730040873195_3_alg».proof.Proof.LibSeg
import proofs.«402160_j53730040873195_3_alg».proof.Proof.SpecFinite

noncomputable section

namespace Cert.KVal

open Cert.Spec Idealize.ShloMosaic

/-- Graph g's total of a per-row function over its 34816 edge rows and all 128 features. -/
def gtot (X : Fin 557056 → Fin 128 → EReal) (g : Fin 16) : EReal :=
  ∑ n ∈ Finset.univ.filter (fun n => gE n = g), ∑ c, X n c

/-- Graph g's mean is its total over the count. -/
theorem gmean_eq_gtot (X : Fin 557056 → Fin 128 → EReal) (g : Fin 16) :
    gmean gE cntE X g = Ideal.div (gtot X g) cntE := rfl

/-- Graph g's variance is the mean square minus the squared mean: every row of the graph is centred by the graph's own
    mean, and over the graph's 34816 × 128 = 4456448 real entries the mean of the centred squares is the mean square less
    the squared mean. -/
theorem gvar_eq_gtot (X : Fin 557056 → Fin 128 → EReal) (hX : ∀ n c, IsReal (X n c)) (g : Fin 16) :
    gvar gE cntE X g = Ideal.div (gtot (fun n c => X n c * X n c) g) cntE - Ideal.div (gtot X g) cntE * Ideal.div (gtot X g) cntE := by
  -- the graph's entries: its rows times the 128 features, 4456448 in all
  have hS : (((Finset.univ.filter (fun n => gE n = g)) ×ˢ (Finset.univ : Finset (Fin 128))).card : ℝ) = (4456448 : ℝ) := by
    rw [Finset.card_product, Cert.LibSeg.card_filter_gE g, Finset.card_univ, Fintype.card_fin]
    norm_num
  have key := Cert.LibReal.var_identity ((Finset.univ.filter (fun n => gE n = g)) ×ˢ (Finset.univ : Finset (Fin 128)))
    (fun p : Fin 557056 × Fin 128 => X p.1 p.2) (fun p _ => hX p.1 p.2) (4456448 : ℝ) hS (by norm_num)
  simp only [Finset.sum_product] at key
  -- a row of graph g is centred by graph g's mean
  have hL : ∑ n ∈ Finset.univ.filter (fun n => gE n = g), ∑ c, gcen gE cntE X n c * gcen gE cntE X n c
      = ∑ n ∈ Finset.univ.filter (fun n => gE n = g), ∑ c,
          (X n c - Ideal.div (gtot X g) cntE) * (X n c - Ideal.div (gtot X g) cntE) :=
    Finset.sum_congr rfl fun n hn => Finset.sum_congr rfl fun c _ => by
      have hg : gE n = g := (Finset.mem_filter.mp hn).2
      unfold gcen
      rw [hg] <;> rfl
  unfold gvar
  rw [hL]
  exact key

end Cert.KVal

end
-- ==== Proof.KHost1Stats.lean ====
/-
  The edge layer norm's per-graph statistics as the host glue computes them before the edge kernels: the mean over a graph's
  34816 edge rows (edges and self loops) and all 128 features, and the reciprocal square root of the variance plus epsilon,
  the variance taken as the mean square minus the squared mean.

  The glue sums, per graph, the half sums' array (cast to 16 x 32768 x 128) and the node rows' array (16 x 2048 x 128) over
  their last two axes, and the squares likewise; a graph's edge rows are exactly its 32768 edges and its 2048 self loops, and on
  a self-loop row the edge input is the node's own row, so the two totals are the specification's sums over the graph's rows.
  For real entries the mean of the squared centred values is the mean square minus the squared mean.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«402160_j53730040873195_3_alg».proof.Proof.KNodeArr
import proofs.«402160_j53730040873195_3_alg».proof.Proof.KHost1
import proofs.«402160_j53730040873195_3_alg».proof.Proof.KHost1StatsAux1
import Idealize.ShloMosaic.Lib.IdealHost

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

namespace Stats

/-! ## The host's sum over two axes -/

/-- The host's sum over axes 1 and 2 of a rank-3 array, read at index g of the remaining axis: the initial value plus
    the double sum over the two reduced coordinates. -/
theorem reduceAdd_12 {B R C : ℕ} (x : FVec Ideal ⟨3, ![B, R, C]⟩ .f32) (init : FVec Ideal ⟨0, ![]⟩ .f32)
    (h : (⟨3, ![B, R, C]⟩ : Shape).ReducesTo [1, 2] ⟨1, ![B]⟩) (hu : 0 < (⟨0, ![]⟩ : Shape).numel) (g : Fin B) :
    Host.reduceAdd x init h hu (ix1 g) = init ix0 + ∑ r : Fin R, ∑ f : Fin C, x (ix3 g r f) := by
  rw [hostReduceAdd_apply]
  unfold Ideal.hostReduceAdd
  have h0 : ∀ i : (⟨3, ![B, R, C]⟩ : Shape).Idx, ((h.drop i) 0 : ℕ) = (i 0 : ℕ) := fun i => rfl
  congr 1
  · exact congrArg init (eq_ix0 _)
  · rw [← Fintype.sum_prod_type' (f := fun (r : Fin R) (f : Fin C) => x (ix3 g r f))]
    refine Finset.sum_nbij' (fun i => ((i 1 : Fin R), (i 2 : Fin C))) (fun p => ix3 g p.1 p.2) ?_ ?_ ?_ ?_ ?_
    · intro i _; exact Finset.mem_univ _
    · intro p _
      rw [Finset.mem_filter]
      refine ⟨Finset.mem_univ _, ?_⟩
      funext b
      match b with
      | ⟨0, _⟩ => exact Fin.ext (h0 (ix3 g p.1 p.2))
    · intro i hi
      rw [Finset.mem_filter] at hi
      have e0 : (i 0 : ℕ) = g.val := by rw [← h0 i, hi.2]; rfl
      have : (i 0 : Fin B) = g := Fin.ext e0
      rw [← this]; exact (eq_ix3 i).symm
    · intro p _; rfl
    · intro i hi
      rw [Finset.mem_filter] at hi
      have e0 : (i 0 : ℕ) = g.val := by rw [← h0 i, hi.2]; rfl
      have : (i 0 : Fin B) = g := Fin.ext e0
      rw [← this]; exact congrArg x (eq_ix3 i)

/-! ## The statistics as functions of the two arrays they are computed from -/

/-- The edges' array seen graph by graph: row e = g * 32768 + r of the flat array is row r of graph g. -/
def byGraph (a : FVec Ideal S524288x128 .f32) : FVec Ideal S16x32768x128 .f32 :=
  shapeCast S16x32768x128 a shapeCasts_S524288x128_S16x32768x128

/-- Per graph, the sum of all entries of the graph's edges plus the sum of all entries of its self loops. -/
def totOf (x : FVec Ideal S16x32768x128 .f32) (s : FVec Ideal S16x2048x128 .f32) : FVec Ideal S16 .f32 :=
  addf (Host.reduceAdd x (constant (F := Ideal) S_ .f32 0x00000000#32) reducesTo_S16x32768x128_S16_d1_2 h_S_)
    (Host.reduceAdd s (constant (F := Ideal) S_ .f32 0x00000000#32) reducesTo_S16x2048x128_S16_d1_2 h_S_)

/-- The count 4456448 and epsilon, one copy per graph. -/
def cntB : FVec Ideal S16 .f32 := broadcastInDim S16 ![] bcast_S_S16 (constant (F := Ideal) S_ .f32 0x4A880000#32)
def epsB : FVec Ideal S16 .f32 := broadcastInDim S16 ![] bcast_S_S16 (constant (F := Ideal) S_ .f32 0x3727C5AC#32)

/-- Per graph: the mean, the mean square, and rsqrt (mean square - mean * mean + eps). -/
def meanOf (a : FVec Ideal S524288x128 .f32) (s : FVec Ideal S16x2048x128 .f32) : FVec Ideal S16 .f32 :=
  Host.divf (totOf (byGraph a) s) cntB
def msqOf (a : FVec Ideal S524288x128 .f32) (s : FVec Ideal S16x2048x128 .f32) : FVec Ideal S16 .f32 :=
  Host.divf (totOf (mulf (byGraph a) (byGraph a)) (mulf s s)) cntB
def invOf (a : FVec Ideal S524288x128 .f32) (s : FVec Ideal S16x2048x128 .f32) : FVec Ideal S16 .f32 :=
  Host.rsqrt (addf (subf (msqOf a s) (mulf (meanOf a s) (meanOf a s))) epsB)

/-- A per-graph value repeated along a unit axis and the 128 features. -/
def bc (v : FVec Ideal S16 .f32) : FVec Ideal S16x1x128 .f32 :=
  broadcastInDim S16x1x128 ![0, 1, 2] bcast_S16x1x1_S16x1x128_0_1_2 (broadcastInDim S16x1x1 ![0] bcast_S16_S16x1x1_0 v)

/-- What the stretch leaves in the mean's buffer, over what it leaves in the half sums' and the node rows' buffers. -/
theorem v40_eq (V : Valuation τ sig (Elt Ideal)) :
    (StableHlo.after (hostOps1_3 (F := Ideal)) V (Proc.devRef .tc main_v40) : FVec Ideal S16x1x128 .f32)
      = bc (meanOf (StableHlo.after (hostOps1_3 (F := Ideal)) V (Proc.devRef .tc main_v19))
          (StableHlo.after (hostOps1_3 (F := Ideal)) V (Proc.devRef .tc main_v20))) := by
  after_results_simp
  rfl

/-- The same for the reciprocal standard deviation's buffer. -/
theorem v42_eq (V : Valuation τ sig (Elt Ideal)) :
    (StableHlo.after (hostOps1_3 (F := Ideal)) V (Proc.devRef .tc main_v42) : FVec Ideal S16x1x128 .f32)
      = bc (invOf (StableHlo.after (hostOps1_3 (F := Ideal)) V (Proc.devRef .tc main_v19))
          (StableHlo.after (hostOps1_3 (F := Ideal)) V (Proc.devRef .tc main_v20))) := by
  after_results_simp
  rfl

/-! ## The stages read at an index -/

theorem bc_apply (v : FVec Ideal S16 .f32) (g : Fin 16) (u : Fin 1) (f : Fin 128) : bc v (ix3 g u f) = v (ix1 g) := by
  unfold bc
  rw [broadcastInDim_apply ![0, 1, 2] bcast_S16x1x1_S16x1x128_0_1_2 _ (ix3 g u f) (ix3 g (0 : Fin 1) (0 : Fin 1))
        (fun a => by
          match a with
          | ⟨0, _⟩ => rfl
          | ⟨1, _⟩ => rfl
          | ⟨2, _⟩ => rfl),
    broadcastInDim_apply ![0] bcast_S16_S16x1x1_0 v (ix3 g (0 : Fin 1) (0 : Fin 1)) (ix1 g)
        (fun a => by
          match a with
          | ⟨0, _⟩ => rfl)]

theorem cntB_apply (g : Fin 16) : cntB (ix1 g) = cntE := by
  unfold cntB
  rw [broadcastInDim_scalar_apply, constant_apply, LibReal.ofBits_4456448]

theorem epsB_apply (g : Fin 16) : epsB (ix1 g) = eps := by
  unfold epsB
  rw [broadcastInDim_scalar_apply, constant_apply]
  rfl

theorem byGraph_apply (a : FVec Ideal S524288x128 .f32) (g : Fin 16) (r : Fin 32768) (f : Fin 128) :
    byGraph a (ix3 g r f) = a (ix2 (⟨g.val * 32768 + r.val, by omega⟩ : Fin 524288) f) :=
  shapeCast_apply a _ _ _ (by
    rw [Shape.rowMajor_val_two, Shape.rowMajor_val_three]
    rfl)

/-- The per-graph total of two arrays that hold, entry by entry, a function Y of the edge row and the feature: the
    graph's edges at rows g * 32768 + r, its self loops at rows 524288 + g * 2048 + r. -/
theorem totOf_apply (x : FVec Ideal S16x32768x128 .f32) (s : FVec Ideal S16x2048x128 .f32) (Y : Fin 557056 → Fin 128 → EReal)
    (hx : ∀ (g : Fin 16) (r : Fin 32768) (f : Fin 128), x (ix3 g r f) = Y ⟨g.val * 32768 + r.val, by omega⟩ f)
    (hs : ∀ (g : Fin 16) (r : Fin 2048) (f : Fin 128), s (ix3 g r f) = Y ⟨524288 + g.val * 2048 + r.val, by omega⟩ f)
    (g : Fin 16) : totOf x s (ix1 g) = gtot Y g := by
  unfold totOf gtot
  rw [addf_apply, reduceAdd_12, reduceAdd_12, constant_apply, LibReal.ofBits_zero, zero_add, zero_add,
    LibSeg.sum_filter_gE (fun n => ∑ c, Y n c) g]
  refine congrArg₂ (fun u v : EReal => u + v) ?_ ?_
  · exact Finset.sum_congr rfl fun r _ => Finset.sum_congr rfl fun f _ => hx g r f
  · exact Finset.sum_congr rfl fun r _ => Finset.sum_congr rfl fun f _ => hs g r f

section
variable (a : FVec Ideal S524288x128 .f32) (s : FVec Ideal S16x2048x128 .f32) (X : Fin 557056 → Fin 128 → EReal)
  (ha : ∀ (e : Fin 524288) (f : Fin 128), a (ix2 e f) = X ⟨e.val, by omega⟩ f)
  (hs : ∀ (g : Fin 16) (r : Fin 2048) (f : Fin 128), s (ix3 g r f) = X ⟨524288 + g.val * 2048 + r.val, by omega⟩ f)
  (g : Fin 16)
include ha hs

theorem meanOf_apply : meanOf a s (ix1 g) = Ideal.div (gtot X g) cntE := by
  unfold meanOf
  rw [hostDivf_apply, totOf_apply (byGraph a) s X (fun g r f => by rw [byGraph_apply, ha]) hs g, cntB_apply]

theorem msqOf_apply : msqOf a s (ix1 g) = Ideal.div (gtot (fun n c => X n c * X n c) g) cntE := by
  unfold msqOf
  rw [hostDivf_apply, totOf_apply (mulf (byGraph a) (byGraph a)) (mulf s s) (fun n c => X n c * X n c)
    (fun g r f => by rw [mulf_apply, byGraph_apply, ha]) (fun g r f => by rw [mulf_apply, hs]) g, cntB_apply]

theorem invOf_apply : invOf a s (ix1 g)
    = Ideal.rsqrt (Ideal.div (gtot (fun n c => X n c * X n c) g) cntE - Ideal.div (gtot X g) cntE * Ideal.div (gtot X g) cntE + eps) := by
  have e : invOf a s (ix1 g)
      = Ideal.rsqrt (addf (subf (msqOf a s) (mulf (meanOf a s) (meanOf a s))) epsB (ix1 g)) := rfl
  rw [e, addf_apply, subf_apply, mulf_apply, msqOf_apply a s X ha hs g, meanOf_apply a s X ha hs g, epsB_apply]
end

/-- On a self-loop row the edge input is the node's own feature row. -/
theorem avg_self (A : Args) (g : Fin 16) (r : Fin 2048) (f : Fin 128) :
    avg A ⟨524288 + g.val * 2048 + r.val, by omega⟩ f = he A (row g r) f := by
  unfold avg
  rw [dif_neg (show ¬ (524288 + g.val * 2048 + r.val < 524288) by omega)]
  refine congrArg (fun n => he A n f) (Fin.ext ?_)
  show 524288 + g.val * 2048 + r.val - 524288 = g.val * 2048 + r.val
  omega

end Stats

open Stats

/-! ## The two buffers -/

theorem W6_mean (hA : (argsK m c).Ok) (g : Fin 16) (f : Fin 128) :
    (W6 m ρ c (Proc.devRef .tc main_v40) : Vec Ideal S16x1x128 .f32) (ix3 g (0 : Fin 1) f) = gmean gE cntE (avg (argsK m c)) g := by
  have ha : ∀ (e : Fin 524288) (f : Fin 128),
      (StableHlo.after (hostOps1_3 (F := Ideal)) (W5 m ρ c) (Proc.devRef .tc main_v19) : FVec Ideal S524288x128 .f32) (ix2 e f)
        = avg (argsK m c) ⟨e.val, by omega⟩ f := fun e f => W6_avg m ρ c hA e f
  have hs : ∀ (g : Fin 16) (r : Fin 2048) (f : Fin 128),
      (StableHlo.after (hostOps1_3 (F := Ideal)) (W5 m ρ c) (Proc.devRef .tc main_v20) : FVec Ideal S16x2048x128 .f32) (ix3 g r f)
        = avg (argsK m c) ⟨524288 + g.val * 2048 + r.val, by omega⟩ f :=
    fun g r f => (W6_he3 m ρ c hA g r f).trans (avg_self _ g r f).symm
  refine (congrFun (v40_eq (W5 m ρ c)) (ix3 g (0 : Fin 1) f)).trans ?_
  rw [bc_apply, meanOf_apply _ _ (avg (argsK m c)) ha hs g, gmean_eq_gtot]

theorem W6_inv (hA : (argsK m c).Ok) (g : Fin 16) (f : Fin 128) :
    (W6 m ρ c (Proc.devRef .tc main_v42) : Vec Ideal S16x1x128 .f32) (ix3 g (0 : Fin 1) f)
      = Ideal.rsqrt (gvar gE cntE (avg (argsK m c)) g + eps) := by
  have ha : ∀ (e : Fin 524288) (f : Fin 128),
      (StableHlo.after (hostOps1_3 (F := Ideal)) (W5 m ρ c) (Proc.devRef .tc main_v19) : FVec Ideal S524288x128 .f32) (ix2 e f)
        = avg (argsK m c) ⟨e.val, by omega⟩ f := fun e f => W6_avg m ρ c hA e f
  have hs : ∀ (g : Fin 16) (r : Fin 2048) (f : Fin 128),
      (StableHlo.after (hostOps1_3 (F := Ideal)) (W5 m ρ c) (Proc.devRef .tc main_v20) : FVec Ideal S16x2048x128 .f32) (ix3 g r f)
        = avg (argsK m c) ⟨524288 + g.val * 2048 + r.val, by omega⟩ f :=
    fun g r f => (W6_he3 m ρ c hA g r f).trans (avg_self _ g r f).symm
  refine (congrFun (v42_eq (W5 m ρ c)) (ix3 g (0 : Fin 1) f)).trans ?_
  rw [bc_apply, invOf_apply _ _ (avg (argsK m c)) ha hs g,
    gvar_eq_gtot (avg (argsK m c)) (SpecFinite.avg_real (argsK m c) hA) g]

end Cert.KVal

end
-- ==== Proof.KEdge1Aux1.lean ====
/-
  The second kernel's arithmetic read at one index, over the extended reals: the normalised edge row, the column
  sums of the global dense layer over a block of 8192 rows, and the accumulation of those sums.
-/
import proofs.«402160_j53730040873195_3_alg».proof.Proof.Gen.KernelIdeal.Skeleton
import proofs.«402160_j53730040873195_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal.Edge1

open Cert.KernelIdeal Cert.KernelIdeal.Gen Idealize.ShloMosaic Idealize.ShloMosaic.ValueIdx

/-- The normalised block at (r, f): (x - mean) * inv * w + b, the mean and inv read along the features. -/
theorem pay3_apply (v3 : Vec Ideal S8192x128 .f32) (v5 v8 : Vec Ideal S1x1x128 .f32) (v11 v13 : Vec Ideal S128 .f32)
    (r : Fin 8192) (f : Fin 128) :
    (k1_pay3 (F := Ideal) v3 v5 v8 v11 v13 : FVec Ideal S8192x128 .f32) (ix2 r f)
      = (v3 (ix2 r f) - v5 (ix3 (0 : Fin 1) (0 : Fin 1) f)) * v8 (ix3 (0 : Fin 1) (0 : Fin 1) f) * v11 (ix1 f)
          + v13 (ix1 f) := by
  unfold k1_pay3
  simp only [addf_apply, mulf_apply, subf_apply, broadcastTo_1b_ab_apply, shapeCast_self, shapeCast_1ab_ab_apply,
    shapeCast_a_1a_apply]

/-- The row index the column sum inserts. -/
theorem lift_rows (f : Fin 128) (r : Fin 8192) :
    reduces_S8192x128_S128.lift (ix1 f) r = (ix2 r f : S8192x128.Idx) := by
  funext a
  apply Fin.ext
  match a with
  | ⟨0, _⟩ => rfl
  | ⟨1, _⟩ => rfl

/-- The dense layer on one row of a block: max (∑ k, P (r, k) * W (k, f) + b f, 0). -/
theorem act_apply (P : FVec Ideal S8192x128 .f32) (v25 : Vec Ideal S128x128 .f32) (v28 : Vec Ideal S128 .f32)
    (r : Fin 8192) (f : Fin 128) :
    (maximumf (addf (matmul dot_S8192x128_S128x128_S8192x128_1_0_0_1_n_n none (truncf .bf16 P bitsLt_bf16_f32)
        (truncf .bf16 v25 bitsLt_bf16_f32) (constant (F := Ideal) S8192x128 .f32 0x00000000#32))
        (broadcastTo S8192x128 (shapeCast S1x128 v28 shapeCasts_S128_S1x128) broadcasts_S1x128_S8192x128))
        (broadcast S8192x128 (Scalar.ofBits (F := Ideal) .f32 0x00000000#32)) : FVec Ideal S8192x128 .f32) (ix2 r f)
      = max (∑ k : Fin 128, P (ix2 r k) * v25 (ix2 k f) + v28 (ix1 f)) 0 := by
  rw [maximumf_apply, addf_apply, broadcast_apply, broadcastTo_1b_ab_apply, shapeCast_a_1a_apply]
  rw [Cert.LibPlainDot.matmul_zero_apply dot_S8192x128_S128x128_S8192x128_1_0_0_1_n_n rfl none
    (truncf .bf16 P bitsLt_bf16_f32) (truncf .bf16 v25 bitsLt_bf16_f32) r f]
  simp only [truncf_apply, Ideal.ofBits_def, Ideal.ofBits_zero_f32]

/-- The block's column sums at f: the dense layer's outputs summed over the 8192 rows. -/
theorem pay4_apply (v3 : Vec Ideal S8192x128 .f32) (v5 v8 : Vec Ideal S1x1x128 .f32) (v11 v13 : Vec Ideal S128 .f32)
    (v25 : Vec Ideal S128x128 .f32) (v28 : Vec Ideal S128 .f32) (f : Fin 128) :
    (k1_pay4 (F := Ideal) v3 v5 v8 v11 v13 v25 v28 : FVec Ideal S1x128 .f32) (ix2 (0 : Fin 1) f)
      = ∑ r : Fin 8192, max (∑ k : Fin 128,
          (k1_pay3 (F := Ideal) v3 v5 v8 v11 v13 : FVec Ideal S8192x128 .f32) (ix2 r k) * v25 (ix2 k f) + v28 (ix1 f)) 0 := by
  unfold k1_pay4
  dsimp only
  refine (shapeCast_a_1a_apply _ _ (0 : Fin 1) f).trans ?_
  refine (Ideal.multiReduction_add_single _ _ reduces_S8192x128_S128 _ _ (ix1 f)).trans ?_
  refine Finset.sum_congr rfl fun r _ => ?_
  refine (congrArg _ (lift_rows f r)).trans ?_
  exact act_apply (k1_pay3 (F := Ideal) v3 v5 v8 v11 v13) v25 v28 r f

/-- The accumulation at f: what the accumulator held plus the block's column sum. -/
theorem pay1_apply (v35 : FVec Ideal S1x128 .f32) (v36 : Vec Ideal S1x1x128 .f32) (f : Fin 128) :
    (k1_pay1 (F := Ideal) v35 v36 : FVec Ideal S1x1x128 .f32) (ix3 (0 : Fin 1) (0 : Fin 1) f)
      = v36 (ix3 (0 : Fin 1) (0 : Fin 1) f) + v35 (ix2 (0 : Fin 1) f) := by
  unfold k1_pay1
  simp only [addf_apply, shapeCast_self, shapeCast_ab_1ab_apply]

/-- The reset value: zero everywhere. -/
theorem pay2_apply (i : S1x1x128.Idx) : (k1_pay2 (F := Ideal) : FVec Ideal S1x1x128 .f32) i = 0 := by
  unfold k1_pay2
  simp only [broadcast_apply, Ideal.ofBits_def, Ideal.ofBits_zero_f32]

end Cert.KVal.Edge1

end
-- ==== Proof.KEdge1Aux2.lean ====
/-
  The four parameter arrays the second kernel reads (the edge layer norm's scale and shift, the global dense layer's
  weights and bias) hold, when that kernel is entered, what they held at launch: no host operation before it and no
  window of the first kernel writes them.
-/
import proofs.«402160_j53730040873195_3_alg».proof.Proof.Gen.KernelIdeal.Frame
import Idealize.ShloMosaic.Lib.StableHlo.Run

set_option maxRecDepth 16384

noncomputable section

namespace Cert.KVal.Edge1

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- No host operation before the second kernel writes this argument: it holds what it held at launch. -/
theorem W6_main_arg22 (c : Dev nD) : W6 m ρ c (Proc.devRef .tc main_arg22) = m ((c : Thread nD τ).loc main_arg22) :=
  calc W6 m ρ c (Proc.devRef .tc main_arg22)
    _ = W5 m ρ c (Proc.devRef .tc main_arg22) := StableHlo.after_of_forall_not_mem (b := Proc.devRef .tc main_arg22) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg22) := StableHlo.after_of_forall_not_mem (b := Proc.devRef .tc main_arg22) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := StableHlo.after_of_forall_not_mem (b := Proc.devRef .tc main_arg22) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-- No host operation before the second kernel writes this argument: it holds what it held at launch. -/
theorem W6_main_arg23 (c : Dev nD) : W6 m ρ c (Proc.devRef .tc main_arg23) = m ((c : Thread nD τ).loc main_arg23) :=
  calc W6 m ρ c (Proc.devRef .tc main_arg23)
    _ = W5 m ρ c (Proc.devRef .tc main_arg23) := StableHlo.after_of_forall_not_mem (b := Proc.devRef .tc main_arg23) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg23) := StableHlo.after_of_forall_not_mem (b := Proc.devRef .tc main_arg23) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := StableHlo.after_of_forall_not_mem (b := Proc.devRef .tc main_arg23) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

/-- No host operation before the second kernel writes this argument: it holds what it held at launch. -/
theorem W6_main_arg24 (c : Dev nD) : W6 m ρ c (Proc.devRef .tc main_arg24) = m ((c : Thread nD τ).loc main_arg24) :=
  calc W6 m ρ c (Proc.devRef .tc main_arg24)
    _ = W5 m ρ c (Proc.devRef .tc main_arg24) := StableHlo.after_of_forall_not_mem (b := Proc.devRef .tc main_arg24) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg24) := StableHlo.after_of_forall_not_mem (b := Proc.devRef .tc main_arg24) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := StableHlo.after_of_forall_not_mem (b := Proc.devRef .tc main_arg24) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

/-- No host operation before the second kernel writes this argument: it holds what it held at launch. -/
theorem W6_main_arg25 (c : Dev nD) : W6 m ρ c (Proc.devRef .tc main_arg25) = m ((c : Thread nD τ).loc main_arg25) :=
  calc W6 m ρ c (Proc.devRef .tc main_arg25)
    _ = W5 m ρ c (Proc.devRef .tc main_arg25) := StableHlo.after_of_forall_not_mem (b := Proc.devRef .tc main_arg25) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg25) := StableHlo.after_of_forall_not_mem (b := Proc.devRef .tc main_arg25) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := StableHlo.after_of_forall_not_mem (b := Proc.devRef .tc main_arg25) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg25) := rfl

end Cert.KVal.Edge1

end
-- ==== Proof.KEdge1Aux3.lean ====
/-
  What each control case of the second kernel leaves in its two output buffers, as values of the loaded blocks:
  the edge rows' buffer gets the normalised rows in both cases; the accumulator gets the block's column sums added to
  zero in the reset case and to what it held in the adding case.
-/
import proofs.«402160_j53730040873195_3_alg».proof.Proof.Gen.KernelIdeal.Frame
import Idealize.ShloMosaic.Lib.Pipeline.Value
import Idealize.ShloMosaic.Lib.Tactic

set_option maxRecDepth 16384

noncomputable section

namespace Cert.KVal.Edge1

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the reset case leaves in the edge rows' block: the normalised rows of the loaded blocks. -/
theorem out_A_7 (c : Dev nD) (i : grid1.Coords) (a2 : Memref sig .tc .vmem S8192x128 .f32) (h2 : a2.IsWhole) (a3 : Memref sig .tc .vmem S1x1x128 .f32) (h3 : a3.IsWhole) (a4 : Memref sig .tc .vmem S1x1x128 .f32) (h4 : a4.IsWhole) (a5 : Memref sig .tc .vmem S128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S8192x128 .f32) (h9 : a9.IsWhole) (a10 : Memref sig .tc .vmem S1x1x128 .f32) (h10 : a10.IsWhole) (hc : cond1_0 i) (x0 : Vec F S8192x128 .f32) (x1 : Vec F S1x1x128 .f32) (x2 : Vec F S1x1x128 .f32) (x3 : Vec F S128 .f32) (x4 : Vec F S128 .f32) (x5 : Vec F S128x128 .f32) (x6 : Vec F S128 .f32) :
    out1_A_7 c i a2 h2 a3 h3 a4 h4 a5 h5 a6 h6 a7 h7 a8 h8 a9 h9 a10 h10 hc x0 x1 x2 x3 x4 x5 x6 = k1_pay3 x0 x1 x2 x3 x4 := by
  unfold out1_A_7
  rw [View.read_writes_eq_canon _ _ _ (cover1_A_7 c i a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz2]
  simp only [View.readAt_eq_ld, h2.read_unread, h3.read_unread, h4.read_unread, h5.read_unread, h6.read_unread,
    View.ld_unit_zero (S := S8192x128) hz2, View.ld_unit_zero (S := S1x1x128) hz3, View.ld_unit_zero (S := S128) hz1]

/-- What the reset case leaves in the accumulator: zero plus the block's column sums. -/
theorem out_A_8 (c : Dev nD) (i : grid1.Coords) (a2 : Memref sig .tc .vmem S8192x128 .f32) (h2 : a2.IsWhole) (a3 : Memref sig .tc .vmem S1x1x128 .f32) (h3 : a3.IsWhole) (a4 : Memref sig .tc .vmem S1x1x128 .f32) (h4 : a4.IsWhole) (a5 : Memref sig .tc .vmem S128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S8192x128 .f32) (h9 : a9.IsWhole) (a10 : Memref sig .tc .vmem S1x1x128 .f32) (h10 : a10.IsWhole) (hc : cond1_0 i) (x0 : Vec F S8192x128 .f32) (x1 : Vec F S1x1x128 .f32) (x2 : Vec F S1x1x128 .f32) (x3 : Vec F S128 .f32) (x4 : Vec F S128 .f32) (x5 : Vec F S128x128 .f32) (x6 : Vec F S128 .f32) :
    out1_A_8 c i a2 h2 a3 h3 a4 h4 a5 h5 a6 h6 a7 h7 a8 h8 a9 h9 a10 h10 hc x0 x1 x2 x3 x4 x5 x6 = k1_pay1 (k1_pay4 x0 x1 x2 x3 x4 x5 x6) k1_pay2 := by
  unfold out1_A_8
  rw [View.read_writes_eq_canon _ _ _ (cover1_A_8 c i a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    h7.read_unread, h8.read_unread,
    View.ld_unit_zero (S := S8192x128) hz2, View.ld_unit_zero (S := S1x1x128) hz3, View.ld_unit_zero (S := S128) hz1,
    View.ld_unit_zero (S := S128x128) hz2]

/-- What the adding case leaves in the edge rows' block: the same normalised rows. -/
theorem out_B_7 (c : Dev nD) (i : grid1.Coords) (a2 : Memref sig .tc .vmem S8192x128 .f32) (h2 : a2.IsWhole) (a3 : Memref sig .tc .vmem S1x1x128 .f32) (h3 : a3.IsWhole) (a4 : Memref sig .tc .vmem S1x1x128 .f32) (h4 : a4.IsWhole) (a5 : Memref sig .tc .vmem S128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S8192x128 .f32) (h9 : a9.IsWhole) (a10 : Memref sig .tc .vmem S1x1x128 .f32) (h10 : a10.IsWhole) (hc : ¬cond1_0 i) (x0 : Vec F S8192x128 .f32) (x1 : Vec F S1x1x128 .f32) (x2 : Vec F S1x1x128 .f32) (x3 : Vec F S128 .f32) (x4 : Vec F S128 .f32) (x5 : Vec F S128x128 .f32) (x6 : Vec F S128 .f32) (xo : Vec F S1x1x128 .f32) :
    out1_B_7 c i a2 h2 a3 h3 a4 h4 a5 h5 a6 h6 a7 h7 a8 h8 a9 h9 a10 h10 hc x0 x1 x2 x3 x4 x5 x6 xo = k1_pay3 x0 x1 x2 x3 x4 := by
  unfold out1_B_7
  rw [View.read_writes_eq_canon _ _ _ (cover1_B_7 c i a2 h2 a3 h3 a4 h4 a5 h5 a6 h6 a7 h7 a8 h8 a9 h9 a10 h10 hc x0 x1 x2 x3 x4 x5 x6 xo)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S8192x128) hz2, View.ld_unit_zero (S := S1x1x128) hz3, View.ld_unit_zero (S := S128) hz1]

/-- What the adding case leaves in the accumulator: what it held plus the block's column sums. -/
theorem out_B_8 (c : Dev nD) (i : grid1.Coords) (a2 : Memref sig .tc .vmem S8192x128 .f32) (h2 : a2.IsWhole) (a3 : Memref sig .tc .vmem S1x1x128 .f32) (h3 : a3.IsWhole) (a4 : Memref sig .tc .vmem S1x1x128 .f32) (h4 : a4.IsWhole) (a5 : Memref sig .tc .vmem S128 .f32) (h5 : a5.IsWhole) (a6 : Memref sig .tc .vmem S128 .f32) (h6 : a6.IsWhole) (a7 : Memref sig .tc .vmem S128x128 .f32) (h7 : a7.IsWhole) (a8 : Memref sig .tc .vmem S128 .f32) (h8 : a8.IsWhole) (a9 : Memref sig .tc .vmem S8192x128 .f32) (h9 : a9.IsWhole) (a10 : Memref sig .tc .vmem S1x1x128 .f32) (h10 : a10.IsWhole) (hc : ¬cond1_0 i) (x0 : Vec F S8192x128 .f32) (x1 : Vec F S1x1x128 .f32) (x2 : Vec F S1x1x128 .f32) (x3 : Vec F S128 .f32) (x4 : Vec F S128 .f32) (x5 : Vec F S128x128 .f32) (x6 : Vec F S128 .f32) (xo : Vec F S1x1x128 .f32) :
    out1_B_8 c i a2 h2 a3 h3 a4 h4 a5 h5 a6 h6 a7 h7 a8 h8 a9 h9 a10 h10 hc x0 x1 x2 x3 x4 x5 x6 xo = k1_pay1 (k1_pay4 x0 x1 x2 x3 x4 x5 x6) xo := by
  unfold out1_B_8
  rw [View.read_writes_eq_canon _ _ _ (cover1_B_8 c i a2 h2 a3 h3 a4 h4 a5 h5 a6 h6 a7 h7 a8 h8 a9 h9 a10 h10 hc x0 x1 x2 x3 x4 x5 x6 xo)]
  unfold kernelRun1_B
  dsimp only
  sl_unfold_words
  rw [View.canon_unit_zero hz3]
  simp only [View.readAt_eq_ld, h2.read_unread, h3.read_unread, h4.read_unread, h5.read_unread, h6.read_unread,
    h7.read_unread, h8.read_unread, h10.read_unread,
    View.ld_unit_zero (S := S8192x128) hz2, View.ld_unit_zero (S := S1x1x128) hz3, View.ld_unit_zero (S := S128) hz1,
    View.ld_unit_zero (S := S128x128) hz2]

end Cert.KVal.Edge1

end
-- ==== Proof.KEdge1Aux4.lean ====
/-
  Two facts about sums. A run of 32768 consecutive terms is four consecutive runs of 8192. An accumulator that is set
  to the step's term at every fourth step and otherwise grows by the step's term holds, at every step, the sum of the
  terms since the last step that set it.
-/
import proofs.«402160_j53730040873195_3_alg».proof.Proof.LibSeg

noncomputable section

namespace Cert.KVal.Edge1

variable {M : Type*} [AddCommMonoid M]

/-- A sum over 32768 consecutive places, split by quotient and remainder modulo 8192. -/
private theorem sum_quot_rem (v : Fin 32768 → M) :
    ∑ r : Fin 32768, v r = ∑ k : Fin 4, ∑ j : Fin 8192, v ⟨k.val * 8192 + j.val, by omega⟩ := by
  rw [← Fintype.sum_prod_type' (f := fun (k : Fin 4) (j : Fin 8192) => v ⟨k.val * 8192 + j.val, by omega⟩)]
  refine Finset.sum_nbij' (fun r => ((⟨r.val / 8192, by omega⟩ : Fin 4), (⟨r.val % 8192, by omega⟩ : Fin 8192)))
    (fun p => (⟨p.1.val * 8192 + p.2.val, by omega⟩ : Fin 32768)) ?_ ?_ ?_ ?_ ?_
  · intro r _; exact Finset.mem_univ _
  · intro p _; exact Finset.mem_univ _
  · intro r _
    apply Fin.ext
    show r.val / 8192 * 8192 + r.val % 8192 = r.val
    omega
  · intro p _
    apply Prod.ext
    · apply Fin.ext
      show (p.1.val * 8192 + p.2.val) / 8192 = p.1.val
      omega
    · apply Fin.ext
      show (p.1.val * 8192 + p.2.val) % 8192 = p.2.val
      omega
  · intro r _
    refine congrArg v (Fin.ext ?_)
    show r.val = r.val / 8192 * 8192 + r.val % 8192
    omega

/-- Run g of 32768 terms is the four runs 4 g, 4 g + 1, 4 g + 2, 4 g + 3 of 8192 terms. -/
theorem range4_chunks (v : ℕ → M) (g : ℕ) :
    ∑ s ∈ Finset.range 4, ∑ r : Fin 8192, v ((4 * g + s) * 8192 + r.val) = ∑ r : Fin 32768, v (g * 32768 + r.val) := by
  rw [sum_quot_rem (fun r : Fin 32768 => v (g * 32768 + r.val)),
    ← Fin.sum_univ_eq_sum_range (fun s => ∑ r : Fin 8192, v ((4 * g + s) * 8192 + r.val)) 4]
  refine Finset.sum_congr rfl fun k _ => Finset.sum_congr rfl fun j _ => congrArg v ?_
  show (4 * g + k.val) * 8192 + j.val = g * 32768 + (k.val * 8192 + j.val)
  omega

/-- The accumulator at step n is the sum of the terms from the last multiple of four up to n. By induction on n: a
    step that is a multiple of four sets it; any other step n + 1 has (n + 1) % 4 = n % 4 + 1 and the same last
    multiple of four as n, so the sum gains exactly the term of step n + 1. -/
theorem acc_chain (N : ℕ) (a : (n : ℕ) → n < N → M) (T : ℕ → M)
    (hA : ∀ (n : ℕ) (h : n < N), n % 4 = 0 → a n h = T n)
    (hB : ∀ (n : ℕ) (h : n + 1 < N), ¬ (n + 1) % 4 = 0 → a (n + 1) h = a n (Nat.lt_of_succ_lt h) + T (n + 1)) :
    ∀ (n : ℕ) (h : n < N), a n h = ∑ s ∈ Finset.range (n % 4 + 1), T (n - n % 4 + s) := by
  intro n
  induction n with
  | zero =>
    intro h
    rw [hA 0 h rfl]
    simp
  | succ n ih =>
    intro h
    by_cases h4 : (n + 1) % 4 = 0
    · rw [hA (n + 1) h h4, h4]
      simp
    · have e1 : (n + 1) % 4 = n % 4 + 1 := by omega
      have e2 : n + 1 - (n % 4 + 1) = n - n % 4 := by omega
      have e3 : n - n % 4 + (n % 4 + 1) = n + 1 := by omega
      rw [hB n h h4, ih (Nat.lt_of_succ_lt h), e1, e2,
        Finset.sum_range_succ (fun s => T (n - n % 4 + s)) (n % 4 + 1), e3]

end Cert.KVal.Edge1

end
-- ==== Proof.KEdge1.lean ====
/-
  After the second kernel: the edge rows of the second result, and each graph's sum of the global dense layer over its edges.

  The kernel visits 64 blocks of 8192 edge rows, four per graph. At every block it writes the block's normalised rows
  (x - mean) * inv * w + b, the graph's mean and reciprocal standard deviation read from the host's statistics; and it
  keeps, per graph, the running sum over the rows seen so far of max (row · Wg + bg, 0), set to zero at the graph's
  first block and written back after its fourth. So the first array ends at the edge layer norm on the 524288 edge rows
  and the second at each graph's sum of the global dense layer over its 32768 edges.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«402160_j53730040873195_3_alg».proof.Proof.KHost1
import proofs.«402160_j53730040873195_3_alg».proof.Proof.KHost1Stats
import proofs.«402160_j53730040873195_3_alg».proof.Proof.KEdge1Aux1
import proofs.«402160_j53730040873195_3_alg».proof.Proof.KEdge1Aux2
import proofs.«402160_j53730040873195_3_alg».proof.Proof.KEdge1Aux3
import proofs.«402160_j53730040873195_3_alg».proof.Proof.KEdge1Aux4

set_option maxRecDepth 16384

noncomputable section

namespace Cert.KVal.Edge1

open Cert.KernelIdeal Cert.KernelIdeal.Gen Cert.Spec Cert.KArgs Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Where each window's block sits at a point -/

/-- The block indices of the nine windows at point t: the edge rows' blocks move with the point, the statistics' and the
    accumulator's with the point's graph t / 4, the parameters' blocks are the whole arrays. -/
theorem idx1 : ∀ t : Fin cfg1.N,
    win1_0.index t (0 : Fin 2) = t.val ∧ win1_0.index t (1 : Fin 2) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 1) = 0 ∧ win1_4.index t (0 : Fin 1) = 0
    ∧ win1_5.index t (0 : Fin 2) = 0 ∧ win1_5.index t (1 : Fin 2) = 0 ∧ win1_6.index t (0 : Fin 1) = 0
    ∧ win1_7.index t (0 : Fin 2) = t.val ∧ win1_7.index t (1 : Fin 2) = 0
    ∧ win1_8.index t (0 : Fin 3) = t.val / 4 ∧ win1_8.index t (1 : Fin 3) = 0 ∧ win1_8.index t (2 : Fin 3) = 0 :=
  (by decide +kernel : ∀ t : Fin grid1.N, _)

theorem N64 : cfg1.N = 64 := N_1

/-! ## The seven input blocks at a point, by their literal types -/

abbrev bAvg (t : Fin cfg1.N) : Vec Ideal S8192x128 .f32 := iblk1 (V6 m ρ) c 0 t
abbrev bMean (t : Fin cfg1.N) : Vec Ideal S1x1x128 .f32 := iblk1 (V6 m ρ) c 1 t
abbrev bInv (t : Fin cfg1.N) : Vec Ideal S1x1x128 .f32 := iblk1 (V6 m ρ) c 2 t
abbrev bWle (t : Fin cfg1.N) : Vec Ideal S128 .f32 := iblk1 (V6 m ρ) c 3 t
abbrev bBle (t : Fin cfg1.N) : Vec Ideal S128 .f32 := iblk1 (V6 m ρ) c 4 t
abbrev bWg (t : Fin cfg1.N) : Vec Ideal S128x128 .f32 := iblk1 (V6 m ρ) c 5 t
abbrev bBg (t : Fin cfg1.N) : Vec Ideal S128 .f32 := iblk1 (V6 m ρ) c 6 t

/-- Row r of the point's block of edge inputs is edge row t * 8192 + r. -/
theorem bAvg_apply (hA : (argsK m c).Ok) (t : Fin cfg1.N) (r : Fin 8192) (f : Fin 128)
    (hb : t.val * 8192 + r.val < 557056) :
    bAvg m ρ c t (ix2 r f) = avg (argsK m c) ⟨t.val * 8192 + r.val, hb⟩ f := by
  have hN : t.val < 64 := lt_of_lt_of_eq t.isLt N64
  obtain ⟨e00, e01, e10, e11, e12, e20, e21, e22, e30, e40, e50, e51, e60, e70, e71, e80, e81, e82⟩ := idx1 t
  have hb' : t.val * 8192 + r.val < 524288 := by omega
  refine Eq.trans ?_ (W6_avg m ρ c hA ⟨t.val * 8192 + r.val, hb'⟩ f)
  show (W6 m ρ c (Proc.devRef .tc main_v19) : Vec Ideal S524288x128 .f32) (((cfg1.win 0).blk t).view.emb (ix2 r f))
    = (W6 m ρ c (Proc.devRef .tc main_v19) : Vec Ideal S524288x128 .f32) (ix2 ⟨t.val * 8192 + r.val, hb'⟩ f)
  refine congrArg _ ?_
  funext a; apply Fin.ext
  match a with
  | ⟨0, _⟩ => show win1_0.index t (0 : Fin 2) * 8192 + 1 * r.val = t.val * 8192 + r.val; rw [e00]; omega
  | ⟨1, _⟩ => show win1_0.index t (1 : Fin 2) * 128 + 1 * f.val = f.val; rw [e01]; omega

/-- The point's block of means is its graph's mean, along the features. -/
theorem bMean_apply (hA : (argsK m c).Ok) (t : Fin cfg1.N) (f : Fin 128) (hg : t.val / 4 < 16) :
    bMean m ρ c t (ix3 (0 : Fin 1) (0 : Fin 1) f) = gmean gE cntE (avg (argsK m c)) ⟨t.val / 4, hg⟩ := by
  obtain ⟨e00, e01, e10, e11, e12, e20, e21, e22, e30, e40, e50, e51, e60, e70, e71, e80, e81, e82⟩ := idx1 t
  refine Eq.trans ?_ (W6_mean m ρ c hA ⟨t.val / 4, hg⟩ f)
  show (W6 m ρ c (Proc.devRef .tc main_v40) : Vec Ideal S16x1x128 .f32) (((cfg1.win 1).blk t).view.emb (ix3 (0 : Fin 1) (0 : Fin 1) f))
    = (W6 m ρ c (Proc.devRef .tc main_v40) : Vec Ideal S16x1x128 .f32) (ix3 ⟨t.val / 4, hg⟩ (0 : Fin 1) f)
  refine congrArg _ ?_
  funext a; apply Fin.ext
  match a with
  | ⟨0, _⟩ => show win1_1.index t (0 : Fin 3) * 1 + 1 * 0 = t.val / 4; rw [e10]; omega
  | ⟨1, _⟩ => show win1_1.index t (1 : Fin 3) * 1 + 1 * 0 = 0; rw [e11]
  | ⟨2, _⟩ => show win1_1.index t (2 : Fin 3) * 128 + 1 * f.val = f.val; rw [e12]; omega

/-- The point's block of reciprocal standard deviations is its graph's, along the features. -/
theorem bInv_apply (hA : (argsK m c).Ok) (t : Fin cfg1.N) (f : Fin 128) (hg : t.val / 4 < 16) :
    bInv m ρ c t (ix3 (0 : Fin 1) (0 : Fin 1) f)
      = Ideal.rsqrt (gvar gE cntE (avg (argsK m c)) ⟨t.val / 4, hg⟩ + eps) := by
  obtain ⟨e00, e01, e10, e11, e12, e20, e21, e22, e30, e40, e50, e51, e60, e70, e71, e80, e81, e82⟩ := idx1 t
  refine Eq.trans ?_ (W6_inv m ρ c hA ⟨t.val / 4, hg⟩ f)
  show (W6 m ρ c (Proc.devRef .tc main_v42) : Vec Ideal S16x1x128 .f32) (((cfg1.win 2).blk t).view.emb (ix3 (0 : Fin 1) (0 : Fin 1) f))
    = (W6 m ρ c (Proc.devRef .tc main_v42) : Vec Ideal S16x1x128 .f32) (ix3 ⟨t.val / 4, hg⟩ (0 : Fin 1) f)
  refine congrArg _ ?_
  funext a; apply Fin.ext
  match a with
  | ⟨0, _⟩ => show win1_2.index t (0 : Fin 3) * 1 + 1 * 0 = t.val / 4; rw [e20]; omega
  | ⟨1, _⟩ => show win1_2.index t (1 : Fin 3) * 1 + 1 * 0 = 0; rw [e21]
  | ⟨2, _⟩ => show win1_2.index t (2 : Fin 3) * 128 + 1 * f.val = f.val; rw [e22]; omega

/-- The four parameter blocks are the launch arrays. -/
theorem bWle_apply (t : Fin cfg1.N) (f : Fin 128) : bWle m ρ c t (ix1 f) = (argsK m c).wle (ix1 f) := by
  obtain ⟨e00, e01, e10, e11, e12, e20, e21, e22, e30, e40, e50, e51, e60, e70, e71, e80, e81, e82⟩ := idx1 t
  show (W6 m ρ c (Proc.devRef .tc main_arg22) : Vec Ideal S128 .f32) (((cfg1.win 3).blk t).view.emb (ix1 f))
    = m ((c : Thread nD τ).loc main_arg22) (ix1 f)
  rw [W6_main_arg22 m ρ c]
  refine congrArg _ ?_
  funext a; apply Fin.ext
  match a with
  | ⟨0, _⟩ => show win1_3.index t (0 : Fin 1) * 128 + 1 * f.val = f.val; rw [e30]; omega

theorem bBle_apply (t : Fin cfg1.N) (f : Fin 128) : bBle m ρ c t (ix1 f) = (argsK m c).ble (ix1 f) := by
  obtain ⟨e00, e01, e10, e11, e12, e20, e21, e22, e30, e40, e50, e51, e60, e70, e71, e80, e81, e82⟩ := idx1 t
  show (W6 m ρ c (Proc.devRef .tc main_arg23) : Vec Ideal S128 .f32) (((cfg1.win 4).blk t).view.emb (ix1 f))
    = m ((c : Thread nD τ).loc main_arg23) (ix1 f)
  rw [W6_main_arg23 m ρ c]
  refine congrArg _ ?_
  funext a; apply Fin.ext
  match a with
  | ⟨0, _⟩ => show win1_4.index t (0 : Fin 1) * 128 + 1 * f.val = f.val; rw [e40]; omega

theorem bWg_apply (t : Fin cfg1.N) (k f : Fin 128) : bWg m ρ c t (ix2 k f) = (argsK m c).Wg (ix2 k f) := by
  obtain ⟨e00, e01, e10, e11, e12, e20, e21, e22, e30, e40, e50, e51, e60, e70, e71, e80, e81, e82⟩ := idx1 t
  show (W6 m ρ c (Proc.devRef .tc main_arg24) : Vec Ideal S128x128 .f32) (((cfg1.win 5).blk t).view.emb (ix2 k f))
    = m ((c : Thread nD τ).loc main_arg24) (ix2 k f)
  rw [W6_main_arg24 m ρ c]
  refine congrArg _ ?_
  funext a; apply Fin.ext
  match a with
  | ⟨0, _⟩ => show win1_5.index t (0 : Fin 2) * 128 + 1 * k.val = k.val; rw [e50]; omega
  | ⟨1, _⟩ => show win1_5.index t (1 : Fin 2) * 128 + 1 * f.val = f.val; rw [e51]; omega

theorem bBg_apply (t : Fin cfg1.N) (f : Fin 128) : bBg m ρ c t (ix1 f) = (argsK m c).bg (ix1 f) := by
  obtain ⟨e00, e01, e10, e11, e12, e20, e21, e22, e30, e40, e50, e51, e60, e70, e71, e80, e81, e82⟩ := idx1 t
  show (W6 m ρ c (Proc.devRef .tc main_arg25) : Vec Ideal S128 .f32) (((cfg1.win 6).blk t).view.emb (ix1 f))
    = m ((c : Thread nD τ).loc main_arg25) (ix1 f)
  rw [W6_main_arg25 m ρ c]
  refine congrArg _ ?_
  funext a; apply Fin.ext
  match a with
  | ⟨0, _⟩ => show win1_6.index t (0 : Fin 1) * 128 + 1 * f.val = f.val; rw [e60]; omega

/-! ## The point's arithmetic is the specification's -/

/-- The normalised row r of point t's block is the edge layer norm at edge row t * 8192 + r: that row's graph is t / 4. -/
theorem norm_eq (hA : (argsK m c).Ok) (t : Fin cfg1.N) (r : Fin 8192) (f : Fin 128)
    (hb : t.val * 8192 + r.val < 557056) :
    (k1_pay3 (F := Ideal) (bAvg m ρ c t) (bMean m ρ c t) (bInv m ρ c t) (bWle m ρ c t) (bBle m ρ c t) : FVec Ideal S8192x128 .f32) (ix2 r f)
      = attr (argsK m c) ⟨t.val * 8192 + r.val, hb⟩ f := by
  have hN : t.val < 64 := lt_of_lt_of_eq t.isLt N64
  have hg : t.val / 4 < 16 := by omega
  refine (pay3_apply (bAvg m ρ c t) (bMean m ρ c t) (bInv m ρ c t) (bWle m ρ c t) (bBle m ρ c t) r f).trans ?_
  rw [bAvg_apply m ρ c hA t r f hb, bMean_apply m ρ c hA t f hg, bInv_apply m ρ c hA t f hg, bWle_apply m ρ c t f,
    bBle_apply m ρ c t f]
  have hgE : gE ⟨t.val * 8192 + r.val, hb⟩ = ⟨t.val / 4, hg⟩ := by
    apply Fin.ext
    rw [Cert.LibSeg.gE_val_lt _ (show (⟨t.val * 8192 + r.val, hb⟩ : Fin 557056).val < 524288 by show t.val * 8192 + r.val < 524288; omega)]
    show (t.val * 8192 + r.val) / 32768 = t.val / 4
    omega
  unfold attr gln gcen
  rw [hgE]

/-- A total spelling of the global dense layer over row numbers. -/
def gactN (e : ℕ) (f : Fin 128) : EReal := if h : e < 557056 then gact (argsK m c) ⟨e, h⟩ f else 0

/-- The dense layer summed over the 8192 rows of block n. -/
def T (n : ℕ) (f : Fin 128) : EReal := ∑ r : Fin 8192, gactN m c (n * 8192 + r.val) f

/-- Point t's column sums are the global dense layer summed over the point's 8192 edge rows. -/
theorem colsum_eq (hA : (argsK m c).Ok) (t : Fin cfg1.N) (f : Fin 128) :
    (k1_pay4 (F := Ideal) (bAvg m ρ c t) (bMean m ρ c t) (bInv m ρ c t) (bWle m ρ c t) (bBle m ρ c t) (bWg m ρ c t) (bBg m ρ c t) : FVec Ideal S1x128 .f32) (ix2 (0 : Fin 1) f) = T m c t.val f := by
  have hN : t.val < 64 := lt_of_lt_of_eq t.isLt N64
  refine (pay4_apply (bAvg m ρ c t) (bMean m ρ c t) (bInv m ρ c t) (bWle m ρ c t) (bBle m ρ c t) (bWg m ρ c t) (bBg m ρ c t) f).trans ?_
  unfold T
  refine Finset.sum_congr rfl fun r _ => ?_
  have hb : t.val * 8192 + r.val < 557056 := by omega
  unfold gactN
  rw [dif_pos hb, bBg_apply m ρ c t f]
  show _ = max (∑ k : Fin 128, attr (argsK m c) ⟨t.val * 8192 + r.val, hb⟩ k * (argsK m c).Wg (ix2 k f) + (argsK m c).bg (ix1 f)) 0
  refine congrArg (fun s => max (s + (argsK m c).bg (ix1 f)) 0) (Finset.sum_congr rfl fun k _ => ?_)
  rw [norm_eq m ρ c hA t r k hb, bWg_apply m ρ c t k f]

/-! ## What the staging buffers hold after each point -/

/-- After any point the edge rows' buffer holds the point's normalised block. -/
theorem outs7_eq (t : Fin cfg1.N) :
    (outsAt1 (V6 m ρ) c t.val t.isLt).1 = k1_pay3 (F := Ideal) (bAvg m ρ c t) (bMean m ρ c t) (bInv m ρ c t) (bWle m ρ c t) (bBle m ρ c t) := by
  by_cases h0 : t.val % 4 = 0
  · rw [outsAt1_A (V6 m ρ) c t h0]; dsimp only
    exact out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 (V6 m ρ) c 0 t) (iblk1 (V6 m ρ) c 1 t) (iblk1 (V6 m ρ) c 2 t) (iblk1 (V6 m ρ) c 3 t) (iblk1 (V6 m ρ) c 4 t) (iblk1 (V6 m ρ) c 5 t) (iblk1 (V6 m ρ) c 6 t)
  · rw [outsAt1_B (V6 m ρ) c t h0]; dsimp only
    exact out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 (V6 m ρ) c 0 t) (iblk1 (V6 m ρ) c 1 t) (iblk1 (V6 m ρ) c 2 t) (iblk1 (V6 m ρ) c 3 t) (iblk1 (V6 m ρ) c 4 t) (iblk1 (V6 m ρ) c 5 t) (iblk1 (V6 m ρ) c 6 t) (outsAt1 (V6 m ρ) c (t.val - 1) (Nat.lt_of_le_of_lt (Nat.sub_le _ _) t.isLt)).2

/-- At a graph's first point the accumulator is left at the point's column sums. -/
theorem step_A (hA : (argsK m c).Ok) (t : Fin cfg1.N) (h0 : t.val % 4 = 0) (f : Fin 128) :
    (outsAt1 (V6 m ρ) c t.val t.isLt).2 (ix3 (0 : Fin 1) (0 : Fin 1) f) = T m c t.val f := by
  rw [outsAt1_A (V6 m ρ) c t h0]; dsimp only
  refine (congrFun (out_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 (V6 m ρ) c 0 t) (iblk1 (V6 m ρ) c 1 t) (iblk1 (V6 m ρ) c 2 t) (iblk1 (V6 m ρ) c 3 t) (iblk1 (V6 m ρ) c 4 t) (iblk1 (V6 m ρ) c 5 t) (iblk1 (V6 m ρ) c 6 t)) (ix3 (0 : Fin 1) (0 : Fin 1) f)).trans ?_
  refine (pay1_apply (k1_pay4 (F := Ideal) (bAvg m ρ c t) (bMean m ρ c t) (bInv m ρ c t) (bWle m ρ c t) (bBle m ρ c t) (bWg m ρ c t) (bBg m ρ c t)) (k1_pay2 (F := Ideal)) f).trans ?_
  rw [pay2_apply, zero_add]
  exact colsum_eq m ρ c hA t f

/-- At a later point of the graph it is left at what the point before left plus the point's column sums. -/
theorem step_B (hA : (argsK m c).Ok) (t : Fin cfg1.N) (h0 : ¬t.val % 4 = 0) (f : Fin 128) :
    (outsAt1 (V6 m ρ) c t.val t.isLt).2 (ix3 (0 : Fin 1) (0 : Fin 1) f)
      = (outsAt1 (V6 m ρ) c (t.val - 1) (Nat.lt_of_le_of_lt (Nat.sub_le _ _) t.isLt)).2 (ix3 (0 : Fin 1) (0 : Fin 1) f) + T m c t.val f := by
  rw [outsAt1_B (V6 m ρ) c t h0]; dsimp only
  refine (congrFun (out_B_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 (V6 m ρ) c 0 t) (iblk1 (V6 m ρ) c 1 t) (iblk1 (V6 m ρ) c 2 t) (iblk1 (V6 m ρ) c 3 t) (iblk1 (V6 m ρ) c 4 t) (iblk1 (V6 m ρ) c 5 t) (iblk1 (V6 m ρ) c 6 t) (outsAt1 (V6 m ρ) c (t.val - 1) (Nat.lt_of_le_of_lt (Nat.sub_le _ _) t.isLt)).2) (ix3 (0 : Fin 1) (0 : Fin 1) f)).trans ?_
  refine (pay1_apply (k1_pay4 (F := Ideal) (bAvg m ρ c t) (bMean m ρ c t) (bInv m ρ c t) (bWle m ρ c t) (bBle m ρ c t) (bWg m ρ c t) (bBg m ρ c t)) (outsAt1 (V6 m ρ) c (t.val - 1) (Nat.lt_of_le_of_lt (Nat.sub_le _ _) t.isLt)).2 f).trans ?_
  rw [colsum_eq m ρ c hA t f]

/-- So after point n it holds the sum of the column sums of the graph's points up to n. -/
theorem outs8_eq (hA : (argsK m c).Ok) (f : Fin 128) : ∀ (n : ℕ) (h : n < cfg1.N),
    (outsAt1 (V6 m ρ) c n h).2 (ix3 (0 : Fin 1) (0 : Fin 1) f)
      = ∑ s ∈ Finset.range (n % 4 + 1), T m c (n - n % 4 + s) f :=
  acc_chain cfg1.N (fun n h => (outsAt1 (V6 m ρ) c n h).2 (ix3 (0 : Fin 1) (0 : Fin 1) f)) (fun n => T m c n f)
    (fun n h h0 => step_A m ρ c hA ⟨n, h⟩ h0 f)
    (fun n h h0 => step_B m ρ c hA ⟨n + 1, h⟩ h0 f)

/-! ## The arrays after the kernel -/

/-- The first array where the kernel's blocks cover it: the edge layer norm. -/
def G7 : Vec Ideal S557056x128 .f32 := fun i => attr (argsK m c) ⟨(i 0).val, idx2_lt0 i⟩ ⟨(i 1).val, idx2_lt1 i⟩

/-- Graph g's sum of the global dense layer over its 32768 edges. -/
@[irreducible] def pool8 (g : ℕ) (f : Fin 128) : EReal := ∑ r : Fin 32768, gactN m c (g * 32768 + r.val) f

/-- The second array: each graph's sum of the global dense layer over its 32768 edges. -/
def G8 : Vec Ideal S16x1x128 .f32 := fun i => pool8 m c (i 0).val ⟨(i 2).val, (i 2).isLt⟩

/-- What every point writes back to the first array is its block of the edge layer norm. -/
theorem flushed7_eq (hA : (argsK m c).Ok) (t : Fin cfg1.N) :
    (dat1 (V6 m ρ) c).flushed 7 t = ((cfg1.win 7).blk t).view.read (Elt Ideal) (G7 m c) := by
  have hN : t.val < 64 := lt_of_lt_of_eq t.isLt N64
  obtain ⟨e00, e01, e10, e11, e12, e20, e21, e22, e30, e40, e50, e51, e60, e70, e71, e80, e81, e82⟩ := idx1 t
  show (cfg1.win 7).cut (grid1.coords t) ((dat1 (V6 m ρ) c).after 7 t) = _
  rw [after1_7, outs7_eq m ρ c t]
  funext j
  obtain ⟨r, f, rfl⟩ : ∃ (r : Fin 8192) (f : Fin 128), j = ix2 r f := ⟨j 0, j 1, eq_ix2 (n0 := 8192) (n1 := 128) j⟩
  have hb : t.val * 8192 + r.val < 557056 := by omega
  show (k1_pay3 (F := Ideal) (bAvg m ρ c t) (bMean m ρ c t) (bInv m ρ c t) (bWle m ρ c t) (bBle m ρ c t) : FVec Ideal S8192x128 .f32) (ix2 r f)
    = G7 m c (((cfg1.win 7).blk t).view.emb (ix2 r f))
  have hemb : ((cfg1.win 7).blk t).view.emb (ix2 r f)
      = (ix2 (⟨t.val * 8192 + r.val, hb⟩ : Fin 557056) f : S557056x128.Idx) := by
    funext a; apply Fin.ext
    match a with
    | ⟨0, _⟩ => show win1_7.index t (0 : Fin 2) * 8192 + 1 * r.val = t.val * 8192 + r.val; rw [e70]; omega
    | ⟨1, _⟩ => show win1_7.index t (1 : Fin 2) * 128 + 1 * f.val = f.val; rw [e71]; omega
  rw [norm_eq m ρ c hA t r f hb, hemb]
  rfl

/-- What a graph's fourth point writes back to the second array is the graph's entry of the sums. -/
theorem flushed8_eq (hA : (argsK m c).Ok) (t : Fin cfg1.N) (hf : (cfg1.win 8).flush t = true) :
    (dat1 (V6 m ρ) c).flushed 8 t = ((cfg1.win 8).blk t).view.read (Elt Ideal) (G8 m c) := by
  have hN : t.val < 64 := lt_of_lt_of_eq t.isLt N64
  have h3 : t.val % 4 = 3 := (flush1_8 t).mp hf
  obtain ⟨e00, e01, e10, e11, e12, e20, e21, e22, e30, e40, e50, e51, e60, e70, e71, e80, e81, e82⟩ := idx1 t
  show (cfg1.win 8).cut (grid1.coords t) ((dat1 (V6 m ρ) c).after 8 t) = _
  rw [after1_8]
  have key : ∀ f : Fin 128, (outsAt1 (V6 m ρ) c t.val t.isLt).2 (ix3 (0 : Fin 1) (0 : Fin 1) f)
      = ∑ s ∈ Finset.range (t.val % 4 + 1), T m c (t.val - t.val % 4 + s) f := fun f => outs8_eq m ρ c hA f t.val t.isLt
  generalize (outsAt1 (V6 m ρ) c t.val t.isLt).2 = X at key ⊢
  funext j
  obtain ⟨a, b, f, rfl⟩ : ∃ (a : Fin 1) (b : Fin 1) (f : Fin 128), j = ix3 a b f :=
    ⟨j 0, j 1, j 2, eq_ix3 (n0 := 1) (n1 := 1) (n2 := 128) j⟩
  show X (ix3 a b f) = G8 m c (((cfg1.win 8).blk t).view.emb (ix3 a b f))
  obtain rfl : a = 0 := Subsingleton.elim _ _
  obtain rfl : b = 0 := Subsingleton.elim _ _
  have hg : t.val / 4 < 16 := by omega
  have hemb : ((cfg1.win 8).blk t).view.emb (ix3 (0 : Fin 1) (0 : Fin 1) f)
      = (ix3 (⟨t.val / 4, hg⟩ : Fin 16) (0 : Fin 1) f : S16x1x128.Idx) := by
    funext a; apply Fin.ext
    match a with
    | ⟨0, _⟩ => show win1_8.index t (0 : Fin 3) * 1 + 1 * 0 = t.val / 4; rw [e80]; omega
    | ⟨1, _⟩ => show win1_8.index t (1 : Fin 3) * 1 + 1 * 0 = 0; rw [e81]
    | ⟨2, _⟩ => show win1_8.index t (2 : Fin 3) * 128 + 1 * f.val = f.val; rw [e82]; omega
  rw [hemb, key f, h3]
  have e : t.val - 3 = 4 * (t.val / 4) := by omega
  rw [e]
  show _ = pool8 m c (t.val / 4) f
  unfold pool8
  exact range4_chunks (fun e => gactN m c e f) (t.val / 4)

/-- An index of the first array is in point t's block iff each coordinate is in the block's range. -/
theorem mem_blk7 (t : Fin cfg1.N) (i : S557056x128.Idx) :
    i ∈ ((cfg1.win 7).blk t).view.set ↔ ∀ a : Fin 2, win1_7.index t a * S8192x128.size a ≤ (i a).val
      ∧ (i a).val < win1_7.index t a * S8192x128.size a + S8192x128.size a := by
  show i ∈ ((View.whole main_v43_0).slice (win1_7.rect t)).set ↔ _
  rw [View.set_slice_whole, Rect.mem_set_unit]
  exact Iff.rfl

/-- An index of the second array is in point t's block iff each coordinate is in the block's range. -/
theorem mem_blk8 (t : Fin cfg1.N) (i : S16x1x128.Idx) :
    i ∈ ((cfg1.win 8).blk t).view.set ↔ ∀ a : Fin 3, win1_8.index t a * S1x1x128.size a ≤ (i a).val
      ∧ (i a).val < win1_8.index t a * S1x1x128.size a + S1x1x128.size a := by
  show i ∈ ((View.whole main_v43_1).slice (win1_8.rect t)).set ↔ _
  rw [View.set_slice_whole, Rect.mem_set_unit]
  exact Iff.rfl

end Cert.KVal.Edge1

namespace Cert.KVal

open Cert.KernelIdeal Cert.KernelIdeal.Gen Cert.Spec Cert.KArgs Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

theorem W7_attr (hA : (argsK m c).Ok) (e : Fin 524288) (f : Fin 128) :
    (W7 m ρ c (Proc.devRef .tc main_v43_0) : Vec Ideal S557056x128 .f32) (ix2 (⟨e.val, by omega⟩ : Fin 557056) f)
      = attr (argsK m c) ⟨e.val, by omega⟩ f := by
  have hN : e.val / 8192 < cfg1.N := by rw [Edge1.N64]; omega
  obtain ⟨e00, e01, e10, e11, e12, e20, e21, e22, e30, e40, e50, e51, e60, e70, e71, e80, e81, e82⟩ := Edge1.idx1 ⟨e.val / 8192, hN⟩
  refine (congrFun (W7_arr m ρ c 7) (ix2 (⟨e.val, by omega⟩ : Fin 557056) f)).trans ?_
  refine ((dat1 (V6 m ρ) c).arrAt_apply_of_mem 7 (Edge1.G7 m c) (fun t _ => Edge1.flushed7_eq m ρ c hA t) cfg1.N
    ⟨e.val / 8192, hN⟩ (ix2 (⟨e.val, by omega⟩ : Fin 557056) f) hN (flush1_7 _) ?_).trans rfl
  rw [Edge1.mem_blk7]
  intro a
  match a with
  | ⟨0, _⟩ =>
    show win1_7.index ⟨e.val / 8192, hN⟩ (0 : Fin 2) * 8192 ≤ e.val
      ∧ e.val < win1_7.index ⟨e.val / 8192, hN⟩ (0 : Fin 2) * 8192 + 8192
    rw [e70]; dsimp only; omega
  | ⟨1, _⟩ =>
    show win1_7.index ⟨e.val / 8192, hN⟩ (1 : Fin 2) * 128 ≤ f.val
      ∧ f.val < win1_7.index ⟨e.val / 8192, hN⟩ (1 : Fin 2) * 128 + 128
    rw [e71]; omega

theorem W7_pool (hA : (argsK m c).Ok) (g : Fin 16) (f : Fin 128) :
    (W7 m ρ c (Proc.devRef .tc main_v43_1) : Vec Ideal S16x1x128 .f32) (ix3 g (0 : Fin 1) f)
      = ∑ r : Fin 32768, gact (argsK m c) ⟨g.val * 32768 + r.val, by omega⟩ f := by
  have hN : 4 * g.val + 3 < cfg1.N := by rw [Edge1.N64]; omega
  obtain ⟨e00, e01, e10, e11, e12, e20, e21, e22, e30, e40, e50, e51, e60, e70, e71, e80, e81, e82⟩ := Edge1.idx1 ⟨4 * g.val + 3, hN⟩
  refine (congrFun (W7_arr m ρ c 8) (ix3 g (0 : Fin 1) f)).trans ?_
  refine ((dat1 (V6 m ρ) c).arrAt_apply_of_mem 8 (Edge1.G8 m c) (fun t hf => Edge1.flushed8_eq m ρ c hA t hf) cfg1.N
    ⟨4 * g.val + 3, hN⟩ (ix3 g (0 : Fin 1) f) hN ((flush1_8 _).mpr (by show (4 * g.val + 3) % 4 = 3; omega)) ?_).trans ?_
  · rw [Edge1.mem_blk8]
    intro a
    match a with
    | ⟨0, _⟩ =>
      show win1_8.index ⟨4 * g.val + 3, hN⟩ (0 : Fin 3) * 1 ≤ g.val
        ∧ g.val < win1_8.index ⟨4 * g.val + 3, hN⟩ (0 : Fin 3) * 1 + 1
      rw [e80]; dsimp only; omega
    | ⟨1, _⟩ =>
      show win1_8.index ⟨4 * g.val + 3, hN⟩ (1 : Fin 3) * 1 ≤ 0
        ∧ 0 < win1_8.index ⟨4 * g.val + 3, hN⟩ (1 : Fin 3) * 1 + 1
      rw [e81]; omega
    | ⟨2, _⟩ =>
      show win1_8.index ⟨4 * g.val + 3, hN⟩ (2 : Fin 3) * 128 ≤ f.val
        ∧ f.val < win1_8.index ⟨4 * g.val + 3, hN⟩ (2 : Fin 3) * 128 + 128
      rw [e82]; omega
  · show Edge1.pool8 m c g.val f = _
    unfold Edge1.pool8
    refine Finset.sum_congr rfl fun r _ => ?_
    unfold Edge1.gactN
    rw [dif_pos (show g.val * 32768 + r.val < 557056 by omega)]

end Cert.KVal

end
-- ==== Proof.KEdge2Aux1.lean ====
/-
  The third kernel's two stored values, read at one entry at the ideal values: the normalised row entry, and the
  column sum over the 2048 rows of the global dense layer applied to the normalised rows.
-/
import proofs.«402160_j53730040873195_3_alg».proof.Proof.Gen.KernelIdeal.Skeleton
import proofs.«402160_j53730040873195_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal.Edge2

open Cert.KernelIdeal Cert.KernelIdeal.Gen Idealize.ShloMosaic Idealize.ShloMosaic.ValueIdx

/-- A row vector of length 128 laid as a 1 × 128 matrix and repeated down 2048 rows reads, at (r, f), its entry f. -/
theorem rowOf128 (v : Vec Ideal S128 .f32) (r : Fin 2048) (f : Fin 128) :
    broadcastTo S2048x128 (shapeCast S1x128 v shapeCasts_S128_S1x128) broadcasts_S1x128_S2048x128 (ix2 r f) = v (ix1 f) :=
  (broadcastTo_1b_ab_apply _ _ r f).trans (shapeCast_a_1a_apply v _ 0 f)

/-- A 1 × 1 × 128 block with its leading unit axis dropped and repeated down 2048 rows reads, at (r, f), its entry (0, 0, f). -/
theorem rowOf1x1x128 (v : Vec Ideal S1x1x128 .f32) (r : Fin 2048) (f : Fin 128) :
    broadcastTo S2048x128 (shapeCast S1x128 (shapeCast S1x1x128 v shapeCasts_S1x1x128_S1x1x128) shapeCasts_S1x1x128_S1x128)
      broadcasts_S1x128_S2048x128 (ix2 r f) = v (ix3 (0 : Fin 1) (0 : Fin 1) f) := by
  refine (broadcastTo_1b_ab_apply _ _ r f).trans ?_
  refine (shapeCast_1ab_ab_apply _ _ (0 : Fin 1) f).trans ?_
  rw [shapeCast_self]

/-- The first stored value at (r, f): the block's entry minus the graph's mean, times the graph's reciprocal standard
    deviation, times the weight, plus the bias. -/
theorem pay1_apply (x0 : Vec Ideal S1x2048x128 .f32) (x1 x2 : Vec Ideal S1x1x128 .f32) (x3 x4 : Vec Ideal S128 .f32)
    (r : Fin 2048) (f : Fin 128) :
    k2_pay1 x0 x1 x2 x3 x4 (ix2 r f)
      = (x0 (ix3 (0 : Fin 1) r f) - x1 (ix3 (0 : Fin 1) (0 : Fin 1) f)) * x2 (ix3 (0 : Fin 1) (0 : Fin 1) f) * x3 (ix1 f) + x4 (ix1 f) := by
  unfold k2_pay1
  exact congrArg₂ (· + ·) (congrArg₂ (· * ·) (congrArg₂ (· * ·) (congrArg₂ (· - ·)
    (shapeCast_1ab_ab_apply x0 _ r f) (rowOf1x1x128 x1 r f)) (rowOf1x1x128 x2 r f)) (rowOf128 x3 r f)) (rowOf128 x4 r f)

/-- The column sums of a 2048 × 128 block. -/
theorem colsum (src : FVec Ideal S2048x128 .f32) (hφ : FKind.Formats .f32)
    (hacc : (0x00000000#32 : BitVec 32) = FKind.add.neutral .f32 hφ) (f : Fin 128) :
    multiReduction .add [0] S128 src 0x00000000#32 reduces_S2048x128_S128 hφ hacc (ix1 f) = ∑ r : Fin 2048, src (ix2 r f) := by
  refine (Ideal.multiReduction_add_single src 0x00000000#32 reduces_S2048x128_S128 hφ hacc (ix1 f)).trans ?_
  refine Finset.sum_congr rfl fun r _ => congrArg src ?_
  funext a
  match a with
  | ⟨0, _⟩ => rfl
  | ⟨1, _⟩ => rfl

/-- The second stored value at feature f: over the block's 2048 rows, the sum of the dense layer (the normalised row
    times the weight matrix, plus the bias, cut below at zero). -/
theorem pay2_apply (x0 : Vec Ideal S1x2048x128 .f32) (x1 x2 : Vec Ideal S1x1x128 .f32) (x3 x4 : Vec Ideal S128 .f32)
    (x5 : Vec Ideal S128x128 .f32) (x6 : Vec Ideal S128 .f32) (f : Fin 128) :
    k2_pay2 x0 x1 x2 x3 x4 x5 x6 (ix3 (0 : Fin 1) (0 : Fin 1) f)
      = ∑ r : Fin 2048, max (∑ k : Fin 128, k2_pay1 x0 x1 x2 x3 x4 (ix2 r k) * x5 (ix2 k f) + x6 (ix1 f)) 0 := by
  unfold k2_pay2
  refine (shapeCast_ab_1ab_apply _ _ (0 : Fin 1) (0 : Fin 1) f).trans ?_
  refine (shapeCast_a_1a_apply _ _ (0 : Fin 1) f).trans ?_
  refine (colsum _ _ _ f).trans ?_
  refine Finset.sum_congr rfl fun r _ => ?_
  refine congrArg₂ max (congrArg₂ (· + ·) ?_ (rowOf128 x6 r f)) Ideal.ofBits_zero_f32
  exact Cert.LibPlainDot.matmul_zero_apply _ rfl none _ _ r f

end Cert.KVal.Edge2

end
-- ==== Proof.KEdge2Aux2.lean ====
/-
  What the third kernel's body leaves in its two output blocks: the one store into each, found by the generated run,
  is the stored value computed from the input blocks as they were loaded.
-/
import proofs.«402160_j53730040873195_3_alg».proof.Proof.Gen.KernelIdeal.Frame
import Idealize.ShloMosaic.Lib.Pipeline.Value
import Idealize.ShloMosaic.Lib.Tactic

set_option maxRecDepth 16384

noncomputable section

namespace Cert.KVal.Edge2

open Cert.KernelIdeal Cert.KernelIdeal.Gen Idealize.ShloMosaic Idealize.ShloMosaic.TcCoe Idealize.ShloMosaic.Tactic Idealize.SL.Sem

variable {F : FTy → Type} [FloatOps F]

/-- The zero offsets of a whole-block access, at ranks 1, 2, 3. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 2048 × 128 output block after the body: its one whole-block store, of the normalised rows of the loaded blocks. -/
theorem out7_eq (c : Dev nD) (i : grid2.Coords) (arg2 : Memref sig .tc .vmem S1x2048x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2048x128 .f32) (harg9 : arg9.IsWhole) (arg10 : Memref sig .tc .vmem S1x1x128 .f32) (harg10 : arg10.IsWhole)
    (x0 : Vec F S1x2048x128 .f32) (x1 : Vec F S1x1x128 .f32) (x2 : Vec F S1x1x128 .f32) (x3 : Vec F S128 .f32) (x4 : Vec F S128 .f32) (x5 : Vec F S128x128 .f32) (x6 : Vec F S128 .f32) :
    out2_A_7 c i arg2 harg2 arg3 harg3 arg4 harg4 arg5 harg5 arg6 harg6 arg7 harg7 arg8 harg8 arg9 harg9 arg10 harg10 x0 x1 x2 x3 x4 x5 x6
      = k2_pay1 x0 x1 x2 x3 x4 := by
  unfold out2_A_7
  rw [View.read_writes_eq_canon _ _ _ (cover2_A_7 c i arg2 harg2 arg3 harg3 arg4 harg4 arg5 harg5 arg6 harg6 arg7 harg7 arg8 harg8 arg9 harg9 arg10 harg10 x0 x1 x2 x3 x4 x5 x6)]
  unfold kernelRun2_A
  dsimp only
  rw [View.canon_unit_zero hz2]
  simp only [View.readAt_eq_ld, harg2.read_unread, harg3.read_unread, harg4.read_unread, harg5.read_unread, harg6.read_unread,
    View.ld_unit_zero (S := S1x2048x128) hz3, View.ld_unit_zero (S := S1x1x128) hz3, View.ld_unit_zero (S := S128) hz1]

/-- The 1 × 1 × 128 output block after the body: its one whole-block store, of the column sums of the dense layer. -/
theorem out8_eq (c : Dev nD) (i : grid2.Coords) (arg2 : Memref sig .tc .vmem S1x2048x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S2048x128 .f32) (harg9 : arg9.IsWhole) (arg10 : Memref sig .tc .vmem S1x1x128 .f32) (harg10 : arg10.IsWhole)
    (x0 : Vec F S1x2048x128 .f32) (x1 : Vec F S1x1x128 .f32) (x2 : Vec F S1x1x128 .f32) (x3 : Vec F S128 .f32) (x4 : Vec F S128 .f32) (x5 : Vec F S128x128 .f32) (x6 : Vec F S128 .f32) :
    out2_A_8 c i arg2 harg2 arg3 harg3 arg4 harg4 arg5 harg5 arg6 harg6 arg7 harg7 arg8 harg8 arg9 harg9 arg10 harg10 x0 x1 x2 x3 x4 x5 x6
      = k2_pay2 x0 x1 x2 x3 x4 x5 x6 := by
  unfold out2_A_8
  rw [View.read_writes_eq_canon _ _ _ (cover2_A_8 c i arg2 harg2 arg3 harg3 arg4 harg4 arg5 harg5 arg6 harg6 arg7 harg7 arg8 harg8 arg9 harg9 arg10 harg10 x0 x1 x2 x3 x4 x5 x6)]
  unfold kernelRun2_A
  dsimp only
  rw [View.canon_unit_zero hz3]
  simp only [View.readAt_eq_ld, harg2.read_unread, harg3.read_unread, harg4.read_unread, harg5.read_unread, harg6.read_unread,
    harg7.read_unread, harg8.read_unread,
    View.ld_unit_zero (S := S1x2048x128) hz3, View.ld_unit_zero (S := S1x1x128) hz3, View.ld_unit_zero (S := S128) hz1,
    View.ld_unit_zero (S := S128x128) hz2]

end Cert.KVal.Edge2

end
-- ==== Proof.KEdge2Aux3.lean ====
/-
  The second result at a self-loop row: row 524288 + g * 2048 + r belongs to graph g and its input is the dense node
  feature of row r of graph g, so the layer norm there is that feature centred by graph g's mean, scaled by graph g's
  reciprocal standard deviation, weighted and shifted.
-/
import proofs.«402160_j53730040873195_3_alg».proof.Proof.LibSeg

noncomputable section

namespace Cert.KVal.Edge2

open Cert.Spec Cert.LibSeg Idealize.ShloMosaic Idealize.ShloMosaic.ValueIdx

/-- A self-loop row of graph g belongs to graph g. -/
theorem gE_self (g : Fin 16) (r : Fin 2048) (e : Fin 557056) (hev : e.val = 524288 + g.val * 2048 + r.val) : gE e = g := by
  apply Fin.ext
  rw [gE_val_ge e (by omega)]
  omega

/-- Its input is the dense node feature of the loop's node. -/
theorem avg_self (A : Args) (g : Fin 16) (r : Fin 2048) (e : Fin 557056) (hev : e.val = 524288 + g.val * 2048 + r.val)
    (f : Fin 128) : avg A e f = Cert.Spec.he A (row g r) f := by
  unfold avg
  rw [dif_neg (by omega)]
  refine congrArg (fun n => Cert.Spec.he A n f) (Fin.ext ?_)
  show e.val - 524288 = g.val * 2048 + r.val
  omega

/-- The second result there. -/
theorem attr_self (A : Args) (g : Fin 16) (r : Fin 2048) (e : Fin 557056) (hev : e.val = 524288 + g.val * 2048 + r.val)
    (f : Fin 128) :
    attr A e f = (Cert.Spec.he A (row g r) f - gmean gE cntE (avg A) g) * Ideal.rsqrt (gvar gE cntE (avg A) g + eps)
      * A.wle (ix1 f) + A.ble (ix1 f) := by
  unfold attr gln gcen
  rw [gE_self g r e hev, avg_self A g r e hev f]

/-- The global dense layer at a row, spelled out. -/
theorem gact_eq (A : Args) (e : Fin 557056) (f : Fin 128) :
    gact A e f = max (∑ k : Fin 128, attr A e k * A.Wg (ix2 k f) + A.bg (ix1 f)) 0 := rfl

end Cert.KVal.Edge2

end
-- ==== Proof.KEdge2.lean ====
/-
  After the third kernel: every row of the second result (the edges from the second kernel kept, the self loops written),
  and each graph's sums of the global dense layer over its edges and over its self loops.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«402160_j53730040873195_3_alg».proof.Proof.KEdge1
import proofs.«402160_j53730040873195_3_alg».proof.Proof.KHost1Stats
import proofs.«402160_j53730040873195_3_alg».proof.Proof.KEdge2Aux1
import proofs.«402160_j53730040873195_3_alg».proof.Proof.KEdge2Aux2
import proofs.«402160_j53730040873195_3_alg».proof.Proof.KEdge2Aux3

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

open Cert.KVal.Edge2 Cert.LibSeg

variable (m : (ℓ : Loc nD τ sig) → Buf (Elt Ideal) ℓ) (ρ : Dev nD → PrngReg) (c : Dev nD)

namespace Edge2

/-! ## The third kernel's entry contents

One host operation runs between the second and the third kernel: it copies the second kernel's edge array into the array
the third kernel's first output window writes (the two are one buffer on the chip). Every other buffer is as the second
kernel left it, and the second kernel's input arrays are as the host stretch before it left them. -/

theorem W8_of_ne (b : Ref sig .tc) (hb : b ≠ main_v44_0) :
    W8 m ρ c (Proc.devRef .tc b) = W7 m ρ c (Proc.devRef .tc b) := by
  show StableHlo.after hostOps2 (W7 m ρ c) (Proc.devRef .tc b) = _
  simp only [hostOps2, StableHlo.after_cons, StableHlo.after_nil]
  exact StableHlo.unary_result_ne _ _ _ _ _ _ hb

theorem W8_v44_0 : (W8 m ρ c (Proc.devRef .tc main_v44_0) : Vec Ideal S557056x128 .f32)
    = (W7 m ρ c (Proc.devRef .tc main_v43_0) : Vec Ideal S557056x128 .f32) := by
  show StableHlo.after hostOps2 (W7 m ρ c) (Proc.devRef .tc main_v44_0) = _
  simp only [hostOps2, StableHlo.after_cons, StableHlo.after_nil]
  rw [StableHlo.unary_result]
  rfl

theorem W8_v20 : W8 m ρ c (Proc.devRef .tc main_v20) = W6 m ρ c (Proc.devRef .tc main_v20) :=
  (W8_of_ne m ρ c main_v20 (by decide)).trans (W7_of_ne m ρ c main_v20 (by decide))
theorem W8_v40 : W8 m ρ c (Proc.devRef .tc main_v40) = W6 m ρ c (Proc.devRef .tc main_v40) :=
  (W8_of_ne m ρ c main_v40 (by decide)).trans
    ((W7_arr m ρ c 1).trans (((dat1 (V6 m ρ) c).arrAt_in 1 rfl _).trans (A_eq1 (V6 m ρ) c 1)))
theorem W8_v42 : W8 m ρ c (Proc.devRef .tc main_v42) = W6 m ρ c (Proc.devRef .tc main_v42) :=
  (W8_of_ne m ρ c main_v42 (by decide)).trans
    ((W7_arr m ρ c 2).trans (((dat1 (V6 m ρ) c).arrAt_in 2 rfl _).trans (A_eq1 (V6 m ρ) c 2)))

/-- The four parameter arrays the third kernel reads are as launched: an input window leaves its array alone, no later
    host operation writes an argument, and the program's last boundary has them as launched. -/
theorem W8_arg22 : W8 m ρ c (Proc.devRef .tc main_arg22) = m ((c : Thread nD τ).loc main_arg22) :=
  calc W8 m ρ c (Proc.devRef .tc main_arg22)
    _ = W9 m ρ c (Proc.devRef .tc main_arg22) := ((W9_arr m ρ c 3).trans (((dat2 (V8 m ρ) c).arrAt_in 3 rfl _).trans (A_eq2 (V8 m ρ) c 3))).symm
    _ = W10 m ρ c (Proc.devRef .tc main_arg22) := (StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg22) := W10_main_arg22 m ρ c
theorem W8_arg23 : W8 m ρ c (Proc.devRef .tc main_arg23) = m ((c : Thread nD τ).loc main_arg23) :=
  calc W8 m ρ c (Proc.devRef .tc main_arg23)
    _ = W9 m ρ c (Proc.devRef .tc main_arg23) := ((W9_arr m ρ c 4).trans (((dat2 (V8 m ρ) c).arrAt_in 4 rfl _).trans (A_eq2 (V8 m ρ) c 4))).symm
    _ = W10 m ρ c (Proc.devRef .tc main_arg23) := (StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg23) := W10_main_arg23 m ρ c
theorem W8_arg24 : W8 m ρ c (Proc.devRef .tc main_arg24) = m ((c : Thread nD τ).loc main_arg24) :=
  calc W8 m ρ c (Proc.devRef .tc main_arg24)
    _ = W9 m ρ c (Proc.devRef .tc main_arg24) := ((W9_arr m ρ c 5).trans (((dat2 (V8 m ρ) c).arrAt_in 5 rfl _).trans (A_eq2 (V8 m ρ) c 5))).symm
    _ = W10 m ρ c (Proc.devRef .tc main_arg24) := (StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg24) := W10_main_arg24 m ρ c
theorem W8_arg25 : W8 m ρ c (Proc.devRef .tc main_arg25) = m ((c : Thread nD τ).loc main_arg25) :=
  calc W8 m ρ c (Proc.devRef .tc main_arg25)
    _ = W9 m ρ c (Proc.devRef .tc main_arg25) := ((W9_arr m ρ c 6).trans (((dat2 (V8 m ρ) c).arrAt_in 6 rfl _).trans (A_eq2 (V8 m ρ) c 6))).symm
    _ = W10 m ρ c (Proc.devRef .tc main_arg25) := (StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = m ((c : Thread nD τ).loc main_arg25) := W10_main_arg25 m ρ c

/-! ## The third kernel's blocks

The grid has 16 points, one per graph. At point t the kernel reads graph t's 2048 × 128 block of the dense node
features, graph t's mean and reciprocal standard deviation (1 × 1 × 128 blocks), the whole weight and bias vectors and
the whole 128 × 128 weight matrix; it writes rows 524288 + 2048 t … of the edge array and graph t's 1 × 1 × 128 block of
the self loops' sums. -/

/-- The printed index maps, decided over the grid. -/
theorem idx_facts : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ win2_3.index t (0 : Fin 1) = 0 ∧ win2_4.index t (0 : Fin 1) = 0
    ∧ (win2_5.index t (0 : Fin 2) = 0 ∧ win2_5.index t (1 : Fin 2) = 0) ∧ win2_6.index t (0 : Fin 1) = 0
    ∧ (win2_7.index t (0 : Fin 2) = 256 + t.val ∧ win2_7.index t (1 : Fin 2) = 0)
    ∧ (win2_8.index t (0 : Fin 3) = t.val ∧ win2_8.index t (1 : Fin 3) = 0 ∧ win2_8.index t (2 : Fin 3) = 0) :=
  (by decide +kernel : ∀ t : Fin grid2.N, _)

/-- The grid point of graph g. -/
def pt (g : Fin 16) : Fin cfg2.N := ⟨g.val, by have h : grid2.N = 16 := N_2; show g.val < grid2.N; omega⟩

section Blocks
variable (t : Fin cfg2.N) (g : Fin 16)

theorem blk0_apply (hg : g.val = t.val) (r : Fin 2048) (f : Fin 128) :
    ((iblk2 (V8 m ρ) c 0 t) : Vec Ideal S1x2048x128 .f32) (ix3 (0 : Fin 1) r f)
      = (W8 m ρ c (Proc.devRef .tc main_v20) : Vec Ideal S16x2048x128 .f32) (ix3 g r f) := by
  obtain ⟨⟨e0, e1, e2⟩, -⟩ := idx_facts t
  show V8 m ρ c main_v20 (((cfg2.win 0).blk t).view.emb (ix3 (0 : Fin 1) r f)) = _
  refine congrArg _ (funext fun a => Fin.ext ?_)
  match a with
  | ⟨0, _⟩ => show win2_0.index t (0 : Fin 3) * 1 + 1 * (0 : Fin 1).val = g.val; rw [e0]; show t.val * 1 + 1 * 0 = g.val; omega
  | ⟨1, _⟩ => show win2_0.index t (1 : Fin 3) * 2048 + 1 * r.val = r.val; omega
  | ⟨2, _⟩ => show win2_0.index t (2 : Fin 3) * 128 + 1 * f.val = f.val; omega

theorem blk1_apply (hg : g.val = t.val) (f : Fin 128) :
    ((iblk2 (V8 m ρ) c 1 t) : Vec Ideal S1x1x128 .f32) (ix3 (0 : Fin 1) (0 : Fin 1) f)
      = (W8 m ρ c (Proc.devRef .tc main_v40) : Vec Ideal S16x1x128 .f32) (ix3 g (0 : Fin 1) f) := by
  obtain ⟨-, ⟨e0, e1, e2⟩, -⟩ := idx_facts t
  show V8 m ρ c main_v40 (((cfg2.win 1).blk t).view.emb (ix3 (0 : Fin 1) (0 : Fin 1) f)) = _
  refine congrArg _ (funext fun a => Fin.ext ?_)
  match a with
  | ⟨0, _⟩ => show win2_1.index t (0 : Fin 3) * 1 + 1 * (0 : Fin 1).val = g.val; rw [e0]; show t.val * 1 + 1 * 0 = g.val; omega
  | ⟨1, _⟩ => show win2_1.index t (1 : Fin 3) * 1 + 1 * (0 : Fin 1).val = (0 : Fin 1).val; rw [e1]; rfl
  | ⟨2, _⟩ => show win2_1.index t (2 : Fin 3) * 128 + 1 * f.val = f.val; omega

theorem blk2_apply (hg : g.val = t.val) (f : Fin 128) :
    ((iblk2 (V8 m ρ) c 2 t) : Vec Ideal S1x1x128 .f32) (ix3 (0 : Fin 1) (0 : Fin 1) f)
      = (W8 m ρ c (Proc.devRef .tc main_v42) : Vec Ideal S16x1x128 .f32) (ix3 g (0 : Fin 1) f) := by
  obtain ⟨-, -, ⟨e0, e1, e2⟩, -⟩ := idx_facts t
  show V8 m ρ c main_v42 (((cfg2.win 2).blk t).view.emb (ix3 (0 : Fin 1) (0 : Fin 1) f)) = _
  refine congrArg _ (funext fun a => Fin.ext ?_)
  match a with
  | ⟨0, _⟩ => show win2_2.index t (0 : Fin 3) * 1 + 1 * (0 : Fin 1).val = g.val; rw [e0]; show t.val * 1 + 1 * 0 = g.val; omega
  | ⟨1, _⟩ => show win2_2.index t (1 : Fin 3) * 1 + 1 * (0 : Fin 1).val = (0 : Fin 1).val; rw [e1]; rfl
  | ⟨2, _⟩ => show win2_2.index t (2 : Fin 3) * 128 + 1 * f.val = f.val; omega

theorem blk3_apply (f : Fin 128) :
    ((iblk2 (V8 m ρ) c 3 t) : Vec Ideal S128 .f32) (ix1 f) = (W8 m ρ c (Proc.devRef .tc main_arg22) : Vec Ideal S128 .f32) (ix1 f) := by
  obtain ⟨-, -, -, e0, -⟩ := idx_facts t
  show V8 m ρ c main_arg22 (((cfg2.win 3).blk t).view.emb (ix1 f)) = _
  refine congrArg _ (funext fun a => Fin.ext ?_)
  match a with
  | ⟨0, _⟩ => show win2_3.index t (0 : Fin 1) * 128 + 1 * f.val = f.val; omega

theorem blk4_apply (f : Fin 128) :
    ((iblk2 (V8 m ρ) c 4 t) : Vec Ideal S128 .f32) (ix1 f) = (W8 m ρ c (Proc.devRef .tc main_arg23) : Vec Ideal S128 .f32) (ix1 f) := by
  obtain ⟨-, -, -, -, e0, -⟩ := idx_facts t
  show V8 m ρ c main_arg23 (((cfg2.win 4).blk t).view.emb (ix1 f)) = _
  refine congrArg _ (funext fun a => Fin.ext ?_)
  match a with
  | ⟨0, _⟩ => show win2_4.index t (0 : Fin 1) * 128 + 1 * f.val = f.val; omega

theorem blk5_apply (k : Fin 128) (f : Fin 128) :
    ((iblk2 (V8 m ρ) c 5 t) : Vec Ideal S128x128 .f32) (ix2 k f) = (W8 m ρ c (Proc.devRef .tc main_arg24) : Vec Ideal S128x128 .f32) (ix2 k f) := by
  obtain ⟨-, -, -, -, -, ⟨e0, e1⟩, -⟩ := idx_facts t
  show V8 m ρ c main_arg24 (((cfg2.win 5).blk t).view.emb (ix2 k f)) = _
  refine congrArg _ (funext fun a => Fin.ext ?_)
  match a with
  | ⟨0, _⟩ => show win2_5.index t (0 : Fin 2) * 128 + 1 * k.val = k.val; omega
  | ⟨1, _⟩ => show win2_5.index t (1 : Fin 2) * 128 + 1 * f.val = f.val; omega

theorem blk6_apply (f : Fin 128) :
    ((iblk2 (V8 m ρ) c 6 t) : Vec Ideal S128 .f32) (ix1 f) = (W8 m ρ c (Proc.devRef .tc main_arg25) : Vec Ideal S128 .f32) (ix1 f) := by
  obtain ⟨-, -, -, -, -, -, e0, -⟩ := idx_facts t
  show V8 m ρ c main_arg25 (((cfg2.win 6).blk t).view.emb (ix1 f)) = _
  refine congrArg _ (funext fun a => Fin.ext ?_)
  match a with
  | ⟨0, _⟩ => show win2_6.index t (0 : Fin 1) * 128 + 1 * f.val = f.val; omega

end Blocks

/-! ## What a point writes back -/

/-- At point t the first stored value, at (r, f), is the second result at graph t's self-loop row r. -/
theorem pay1_blk (hA : (argsK m c).Ok) (t : Fin cfg2.N) (g : Fin 16) (hg : g.val = t.val) (r : Fin 2048) (f : Fin 128)
    (e : Fin 557056) (hev : e.val = 524288 + g.val * 2048 + r.val) :
    k2_pay1 (iblk2 (V8 m ρ) c 0 t) (iblk2 (V8 m ρ) c 1 t) (iblk2 (V8 m ρ) c 2 t) (iblk2 (V8 m ρ) c 3 t) (iblk2 (V8 m ρ) c 4 t) (ix2 r f) = attr (argsK m c) e f := by
  refine (pay1_apply (iblk2 (V8 m ρ) c 0 t) (iblk2 (V8 m ρ) c 1 t) (iblk2 (V8 m ρ) c 2 t) (iblk2 (V8 m ρ) c 3 t) (iblk2 (V8 m ρ) c 4 t) r f).trans ?_
  refine Eq.trans ?_ (attr_self (argsK m c) g r e hev f).symm
  have h0 : ((iblk2 (V8 m ρ) c 0 t) : Vec Ideal S1x2048x128 .f32) (ix3 (0 : Fin 1) r f) = Cert.Spec.he (argsK m c) (row g r) f :=
    (blk0_apply m ρ c t g hg r f).trans ((congrFun (W8_v20 m ρ c) (ix3 g r f)).trans (W6_he3 m ρ c hA g r f))
  have h1 : ((iblk2 (V8 m ρ) c 1 t) : Vec Ideal S1x1x128 .f32) (ix3 (0 : Fin 1) (0 : Fin 1) f) = gmean gE cntE (avg (argsK m c)) g :=
    (blk1_apply m ρ c t g hg f).trans ((congrFun (W8_v40 m ρ c) (ix3 g (0 : Fin 1) f)).trans (W6_mean m ρ c hA g f))
  have h2 : ((iblk2 (V8 m ρ) c 2 t) : Vec Ideal S1x1x128 .f32) (ix3 (0 : Fin 1) (0 : Fin 1) f)
      = Ideal.rsqrt (gvar gE cntE (avg (argsK m c)) g + eps) :=
    (blk2_apply m ρ c t g hg f).trans ((congrFun (W8_v42 m ρ c) (ix3 g (0 : Fin 1) f)).trans (W6_inv m ρ c hA g f))
  have h3 : ((iblk2 (V8 m ρ) c 3 t) : Vec Ideal S128 .f32) (ix1 f) = (argsK m c).wle (ix1 f) :=
    (blk3_apply m ρ c t f).trans (congrFun (W8_arg22 m ρ c) (ix1 f))
  have h4 : ((iblk2 (V8 m ρ) c 4 t) : Vec Ideal S128 .f32) (ix1 f) = (argsK m c).ble (ix1 f) :=
    (blk4_apply m ρ c t f).trans (congrFun (W8_arg23 m ρ c) (ix1 f))
  exact congrArg₂ (· + ·) (congrArg₂ (· * ·) (congrArg₂ (· * ·) (congrArg₂ (· - ·) h0 h1) h2) h3) h4

/-- The second result as an array. -/
def G7 : Vec Ideal S557056x128 .f32 :=
  fun i => attr (argsK m c) ⟨(i 0).val, idx2_lt0 i⟩ ⟨(i 1).val, idx2_lt1 i⟩

/-- Each graph's sum of the global dense layer over its self loops, as an array. -/
def G8 : Vec Ideal S16x1x128 .f32 :=
  fun i => ∑ r : Fin 2048, gact (argsK m c)
    ⟨524288 + (i 0).val * 2048 + r.val, by have h : (i 0).val < 16 := (i 0).isLt; have := r.isLt; omega⟩
    ⟨(i 2).val, (i 2).isLt⟩

/-- Point t writes back its block of the second result. -/
theorem flushed7_eq (hA : (argsK m c).Ok) (t : Fin cfg2.N) :
    (dat2 (V8 m ρ) c).flushed 7 t = ((cfg2.win 7).blk t).view.read (Elt Ideal) (G7 m c) := by
  show (cfg2.win 7).cut (grid2.coords t) ((dat2 (V8 m ρ) c).after 7 t) = _
  rw [after2_7]
  unfold outsAt2
  dsimp only
  rw [out7_eq]
  have hN : cfg2.N = 16 := N_2
  have ht : t.val < 16 := by have := t.isLt; omega
  obtain ⟨-, -, -, -, -, -, -, ⟨e0, e1⟩, -⟩ := idx_facts t
  funext j
  obtain ⟨r, f, rfl⟩ : ∃ (r : Fin 2048) (f : Fin 128), j = ix2 r f := ⟨j 0, j 1, eq_ix2 j⟩
  show k2_pay1 (iblk2 (V8 m ρ) c 0 t) (iblk2 (V8 m ρ) c 1 t) (iblk2 (V8 m ρ) c 2 t) (iblk2 (V8 m ρ) c 3 t) (iblk2 (V8 m ρ) c 4 t) (ix2 r f)
    = G7 m c (((cfg2.win 7).blk t).view.emb (ix2 r f))
  unfold G7
  have hf : (⟨((((cfg2.win 7).blk t).view.emb (ix2 r f)) 1).val, idx2_lt1 _⟩ : Fin 128) = f :=
    Fin.ext (by show win2_7.index t (1 : Fin 2) * 128 + 1 * f.val = f.val; omega)
  rw [hf]
  exact pay1_blk m ρ c hA t ⟨t.val, ht⟩ rfl r f _
    (by show win2_7.index t (0 : Fin 2) * 2048 + 1 * r.val = 524288 + t.val * 2048 + r.val; omega)

/-- Point t writes back graph t's sum over its self loops. -/
theorem flushed8_eq (hA : (argsK m c).Ok) (t : Fin cfg2.N) :
    (dat2 (V8 m ρ) c).flushed 8 t = ((cfg2.win 8).blk t).view.read (Elt Ideal) (G8 m c) := by
  show (cfg2.win 8).cut (grid2.coords t) ((dat2 (V8 m ρ) c).after 8 t) = _
  rw [after2_8]
  unfold outsAt2
  dsimp only
  rw [out8_eq]
  have hN : cfg2.N = 16 := N_2
  have ht : t.val < 16 := by have := t.isLt; omega
  obtain ⟨-, -, -, -, -, -, -, -, ⟨e0, e1, e2⟩⟩ := idx_facts t
  funext j
  obtain ⟨u, v, f, rfl⟩ : ∃ (u : Fin 1) (v : Fin 1) (f : Fin 128), j = ix3 u v f := ⟨j 0, j 1, j 2, eq_ix3 j⟩
  obtain rfl : u = 0 := Subsingleton.elim _ _
  obtain rfl : v = 0 := Subsingleton.elim _ _
  show k2_pay2 (iblk2 (V8 m ρ) c 0 t) (iblk2 (V8 m ρ) c 1 t) (iblk2 (V8 m ρ) c 2 t) (iblk2 (V8 m ρ) c 3 t) (iblk2 (V8 m ρ) c 4 t) (iblk2 (V8 m ρ) c 5 t) (iblk2 (V8 m ρ) c 6 t) (ix3 (0 : Fin 1) (0 : Fin 1) f)
    = G8 m c (((cfg2.win 8).blk t).view.emb (ix3 (0 : Fin 1) (0 : Fin 1) f))
  refine (pay2_apply (iblk2 (V8 m ρ) c 0 t) (iblk2 (V8 m ρ) c 1 t) (iblk2 (V8 m ρ) c 2 t) (iblk2 (V8 m ρ) c 3 t) (iblk2 (V8 m ρ) c 4 t) (iblk2 (V8 m ρ) c 5 t) (iblk2 (V8 m ρ) c 6 t) f).trans ?_
  unfold G8
  have hf : (⟨((((cfg2.win 8).blk t).view.emb (ix3 (0 : Fin 1) (0 : Fin 1) f)) 2).val, (_ : Fin 128).isLt⟩ : Fin 128) = f :=
    Fin.ext (by show win2_8.index t (2 : Fin 3) * 128 + 1 * f.val = f.val; omega)
  rw [hf]
  refine Finset.sum_congr rfl fun r _ => ?_
  refine Eq.trans ?_ (gact_eq (argsK m c) _ f).symm
  have h6 : ((iblk2 (V8 m ρ) c 6 t) : Vec Ideal S128 .f32) (ix1 f) = (argsK m c).bg (ix1 f) :=
    (blk6_apply m ρ c t f).trans (congrFun (W8_arg25 m ρ c) (ix1 f))
  refine congrArg₂ max (congrArg₂ (· + ·) (Finset.sum_congr rfl fun k _ => congrArg₂ (· * ·) ?_ ?_) h6) rfl
  · exact pay1_blk m ρ c hA t ⟨t.val, ht⟩ rfl r k _
      (by show 524288 + (win2_8.index t (0 : Fin 3) * 1 + 1 * (0 : Fin 1).val) * 2048 + r.val = 524288 + t.val * 2048 + r.val
          rw [e0]; show 524288 + (t.val * 1 + 1 * 0) * 2048 + r.val = _; omega)
  · exact (blk5_apply m ρ c t k f).trans (congrFun (W8_arg24 m ρ c) (ix2 k f))

/-! ## From the blocks to the arrays -/

/-- An index of the edge array is in point t's block iff each coordinate is in the block's range on its axis. -/
theorem mem_blk7 (t : Fin cfg2.N) (i : S557056x128.Idx) :
    i ∈ ((cfg2.win 7).blk t).view.set ↔ ∀ a : Fin 2, win2_7.index t a * S2048x128.size a ≤ (i a).val
      ∧ (i a).val < win2_7.index t a * S2048x128.size a + S2048x128.size a := by
  show i ∈ ((View.whole main_v44_0).slice (win2_7.rect t)).set ↔ _
  rw [View.set_slice_whole, Rect.mem_set_unit]
  exact Iff.rfl

/-- The same for the array of the self loops' sums. -/
theorem mem_blk8 (t : Fin cfg2.N) (i : S16x1x128.Idx) :
    i ∈ ((cfg2.win 8).blk t).view.set ↔ ∀ a : Fin 3, win2_8.index t a * S1x1x128.size a ≤ (i a).val
      ∧ (i a).val < win2_8.index t a * S1x1x128.size a + S1x1x128.size a := by
  show i ∈ ((View.whole main_v44_1).slice (win2_8.rect t)).set ↔ _
  rw [View.set_slice_whole, Rect.mem_set_unit]
  exact Iff.rfl

end Edge2

theorem W9_attr (hA : (argsK m c).Ok) (e : Fin 557056) (f : Fin 128) :
    (W9 m ρ c (Proc.devRef .tc main_v44_0) : Vec Ideal S557056x128 .f32) (ix2 e f) = attr (argsK m c) e f := by
  refine (congrFun (W9_arr m ρ c 7) (ix2 e f)).trans ?_
  rw [(dat2 (V8 m ρ) c).arrAt_eq_piecewise 7 _ (fun t _ => flushed7_eq m ρ c hA t) (ix2 e f)]
  split
  · rfl
  · rename_i hno
    by_cases hlt : e.val < 524288
    · -- below the self loops no point writes: the row is the second kernel's, copied in before the third kernel
      refine (congrFun (A_eq2 (V8 m ρ) c 7) (ix2 e f)).trans ?_
      show (W8 m ρ c (Proc.devRef .tc main_v44_0) : Vec Ideal S557056x128 .f32) (ix2 e f) = _
      refine (congrFun (W8_v44_0 m ρ c) (ix2 e f)).trans ?_
      exact W7_attr m ρ c hA ⟨e.val, hlt⟩ f
    · -- a self-loop row lies in the block of its graph's point
      exfalso
      apply hno
      have he := e.isLt
      have hq : (e.val - 524288) / 2048 < 16 := by omega
      obtain ⟨-, -, -, -, -, -, -, ⟨e0, e1⟩, -⟩ := idx_facts (pt ⟨(e.val - 524288) / 2048, hq⟩)
      have hp : (pt ⟨(e.val - 524288) / 2048, hq⟩).val = (e.val - 524288) / 2048 := rfl
      refine ⟨pt ⟨(e.val - 524288) / 2048, hq⟩, flush2_7 _, ?_⟩
      rw [mem_blk7]
      intro a
      match a with
      | ⟨0, _⟩ =>
        show win2_7.index (pt ⟨(e.val - 524288) / 2048, hq⟩) (0 : Fin 2) * 2048 ≤ e.val
          ∧ e.val < win2_7.index (pt ⟨(e.val - 524288) / 2048, hq⟩) (0 : Fin 2) * 2048 + 2048
        rw [e0, hp]; omega
      | ⟨1, _⟩ =>
        show win2_7.index (pt ⟨(e.val - 524288) / 2048, hq⟩) (1 : Fin 2) * 128 ≤ f.val
          ∧ f.val < win2_7.index (pt ⟨(e.val - 524288) / 2048, hq⟩) (1 : Fin 2) * 128 + 128
        rw [e1]; have := f.isLt; omega
theorem W9_pool_self (hA : (argsK m c).Ok) (g : Fin 16) (f : Fin 128) :
    (W9 m ρ c (Proc.devRef .tc main_v44_1) : Vec Ideal S16x1x128 .f32) (ix3 g (0 : Fin 1) f)
      = ∑ r : Fin 2048, gact (argsK m c) ⟨524288 + g.val * 2048 + r.val, by omega⟩ f := by
  refine (congrFun (W9_arr m ρ c 8) (ix3 g (0 : Fin 1) f)).trans ?_
  obtain ⟨-, -, -, -, -, -, -, -, ⟨e0, e1, e2⟩⟩ := idx_facts (pt g)
  have hp : (pt g).val = g.val := rfl
  refine ((dat2 (V8 m ρ) c).arrAt_apply_of_mem 8 (G8 m c) (fun t _ => flushed8_eq m ρ c hA t) cfg2.N (pt g)
    (ix3 g (0 : Fin 1) f) (pt g).isLt (flush2_8 _) ?_).trans ?_
  · rw [mem_blk8]
    intro a
    match a with
    | ⟨0, _⟩ =>
      show win2_8.index (pt g) (0 : Fin 3) * 1 ≤ g.val ∧ g.val < win2_8.index (pt g) (0 : Fin 3) * 1 + 1
      rw [e0, hp]; omega
    | ⟨1, _⟩ =>
      show win2_8.index (pt g) (1 : Fin 3) * 1 ≤ (0 : Fin 1).val ∧ (0 : Fin 1).val < win2_8.index (pt g) (1 : Fin 3) * 1 + 1
      rw [e1]; show 0 * 1 ≤ 0 ∧ 0 < 0 * 1 + 1; omega
    | ⟨2, _⟩ =>
      show win2_8.index (pt g) (2 : Fin 3) * 128 ≤ f.val ∧ f.val < win2_8.index (pt g) (2 : Fin 3) * 128 + 128
      rw [e2]; have := f.isLt; omega
  · rfl
theorem W9_pool_reg (hA : (argsK m c).Ok) (g : Fin 16) (f : Fin 128) :
    (W9 m ρ c (Proc.devRef .tc main_v43_1) : Vec Ideal S16x1x128 .f32) (ix3 g (0 : Fin 1) f)
      = ∑ r : Fin 32768, gact (argsK m c) ⟨g.val * 32768 + r.val, by omega⟩ f := by
  have e : W9 m ρ c (Proc.devRef .tc main_v43_1) = W7 m ρ c (Proc.devRef .tc main_v43_1) :=
    (W9_of_ne m ρ c main_v43_1 (by decide)).trans (W8_of_ne m ρ c main_v43_1 (by decide))
  exact (congrFun e (ix3 g (0 : Fin 1) f)).trans (W7_pool m ρ c hA g f)

end Cert.KVal

end
-- ==== Proof.KTail.lean ====
/-
  At the end of the kernel's program: the three results.
-/
import proofs.«402160_j53730040873195_3_alg».proof.Proof.RunVals
import proofs.«402160_j53730040873195_3_alg».proof.Proof.KArgs
import proofs.«402160_j53730040873195_3_alg».proof.Proof.BlockSpec
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.LibPlainDot
import proofs.«402160_j53730040873195_3_alg».proof.Proof.LibHostIdx2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«402160_j53730040873195_3_alg».proof.Proof.KEdge2

set_option maxRecDepth 16384

noncomputable section

namespace Cert.KVal

open Cert.KernelIdeal Cert.KernelIdeal.Gen Cert.Spec Cert.KArgs Idealize.ShloMosaic Idealize.ShloMosaic.ValueIdx Idealize.ShloMosaic.TcCoe Idealize.SL.Sem

/-! ## The tail's layout operations read at an index -/

/-- A 16 × 1 × 128 array viewed as 16 × 128 keeps its rows and columns. -/
private theorem cast_mid_apply (x : S16x1x128.Idx → EReal) (h : S16x1x128.ShapeCasts S16x128) (g : Fin 16) (f : Fin 128) :
    shapeCast S16x128 x h (ix2 g f) = x (ix3 g (0 : Fin 1) f) :=
  shapeCast_apply x h _ _ (by
    rw [Shape.rowMajor_val_three, Shape.rowMajor_val_two]
    show (g.val * 1 + 0) * 128 + f.val = g.val * 128 + f.val
    omega)

/-- A scalar broadcast to any shape reads the scalar. -/
private theorem bcast_scalar_apply {T : Shape} (h : S_.BroadcastsInDim T (![] : Fin 0 → Fin T.rank)) (x : S_.Idx → EReal) (j : T.Idx) :
    broadcastInDim T ![] h x j = x ix0 :=
  broadcastInDim_apply _ h x j ix0 (fun a => a.elim0)

/-- A vector of 16 entries as a column. -/
private theorem bcast_col_apply (h : S16.BroadcastsInDim S16x1 (![0] : Fin 1 → Fin S16x1.rank)) (x : S16.Idx → EReal)
    (g : Fin 16) (z : Fin 1) : broadcastInDim S16x1 ![0] h x (ix2 g z) = x (ix1 g) :=
  broadcastInDim_apply _ h x _ (ix1 g) (fun a => match a with | ⟨0, _⟩ => rfl)

/-- A column copied along the 128 features. -/
private theorem bcast_row_apply (h : S16x1.BroadcastsInDim S16x128 (![0, 1] : Fin 2 → Fin S16x128.rank)) (x : S16x1.Idx → EReal)
    (g : Fin 16) (f : Fin 128) : broadcastInDim S16x128 ![0, 1] h x (ix2 g f) = x (ix2 g (0 : Fin 1)) :=
  broadcastInDim_apply _ h x _ (ix2 g (0 : Fin 1)) (fun a => match a with | ⟨0, _⟩ => rfl | ⟨1, _⟩ => rfl)

/-- A vector of 128 entries as a row. -/
private theorem bcast_vec_apply (h : S128.BroadcastsInDim S1x128 (![1] : Fin 1 → Fin S1x128.rank)) (x : S128.Idx → EReal)
    (z : Fin 1) (f : Fin 128) : broadcastInDim S1x128 ![1] h x (ix2 z f) = x (ix1 f) :=
  broadcastInDim_apply _ h x _ (ix1 f) (fun a => match a with | ⟨0, _⟩ => rfl)

/-- A row copied down the 16 graphs. -/
private theorem bcast_down_apply (h : S1x128.BroadcastsInDim S16x128 (![0, 1] : Fin 2 → Fin S16x128.rank)) (x : S1x128.Idx → EReal)
    (g : Fin 16) (f : Fin 128) : broadcastInDim S16x128 ![0, 1] h x (ix2 g f) = x (ix2 (0 : Fin 1) f) :=
  broadcastInDim_apply _ h x _ (ix2 (0 : Fin 1) f) (fun a => match a with | ⟨0, _⟩ => rfl | ⟨1, _⟩ => rfl)

/-- The sum over the 128 features of one graph's row, from the initial value. -/
private theorem rowsum_apply (x : S16x128.Idx → EReal) (c0 : S_.Idx → EReal) (hr : S16x128.ReducesTo [1] S16)
    (hu : 0 < S_.numel) (g : Fin 16) :
    Host.reduceAdd (F := Ideal) (φ := .f32) x c0 hr hu (ix1 g) = c0 ix0 + ∑ k : Fin 128, x (ix2 g k) := by
  have hR : S16x128.Reduces [1] S16 := by decide
  refine (Ideal.hostReduceAdd_single hr hR x (c0 (Shape.Idx.first hu)) (ix1 g)).trans ?_
  show c0 (Shape.Idx.first hu) + ∑ k : Fin 128, x (hR.lift (ix1 g) k) = _
  rw [show Shape.Idx.first hu = ix0 from funext fun a => a.elim0]
  refine congrArg (c0 ix0 + ·) (Finset.sum_congr rfl fun k _ => congrArg x ?_)
  funext a
  match a with
  | ⟨0, _⟩ => rfl
  | ⟨1, _⟩ => rfl

/-! ## The tail's arithmetic -/

/-- A sum over the graphs equal to g is the term at g. -/
private theorem sum_filter_self {M : Type} [AddCommMonoid M] (v : Fin 16 → M) (g : Fin 16) :
    ∑ n ∈ Finset.univ.filter (fun n : Fin 16 => n = g), v n = v g := by
  rw [Finset.filter_eq' Finset.univ g, if_pos (Finset.mem_univ g), Finset.sum_singleton]

/-- The pooled average: the two partial sums added and divided by the 34816 rows of a graph. -/
private theorem pool_apply (pr ps : S16x1x128.Idx → EReal) (hcs : S16x1x128.ShapeCasts S16x128)
    (hs : S_.BroadcastsInDim S16x128 (![] : Fin 0 → Fin S16x128.rank)) (g : Fin 16) (f : Fin 128) :
    Host.divf (F := Ideal) (φ := .f32)
        (addf (fun i => shapeCast S16x128 pr hcs i) (fun i => shapeCast S16x128 ps hcs i))
        (broadcastInDim S16x128 ![] hs (constant (F := Ideal) S_ .f32 0x47080000#32)) (ix2 g f)
      = Ideal.div (pr (ix3 g (0 : Fin 1) f) + ps (ix3 g (0 : Fin 1) f)) cntP := by
  show Ideal.div (shapeCast S16x128 pr hcs (ix2 g f) + shapeCast S16x128 ps hcs (ix2 g f))
      (broadcastInDim S16x128 ![] hs (constant (F := Ideal) S_ .f32 0x47080000#32) (ix2 g f)) = _
  rw [cast_mid_apply, cast_mid_apply, bcast_scalar_apply, constant_apply, Cert.LibReal.ofBits_34816]

/-- The layer norm of each graph's 128 pooled values by themselves, as the tail spells it. -/
private theorem ln_apply (P : S16x128.Idx → EReal) (w b : S128.Idx → EReal)
    (hs1 : S_.BroadcastsInDim S16x1 (![] : Fin 0 → Fin S16x1.rank))
    (hr : S16x128.ReducesTo [1] S16) (hu : 0 < S_.numel)
    (hc : S16.BroadcastsInDim S16x1 (![0] : Fin 1 → Fin S16x1.rank))
    (hrow : S16x1.BroadcastsInDim S16x128 (![0, 1] : Fin 2 → Fin S16x128.rank))
    (hw : S128.BroadcastsInDim S1x128 (![1] : Fin 1 → Fin S1x128.rank))
    (hwr : S1x128.BroadcastsInDim S16x128 (![0, 1] : Fin 2 → Fin S16x128.rank))
    (g : Fin 16) (f : Fin 128) :
    (addf (mulf (mulf (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (broadcastInDim S16x128 ![0, 1] hrow (Host.rsqrt (F := Ideal) (addf (Host.divf (F := Ideal) (broadcastInDim S16x1 ![0] hc (Host.reduceAdd (F := Ideal) (mulf (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32)))))) (constant (F := Ideal) S_ .f32 0x00000000#32) hr hu)) (broadcastInDim S16x1 ![] hs1 (constant (F := Ideal) S_ .f32 0x43000000#32))) (broadcastInDim S16x1 ![] hs1 (constant (F := Ideal) S_ .f32 0x3727C5AC#32)))))) (broadcastInDim S16x128 ![0, 1] hwr (broadcastInDim S1x128 ![1] hw w))) (broadcastInDim S16x128 ![0, 1] hwr (broadcastInDim S1x128 ![1] hw b)) : FVec Ideal S16x128 .f32) (ix2 g f)
      = gln (fun g : Fin 16 => g) cntG (fun g f => P (ix2 g f)) (fun f => w (ix1 f)) (fun f => b (ix1 f)) g f := by
  have hM : ∀ z : Fin 1, (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))) (ix2 g z) = gmean (fun g : Fin 16 => g) cntG (fun g f => P (ix2 g f)) g := fun z => by
    show Ideal.div (broadcastInDim S16x1 ![0] hc (Host.reduceAdd (F := Ideal) P (constant (F := Ideal) S_ .f32 0x00000000#32) hr hu) (ix2 g z))
        (broadcastInDim S16x1 ![] hs1 (constant (F := Ideal) S_ .f32 0x43000000#32) (ix2 g z)) = _
    rw [bcast_col_apply, bcast_scalar_apply, rowsum_apply, constant_apply, constant_apply, Cert.LibReal.ofBits_128,
      Cert.LibReal.ofBits_zero, zero_add]
    unfold gmean
    rw [sum_filter_self]
  have hC : ∀ k : Fin 128, (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (ix2 g k) = gcen (fun g : Fin 16 => g) cntG (fun g f => P (ix2 g f)) g k := fun k => by
    show P (ix2 g k) - broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))) (ix2 g k) = _
    rw [bcast_row_apply, hM]
    rfl
  have hV : ∀ z : Fin 1, (Host.divf (F := Ideal) (broadcastInDim S16x1 ![0] hc (Host.reduceAdd (F := Ideal) (mulf (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32)))))) (constant (F := Ideal) S_ .f32 0x00000000#32) hr hu)) (broadcastInDim S16x1 ![] hs1 (constant (F := Ideal) S_ .f32 0x43000000#32))) (ix2 g z) = gvar (fun g : Fin 16 => g) cntG (fun g f => P (ix2 g f)) g := fun z => by
    show Ideal.div (broadcastInDim S16x1 ![0] hc (Host.reduceAdd (F := Ideal) (mulf (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32)))))) (constant (F := Ideal) S_ .f32 0x00000000#32) hr hu) (ix2 g z))
        (broadcastInDim S16x1 ![] hs1 (constant (F := Ideal) S_ .f32 0x43000000#32) (ix2 g z)) = _
    rw [bcast_col_apply, bcast_scalar_apply, rowsum_apply, constant_apply, constant_apply, Cert.LibReal.ofBits_128,
      Cert.LibReal.ofBits_zero, zero_add]
    unfold gvar
    rw [sum_filter_self]
    refine congrArg (Ideal.div · cntG) (Finset.sum_congr rfl fun k _ => ?_)
    show (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (ix2 g k) * (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (ix2 g k) = _
    rw [hC k]
  show (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (ix2 g f) * broadcastInDim S16x128 ![0, 1] hrow (Host.rsqrt (F := Ideal) (addf (Host.divf (F := Ideal) (broadcastInDim S16x1 ![0] hc (Host.reduceAdd (F := Ideal) (mulf (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32)))))) (constant (F := Ideal) S_ .f32 0x00000000#32) hr hu)) (broadcastInDim S16x1 ![] hs1 (constant (F := Ideal) S_ .f32 0x43000000#32))) (broadcastInDim S16x1 ![] hs1 (constant (F := Ideal) S_ .f32 0x3727C5AC#32)))) (ix2 g f)
        * broadcastInDim S16x128 ![0, 1] hwr (broadcastInDim S1x128 ![1] hw w) (ix2 g f)
      + broadcastInDim S16x128 ![0, 1] hwr (broadcastInDim S1x128 ![1] hw b) (ix2 g f) = _
  rw [hC f, bcast_row_apply, bcast_down_apply, bcast_vec_apply, bcast_down_apply, bcast_vec_apply]
  show gcen (fun g : Fin 16 => g) cntG (fun g f => P (ix2 g f)) g f
        * Ideal.rsqrt ((Host.divf (F := Ideal) (broadcastInDim S16x1 ![0] hc (Host.reduceAdd (F := Ideal) (mulf (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32))))) (subf P (broadcastInDim S16x128 ![0, 1] hrow (Host.divf (F := Ideal) (broadcastInDim S16x1 ![0] hc (Host.reduceAdd (F := Ideal) P (constant (F := Ideal) S_ .f32 0x00000000#32) hr hu)) (broadcastInDim S16x1 ![] hs1 (constant (F := Ideal) S_ .f32 0x43000000#32)))))) (constant (F := Ideal) S_ .f32 0x00000000#32) hr hu)) (broadcastInDim S16x1 ![] hs1 (constant (F := Ideal) S_ .f32 0x43000000#32))) (ix2 g (0 : Fin 1)) + broadcastInDim S16x1 ![] hs1 (constant (F := Ideal) S_ .f32 0x3727C5AC#32) (ix2 g (0 : Fin 1)))
        * w (ix1 f) + b (ix1 f) = _
  rw [hV, bcast_scalar_apply, constant_apply]
  rfl

/-- An entry of a 16 × 1 × 128 array of partial sums. -/
private abbrev rd3 (x : S16x1x128.Idx → EReal) (g : Fin 16) (f : Fin 128) : EReal := x (ix3 g (0 : Fin 1) f)

/-- The whole tail read at one entry of its last array, over any contents at its start: the layer norm of the pooled
    averages, themselves the two arrays of partial sums added and divided by the row count. -/
private theorem tail_apply (V : Valuation τ sig (Elt Ideal)) (g : Fin 16) (f : Fin 128) :
    (StableHlo.after hostOps3 V (Proc.devRef .tc main_v73) : Vec Ideal S16x128 .f32) (ix2 g f)
      = gln (fun g : Fin 16 => g) cntG
          (fun g f => Ideal.div (rd3 (V (Proc.devRef .tc main_v43_1)) g f + rd3 (V (Proc.devRef .tc main_v44_1)) g f) cntP)
          (fun f => (V (Proc.devRef .tc main_arg26) : Vec Ideal S128 .f32) (ix1 f))
          (fun f => (V (Proc.devRef .tc main_arg27) : Vec Ideal S128 .f32) (ix1 f)) g f := by
  after_results_simp
  refine (ln_apply _ _ _ bcast_S_S16x1 reducesTo_S16x128_S16_d1 h_S_ bcast_S16_S16x1_0 bcast_S16x1_S16x128_0_1
    bcast_S128_S1x128_1 bcast_S1x128_S16x128_0_1 g f).trans ?_
  exact congrArg (fun X => gln (fun g : Fin 16 => g) cntG X _ _ g f)
    (funext fun g' => funext fun f' => pool_apply _ _ shapeCasts_S16x1x128_S16x128 bcast_S_S16x128 g' f')

variable (m : (ℓ : Loc nD τ sig) → Buf (Elt Ideal) ℓ) (ρ : Dev nD → PrngReg) (c : Dev nD)

/-! ## What the tail leaves alone -/

/-- The tail writes neither the node array, -/
private theorem W10_keep_h : W10 m ρ c (Proc.devRef .tc main_v10_0) = W9 m ρ c (Proc.devRef .tc main_v10_0) :=
  StableHlo.after_of_forall_not_mem (b := Proc.devRef .tc main_v10_0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- nor the edge array, -/
private theorem W10_keep_attr : W10 m ρ c (Proc.devRef .tc main_v44_0) = W9 m ρ c (Proc.devRef .tc main_v44_0) :=
  StableHlo.after_of_forall_not_mem (b := Proc.devRef .tc main_v44_0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- nor the last layer norm's weights -/
private theorem W10_keep_wlg : W10 m ρ c (Proc.devRef .tc main_arg26) = W9 m ρ c (Proc.devRef .tc main_arg26) :=
  StableHlo.after_of_forall_not_mem (b := Proc.devRef .tc main_arg26) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
/-- and biases. -/
private theorem W10_keep_blg : W10 m ρ c (Proc.devRef .tc main_arg27) = W9 m ρ c (Proc.devRef .tc main_arg27) :=
  StableHlo.after_of_forall_not_mem (b := Proc.devRef .tc main_arg27) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The node array is the first kernel's output: neither of the later kernels has it among its arrays, and no host
    operation after the first kernel writes it. -/
private theorem W9_keep_h : W9 m ρ c (Proc.devRef .tc main_v10_0) = W2 m ρ c (Proc.devRef .tc main_v10_0) :=
  calc W9 m ρ c (Proc.devRef .tc main_v10_0)
    _ = W8 m ρ c (Proc.devRef .tc main_v10_0) := W9_of_ne m ρ c main_v10_0 (by decide)
    _ = W7 m ρ c (Proc.devRef .tc main_v10_0) := StableHlo.after_of_forall_not_mem (b := Proc.devRef .tc main_v10_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_v10_0) := W7_of_ne m ρ c main_v10_0 (by decide)
    _ = W5 m ρ c (Proc.devRef .tc main_v10_0) := StableHlo.after_of_forall_not_mem (b := Proc.devRef .tc main_v10_0) _ _ (List.forall_iff_forall_mem.mp (by
      simp only [hostOps1_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v10_0) := StableHlo.after_of_forall_not_mem (b := Proc.devRef .tc main_v10_0) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v10_0) := StableHlo.after_of_forall_not_mem (b := Proc.devRef .tc main_v10_0) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v10_0) := StableHlo.after_of_forall_not_mem (b := Proc.devRef .tc main_v10_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The first result is the node array the first kernel wrote: nothing after it touches that array. -/
theorem W10_h (hA : (argsK m c).Ok) (n : Fin 32768) (f : Fin 768) :
    (W10 m ρ c (Proc.devRef .tc main_v10_0) : Vec Ideal S32768x768 .f32) (ix2 n f) = h (argsK m c) n f := by
  rw [W10_keep_h m ρ c, W9_keep_h m ρ c]
  exact W2_h m ρ c hA n f
/-- The second result is the edge array as the third kernel leaves it: the tail does not write it. -/
theorem W10_attr (hA : (argsK m c).Ok) (e : Fin 557056) (f : Fin 128) :
    (W10 m ρ c (Proc.devRef .tc main_v44_0) : Vec Ideal S557056x128 .f32) (ix2 e f) = attr (argsK m c) e f := by
  rw [W10_keep_attr m ρ c]
  exact W9_attr m ρ c hA e f
/-- The third result: the tail's layer norm of the pooled averages; a graph's edges and its self loops together are all
    its 34816 edge rows, so the two partial sums added are the sum the average is taken of. -/
theorem W10_u (hA : (argsK m c).Ok) (g : Fin 16) (f : Fin 128) :
    (W10 m ρ c (Proc.devRef .tc main_v73) : Vec Ideal S16x128 .f32) (ix2 g f) = u (argsK m c) g f := by
  refine (tail_apply (W9 m ρ c) g f).trans ?_
  have hw : W9 m ρ c (Proc.devRef .tc main_arg26) = m ((c : Thread nD τ).loc main_arg26) :=
    (W10_keep_wlg m ρ c).symm.trans (W10_main_arg26 m ρ c)
  have hb : W9 m ρ c (Proc.devRef .tc main_arg27) = m ((c : Thread nD τ).loc main_arg27) :=
    (W10_keep_blg m ρ c).symm.trans (W10_main_arg27 m ρ c)
  have hP : (fun (g : Fin 16) (f : Fin 128) =>
      Ideal.div (rd3 (W9 m ρ c (Proc.devRef .tc main_v43_1)) g f + rd3 (W9 m ρ c (Proc.devRef .tc main_v44_1)) g f) cntP)
      = pooled (argsK m c) := funext fun g' => funext fun f' => by
    unfold pooled
    rw [Cert.LibSeg.sum_filter_gE]
    exact congrArg₂ (fun a b : EReal => Ideal.div (a + b) cntP) (W9_pool_reg m ρ c hA g' f') (W9_pool_self m ρ c hA g' f')
  rw [hP, hw, hb]
  rfl

end Cert.KVal

end
-- ==== Proof.RefStages.lean ====
/-
  The reference's stages, named over the specification's argument record: stage N is the value of the reference's
  N-th operation as a function of the arguments it depends on.
-/
import proofs.«402160_j53730040873195_3_alg».proof.Proof.RefRead
import proofs.«402160_j53730040873195_3_alg».proof.Proof.Spec

noncomputable section

namespace Cert.RefVal

open Cert.ReferenceIdeal Cert.ReferenceIdeal.Read Cert.Spec Idealize.ShloMosaic

/-- The graph id of each node; of each edge row; the source and the target node of each edge row (self loops included). -/
def R2 := val_main_v2 (F := Ideal)
def R6 := val_main_v6 (F := Ideal)
def R10 (A : Args) := val_main_v10 (F := Ideal) A.ei
def R14 (A : Args) := val_main_v14 (F := Ideal) A.ei
def R60 (A : Args) := val_main_v60 (F := Ideal) A.x A.wc A.bc
def R85 (A : Args) := val_main_v85 (F := Ideal) A.x A.W1 A.b1 A.W2 A.b2 A.W3 A.b3 A.W4 A.b4 A.Wd A.bd A.wc A.bc
def R102 (A : Args) := val_main_v102 (F := Ideal) A.atom A.aa A.atomEmb A.aaEmb
def R103 (A : Args) := val_main_v103 (F := Ideal) A.x A.atom A.aa A.W1 A.b1 A.W2 A.b2 A.W3 A.b3 A.W4 A.b4 A.Wd A.bd A.atomEmb A.aaEmb A.wc A.bc
def R149 (A : Args) := val_main_v149 (F := Ideal) A.x A.atom A.aa A.W1 A.b1 A.W2 A.b2 A.W3 A.b3 A.W4 A.b4 A.Wd A.bd A.atomEmb A.aaEmb A.wc A.bc A.wn A.bn
def R154 (A : Args) := val_main_v154 (F := Ideal) A.x A.atom A.aa A.W1 A.b1 A.W2 A.b2 A.W3 A.b3 A.W4 A.b4 A.Wd A.bd A.atomEmb A.aaEmb A.wc A.bc A.wn A.bn A.We A.be
def R171 (A : Args) := val_main_v171 (F := Ideal) A.x A.atom A.aa A.ei A.W1 A.b1 A.W2 A.b2 A.W3 A.b3 A.W4 A.b4 A.Wd A.bd A.atomEmb A.aaEmb A.wc A.bc A.wn A.bn A.We A.be
def R217 (A : Args) := val_main_v217 (F := Ideal) A.x A.atom A.aa A.ei A.W1 A.b1 A.W2 A.b2 A.W3 A.b3 A.W4 A.b4 A.Wd A.bd A.atomEmb A.aaEmb A.wc A.bc A.wn A.bn A.We A.be A.wle A.ble
def R222 (A : Args) := val_main_v222 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg
def R232 (A : Args) := val_main_v232 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg
def R279 (A : Args) := val_main_v279 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg A.wlg A.blg

end Cert.RefVal

end
-- ==== Proof.LibHostIdx.lean ====
/-
  Host integer operations read at an index: the running sum, the sum over an axis, and the take at a
  column of start indices.

  * A `reduce_window` with the word addition whose window is a whole axis, padded low by the axis' length less one and
    started from zero, is the INCLUSIVE RUNNING SUM along that axis: at position `i` the sum of the entries at positions
    `i' ≤ i` (`reduceWindow_cumsum_rows` along axis 0 of a rank-2 array, `reduceWindow_cumsum` for a rank-1 array); if
    the entries are the words of natural numbers, it is the word of their sum (`…_ofNat`).
  * A `reduce` with the word addition from zero over axis 1 of a rank-2 array is, at row `r`, the sum of row `r`
    (`reduce_add_cols`); over the one axis of a rank-1 array it is the sum of all entries (`reduce_add_all`).
  * A gather from a rank-1 operand whose start indices are an `[R, 1]` column, the operand's axis collapsed and
    start-indexed, reads at `r` the operand at the start index of `r` read signed and clamped into the operand
    (`gather_take_ix`).
-/
import Idealize.ShloMosaic.PureOps.Reduce
import Idealize.ShloMosaic.Lib.ValueIdx
import Idealize.ShloMosaic.Lib.ValueIdxRank1
import Idealize.ShloMosaic.Lib.StableHlo.Predicate
import Mathlib.Data.BitVec

open scoped BigOperators

namespace Idealize.ShloMosaic.HostIdx

open Idealize.ShloMosaic Idealize.ShloMosaic.ValueIdx

/-! ## Sums of words -/

/-- A left fold of the word addition over a list is the start plus the sum of the list's terms. -/
theorem foldl_addi_eq {ι : Type} {w : Nat} (g : ι → BitVec w) :
    ∀ (l : List ι) (a : BitVec w), l.foldl (fun r n => IntOp.addi r (g n)) a = a + (l.map g).sum
  | [], a => by simp
  | n :: l, a => by
    rw [List.foldl_cons, foldl_addi_eq g l, List.map_cons, List.sum_cons, show IntOp.addi a (g n) = a + g n from rfl,
      add_assoc]

/-- The word of a finite sum of natural numbers is the sum of their words. -/
theorem ofNat_sum {ι : Type} {w : Nat} (S : Finset ι) (f : ι → ℕ) :
    BitVec.ofNat w (∑ i ∈ S, f i) = ∑ i ∈ S, BitVec.ofNat w (f i) := by
  classical
  induction S using Finset.cons_induction with
  | empty => simp
  | cons a S ha ih => rw [Finset.sum_cons, Finset.sum_cons, BitVec.ofNat_add, ih]

/-- A window of `P + 1` terms ending at position `i ≤ P` of a sequence padded low by `P` zeros sums the sequence's
    terms at the positions up to `i`. -/
theorem window_sum_eq_prefix {M : Type} [AddCommMonoid M] (P i : ℕ) (hi : i ≤ P) (f : ℕ → M) :
    ∑ a ∈ Finset.range (P + 1), (if P ≤ i + a then f (i + a - P) else 0) = ∑ k ∈ Finset.range (i + 1), f k := by
  rw [← Finset.sum_filter]
  refine Finset.sum_nbij' (fun a => i + a - P) (fun k => k + P - i) ?_ ?_ ?_ ?_ ?_
  · intro a ha
    simp only [Finset.mem_filter, Finset.mem_range] at ha
    simp only [Finset.mem_range]; omega
  · intro k hk
    simp only [Finset.mem_range] at hk
    simp only [Finset.mem_filter, Finset.mem_range]; omega
  · intro a ha
    simp only [Finset.mem_filter, Finset.mem_range] at ha
    show i + a - P + P - i = a
    omega
  · intro k hk
    simp only [Finset.mem_range] at hk
    show i + (k + P - i) - P = k
    omega
  · intro a _; rfl

/-- The same over `Fin (P + 1)`: the window ending at `i` sums the terms at the positions `i' ≤ i`. -/
theorem sum_window_fin {M : Type} [AddCommMonoid M] (P : ℕ) (i : Fin (P + 1)) (y : Fin (P + 1) → M) :
    ∑ a : Fin (P + 1), (if h : P ≤ i.val + a.val then y ⟨i.val + a.val - P, by omega⟩ else 0)
      = ∑ i' ∈ Finset.univ.filter (fun i' : Fin (P + 1) => i' ≤ i), y i' := by
  classical
  -- the sequence continued by zero past its end
  let yy : ℕ → M := fun m => if h : m < P + 1 then y ⟨m, h⟩ else 0
  have hyy : ∀ i' : Fin (P + 1), y i' = yy i'.val := fun i' => by
    show y i' = if h : i'.val < P + 1 then y ⟨i'.val, h⟩ else 0
    rw [dif_pos i'.isLt]
  have e1 : ∑ a : Fin (P + 1), (if h : P ≤ i.val + a.val then y ⟨i.val + a.val - P, by omega⟩ else 0)
      = ∑ a ∈ Finset.range (P + 1), (if P ≤ i.val + a then yy (i.val + a - P) else 0) := by
    rw [← Fin.sum_univ_eq_sum_range (fun a : ℕ => if P ≤ i.val + a then yy (i.val + a - P) else 0) (P + 1)]
    refine Finset.sum_congr rfl fun a _ => ?_
    by_cases hc : P ≤ i.val + a.val
    · rw [dif_pos hc, if_pos hc, hyy]
    · rw [dif_neg hc, if_neg hc]
  have e2 : ∑ i' ∈ Finset.univ.filter (fun i' : Fin (P + 1) => i' ≤ i), y i'
      = ∑ m ∈ Finset.range (P + 1), (if m ≤ i.val then yy m else 0) := by
    rw [← Fin.sum_univ_eq_sum_range (fun m : ℕ => if m ≤ i.val then yy m else 0) (P + 1), Finset.sum_filter]
    refine Finset.sum_congr rfl fun i' _ => ?_
    rw [hyy i']; rfl
  rw [e1, e2, window_sum_eq_prefix P i.val (by omega) yy, ← Finset.sum_filter]
  refine Finset.sum_congr ?_ fun _ _ => rfl
  ext m
  simp only [Finset.mem_range, Finset.mem_filter]
  omega

/-- A set fold of the word addition from zero is the sum. -/
theorem fold_addi_eq_sum {ι : Type} {w : Nat} (S : Finset ι) (f : ι → BitVec w) :
    S.fold IntOp.addi 0 f = ∑ i ∈ S, f i := by
  classical
  induction S using Finset.cons_induction with
  | empty => simp
  | cons a S ha ih => rw [Finset.fold_cons, Finset.sum_cons, ih]; rfl

/-- THE RUNNING SUM ALONG AXIS 0 of an `[R, C]` array: the `reduce_window` with window `[R, 1]`, strides one, low padding
    `[P, 0]` with `P + 1 = R`, from zero, reads at `(i, e)` the sum of column `e` over the rows `i' ≤ i`. -/
theorem reduceWindow_cumsum_rows {R C P w : Nat} {u : Shape} (hP : P + 1 = R)
    (x : IVec ⟨2, ![R, C]⟩ w) (init : IVec u w)
    (h : (⟨2, ![R, C]⟩ : Shape).ReduceWindows (![R, 1] : Fin 2 → Nat) ![1, 1] ![P, 0] ![0, 0] ⟨2, ![R, C]⟩)
    (hu : 0 < u.numel) (h0 : ∀ k, init k = 0) (i : Fin R) (e : Fin C) :
    Host.reduceWindow IntOp.addi (![R, 1] : Fin 2 → Nat) ![1, 1] ![P, 0] ![0, 0] x init h hu (ix2 i e)
      = ∑ i' ∈ Finset.univ.filter (fun i' : Fin R => i' ≤ i), x (ix2 i' e) := by
  classical
  subst hP
  unfold Host.reduceWindow
  dsimp only
  rw [foldl_addi_eq, h0, zero_add, ← Fin.sum_univ_def, ← Equiv.sum_comp (Shape.rowMajor _)]
  simp only [Equiv.symm_apply_apply]
  rw [sum_idx2, ← sum_window_fin P i fun i' => x (ix2 i' e)]
  refine Finset.sum_congr rfl fun a _ => ?_
  rw [Fin.sum_univ_one]
  split_ifs with h1 h2 h2
  · congr 1
    funext a_1
    match a_1 with
    | ⟨0, _⟩ => exact Fin.ext (show i.val * 1 + a.val - P = i.val + a.val - P by omega)
    | ⟨1, _⟩ => exact Fin.ext (show e.val * 1 + 0 - 0 = e.val by omega)
  · have t : P ≤ i.val * 1 + a.val := (h1 0).1
    exact absurd (by omega) h2
  · refine absurd (fun a_1 => ?_) h1
    match a_1 with
    | ⟨0, _⟩ => exact ⟨show P ≤ i.val * 1 + a.val by omega, show i.val * 1 + a.val - P < P + 1 by omega⟩
    | ⟨1, _⟩ => exact ⟨show 0 ≤ e.val * 1 + 0 by omega, show e.val * 1 + 0 - 0 < C by have := e.isLt; omega⟩
  · rfl

/-- The running sum along axis 0 of words of natural numbers is the word of the running sum. -/
theorem reduceWindow_cumsum_rows_ofNat {R C P w : Nat} {u : Shape} (hP : P + 1 = R)
    (x : IVec ⟨2, ![R, C]⟩ w) (init : IVec u w)
    (h : (⟨2, ![R, C]⟩ : Shape).ReduceWindows (![R, 1] : Fin 2 → Nat) ![1, 1] ![P, 0] ![0, 0] ⟨2, ![R, C]⟩)
    (hu : 0 < u.numel) (h0 : ∀ k, init k = 0) (i : Fin R) (e : Fin C)
    (f : Fin R → ℕ) (hx : ∀ i', x (ix2 i' e) = BitVec.ofNat w (f i')) :
    Host.reduceWindow IntOp.addi (![R, 1] : Fin 2 → Nat) ![1, 1] ![P, 0] ![0, 0] x init h hu (ix2 i e)
      = BitVec.ofNat w (∑ i' ∈ Finset.univ.filter (fun i' : Fin R => i' ≤ i), f i') := by
  rw [reduceWindow_cumsum_rows hP x init h hu h0 i e, ofNat_sum]
  exact Finset.sum_congr rfl fun i' _ => hx i'

/-- THE RUNNING SUM of a rank-1 array of length `N`: the `reduce_window` with window `[N]`, stride one, low padding
    `[P]` with `P + 1 = N`, from zero, reads at `i` the sum of the entries at positions `i' ≤ i`. -/
theorem reduceWindow_cumsum {N P w : Nat} {u : Shape} (hP : P + 1 = N)
    (x : IVec ⟨1, ![N]⟩ w) (init : IVec u w)
    (h : (⟨1, ![N]⟩ : Shape).ReduceWindows (![N] : Fin 1 → Nat) ![1] ![P] ![0] ⟨1, ![N]⟩)
    (hu : 0 < u.numel) (h0 : ∀ k, init k = 0) (i : Fin N) :
    Host.reduceWindow IntOp.addi (![N] : Fin 1 → Nat) ![1] ![P] ![0] x init h hu (ix1 i)
      = ∑ i' ∈ Finset.univ.filter (fun i' : Fin N => i' ≤ i), x (ix1 i') := by
  classical
  subst hP
  unfold Host.reduceWindow
  dsimp only
  rw [foldl_addi_eq, h0, zero_add, ← Fin.sum_univ_def, ← Equiv.sum_comp (Shape.rowMajor _)]
  simp only [Equiv.symm_apply_apply]
  rw [← Equiv.sum_comp (idxEquiv1 (n := P + 1)).symm, ← sum_window_fin P i fun i' => x (ix1 i')]
  refine Finset.sum_congr rfl fun a _ => ?_
  split_ifs with h1 h2 h2
  · congr 1
    funext a_1
    obtain rfl : a_1 = 0 := Subsingleton.elim _ _
    exact Fin.ext (show i.val * 1 + a.val - P = i.val + a.val - P by omega)
  · have t : P ≤ i.val * 1 + a.val := (h1 0).1
    exact absurd (by omega) h2
  · refine absurd (fun a_1 => ?_) h1
    obtain rfl : a_1 = 0 := Subsingleton.elim _ _
    exact ⟨show P ≤ i.val * 1 + a.val by omega, show i.val * 1 + a.val - P < P + 1 by omega⟩
  · rfl

/-- The running sum of a rank-1 array of words of natural numbers is the word of the running sum. -/
theorem reduceWindow_cumsum_ofNat {N P w : Nat} {u : Shape} (hP : P + 1 = N)
    (x : IVec ⟨1, ![N]⟩ w) (init : IVec u w)
    (h : (⟨1, ![N]⟩ : Shape).ReduceWindows (![N] : Fin 1 → Nat) ![1] ![P] ![0] ⟨1, ![N]⟩)
    (hu : 0 < u.numel) (h0 : ∀ k, init k = 0) (i : Fin N)
    (f : Fin N → ℕ) (hx : ∀ i', x (ix1 i') = BitVec.ofNat w (f i')) :
    Host.reduceWindow IntOp.addi (![N] : Fin 1 → Nat) ![1] ![P] ![0] x init h hu (ix1 i)
      = BitVec.ofNat w (∑ i' ∈ Finset.univ.filter (fun i' : Fin N => i' ≤ i), f i') := by
  rw [reduceWindow_cumsum hP x init h hu h0 i, ofNat_sum]
  exact Finset.sum_congr rfl fun i' _ => hx i'

/-- THE SUM OVER AXIS 1 of an `[R, C]` array of words, from zero, reads at `r` the sum of row `r`. -/
theorem reduce_add_cols {R C w : Nat} {u : Shape} (x : IVec ⟨2, ![R, C]⟩ w) (init : IVec u w)
    (h : (⟨2, ![R, C]⟩ : Shape).ReducesTo [1] ⟨1, ![R]⟩) (hu : 0 < u.numel) (h0 : ∀ k, init k = 0) (r : Fin R) :
    Host.reduce IntOp.addi x init h hu (ix1 r) = ∑ q : Fin C, x (ix2 r q) := by
  classical
  rw [Host.reduce_eq_fold, h0, fold_addi_eq_sum]
  -- the indices dropping to `r` are row `r`: reindex them by their column
  have hdrop : ∀ i : (⟨2, ![R, C]⟩ : Shape).Idx, h.drop i = ix1 r ↔ i 0 = r := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![R, C]⟩ : Shape).Idx, i 0 = r → ix2 r (i 1) = i := fun i h0 => by
    funext b; match b with
    | ⟨0, _⟩ => exact h0.symm
    | ⟨1, _⟩ => rfl
  refine Finset.sum_bij' (fun i _ => i 1) (fun q _ => ix2 r q) (fun _ _ => Finset.mem_univ _)
    (fun q _ => Finset.mem_filter.2 ⟨Finset.mem_univ _, (hdrop _).2 rfl⟩)
    (fun i hi => hback i ((hdrop i).1 (Finset.mem_filter.1 hi).2)) (fun _ _ => rfl) ?_
  intro i hi
  exact (congrArg x (hback i ((hdrop i).1 (Finset.mem_filter.1 hi).2))).symm

/-- The sum over axis 1 of words of natural numbers is the word of the row's sum. -/
theorem reduce_add_cols_ofNat {R C w : Nat} {u : Shape} (x : IVec ⟨2, ![R, C]⟩ w) (init : IVec u w)
    (h : (⟨2, ![R, C]⟩ : Shape).ReducesTo [1] ⟨1, ![R]⟩) (hu : 0 < u.numel) (h0 : ∀ k, init k = 0) (r : Fin R)
    (f : Fin C → ℕ) (hx : ∀ q, x (ix2 r q) = BitVec.ofNat w (f q)) :
    Host.reduce IntOp.addi x init h hu (ix1 r) = BitVec.ofNat w (∑ q : Fin C, f q) := by
  rw [reduce_add_cols x init h hu h0 r, ofNat_sum]
  exact Finset.sum_congr rfl fun q _ => hx q

/-- THE SUM OF ALL ENTRIES of a rank-1 array of words, from zero: the scalar result is the sum of the entries. -/
theorem reduce_add_all {N w : Nat} {u : Shape} (x : IVec ⟨1, ![N]⟩ w) (init : IVec u w)
    (h : (⟨1, ![N]⟩ : Shape).ReducesTo [0] ⟨0, ![]⟩) (hu : 0 < u.numel) (h0 : ∀ k, init k = 0)
    (j : (⟨0, ![]⟩ : Shape).Idx) :
    Host.reduce IntOp.addi x init h hu j = ∑ k : Fin N, x (ix1 k) := by
  classical
  rw [Host.reduce_eq_fold, h0, fold_addi_eq_sum,
    Finset.filter_true_of_mem fun i _ => (funext fun a => a.elim0 : h.drop i = j),
    ← Equiv.sum_comp (idxEquiv1 (n := N)).symm]
  rfl

/-- The sum of all entries of words of natural numbers is the word of the sum. -/
theorem reduce_add_all_ofNat {N w : Nat} {u : Shape} (x : IVec ⟨1, ![N]⟩ w) (init : IVec u w)
    (h : (⟨1, ![N]⟩ : Shape).ReducesTo [0] ⟨0, ![]⟩) (hu : 0 < u.numel) (h0 : ∀ k, init k = 0)
    (j : (⟨0, ![]⟩ : Shape).Idx) (f : Fin N → ℕ) (hx : ∀ k, x (ix1 k) = BitVec.ofNat w (f k)) :
    Host.reduce IntOp.addi x init h hu j = BitVec.ofNat w (∑ k : Fin N, f k) := by
  rw [reduce_add_all x init h hu h0 j, ofNat_sum]
  exact Finset.sum_congr rfl fun k _ => hx k

/-- THE TAKE at an `[R, 1]` column of start indices: a gather from a rank-1 operand whose one axis is collapsed and
    start-indexed, the index vector on axis 1, reads at `r` the operand at the start index of `r`, read signed and
    clamped into `[0, N − 1]`. -/
theorem gather_take_ix {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![R, 1]⟩ w) (r : Fin R) :
    Host.gather d x idx (ix1 r) = x (ix1 ⟨min (idx (ix2 r 0)).toInt.toNat (N - 1), by omega⟩) := by
  have e1 : (Shape.Idx.ofFin r : (⟨1, ![R]⟩ : Shape).Idx) = ix1 r := by
    funext a; obtain rfl : a = 0 := Subsingleton.elim _ _; rfl
  have e2 : (StableHlo.Predicate.ixP r : (⟨2, ![R, 1]⟩ : Shape).Idx) = ix2 r 0 := by
    funext a; match a with
    | ⟨0, _⟩ => rfl
    | ⟨1, _⟩ => rfl
  have h := StableHlo.Predicate.gather_take d hcoll hob hsim hivd x idx r hN
  rw [e1] at h
  refine h.trans (congrArg x ?_)
  funext a; obtain rfl : a = 0 := Subsingleton.elim _ _
  refine Fin.ext ?_
  show min (idx (StableHlo.Predicate.ixP r)).toInt.toNat (N - 1) = min (idx (ix2 r 0)).toInt.toNat (N - 1)
  rw [e2]

end Idealize.ShloMosaic.HostIdx
-- ==== Proof.LibGatherRowsAt.lean ====
/-
  A gather of table rows at a matrix of row numbers, read at an index.

  The gather y[r, j, :] = x[idx[r, j], :] of an operand x : [N, C] at start indices idx : [R, J, 1] (the operand's first
  axis collapsed, its second kept whole as the result's last axis; the index vector on the start indices' last axis):
  result element (r, j, q) is x at row idx[r, j, 0], that word read as a signed integer and clamped into [0, N - 1], and
  column q. This is what `x[idx]` of a matrix x at an integer matrix idx lowers to.
-/
import Idealize.ShloMosaic.PureOps
import Idealize.ShloMosaic.Lib.ValueIdx

namespace Idealize.ShloMosaic.HostIdxRJ

open Idealize.ShloMosaic Idealize.ShloMosaic.ValueIdx

/-- THE ROW GATHER AT A MATRIX OF ROW NUMBERS, READ AT (r, j, q): the operand at row idx[r, j, 0], read signed and
    clamped into [0, N - 1], and column q. -/
theorem gather_rows_at_apply {α : Type} {N R J C w : Nat} (hN : 0 < N)
    (d : GatherDims ⟨2, ![N, C]⟩ ⟨3, ![R, J, 1]⟩ ⟨3, ![R, J, C]⟩)
    (hod : d.offsetDims = [2]) (hcd : d.collapsedSliceDims = [0]) (hob : d.operandBatchingDims = [])
    (hsb : d.startIndicesBatchingDims = []) (hsim : d.startIndexMap = [0]) (hiv : d.indexVectorDim = 2)
    (hss : d.sliceSizes = ![1, C])
    (x : (⟨2, ![N, C]⟩ : Shape).Idx → α) (idx : IVec ⟨3, ![R, J, 1]⟩ w) (r : Fin R) (j : Fin J) (q : Fin C) :
    Host.gather d x idx (ix3 r j q)
      = x (ix2 ⟨min (idx (ix3 r j (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    -- the collapsed axis: the clamped start index, no batching coordinate, no offset
    show GatherDims.start _ (ix3 r j q) idx 0 + GatherDims.batchCoord _ (ix3 r j q) 0
      + GatherDims.offCoord _ (ix3 r j q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨3, ![R, J, 1]⟩) (t := ⟨3, ![R, J, C]⟩)
        ⟨[2], [0], [], [], [0], 2, ![1, C], wf⟩ (ix3 r j q)
        ⟨List.idxOf (0 : Fin 2) [0], List.idxOf_lt_length_iff.2 (List.mem_singleton.mpr rfl)⟩
          = ix3 r j (0 : Fin 1) := by
      funext b; refine Fin.ext ?_
      match b with
      | ⟨0, _⟩ => rfl
      | ⟨1, _⟩ => rfl
      | ⟨2, _⟩ => rfl
    rw [hsi]
    rfl
  | ⟨1, _⟩ =>
    -- the kept axis: start 0, no batching coordinate, the offset is the result's last coordinate
    show GatherDims.start _ (ix3 r j q) idx 1 + GatherDims.batchCoord _ (ix3 r j q) 1
      + GatherDims.offCoord _ (ix3 r j q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

end Idealize.ShloMosaic.HostIdxRJ
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.LibScatterAdd.lean ====
/-
  An accumulating scatter read at an index, at the extended reals.

  The accumulating scatter of updates into an operand holds, at each operand index, the operand's element plus the
  sum of the updates that land there. An update lands, on every operand axis, at its start (the start index's component
  for that axis, read as a signed integer and not clamped; zero on an axis the start index does not address) plus its
  window coordinate (the update's coordinate on the window axis that goes to that operand axis; zero on an inserted
  axis); an update that lands outside the operand on some axis is dropped.

  Two shapes of it:
    * FLAT: a vector operand [N], a column of start indices [R, 1], one scalar update per start index [R]. The one operand
      axis is addressed by the start index and inserted, so update n lands on p exactly when idx[n, 0], read signed, is p:
      element p is the operand's plus the updates n whose start index is p.
    * ROWS: a matrix operand [S, T], a column of start indices [R, 1] naming ROWS, one row update [R, T] per start index.
      Operand axis 0 is addressed by the start index and inserted, operand axis 1 carries the update's window axis 1 from
      start zero, so update (n, t') lands on (o, t) exactly when idx[n, 0], read signed, is o and t' = t. The sum over
      the update indices that land on (o, t), split by coordinates, keeps in each row n at most the one term t' = t:
      element (o, t) is the operand's plus the updates (n, t) of the rows n whose start index is o.
-/
import Idealize.ShloMosaic.PureOps.Ideal
import Idealize.ShloMosaic.Lib.ValueIdx
import proofs.«402160_j53730040873195_3_alg».proof.Proof.LibScatterConst

noncomputable section

namespace Cert.LibScatterAdd

open Idealize.ShloMosaic Idealize.ShloMosaic.ValueIdx

/-- FLAT, one update: update `n` lands on `p` exactly when its start index, read signed, is `p`. The operand's one axis is
    the one the start index addresses, so the start there is the index word at `[n, 0]`; that axis is inserted, so the
    window coordinate is zero. -/
theorem flat_lands_iff {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1) (idx : IVec ⟨2, ![R, 1]⟩ 32) (n : (⟨1, ![R]⟩ : Shape).Idx) (p : Fin N) :
    d.resultIdx? n idx = some (ix1 p) ↔ (idx (ix2 (n 0) (0 : Fin 1))).toInt = (p.val : ℤ) := by
  rw [Cert.LibScatterConst.resultIdx?_eq_some_iff]
  obtain ⟨uw, iw, sd, iv, wf⟩ := d
  dsimp only at huw hiw hsd hiv
  subst huw hiw hsd hiv
  -- the start on the operand's axis: the index word at [n, 0]
  have hstart : ScatterDims.start (s := ⟨1, ![N]⟩) (si := ⟨2, ![R, 1]⟩) (u := ⟨1, ![R]⟩) ⟨[], [0], [0], 1, wf⟩ n idx 0
      = (idx (ix2 (n 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- the operand's axis is inserted: no window coordinate
  have hwin : ScatterDims.window (s := ⟨1, ![N]⟩) (si := ⟨2, ![R, 1]⟩) (u := ⟨1, ![R]⟩) ⟨[], [0], [0], 1, wf⟩ n 0 = 0 := by
    unfold ScatterDims.window
    exact dif_neg (show (0 : Fin 1) ∉ (List.finRange 1).filter (· ∉ ([0] : List (Fin 1))) by decide)
  constructor
  · intro h
    have h0 := h 0
    rw [hstart, hwin, Nat.cast_zero, add_zero] at h0
    exact h0
  · intro h a
    obtain rfl : a = 0 := Subsingleton.elim _ _
    rw [hstart, hwin, Nat.cast_zero, add_zero]
    exact h

/-- FLAT: element `p` is the operand's plus the sum of the updates whose start index, read signed, is `p`. -/
theorem scatterAdd_flat_apply {N R : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![R, 1]⟩ 32) (upd : (⟨1, ![R]⟩ : Shape).Idx → EReal) (p : Fin N) :
    Ideal.hostScatterAdd d x idx upd (ix1 p)
      = x (ix1 p) + ∑ n ∈ Finset.univ.filter
          (fun n : (⟨1, ![R]⟩ : Shape).Idx => (idx (ix2 (n 0) (0 : Fin 1))).toInt = (p.val : ℤ)), upd n := by
  -- the two sums run over the same set of update indices
  unfold Ideal.hostScatterAdd
  congr 1
  refine Finset.sum_congr (Finset.filter_congr fun n _ => ?_) fun _ _ => rfl
  exact flat_lands_iff d huw hiw hsd hiv idx n p

/-- ROWS, one update: update `j = (n, t')` lands on `(o, t)` exactly when the start index of row `n`, read signed, is `o`
    and `t' = t`. On operand axis 0 the start is the index word at `[n, 0]` and the axis is inserted (window coordinate
    zero); operand axis 1 is not addressed by the start index (start zero) and carries the update's axis 1. -/
theorem rows_lands_iff {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1) (idx : IVec ⟨2, ![R, 1]⟩ 32) (j : (⟨2, ![R, T]⟩ : Shape).Idx) (o : Fin S) (t : Fin T) :
    d.resultIdx? j idx = some (ix2 o t) ↔ (idx (ix2 (j 0) (0 : Fin 1))).toInt = (o.val : ℤ) ∧ j 1 = t := by
  rw [Cert.LibScatterConst.resultIdx?_eq_some_iff]
  obtain ⟨uw, iw, sd, iv, wf⟩ := d
  dsimp only at huw hiw hsd hiv
  subst huw hiw hsd hiv
  -- operand axis 0: the start is the index word at [n, 0] …
  have hstart0 : ScatterDims.start (s := ⟨2, ![S, T]⟩) (si := ⟨2, ![R, 1]⟩) (u := ⟨2, ![R, T]⟩) ⟨[1], [0], [0], 1, wf⟩ j idx 0
      = (idx (ix2 (j 0) (0 : Fin 1))).toInt := by
    unfold ScatterDims.start
    rw [dif_pos (List.mem_singleton.mpr rfl)]
    congr 2
    funext b; refine Fin.ext ?_
    match b with
    | ⟨0, _⟩ => rfl
    | ⟨1, _⟩ => rfl
  -- … operand axis 1 is not addressed by the start index
  have hstart1 : ScatterDims.start (s := ⟨2, ![S, T]⟩) (si := ⟨2, ![R, 1]⟩) (u := ⟨2, ![R, T]⟩) ⟨[1], [0], [0], 1, wf⟩ j idx 1
      = 0 := by
    unfold ScatterDims.start
    exact dif_neg (show (1 : Fin 2) ∉ ([0] : List (Fin 2)) by decide)
  -- operand axis 0 is inserted: no window coordinate …
  have hwin0 : ScatterDims.window (s := ⟨2, ![S, T]⟩) (si := ⟨2, ![R, 1]⟩) (u := ⟨2, ![R, T]⟩) ⟨[1], [0], [0], 1, wf⟩ j 0 = 0 := by
    unfold ScatterDims.window
    exact dif_neg (show (0 : Fin 2) ∉ (List.finRange 2).filter (· ∉ ([0] : List (Fin 2))) by decide)
  -- … operand axis 1 is the one kept axis: its window coordinate is the update's coordinate on its window axis 1
  have hwin1 : ScatterDims.window (s := ⟨2, ![S, T]⟩) (si := ⟨2, ![R, 1]⟩) (u := ⟨2, ![R, T]⟩) ⟨[1], [0], [0], 1, wf⟩ j 1
      = (j 1).val := by
    unfold ScatterDims.window
    exact (dif_pos (show (1 : Fin 2) ∈ (List.finRange 2).filter (· ∉ ([0] : List (Fin 2))) by decide)).trans rfl
  constructor
  · intro h
    have h0 := h 0
    have h1 := h 1
    rw [hstart0, hwin0, Nat.cast_zero, add_zero] at h0
    rw [hstart1, hwin1, zero_add] at h1
    exact ⟨h0, Fin.ext (by exact_mod_cast h1)⟩
  · rintro ⟨h0, h1⟩ a
    match a with
    | ⟨0, _⟩ =>
      show ScatterDims.start _ j idx 0 + (ScatterDims.window _ j 0 : ℤ) = _
      rw [hstart0, hwin0, Nat.cast_zero, add_zero]
      exact h0
    | ⟨1, _⟩ =>
      show ScatterDims.start _ j idx 1 + (ScatterDims.window _ j 1 : ℤ) = _
      rw [hstart1, hwin1, zero_add, h1]

/-- ROWS: element `(o, t)` is the operand's plus the sum over the rows `n` whose start index, read signed, is `o`, of
    update `(n, t)`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  unfold Ideal.hostScatterAdd
  congr 1
  -- both sums as sums of guarded terms; the left one split by the update index's coordinates (n, t')
  rw [Finset.sum_filter, Finset.sum_filter, sum_idx2]
  refine Finset.sum_congr rfl fun n _ => ?_
  by_cases hP : (idx (ix2 n (0 : Fin 1))).toInt = (o.val : ℤ)
  · -- row n starts at o: of its terms only t' = t lands on (o, t)
    rw [if_pos hP, Finset.sum_eq_single t]
    · exact if_pos ((rows_lands_iff d huw hiw hsd hiv idx (ix2 n t) o t).mpr ⟨hP, rfl⟩)
    · intro b _ hb
      exact if_neg (fun h => hb ((rows_lands_iff d huw hiw hsd hiv idx (ix2 n b) o t).mp h).2)
    · intro h; exact absurd (Finset.mem_univ t) h
  · -- row n starts elsewhere: none of its terms lands on (o, t)
    rw [if_neg hP]
    refine Finset.sum_eq_zero fun b _ => ?_
    exact if_neg (fun h => hP ((rows_lands_iff d huw hiw hsd hiv idx (ix2 n b) o t).mp h).1)

end Cert.LibScatterAdd

end
-- ==== Proof.RefCoord.lean ====
/-
  The reference's first stretch: each node's graph id, and the layer norm of the coordinates.
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite

noncomputable section

namespace Cert.RefVal

open Cert.ReferenceIdeal Cert.ReferenceIdeal.Read Cert.Spec Idealize.ShloMosaic Idealize.ShloMosaic.ValueIdx

/-! ## Sums and words -/

/-- A sum over the rank-1 indices whose start index word, read signed, is `z`, as a sum over the coordinates. -/
private theorem sum_filter_col {R : ℕ} (idx : IVec ⟨2, ![R, 1]⟩ 32) (z : ℤ) (upd : (⟨1, ![R]⟩ : Shape).Idx → EReal) :
    ∑ n ∈ Finset.univ.filter (fun n : (⟨1, ![R]⟩ : Shape).Idx => (idx (ix2 (n 0) (0 : Fin 1))).toInt = z), upd n
      = ∑ m ∈ Finset.univ.filter (fun m : Fin R => (idx (ix2 m (0 : Fin 1))).toInt = z), upd (ix1 m) := by
  rw [Finset.sum_filter, Finset.sum_filter, ← Equiv.sum_comp (idxEquiv1 (n := R)).symm]
  rfl

/-- 2048 ones add up to 2048. -/
private theorem sum_ones (s : Finset (Fin 32768)) (hs : s.card = 2048) : ∑ _n ∈ s, (1 : EReal) = ((2048 : ℝ) : EReal) := by
  rw [Finset.sum_const, hs, ← EReal.coe_one, ← EReal.coe_nsmul]
  norm_num

/-- A select on "the word is negative" keeps the other branch at a non-negative word. -/
private theorem select_nonneg {α : Type} (a : BitVec 32) (x y : α) (ha : 0 ≤ a.toInt) :
    Scalar.select (IntOp.cmpi .slt a 0#32) x y = y := by
  have hs : a.slt 0#32 = false := by
    rw [BitVec.slt, decide_eq_false_iff_not]
    have h0 : (0#32 : BitVec 32).toInt = 0 := by decide
    rw [h0]; omega
  show (if BitVec.ofBool (a.slt 0#32) = 1 then x else y) = y
  rw [hs]; rfl

/-- The word of a graph id reads back, signed, as the id. -/
private theorem gid_toInt (n : Fin 32768) : (BitVec.ofNat 32 (n.val / 2048)).toInt = ((n.val / 2048 : ℕ) : ℤ) :=
  HostIdx2.toInt_ofNat_of_lt (by have := n.isLt; omega)

/-! ## The graph id -/

/-- Node n's graph id is n / 2048. -/
theorem v2_apply (n : Fin 32768) : R2 (ix1 n) = BitVec.ofNat 32 (n.val / 2048) := by
  unfold R2
  rw [val_main_v2_apply, val_main_v1_apply, val_main_v0_apply]

private theorem v2_word (n : Fin 32768) : val_main_v2 (F := Ideal) (ix1 n) = BitVec.ofNat 32 (n.val / 2048) :=
  v2_apply n

/-- The three columns of graph ids the scatters take their start indices from. -/
private theorem v17_col (n : Fin 32768) :
    val_main_v17 (F := Ideal) (ix2 n (0 : Fin 1)) = BitVec.ofNat 32 (n.val / 2048) := by
  rw [val_main_v17_apply,
    show idx_main_v17 (ix2 n (0 : Fin 1)) = ix1 n from by funext a; match a with | ⟨0, _⟩ => rfl]
  exact v2_word n
private theorem v23_col (n : Fin 32768) :
    val_main_v23 (F := Ideal) (ix2 n (0 : Fin 1)) = BitVec.ofNat 32 (n.val / 2048) := by
  rw [val_main_v23_apply,
    show idx_main_v23 (ix2 n (0 : Fin 1)) = ix1 n from by funext a; match a with | ⟨0, _⟩ => rfl]
  exact v2_word n
private theorem v39_col (n : Fin 32768) :
    val_main_v39 (F := Ideal) (ix2 n (0 : Fin 1)) = BitVec.ofNat 32 (n.val / 2048) := by
  rw [val_main_v39_apply,
    show idx_main_v39 (ix2 n (0 : Fin 1)) = ix1 n from by funext a; match a with | ⟨0, _⟩ => rfl]
  exact v2_word n

/-- The wrapped graph id (16 added to a negative one) is the graph id: it is never negative. -/
private theorem v30_word (n : Fin 32768) : val_main_v30 (F := Ideal) (ix1 n) = BitVec.ofNat 32 (n.val / 2048) := by
  rw [val_main_v30_apply, val_main_v27_apply, v2_word]
  exact select_nonneg _ _ _ (by rw [gid_toInt]; omega)
private theorem v49_word (n : Fin 32768) : val_main_v49 (F := Ideal) (ix1 n) = BitVec.ofNat 32 (n.val / 2048) := by
  rw [val_main_v49_apply, val_main_v46_apply, v2_word]
  exact select_nonneg _ _ _ (by rw [gid_toInt]; omega)

/-- The two columns of wrapped graph ids the gathers take their start indices from. -/
private theorem v31_col (n : Fin 32768) :
    val_main_v31 (F := Ideal) (ix2 n (0 : Fin 1)) = BitVec.ofNat 32 (n.val / 2048) := by
  rw [val_main_v31_apply,
    show idx_main_v31 (ix2 n (0 : Fin 1)) = ix1 n from by funext a; match a with | ⟨0, _⟩ => rfl]
  exact v30_word n
private theorem v50_col (n : Fin 32768) :
    val_main_v50 (F := Ideal) (ix2 n (0 : Fin 1)) = BitVec.ofNat 32 (n.val / 2048) := by
  rw [val_main_v50_apply,
    show idx_main_v50 (ix2 n (0 : Fin 1)) = ix1 n from by funext a; match a with | ⟨0, _⟩ => rfl]
  exact v49_word n

/-! ## Sums per graph and their read-back -/

/-- An accumulating scatter at the column of graph ids: element g is the operand's plus the sum of the updates of
    graph g's nodes. -/
private theorem seg_scatter (x : (⟨1, ![16]⟩ : Shape).Idx → EReal) (idx : IVec ⟨2, ![32768, 1]⟩ 32)
    (upd : (⟨1, ![32768]⟩ : Shape).Idx → EReal)
    (hidx : ∀ n : Fin 32768, idx (ix2 n (0 : Fin 1)) = BitVec.ofNat 32 (n.val / 2048)) (g : Fin 16) :
    Ideal.hostScatterAdd scatter_S16_S32768x1_S32768_n_0_0_1 x idx upd (ix1 g)
      = x (ix1 g) + ∑ n ∈ Finset.univ.filter (fun n : Fin 32768 => gN n = g), upd (ix1 n) := by
  rw [Cert.LibScatterAdd.scatterAdd_flat_apply scatter_S16_S32768x1_S32768_n_0_0_1 rfl rfl rfl rfl x idx upd g]
  refine congrArg (x (ix1 g) + ·) ?_
  refine (sum_filter_col idx (g.val : ℤ) upd).trans ?_
  refine Finset.sum_congr (Finset.filter_congr fun m _ => ?_) fun _ _ => rfl
  beta_reduce
  rw [hidx m, gid_toInt]
  constructor
  · intro h
    refine Fin.ext ?_
    show m.val / 2048 = g.val
    exact_mod_cast h
  · intro h
    rw [← h]
    rfl

/-- A take at the column of graph ids: element n is the operand at node n's graph. -/
private theorem seg_gather (x : (⟨1, ![16]⟩ : Shape).Idx → EReal) (idx : IVec ⟨2, ![32768, 1]⟩ 32)
    (hidx : ∀ n : Fin 32768, idx (ix2 n (0 : Fin 1)) = BitVec.ofNat 32 (n.val / 2048)) (n : Fin 32768) :
    Host.gather gather_S16_S32768x1_S32768_n_0_n_n_0_1_1 x idx (ix1 n) = x (ix1 (gN n)) := by
  rw [HostIdx.gather_take_ix gather_S16_S32768x1_S32768_n_0_n_n_0_1_1 rfl rfl rfl rfl (by decide) x idx n]
  refine congrArg x (congrArg ix1 (Fin.ext ?_))
  show min (idx (ix2 n 0)).toInt.toNat (16 - 1) = n.val / 2048
  rw [hidx n, gid_toInt]
  have := n.isLt
  omega

/-! ## The constants -/

private theorem v15_one (i : S32768.Idx) : val_main_v15 (F := Ideal) i = 1 := by
  rw [val_main_v15_apply, val_main_cst_apply]; exact Cert.LibReal.ofBits_one
private theorem v16_zero (i : S16.Idx) : val_main_v16 (F := Ideal) i = 0 := by
  rw [val_main_v16_apply, val_main_cst_0_apply]; exact Cert.LibReal.ofBits_zero
private theorem v22_zero (i : S16.Idx) : val_main_v22 (F := Ideal) i = 0 := by
  rw [val_main_v22_apply, val_main_cst_3_apply]; exact Cert.LibReal.ofBits_zero
private theorem v38_zero (i : S16.Idx) : val_main_v38 (F := Ideal) i = 0 := by
  rw [val_main_v38_apply, val_main_cst_6_apply]; exact Cert.LibReal.ofBits_zero

/-- Each graph's count of entries: 2048 nodes times 3 coordinates. -/
private theorem v20_cnt (g : Fin 16) : val_main_v20 (F := Ideal) (ix1 g) = cntC := by
  have h18 : val_main_v18 (F := Ideal) (ix1 g) = ((2048 : ℝ) : EReal) := by
    refine (seg_scatter (val_main_v16 (F := Ideal)) (val_main_v17 (F := Ideal)) (val_main_v15 (F := Ideal)) v17_col g).trans ?_
    rw [v16_zero, zero_add, Finset.sum_congr rfl (fun n _ => v15_one (ix1 n))]
    exact sum_ones _ (Cert.LibSeg.card_filter_gN g)
  rw [val_main_v20_apply, h18, val_main_v19_apply, val_main_cst_1_apply]
  show ((2048 : ℝ) : EReal) * Ideal.ofBits .f32 0x40400000#32 = cntC
  rw [Cert.LibReal.ofBits_three, cntC, ← EReal.coe_mul]
  norm_num

/-! ## Mean, centred values, variance -/

/-- A node's sum of coordinates. -/
private theorem v21_sum (A : Args) (n : Fin 32768) : val_main_v21 (F := Ideal) A.x (ix1 n) = ∑ c, xin A n c := by
  rw [val_main_v21_apply, val_main_cst_2_apply]
  show Ideal.ofBits .f32 0x00000000#32 + _ = _
  rw [Cert.LibReal.ofBits_zero, zero_add]
  refine Finset.sum_congr rfl fun k _ => congrArg A.x ?_
  funext a; match a with | ⟨0, _⟩ => rfl | ⟨1, _⟩ => rfl

/-- A graph's mean. -/
private theorem v25_mean (A : Args) (g : Fin 16) : val_main_v25 (F := Ideal) A.x (ix1 g) = gmean gN cntC (xin A) g := by
  have h24 : val_main_v24 (F := Ideal) A.x (ix1 g)
      = ∑ n ∈ Finset.univ.filter (fun n => gN n = g), ∑ c, xin A n c := by
    refine (seg_scatter (val_main_v22 (F := Ideal)) (val_main_v23 (F := Ideal)) (val_main_v21 (F := Ideal) A.x) v23_col g).trans ?_
    rw [v22_zero, zero_add]
    exact Finset.sum_congr rfl fun n _ => v21_sum A n
  rw [val_main_v25_apply, h24, v20_cnt]
  rfl

/-- The mean read back at a node. -/
private theorem v32_mean (A : Args) (n : Fin 32768) : val_main_v32 (F := Ideal) A.x (ix1 n) = gmean gN cntC (xin A) (gN n) := by
  unfold val_main_v32
  rw [seg_gather _ _ v31_col n]
  exact v25_mean A (gN n)

/-- The centred coordinates. -/
private theorem v35_cen (A : Args) (n : Fin 32768) (c : Fin 3) :
    val_main_v35 (F := Ideal) A.x (ix2 n c) = gcen gN cntC (xin A) n c := by
  rw [val_main_v35_apply, val_main_v34_apply, val_main_v33_apply,
    show idx_main_v33 (idx_main_v34 (ix2 n c)) = ix1 n from by funext a; match a with | ⟨0, _⟩ => rfl,
    v32_mean]
  rfl

/-- A node's sum of squared centred coordinates. -/
private theorem v37_sq (A : Args) (n : Fin 32768) :
    val_main_v37 (F := Ideal) A.x (ix1 n) = ∑ c, gcen gN cntC (xin A) n c * gcen gN cntC (xin A) n c := by
  rw [val_main_v37_apply, val_main_cst_5_apply]
  show Ideal.ofBits .f32 0x00000000#32 + _ = _
  rw [Cert.LibReal.ofBits_zero, zero_add]
  refine Finset.sum_congr rfl fun k _ => ?_
  rw [show idx_main_v37 (ix1 n) k = ix2 n k from by funext a; match a with | ⟨0, _⟩ => rfl | ⟨1, _⟩ => rfl,
    val_main_v36_apply, v35_cen]
  rfl

/-- A graph's variance. -/
private theorem v41_var (A : Args) (g : Fin 16) : val_main_v41 (F := Ideal) A.x (ix1 g) = gvar gN cntC (xin A) g := by
  have h40 : val_main_v40 (F := Ideal) A.x (ix1 g)
      = ∑ n ∈ Finset.univ.filter (fun n => gN n = g), ∑ c, gcen gN cntC (xin A) n c * gcen gN cntC (xin A) n c := by
    refine (seg_scatter (val_main_v38 (F := Ideal)) (val_main_v39 (F := Ideal)) (val_main_v37 (F := Ideal) A.x) v39_col g).trans ?_
    rw [v38_zero, zero_add]
    exact Finset.sum_congr rfl fun n _ => v37_sq A n
  rw [val_main_v41_apply, h40, v20_cnt]
  rfl

/-- The square root of the variance plus epsilon, read back at a node. -/
private theorem v51_sd (A : Args) (n : Fin 32768) :
    val_main_v51 (F := Ideal) A.x (ix1 n) = Ideal.sqrt (gvar gN cntC (xin A) (gN n) + eps) := by
  unfold val_main_v51
  rw [seg_gather _ _ v50_col n, val_main_v44_apply, val_main_v43_apply, v41_var, val_main_v42_apply,
    val_main_cst_7_apply]
  rfl

/-! ## The layer norm -/

/-- The coordinates' layer norm. -/
theorem v60_eq (A : Args) (hA : A.Ok) (n : Fin 32768) (c : Fin 3) : R60 A (ix2 n c) = h0 A n c := by
  have hv : 0 ≤ gvar gN cntC (xin A) (gN n) ∧ IsReal (gvar gN cntC (xin A) (gN n)) :=
    Cert.SpecFinite.gvar_nonneg gN 6144 (by norm_num) (xin A) (fun n c => hA.x _) (gN n)
  unfold R60
  rw [val_main_v60_apply, val_main_v57_apply, val_main_v54_apply, v35_cen,
    val_main_v53_apply, val_main_v52_apply,
    show idx_main_v52 (idx_main_v53 (ix2 n c)) = ix1 n from by funext a; match a with | ⟨0, _⟩ => rfl,
    v51_sd,
    val_main_v56_apply, val_main_v55_apply,
    show idx_main_v55 (idx_main_v56 (ix2 n c)) = ix1 c from by funext a; match a with | ⟨0, _⟩ => rfl,
    val_main_v59_apply, val_main_v58_apply,
    show idx_main_v58 (idx_main_v59 (ix2 n c)) = ix1 c from by funext a; match a with | ⟨0, _⟩ => rfl]
  show Ideal.div (gcen gN cntC (xin A) n c) (Ideal.sqrt (gvar gN cntC (xin A) (gN n) + eps)) * A.wc (ix1 c)
    + A.bc (ix1 c) = h0 A n c
  rw [Cert.LibReal.div_sqrt_eq_mul_rsqrt _ _ hv.2 hv.1]
  rfl

end Cert.RefVal

end
-- ==== Proof.RefMLP.lean ====
/-
  The reference's five dense layers and the two embedding lookups.
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.RefCoord

noncomputable section

namespace Cert.RefVal

open Cert.ReferenceIdeal Cert.ReferenceIdeal.Read Cert.Spec Idealize.ShloMosaic Idealize.ShloMosaic.ValueIdx

/-- A rank-2 index with coordinates x and y is `ix2 x y`. -/
private theorem ix2_of {a b : ℕ} (j : (⟨2, ![a, b]⟩ : Shape).Idx) (x : Fin a) (y : Fin b)
    (h0 : (j 0).val = x.val) (h1 : (j 1).val = y.val) : j = ix2 x y :=
  funext fun d => Fin.ext (by match d with | ⟨0, _⟩ => exact h0 | ⟨1, _⟩ => exact h1)

/-- A rank-1 index with coordinate x is `ix1 x`. -/
private theorem ix1_of {a : ℕ} (j : (⟨1, ![a]⟩ : Shape).Idx) (x : Fin a) (h0 : (j 0).val = x.val) : j = ix1 x :=
  funext fun d => Fin.ext (by match d with | ⟨0, _⟩ => exact h0)

/-- One dense layer of the reference read at (n, j): the contraction of row n of the input with column j of the
    weights, plus the bias, then the maximum with the constant zero. The operands are read at indices li k, ri k and bi
    that are (n, k), (k, j) and (j). -/
private theorem dense_at {K J : ℕ} (X : Fin 32768 → Fin K → EReal) (W : Vec Ideal (Sh2 K J) .f32)
    (b : Vec Ideal (Sh1 J) .f32) (Y : (Sh2 32768 K).Idx → EReal) (hY : ∀ n k, Y (ix2 n k) = X n k)
    (n : Fin 32768) (j : Fin J) (li : Fin K → (Sh2 32768 K).Idx) (ri : Fin K → (Sh2 K J).Idx) (bi : (Sh1 J).Idx)
    (hl : ∀ k, li k = ix2 n k) (hr : ∀ k, ri k = ix2 k j) (hb : bi = ix1 j) :
    FloatOps.maximumf (F := Ideal) (φ := .f32)
        (FloatOps.addf (F := Ideal) (φ := .f32) (∑ k : Fin K, Y (li k) * W (ri k)) (b bi))
        (FloatOps.ofBits (F := Ideal) .f32 0x00000000#32)
      = dense X W b n j := by
  simp only [Ideal.maximumf_def, Ideal.addf_def, Ideal.ofBits_def, Ideal.ofBits_zero_f32, hl, hr, hb, hY]
  rfl

/-- The first dense layer, 3 → 12. -/
private theorem v65_eq (A : Args) (hA : A.Ok) (n : Fin 32768) (c : Fin 12) :
    val_main_v65 (F := Ideal) A.x A.W1 A.b1 A.wc A.bc (ix2 n c) = h1 A n c := by
  rw [val_main_v65_apply, val_main_v64_apply, val_main_v61_apply, val_main_v63_apply, val_main_v62_apply,
    val_main_call0_v0_apply, val_main_call0_cst_apply]
  exact dense_at (h0 A) A.W1 A.b1 _ (fun n k => v60_eq A hA n k) n c _ _ _
    (by intro k; exact ix2_of _ n k rfl rfl) (by intro k; exact ix2_of _ k c rfl rfl) (by exact ix1_of _ c rfl)

/-- The second dense layer, 12 → 48. -/
private theorem v70_eq (A : Args) (hA : A.Ok) (n : Fin 32768) (c : Fin 48) :
    val_main_v70 (F := Ideal) A.x A.W1 A.b1 A.W2 A.b2 A.wc A.bc (ix2 n c) = h2 A n c := by
  rw [val_main_v70_apply, val_main_v69_apply, val_main_v66_apply, val_main_v68_apply, val_main_v67_apply,
    val_main_call1_v0_apply, val_main_call1_cst_apply]
  exact dense_at (h1 A) A.W2 A.b2 _ (fun n k => v65_eq A hA n k) n c _ _ _
    (by intro k; exact ix2_of _ n k rfl rfl) (by intro k; exact ix2_of _ k c rfl rfl) (by exact ix1_of _ c rfl)

/-- The third dense layer, 48 → 192. -/
private theorem v75_eq (A : Args) (hA : A.Ok) (n : Fin 32768) (c : Fin 192) :
    val_main_v75 (F := Ideal) A.x A.W1 A.b1 A.W2 A.b2 A.W3 A.b3 A.wc A.bc (ix2 n c) = h3 A n c := by
  rw [val_main_v75_apply, val_main_v74_apply, val_main_v71_apply, val_main_v73_apply, val_main_v72_apply,
    val_main_call2_v0_apply, val_main_call2_cst_apply]
  exact dense_at (h2 A) A.W3 A.b3 _ (fun n k => v70_eq A hA n k) n c _ _ _
    (by intro k; exact ix2_of _ n k rfl rfl) (by intro k; exact ix2_of _ k c rfl rfl) (by exact ix1_of _ c rfl)

/-- The fourth dense layer, 192 → 768. -/
private theorem v80_eq (A : Args) (hA : A.Ok) (n : Fin 32768) (c : Fin 768) :
    val_main_v80 (F := Ideal) A.x A.W1 A.b1 A.W2 A.b2 A.W3 A.b3 A.W4 A.b4 A.wc A.bc (ix2 n c) = h4 A n c := by
  rw [val_main_v80_apply, val_main_v79_apply, val_main_v76_apply, val_main_v78_apply, val_main_v77_apply,
    val_main_call3_v0_apply, val_main_call3_cst_apply]
  exact dense_at (h3 A) A.W4 A.b4 _ (fun n k => v75_eq A hA n k) n c _ _ _
    (by intro k; exact ix2_of _ n k rfl rfl) (by intro k; exact ix2_of _ k c rfl rfl) (by exact ix1_of _ c rfl)

/-- The fifth dense layer, 768 → 768, is the last of the chain. -/
theorem v85_eq (A : Args) (hA : A.Ok) (n : Fin 32768) (c : Fin 768) : R85 A (ix2 n c) = h5 A n c := by
  show val_main_v85 (F := Ideal) A.x A.W1 A.b1 A.W2 A.b2 A.W3 A.b3 A.W4 A.b4 A.Wd A.bd A.wc A.bc (ix2 n c) = h5 A n c
  rw [val_main_v85_apply, val_main_v84_apply, val_main_v81_apply, val_main_v83_apply, val_main_v82_apply,
    val_main_call4_v0_apply, val_main_call4_cst_apply]
  exact dense_at (h4 A) A.Wd A.bd _ (fun n k => v80_eq A hA n k) n c _ _ _
    (by intro k; exact ix2_of _ n k rfl rfl) (by intro k; exact ix2_of _ k c rfl rfl) (by exact ix1_of _ c rfl)

/-- A signed index word that is not negative passes the wrap-around select (w < 0 ? w + d : w) unchanged. -/
private theorem wrap_nonneg (w z d : BitVec 32) (hz : z = 0#32) (h : 0 ≤ w.toInt) :
    Scalar.select (IntOp.cmpi .slt w z) (IntOp.addi w d) w = w := by
  subst hz
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-- Element (n, c) of a [32768, 768] array, read in the [16, 2048, 768] arrangement of the same entries, sits at
    (n / 2048, n % 2048, c). -/
private theorem idx3_eq (n : Fin 32768) (c : Fin 768) (j : (⟨3, ![16, 2048, 768]⟩ : Shape).Idx)
    (h0 : (j 0).val = (n.val * 768 + c.val) / 1572864) (h1 : (j 1).val = (n.val * 768 + c.val) / 768 % 2048)
    (h2 : (j 2).val = (n.val * 768 + c.val) % 768) : j = ix3 (gN n) (rN n) c := by
  have hn := n.isLt
  have hc := c.isLt
  funext a
  refine Fin.ext ?_
  match a with
  | ⟨0, _⟩ => exact h0.trans (by show _ = n.val / 2048; omega)
  | ⟨1, _⟩ => exact h1.trans (by show _ = n.val % 2048; omega)
  | ⟨2, _⟩ => exact h2.trans (by show _ = c.val; omega)

/-- The row gather of a table at a [16, 2048, 1] array of row words, read at (g, r, c), is the table's row the word
    at (g, r) selects, clamped into the table. -/
private theorem gather_rowAt {N : ℕ} (hN : 0 < N)
    (d : GatherDims ⟨2, ![N, 768]⟩ ⟨3, ![16, 2048, 1]⟩ ⟨3, ![16, 2048, 768]⟩)
    (hod : d.offsetDims = [2]) (hcd : d.collapsedSliceDims = [0]) (hob : d.operandBatchingDims = [])
    (hsb : d.startIndicesBatchingDims = []) (hsim : d.startIndexMap = [0]) (hiv : d.indexVectorDim = 2)
    (hss : d.sliceSizes = ![1, 768])
    (T : Vec Ideal (Sh2 N 768) .f32) (idx : IVec ⟨3, ![16, 2048, 1]⟩ 32) (w : BitVec 32)
    (g : Fin 16) (r : Fin 2048) (c : Fin 768) (hw : idx (ix3 g r (0 : Fin 1)) = w) :
    Host.gather d T idx (ix3 g r c) = rowAt hN T w c := by
  subst hw
  exact HostIdxRJ.gather_rows_at_apply hN d hod hcd hob hsb hsim hiv hss T idx g r c

/-- The atom embedding rows, one per node: node n reads the row its atom id, at (n / 2048, n % 2048), names. -/
private theorem v93_eq (A : Args) (hA : A.Ok) (n : Fin 32768) (c : Fin 768) :
    val_main_v93 (F := Ideal) A.atom A.atomEmb (ix2 n c)
      = rowAt (by decide) A.atomEmb (A.atom (ix2 (gN n) (rN n))) c := by
  have e3 : idx_main_v93 (ix2 n c) = ix3 (gN n) (rN n) c := idx3_eq n c _ rfl rfl rfl
  have e2 : idx_main_v91 (ix3 (gN n) (rN n) (0 : Fin 1)) = ix2 (gN n) (rN n) := ix2_of _ _ _ rfl rfl
  have hw : val_main_v91 (F := Ideal) A.atom (ix3 (gN n) (rN n) (0 : Fin 1)) = A.atom (ix2 (gN n) (rN n)) := by
    rw [val_main_v91_apply, e2, val_main_v90_apply, val_main_v87_apply, val_main_v89_apply]
    exact wrap_nonneg _ _ _ (by rw [val_main_v86_apply, val_main_c_10_apply]) (hA.atom _).1
  rw [val_main_v93_apply, e3]
  exact gather_rowAt (N := 100) (by decide) gather_S100x768_S16x2048x1_S16x2048x768_2_0_n_n_0_2_1768
    rfl rfl rfl rfl rfl rfl rfl A.atomEmb (val_main_v91 (F := Ideal) A.atom) _ (gN n) (rN n) c hw

/-- The amino-acid embedding rows, one per node. -/
private theorem v101_eq (A : Args) (hA : A.Ok) (n : Fin 32768) (c : Fin 768) :
    val_main_v101 (F := Ideal) A.aa A.aaEmb (ix2 n c)
      = rowAt (by decide) A.aaEmb (A.aa (ix2 (gN n) (rN n))) c := by
  have e3 : idx_main_v101 (ix2 n c) = ix3 (gN n) (rN n) c := idx3_eq n c _ rfl rfl rfl
  have e2 : idx_main_v99 (ix3 (gN n) (rN n) (0 : Fin 1)) = ix2 (gN n) (rN n) := ix2_of _ _ _ rfl rfl
  have hw : val_main_v99 (F := Ideal) A.aa (ix3 (gN n) (rN n) (0 : Fin 1)) = A.aa (ix2 (gN n) (rN n)) := by
    rw [val_main_v99_apply, e2, val_main_v98_apply, val_main_v95_apply, val_main_v97_apply]
    exact wrap_nonneg _ _ _ (by rw [val_main_v94_apply, val_main_c_12_apply]) (hA.aa _).1
  rw [val_main_v101_apply, e3]
  exact gather_rowAt (N := 25) (by decide) gather_S25x768_S16x2048x1_S16x2048x768_2_0_n_n_0_2_1768
    rfl rfl rfl rfl rfl rfl rfl A.aaEmb (val_main_v99 (F := Ideal) A.aa) _ (gN n) (rN n) c hw

theorem v102_eq (A : Args) (hA : A.Ok) (n : Fin 32768) (c : Fin 768) : R102 A (ix2 n c) = emb A n c := by
  show FloatOps.addf (F := Ideal) (φ := .f32) (val_main_v93 (F := Ideal) A.atom A.atomEmb (ix2 n c))
    (val_main_v101 (F := Ideal) A.aa A.aaEmb (ix2 n c)) = _
  rw [v93_eq A hA, v101_eq A hA]
  rfl

theorem v103_eq (A : Args) (hA : A.Ok) (n : Fin 32768) (c : Fin 768) : R103 A (ix2 n c) = pre A n c := by
  show FloatOps.addf (F := Ideal) (φ := .f32) (R85 A (ix2 n c)) (R102 A (ix2 n c)) = _
  rw [v85_eq A hA, v102_eq A hA]
  rfl

end Cert.RefVal

end
-- ==== Proof.RefNodeAux1.lean ====
/-
  The two host operations the reference's layer norm of the node features is built from, read at an index, for the
  column of start indices it uses: row m of the column holds the word of m / 2048, node m's graph.

  * The accumulating scatter of one scalar per node into sixteen zeros holds at g the sum of the scalars of graph g's
    nodes: an update lands where its start index, read signed, points, and the word of m / 2048 reads back as m / 2048.
  * The take of a sixteen-entry vector at that column reads at node n the entry of n's graph: the start index, read signed
    and clamped into the vector, is n / 2048, already below sixteen.
-/
import proofs.«402160_j53730040873195_3_alg».proof.Proof.Spec
import proofs.«402160_j53730040873195_3_alg».proof.Proof.LibScatterAdd
import proofs.«402160_j53730040873195_3_alg».proof.Proof.LibHostIdx
import proofs.«402160_j53730040873195_3_alg».proof.Proof.LibHostIdx2

noncomputable section

namespace Cert.RefNodeAux

open Idealize.ShloMosaic Idealize.ShloMosaic.ValueIdx Cert.Spec

/-- A graph id below sixteen is not negative: the reference's wrap of negative start indices leaves it alone. -/
theorem wrap_id (k : Fin 16) :
    Scalar.select (IntOp.cmpi .slt (BitVec.ofNat 32 k.val) 0#32) (IntOp.addi (BitVec.ofNat 32 k.val) 16#32)
      (BitVec.ofNat 32 k.val) = BitVec.ofNat 32 k.val := by
  revert k; decide

/-- The word of a node's graph id reads back, signed, as the graph id. -/
theorem toInt_graph (m : Fin 32768) : (BitVec.ofNat 32 (m.val / 2048)).toInt = ((m.val / 2048 : ℕ) : ℤ) :=
  HostIdx2.toInt_ofNat_of_lt (by have := m.isLt; omega)

section
variable (idx : IVec ⟨2, ![32768, 1]⟩ 32)
  (hidx : ∀ m : Fin 32768, idx (ix2 m (0 : Fin 1)) = BitVec.ofNat 32 (m.val / 2048))
include hidx

/-- Row m's start index points at g exactly when g is node m's graph. -/
theorem lands_iff (m : Fin 32768) (g : Fin 16) : (idx (ix2 m (0 : Fin 1))).toInt = (g.val : ℤ) ↔ gN m = g := by
  rw [hidx m, toInt_graph m]
  constructor
  · intro h; exact Fin.ext (Nat.cast_inj.mp h)
  · intro h; rw [← h]; rfl

/-- THE SUM PER GRAPH: the accumulating scatter into zeros at the column of graph ids holds at g the sum of the updates
    of graph g's nodes. -/
theorem segsum_apply (d : ScatterDims ⟨1, ![16]⟩ ⟨2, ![32768, 1]⟩ ⟨1, ![32768]⟩)
    (huw : d.updateWindowDims = []) (hiw : d.insertedWindowDims = [0]) (hsd : d.scatterDimsToOperandDims = [0])
    (hiv : d.indexVectorDim = 1)
    (x : (⟨1, ![16]⟩ : Shape).Idx → EReal) (hx : ∀ i, x i = 0)
    (upd : (⟨1, ![32768]⟩ : Shape).Idx → EReal) (g : Fin 16) :
    Ideal.hostScatterAdd d x idx upd (ix1 g)
      = ∑ m ∈ Finset.univ.filter (fun m : Fin 32768 => gN m = g), upd (ix1 m) := by
  rw [Cert.LibScatterAdd.scatterAdd_flat_apply d huw hiw hsd hiv, hx, zero_add]
  refine Finset.sum_nbij' (fun n => n 0) (fun m => ix1 m) ?_ ?_ ?_ ?_ ?_
  · intro n hn
    exact Finset.mem_filter.mpr ⟨Finset.mem_univ _, (lands_iff idx hidx (n 0) g).mp (Finset.mem_filter.mp hn).2⟩
  · intro m hm
    exact Finset.mem_filter.mpr ⟨Finset.mem_univ _, (lands_iff idx hidx m g).mpr (Finset.mem_filter.mp hm).2⟩
  · intro n _; exact (eq_ix1 n).symm
  · intro m _; rfl
  · intro n _; exact congrArg upd (eq_ix1 n)

/-- THE READ PER NODE: the take of a sixteen-entry vector at the column of graph ids reads at node n the entry of n's
    graph. -/
theorem take_apply {α : Type} (d : GatherDims ⟨1, ![16]⟩ ⟨2, ![32768, 1]⟩ ⟨1, ![32768]⟩)
    (hcoll : d.collapsedSliceDims = [0]) (hob : d.operandBatchingDims = [])
    (hsim : d.startIndexMap = [0]) (hivd : d.indexVectorDim = 1)
    (x : (⟨1, ![16]⟩ : Shape).Idx → α) (n : Fin 32768) :
    Host.gather d x idx (ix1 n) = x (ix1 (gN n)) := by
  rw [HostIdx.gather_take_ix d hcoll hob hsim hivd (by decide) x idx n]
  refine congrArg (fun k => x (ix1 k)) (Fin.ext ?_)
  show min (idx (ix2 n (0 : Fin 1))).toInt.toNat (16 - 1) = n.val / 2048
  have := n.isLt
  rw [hidx n, toInt_graph n, Int.toNat_natCast]
  omega

end

/-- A graph's count of nodes as a sum of ones, and times the 768 features. -/
theorem sum_ones {ι : Type} (s : Finset ι) (h : s.card = 2048) : ∑ n ∈ s, (1 : EReal) = ((2048 : ℝ) : EReal) := by
  rw [Finset.sum_const, h, ← EReal.coe_one, ← EReal.coe_nsmul]
  norm_num
theorem count_mul : ((2048 : ℝ) : EReal) * ((768 : ℝ) : EReal) = cntN := by
  unfold cntN
  rw [← EReal.coe_mul]; norm_num

end Cert.RefNodeAux

end
-- ==== Proof.RefNode.lean ====
/-
  The reference's node layer norm (the first result) and the dense layer to the edge width.

  The reference spells the graph layer norm with sums per graph and reads per node: the count of a graph's entries is
  the accumulating scatter of one per node times the 768 features; a graph's sum is the accumulating scatter of the
  nodes' row sums; the mean is their quotient; each node reads its graph's mean back by a take at its graph id; the
  same again for the squares of the centred entries; then every centred entry is divided by the square root of its
  graph's variance plus epsilon, which for a non-negative real variance is the product with the reciprocal square
  root, scaled and shifted. The dense layer is the plain dot over the 768 features, plus the bias, against zero.
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.RefMLP
import proofs.«402160_j53730040873195_3_alg».proof.Proof.RefNodeAux1

noncomputable section

namespace Cert.RefVal

open Cert.ReferenceIdeal Cert.ReferenceIdeal.Read Cert.Spec Idealize.ShloMosaic Idealize.ShloMosaic.ValueIdx
open Cert.LibReal Cert.RefNodeAux

/-! ## The columns of start indices: row m holds the word of m / 2048 -/

private theorem col_v106 (m : Fin 32768) :
    val_main_v106 (F := Ideal) (ix2 m (0 : Fin 1)) = BitVec.ofNat 32 (m.val / 2048) := by
  have e : idx_main_v106 (ix2 m (0 : Fin 1)) = ix1 m := funext fun a => by match a with | ⟨0, _⟩ => rfl
  rw [val_main_v106_apply, e]
  exact v2_apply m

private theorem col_v112 (m : Fin 32768) :
    val_main_v112 (F := Ideal) (ix2 m (0 : Fin 1)) = BitVec.ofNat 32 (m.val / 2048) := by
  have e : idx_main_v112 (ix2 m (0 : Fin 1)) = ix1 m := funext fun a => by match a with | ⟨0, _⟩ => rfl
  rw [val_main_v112_apply, e]
  exact v2_apply m

private theorem col_v128 (m : Fin 32768) :
    val_main_v128 (F := Ideal) (ix2 m (0 : Fin 1)) = BitVec.ofNat 32 (m.val / 2048) := by
  have e : idx_main_v128 (ix2 m (0 : Fin 1)) = ix1 m := funext fun a => by match a with | ⟨0, _⟩ => rfl
  rw [val_main_v128_apply, e]
  exact v2_apply m

private theorem col_v120 (m : Fin 32768) :
    val_main_v120 (F := Ideal) (ix2 m (0 : Fin 1)) = BitVec.ofNat 32 (m.val / 2048) := by
  have e : idx_main_v120 (ix2 m (0 : Fin 1)) = ix1 m := funext fun a => by match a with | ⟨0, _⟩ => rfl
  have h2 : val_main_v2 (F := Ideal) (ix1 m) = BitVec.ofNat 32 (m.val / 2048) := v2_apply m
  rw [val_main_v120_apply, e, val_main_v119_apply, val_main_v116_apply, val_main_v118_apply, val_main_v115_apply,
    val_main_v117_apply, val_main_c_19_apply, val_main_c_20_apply, h2]
  exact wrap_id ⟨m.val / 2048, by have := m.isLt; omega⟩

private theorem col_v139 (m : Fin 32768) :
    val_main_v139 (F := Ideal) (ix2 m (0 : Fin 1)) = BitVec.ofNat 32 (m.val / 2048) := by
  have e : idx_main_v139 (ix2 m (0 : Fin 1)) = ix1 m := funext fun a => by match a with | ⟨0, _⟩ => rfl
  have h2 : val_main_v2 (F := Ideal) (ix1 m) = BitVec.ofNat 32 (m.val / 2048) := v2_apply m
  rw [val_main_v139_apply, e, val_main_v138_apply, val_main_v135_apply, val_main_v137_apply, val_main_v134_apply,
    val_main_v136_apply, val_main_c_24_apply, val_main_c_25_apply, h2]
  exact wrap_id ⟨m.val / 2048, by have := m.isLt; omega⟩

/-! ## The count of a graph's entries -/

private theorem s107 (g : Fin 16) : val_main_v107 (F := Ideal) (ix1 g) = ((2048 : ℝ) : EReal) := by
  have e : ∀ m : Fin 32768, val_main_v104 (F := Ideal) (ix1 m) = 1 :=
    fun m => (val_main_v104_apply (ix1 m)).trans ((val_main_cst_14_apply _).trans ofBits_one)
  refine (segsum_apply (val_main_v106 (F := Ideal)) col_v106 scatter_S16_S32768x1_S32768_n_0_0_1 rfl rfl rfl rfl (val_main_v105 (F := Ideal))
    (fun i => (val_main_v105_apply i).trans ((val_main_cst_15_apply _).trans ofBits_zero)) (val_main_v104 (F := Ideal)) g).trans ?_
  simp only [e]
  exact sum_ones _ (Cert.LibSeg.card_filter_gN g)

private theorem s109 (g : Fin 16) : val_main_v109 (F := Ideal) (ix1 g) = cntN := by
  rw [val_main_v109_apply, s107 g, val_main_v108_apply, val_main_cst_16_apply, Ideal.ofBits_def, ofBits_768, Ideal.mulf_def]
  exact count_mul

/-! ## The mean -/

private theorem s110 (A : Args) (hA : A.Ok) (m : Fin 32768) : val_main_v110 (F := Ideal) A.x A.atom A.aa A.W1 A.b1 A.W2 A.b2 A.W3 A.b3 A.W4 A.b4 A.Wd A.bd A.atomEmb A.aaEmb A.wc A.bc (ix1 m) = ∑ c, pre A m c := by
  rw [val_main_v110_apply, val_main_cst_17_apply, Ideal.ofBits_def, ofBits_zero, zero_add]
  refine Finset.sum_congr rfl fun c _ => ?_
  have e : idx_main_v110 (ix1 m) c = ix2 m c := funext fun a => by match a with | ⟨0, _⟩ => rfl | ⟨1, _⟩ => rfl
  rw [e]
  exact v103_eq A hA m c

private theorem s113 (A : Args) (hA : A.Ok) (g : Fin 16) :
    val_main_v113 (F := Ideal) A.x A.atom A.aa A.W1 A.b1 A.W2 A.b2 A.W3 A.b3 A.W4 A.b4 A.Wd A.bd A.atomEmb A.aaEmb A.wc A.bc (ix1 g) = ∑ m ∈ Finset.univ.filter (fun m : Fin 32768 => gN m = g), ∑ c, pre A m c := by
  refine (segsum_apply (val_main_v112 (F := Ideal)) col_v112 scatter_S16_S32768x1_S32768_n_0_0_1 rfl rfl rfl rfl (val_main_v111 (F := Ideal))
    (fun i => (val_main_v111_apply i).trans ((val_main_cst_18_apply _).trans ofBits_zero)) (val_main_v110 (F := Ideal) A.x A.atom A.aa A.W1 A.b1 A.W2 A.b2 A.W3 A.b3 A.W4 A.b4 A.Wd A.bd A.atomEmb A.aaEmb A.wc A.bc) g).trans ?_
  exact Finset.sum_congr rfl fun m _ => s110 A hA m

private theorem s114 (A : Args) (hA : A.Ok) (g : Fin 16) : val_main_v114 (F := Ideal) A.x A.atom A.aa A.W1 A.b1 A.W2 A.b2 A.W3 A.b3 A.W4 A.b4 A.Wd A.bd A.atomEmb A.aaEmb A.wc A.bc (ix1 g) = gmean gN cntN (pre A) g := by
  rw [val_main_v114_apply, s113 A hA g, s109 g]
  rfl

private theorem s121 (A : Args) (hA : A.Ok) (n : Fin 32768) : val_main_v121 (F := Ideal) A.x A.atom A.aa A.W1 A.b1 A.W2 A.b2 A.W3 A.b3 A.W4 A.b4 A.Wd A.bd A.atomEmb A.aaEmb A.wc A.bc (ix1 n) = gmean gN cntN (pre A) (gN n) :=
  (take_apply (val_main_v120 (F := Ideal)) col_v120 gather_S16_S32768x1_S32768_n_0_n_n_0_1_1 rfl rfl rfl rfl (val_main_v114 (F := Ideal) A.x A.atom A.aa A.W1 A.b1 A.W2 A.b2 A.W3 A.b3 A.W4 A.b4 A.Wd A.bd A.atomEmb A.aaEmb A.wc A.bc) n).trans (s114 A hA (gN n))

private theorem s123 (A : Args) (hA : A.Ok) (n : Fin 32768) (c : Fin 768) : val_main_v123 (F := Ideal) A.x A.atom A.aa A.W1 A.b1 A.W2 A.b2 A.W3 A.b3 A.W4 A.b4 A.Wd A.bd A.atomEmb A.aaEmb A.wc A.bc (ix2 n c) = gmean gN cntN (pre A) (gN n) := by
  have e : idx_main_v122 (idx_main_v123 (ix2 n c)) = ix1 n := funext fun a => by match a with | ⟨0, _⟩ => rfl
  rw [val_main_v123_apply, val_main_v122_apply, e]
  exact s121 A hA n

/-! ## The centred entries and the variance -/

private theorem s124 (A : Args) (hA : A.Ok) (n : Fin 32768) (c : Fin 768) : val_main_v124 (F := Ideal) A.x A.atom A.aa A.W1 A.b1 A.W2 A.b2 A.W3 A.b3 A.W4 A.b4 A.Wd A.bd A.atomEmb A.aaEmb A.wc A.bc (ix2 n c) = gcen gN cntN (pre A) n c := by
  have h3 : val_main_v103 (F := Ideal) A.x A.atom A.aa A.W1 A.b1 A.W2 A.b2 A.W3 A.b3 A.W4 A.b4 A.Wd A.bd A.atomEmb A.aaEmb A.wc A.bc (ix2 n c) = pre A n c := v103_eq A hA n c
  rw [val_main_v124_apply, s123 A hA n c, h3]
  rfl

private theorem s126 (A : Args) (hA : A.Ok) (m : Fin 32768) :
    val_main_v126 (F := Ideal) A.x A.atom A.aa A.W1 A.b1 A.W2 A.b2 A.W3 A.b3 A.W4 A.b4 A.Wd A.bd A.atomEmb A.aaEmb A.wc A.bc (ix1 m) = ∑ c, gcen gN cntN (pre A) m c * gcen gN cntN (pre A) m c := by
  rw [val_main_v126_apply, val_main_cst_21_apply, Ideal.ofBits_def, ofBits_zero, zero_add]
  refine Finset.sum_congr rfl fun c _ => ?_
  have e : idx_main_v126 (ix1 m) c = ix2 m c := funext fun a => by match a with | ⟨0, _⟩ => rfl | ⟨1, _⟩ => rfl
  rw [e, val_main_v125_apply, s124 A hA m c]
  rfl

private theorem s129 (A : Args) (hA : A.Ok) (g : Fin 16) :
    val_main_v129 (F := Ideal) A.x A.atom A.aa A.W1 A.b1 A.W2 A.b2 A.W3 A.b3 A.W4 A.b4 A.Wd A.bd A.atomEmb A.aaEmb A.wc A.bc (ix1 g) = ∑ m ∈ Finset.univ.filter (fun m : Fin 32768 => gN m = g),
      ∑ c, gcen gN cntN (pre A) m c * gcen gN cntN (pre A) m c := by
  refine (segsum_apply (val_main_v128 (F := Ideal)) col_v128 scatter_S16_S32768x1_S32768_n_0_0_1 rfl rfl rfl rfl (val_main_v127 (F := Ideal))
    (fun i => (val_main_v127_apply i).trans ((val_main_cst_22_apply _).trans ofBits_zero)) (val_main_v126 (F := Ideal) A.x A.atom A.aa A.W1 A.b1 A.W2 A.b2 A.W3 A.b3 A.W4 A.b4 A.Wd A.bd A.atomEmb A.aaEmb A.wc A.bc) g).trans ?_
  exact Finset.sum_congr rfl fun m _ => s126 A hA m

private theorem s130 (A : Args) (hA : A.Ok) (g : Fin 16) : val_main_v130 (F := Ideal) A.x A.atom A.aa A.W1 A.b1 A.W2 A.b2 A.W3 A.b3 A.W4 A.b4 A.Wd A.bd A.atomEmb A.aaEmb A.wc A.bc (ix1 g) = gvar gN cntN (pre A) g := by
  rw [val_main_v130_apply, s129 A hA g, s109 g]
  rfl

/-! ## The square root per graph, read per node -/

private theorem s133 (A : Args) (hA : A.Ok) (g : Fin 16) : val_main_v133 (F := Ideal) A.x A.atom A.aa A.W1 A.b1 A.W2 A.b2 A.W3 A.b3 A.W4 A.b4 A.Wd A.bd A.atomEmb A.aaEmb A.wc A.bc (ix1 g) = Ideal.sqrt (gvar gN cntN (pre A) g + eps) := by
  rw [val_main_v133_apply, val_main_v132_apply, s130 A hA g, val_main_v131_apply, val_main_cst_23_apply]
  rfl

private theorem s140 (A : Args) (hA : A.Ok) (n : Fin 32768) : val_main_v140 (F := Ideal) A.x A.atom A.aa A.W1 A.b1 A.W2 A.b2 A.W3 A.b3 A.W4 A.b4 A.Wd A.bd A.atomEmb A.aaEmb A.wc A.bc (ix1 n) = Ideal.sqrt (gvar gN cntN (pre A) (gN n) + eps) :=
  (take_apply (val_main_v139 (F := Ideal)) col_v139 gather_S16_S32768x1_S32768_n_0_n_n_0_1_1 rfl rfl rfl rfl (val_main_v133 (F := Ideal) A.x A.atom A.aa A.W1 A.b1 A.W2 A.b2 A.W3 A.b3 A.W4 A.b4 A.Wd A.bd A.atomEmb A.aaEmb A.wc A.bc) n).trans (s133 A hA (gN n))

private theorem s142 (A : Args) (hA : A.Ok) (n : Fin 32768) (c : Fin 768) :
    val_main_v142 (F := Ideal) A.x A.atom A.aa A.W1 A.b1 A.W2 A.b2 A.W3 A.b3 A.W4 A.b4 A.Wd A.bd A.atomEmb A.aaEmb A.wc A.bc (ix2 n c) = Ideal.sqrt (gvar gN cntN (pre A) (gN n) + eps) := by
  have e : idx_main_v141 (idx_main_v142 (ix2 n c)) = ix1 n := funext fun a => by match a with | ⟨0, _⟩ => rfl
  rw [val_main_v142_apply, val_main_v141_apply, e]
  exact s140 A hA n

/-- The quotient by the square root is the product with the reciprocal square root: the variance is a non-negative real. -/
private theorem s143 (A : Args) (hA : A.Ok) (n : Fin 32768) (c : Fin 768) :
    val_main_v143 (F := Ideal) A.x A.atom A.aa A.W1 A.b1 A.W2 A.b2 A.W3 A.b3 A.W4 A.b4 A.Wd A.bd A.atomEmb A.aaEmb A.wc A.bc (ix2 n c) = gcen gN cntN (pre A) n c * Ideal.rsqrt (gvar gN cntN (pre A) (gN n) + eps) := by
  obtain ⟨h0, hr⟩ := Cert.SpecFinite.gvar_nonneg gN 1572864 (by norm_num) (pre A) (Cert.SpecFinite.pre_real A hA) (gN n)
  rw [val_main_v143_apply, s124 A hA n c, s142 A hA n c, Ideal.hostDivf_def]
  exact div_sqrt_eq_mul_rsqrt _ _ hr h0

/-! ## The two results of the stretch -/

theorem v149_eq (A : Args) (hA : A.Ok) (n : Fin 32768) (c : Fin 768) : R149 A (ix2 n c) = h A n c := by
  have e1 : idx_main_v144 (idx_main_v145 (ix2 n c)) = ix1 c := funext fun a => by match a with | ⟨0, _⟩ => rfl
  have e2 : idx_main_v147 (idx_main_v148 (ix2 n c)) = ix1 c := funext fun a => by match a with | ⟨0, _⟩ => rfl
  show val_main_v149 (F := Ideal) A.x A.atom A.aa A.W1 A.b1 A.W2 A.b2 A.W3 A.b3 A.W4 A.b4 A.Wd A.bd A.atomEmb A.aaEmb A.wc A.bc A.wn A.bn (ix2 n c) = _
  rw [val_main_v149_apply, val_main_v146_apply, s143 A hA n c, val_main_v145_apply, val_main_v144_apply, e1,
    val_main_v148_apply, val_main_v147_apply, e2]
  rfl
theorem v154_eq (A : Args) (hA : A.Ok) (n : Fin 32768) (c : Fin 128) : R154 A (ix2 n c) = he A n c := by
  have e : idx_main_v151 (idx_main_v152 (ix2 n c)) = ix1 c := funext fun a => by match a with | ⟨0, _⟩ => rfl
  show val_main_v154 (F := Ideal) A.x A.atom A.aa A.W1 A.b1 A.W2 A.b2 A.W3 A.b3 A.W4 A.b4 A.Wd A.bd A.atomEmb A.aaEmb A.wc A.bc A.wn A.bn A.We A.be (ix2 n c) = max (∑ k, h A n k * A.We (ix2 k c) + A.be (ix1 c)) 0
  rw [val_main_v154_apply, val_main_v153_apply, val_main_v150_apply, val_main_v152_apply, val_main_v151_apply, e,
    val_main_call5_v0_apply, val_main_call5_cst_apply, Ideal.ofBits_def, ofBits_zero, Ideal.maximumf_def, Ideal.addf_def]
  refine congrArg (fun s => max (s + A.be (ix1 c)) 0) (Finset.sum_congr rfl fun k _ => ?_)
  have el : lidx_main_v150 (ix2 n c) k = ix2 n k := funext fun a => by match a with | ⟨0, _⟩ => rfl | ⟨1, _⟩ => rfl
  have er : ridx_main_v150 (ix2 n c) k = ix2 k c := funext fun a => by match a with | ⟨0, _⟩ => rfl | ⟨1, _⟩ => rfl
  have h9 : val_main_v149 (F := Ideal) A.x A.atom A.aa A.W1 A.b1 A.W2 A.b2 A.W3 A.b3 A.W4 A.b4 A.Wd A.bd A.atomEmb A.aaEmb A.wc A.bc A.wn A.bn (ix2 n k) = h A n k := v149_eq A hA n k
  rw [el, er, h9]

end Cert.RefVal

end
-- ==== Proof.RefEdgeAux1.lean ====
/-
  The pieces of a layer norm over each graph's edge rows, as the reference spells it: a signed index word that is
  not negative passes the negative-index wrap unchanged; an accumulating scatter of one value per edge row at the rows'
  graph ids holds, at graph g, the sum over g's rows; a take at the graph ids reads the entry of the row's graph; and
  the number of rows of a graph as an extended real.
-/
import Idealize.ShloMosaic.PureOps.Ideal
import Idealize.ShloMosaic.Lib.ValueIdx
import proofs.«402160_j53730040873195_3_alg».proof.Proof.Spec
import proofs.«402160_j53730040873195_3_alg».proof.Proof.LibHostIdx
import proofs.«402160_j53730040873195_3_alg».proof.Proof.LibHostIdx2
import proofs.«402160_j53730040873195_3_alg».proof.Proof.LibScatterAdd
import proofs.«402160_j53730040873195_3_alg».proof.Proof.LibReal
import proofs.«402160_j53730040873195_3_alg».proof.Proof.LibSeg

noncomputable section

namespace Cert.RefEdgeAux

open Idealize.ShloMosaic Idealize.ShloMosaic.ValueIdx Cert.Spec

/-- A signed word that is not negative passes the wrap "add the extent when negative" unchanged. -/
theorem wrap_of_nonneg (w k : BitVec 32) (h : 0 ≤ w.toInt) :
    Scalar.select (IntOp.cmpi .slt w 0#32) (IntOp.addi w k) w = w := by
  have hs : w.slt 0#32 = false := by
    simp only [BitVec.slt, BitVec.toInt_zero, decide_eq_false_iff_not, not_lt]
    exact h
  have hc : IntOp.cmpi .slt w 0#32 = 0#1 := by
    unfold IntOp.cmpi
    rw [hs]
    rfl
  rw [hc]
  exact select_zero _ _

/-- The word of a graph id reads back, signed, as the id. -/
theorem toInt_ofNat_fin16 (g : Fin 16) : (BitVec.ofNat 32 g.val).toInt = (g.val : ℤ) :=
  HostIdx2.toInt_ofNat_of_lt (by have := g.isLt; omega)

/-- The word of a node number reads back, signed, as the number. -/
theorem toInt_ofNat_node (k : ℕ) (hk : k < 32768) : (BitVec.ofNat 32 k).toInt = (k : ℤ) :=
  HostIdx2.toInt_ofNat_of_lt (by omega)

/-- The node a node number's word names. -/
theorem nodeOf_ofNat (k : ℕ) (hk : k < 32768) : nodeOf (BitVec.ofNat 32 k) = ⟨k, hk⟩ := by
  apply Fin.ext
  show min (BitVec.ofNat 32 k).toInt.toNat 32767 = k
  rw [toInt_ofNat_node k hk, Int.toNat_natCast]
  omega

/-- THE SCATTER AT THE GRAPH IDS: one value per edge row accumulated at the row's graph id; graph g holds the operand's
    entry plus the sum over g's rows. -/
theorem scatter_gE (d : ScatterDims ⟨1, ![16]⟩ ⟨2, ![557056, 1]⟩ ⟨1, ![557056]⟩)
    (huw : d.updateWindowDims = []) (hiw : d.insertedWindowDims = [0]) (hsd : d.scatterDimsToOperandDims = [0])
    (hiv : d.indexVectorDim = 1)
    (x : (⟨1, ![16]⟩ : Shape).Idx → EReal) (idx : IVec ⟨2, ![557056, 1]⟩ 32)
    (hidx : ∀ e : Fin 557056, idx (ix2 e (0 : Fin 1)) = BitVec.ofNat 32 (gE e).val)
    (upd : (⟨1, ![557056]⟩ : Shape).Idx → EReal) (g : Fin 16) :
    Ideal.hostScatterAdd d x idx upd (ix1 g)
      = x (ix1 g) + ∑ e ∈ Finset.univ.filter (fun e => gE e = g), upd (ix1 e) := by
  rw [LibScatterAdd.scatterAdd_flat_apply d huw hiw hsd hiv]
  refine congrArg (x (ix1 g) + ·) ?_
  refine Finset.sum_nbij' (fun n => (n 0 : Fin 557056)) (fun e => ix1 e) ?_ ?_ ?_ ?_ ?_
  · intro n hn
    have h := (Finset.mem_filter.mp hn).2
    have h3 : (BitVec.ofNat 32 (gE (n 0)).val).toInt = (g.val : ℤ) :=
      (congrArg BitVec.toInt (hidx (n 0))).symm.trans h
    rw [toInt_ofNat_fin16] at h3
    exact Finset.mem_filter.mpr ⟨Finset.mem_univ _, Fin.ext (by exact_mod_cast h3)⟩
  · intro e he
    have hg := (Finset.mem_filter.mp he).2
    refine Finset.mem_filter.mpr ⟨Finset.mem_univ _, ?_⟩
    show (idx (ix2 e (0 : Fin 1))).toInt = (g.val : ℤ)
    rw [hidx e, toInt_ofNat_fin16, hg]
  · intro n _
    exact (eq_ix1 n).symm
  · intro e _
    rfl
  · intro n _
    exact congrArg upd (eq_ix1 n)

/-- THE TAKE AT A GRAPH ID: a row whose start index is the word of graph g reads the operand's entry g. -/
theorem take_gE {α : Type} (d : GatherDims ⟨1, ![16]⟩ ⟨2, ![557056, 1]⟩ ⟨1, ![557056]⟩)
    (hcoll : d.collapsedSliceDims = [0]) (hob : d.operandBatchingDims = [])
    (hsim : d.startIndexMap = [0]) (hivd : d.indexVectorDim = 1)
    (x : (⟨1, ![16]⟩ : Shape).Idx → α) (idx : IVec ⟨2, ![557056, 1]⟩ 32) (e : Fin 557056) (g : Fin 16)
    (hidx : idx (ix2 e (0 : Fin 1)) = BitVec.ofNat 32 g.val) :
    Host.gather d x idx (ix1 e) = x (ix1 g) := by
  rw [HostIdx.gather_take_ix d hcoll hob hsim hivd (by decide) x idx e]
  refine congrArg x (congrArg ix1 (Fin.ext ?_))
  show min (idx (ix2 e (0 : Fin 1))).toInt.toNat (16 - 1) = g.val
  rw [hidx, toInt_ofNat_fin16, Int.toNat_natCast]
  have := g.isLt
  omega

/-- n ones add up to the real number n. -/
theorem nsmul_one_ereal (n : ℕ) : n • (1 : EReal) = ((n : ℝ) : EReal) := by
  induction n with
  | zero => simp
  | succ k ih => rw [succ_nsmul, ih, Nat.cast_succ, EReal.coe_add, EReal.coe_one]

/-- A graph has 34816 edge rows. -/
theorem count_gE (g : Fin 16) :
    (∑ e ∈ Finset.univ.filter (fun e => gE e = g), (1 : EReal)) = ((34816 : ℝ) : EReal) := by
  rw [Finset.sum_const, LibSeg.card_filter_gE, nsmul_one_ereal]
  norm_num

/-- 34816 rows of 128 features. -/
theorem count_mul : ((34816 : ℝ) : EReal) * cntG = cntE := by
  unfold cntG cntE
  rw [← EReal.coe_mul]
  norm_num

end Cert.RefEdgeAux

end
-- ==== Proof.RefEdge.lean ====
/-
  The reference's edge rows: graph ids, endpoints, and the half sums.

  Edge row e's graph id is a concatenation of two runs of broadcast graph numbers. Its two endpoint words are the
  edge list's two rows followed by the node numbers themselves (the self loops); on the statement's domain none is
  negative, so the negative-index wrap keeps it and the row gather reads `he` at the node the word names. The half sum
  of a self loop is (x + x) / 2 = x for a real x.
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.RefNode
import proofs.«402160_j53730040873195_3_alg».proof.Proof.RefEdgeAux1

noncomputable section

namespace Cert.RefVal

open Cert.ReferenceIdeal Cert.ReferenceIdeal.Gen Cert.ReferenceIdeal.Read Cert.Spec Idealize.ShloMosaic Idealize.ShloMosaic.ValueIdx
open Cert.RefEdgeAux

/-- Two indices of a rank-1 shape with the same coordinate. -/
local macro "idx1" : tactic => `(tactic| (funext a; match a with | ⟨0, _⟩ => rfl))

/-! ## Graph ids -/

/-- Edge row e's graph id. -/
theorem v6_apply (e : Fin 557056) : R6 (ix1 e) = BitVec.ofNat 32 (gE e).val := by
  unfold R6 val_main_v6
  by_cases h : e.val < 524288
  · -- an edge proper: the first piece, graph number e / 32768
    refine (concatenate_pair_apply_left (t := S557056) (s₁ := S524288) (s₂ := S32768) (0 : Fin 1) _ _ concatenates_S524288_S32768_S557056_d0 (ix1 e) rfl
      (ix1 (⟨e.val, h⟩ : Fin 524288)) (fun b => by match b with | ⟨0, _⟩ => rfl)).trans ?_
    rw [val_main_v5_apply, val_main_v4_apply, val_main_v3_apply, LibSeg.gE_val_lt e h]
  · -- a self loop: the second piece, the graph id of node e - 524288
    have h2 : e.val - 524288 < 32768 := by have := e.isLt; omega
    refine (concatenate_pair_apply_right (t := S557056) (s₁ := S524288) (s₂ := S32768) (0 : Fin 1) _ _ concatenates_S524288_S32768_S557056_d0 (ix1 e) rfl rfl
      (ix1 (⟨e.val - 524288, h2⟩ : Fin 32768)) (fun b hb => absurd (Subsingleton.elim (α := Fin 1) _ _) hb)
      (by show e.val - 524288 + 524288 = e.val; omega)).trans ?_
    refine (v2_apply ⟨e.val - 524288, h2⟩).trans ?_
    rw [LibSeg.gE_val_ge e h]

/-! ## Endpoints -/

/-- The source word of an edge proper and of a self loop. -/
private theorem v10_lt (A : Args) (e : Fin 557056) (h : e.val < 524288) :
    val_main_v10 (F := Ideal) A.ei (ix1 e) = A.ei (ix2 (0 : Fin 2) (⟨e.val, h⟩ : Fin 524288)) := by
  unfold val_main_v10
  refine (concatenate_pair_apply_left (t := S557056) (s₁ := S524288) (s₂ := S32768) (0 : Fin 1) _ _ concatenates_S524288_S32768_S557056_d0 (ix1 e) rfl
    (ix1 (⟨e.val, h⟩ : Fin 524288)) (fun b => by match b with | ⟨0, _⟩ => rfl)).trans ?_
  rw [val_main_v8_apply, val_main_v7_apply]
  refine congrArg A.ei ?_
  funext a
  match a with
  | ⟨0, _⟩ => rfl
  | ⟨1, _⟩ => exact Fin.ext (by show e.val % 524288 = e.val; omega)
private theorem v10_ge (A : Args) (e : Fin 557056) (h : ¬ e.val < 524288) :
    val_main_v10 (F := Ideal) A.ei (ix1 e) = BitVec.ofNat 32 (e.val - 524288) := by
  have h2 : e.val - 524288 < 32768 := by have := e.isLt; omega
  unfold val_main_v10
  refine (concatenate_pair_apply_right (t := S557056) (s₁ := S524288) (s₂ := S32768) (0 : Fin 1) _ _ concatenates_S524288_S32768_S557056_d0 (ix1 e) rfl rfl
    (ix1 (⟨e.val - 524288, h2⟩ : Fin 32768)) (fun b hb => absurd (Subsingleton.elim (α := Fin 1) _ _) hb)
    (by show e.val - 524288 + 524288 = e.val; omega)).trans ?_
  rw [val_main_v9_apply]
/-- The target word likewise. -/
private theorem v14_lt (A : Args) (e : Fin 557056) (h : e.val < 524288) :
    val_main_v14 (F := Ideal) A.ei (ix1 e) = A.ei (ix2 (1 : Fin 2) (⟨e.val, h⟩ : Fin 524288)) := by
  unfold val_main_v14
  refine (concatenate_pair_apply_left (t := S557056) (s₁ := S524288) (s₂ := S32768) (0 : Fin 1) _ _ concatenates_S524288_S32768_S557056_d0 (ix1 e) rfl
    (ix1 (⟨e.val, h⟩ : Fin 524288)) (fun b => by match b with | ⟨0, _⟩ => rfl)).trans ?_
  rw [val_main_v12_apply, val_main_v11_apply]
  refine congrArg A.ei ?_
  funext a
  match a with
  | ⟨0, _⟩ => rfl
  | ⟨1, _⟩ => exact Fin.ext (by show e.val % 524288 = e.val; omega)
private theorem v14_ge (A : Args) (e : Fin 557056) (h : ¬ e.val < 524288) :
    val_main_v14 (F := Ideal) A.ei (ix1 e) = BitVec.ofNat 32 (e.val - 524288) := by
  have h2 : e.val - 524288 < 32768 := by have := e.isLt; omega
  unfold val_main_v14
  refine (concatenate_pair_apply_right (t := S557056) (s₁ := S524288) (s₂ := S32768) (0 : Fin 1) _ _ concatenates_S524288_S32768_S557056_d0 (ix1 e) rfl rfl
    (ix1 (⟨e.val - 524288, h2⟩ : Fin 32768)) (fun b hb => absurd (Subsingleton.elim (α := Fin 1) _ _) hb)
    (by show e.val - 524288 + 524288 = e.val; omega)).trans ?_
  rw [val_main_v13_apply]

/-- On the domain no endpoint word is negative. -/
private theorem v10_nonneg (A : Args) (hA : A.Ok) (e : Fin 557056) : 0 ≤ (val_main_v10 (F := Ideal) A.ei (ix1 e)).toInt := by
  by_cases h : e.val < 524288
  · rw [v10_lt A e h]; exact (hA.ei _).1
  · have h2 : e.val - 524288 < 32768 := by have := e.isLt; omega
    rw [v10_ge A e h, toInt_ofNat_node _ h2]
    exact Int.natCast_nonneg _
private theorem v14_nonneg (A : Args) (hA : A.Ok) (e : Fin 557056) : 0 ≤ (val_main_v14 (F := Ideal) A.ei (ix1 e)).toInt := by
  by_cases h : e.val < 524288
  · rw [v14_lt A e h]; exact (hA.ei _).1
  · have h2 : e.val - 524288 < 32768 := by have := e.isLt; omega
    rw [v14_ge A e h, toInt_ofNat_node _ h2]
    exact Int.natCast_nonneg _

/-- The gathers' columns of start indices: the endpoint words, the wrap keeping them. -/
private theorem v160_at (A : Args) (hA : A.Ok) (e : Fin 557056) :
    val_main_v160 (F := Ideal) A.ei (ix2 e (0 : Fin 1)) = val_main_v10 (F := Ideal) A.ei (ix1 e) := by
  rw [val_main_v160_apply, show idx_main_v160 (ix2 e (0 : Fin 1)) = ix1 e from by idx1, val_main_v159_apply,
    val_main_v156_apply, val_main_v158_apply, val_main_v155_apply, val_main_c_26_apply]
  exact wrap_of_nonneg _ _ (v10_nonneg A hA e)
private theorem v167_at (A : Args) (hA : A.Ok) (e : Fin 557056) :
    val_main_v167 (F := Ideal) A.ei (ix2 e (0 : Fin 1)) = val_main_v14 (F := Ideal) A.ei (ix1 e) := by
  rw [val_main_v167_apply, show idx_main_v167 (ix2 e (0 : Fin 1)) = ix1 e from by idx1, val_main_v166_apply,
    val_main_v163_apply, val_main_v165_apply, val_main_v162_apply, val_main_c_28_apply]
  exact wrap_of_nonneg _ _ (v14_nonneg A hA e)

/-- The two row gathers: `he` at the node the endpoint word names. -/
private theorem v161_at (A : Args) (hA : A.Ok) (e : Fin 557056) (c : Fin 128) :
    val_main_v161 (F := Ideal) A.x A.atom A.aa A.ei A.W1 A.b1 A.W2 A.b2 A.W3 A.b3 A.W4 A.b4 A.Wd A.bd A.atomEmb A.aaEmb A.wc A.bc A.wn A.bn A.We A.be (ix2 e c) = he A (nodeOf (val_main_v10 (F := Ideal) A.ei (ix1 e))) c := by
  unfold val_main_v161
  refine (HostIdx2.gather_rows_apply (by decide) _ rfl rfl rfl rfl rfl rfl rfl _ _ e c).trans ?_
  refine Eq.trans (congrArg (fun n => val_main_v154 (F := Ideal) A.x A.atom A.aa A.W1 A.b1 A.W2 A.b2 A.W3 A.b3 A.W4 A.b4 A.Wd A.bd A.atomEmb A.aaEmb A.wc A.bc A.wn A.bn A.We A.be (ix2 n c)) (Fin.ext ?_))
    (v154_eq A hA (nodeOf (val_main_v10 (F := Ideal) A.ei (ix1 e))) c)
  show min (val_main_v160 (F := Ideal) A.ei (ix2 e (0 : Fin 1))).toInt.toNat (32768 - 1)
    = min (val_main_v10 (F := Ideal) A.ei (ix1 e)).toInt.toNat 32767
  rw [v160_at A hA e]
private theorem v168_at (A : Args) (hA : A.Ok) (e : Fin 557056) (c : Fin 128) :
    val_main_v168 (F := Ideal) A.x A.atom A.aa A.ei A.W1 A.b1 A.W2 A.b2 A.W3 A.b3 A.W4 A.b4 A.Wd A.bd A.atomEmb A.aaEmb A.wc A.bc A.wn A.bn A.We A.be (ix2 e c) = he A (nodeOf (val_main_v14 (F := Ideal) A.ei (ix1 e))) c := by
  unfold val_main_v168
  refine (HostIdx2.gather_rows_apply (by decide) _ rfl rfl rfl rfl rfl rfl rfl _ _ e c).trans ?_
  refine Eq.trans (congrArg (fun n => val_main_v154 (F := Ideal) A.x A.atom A.aa A.W1 A.b1 A.W2 A.b2 A.W3 A.b3 A.W4 A.b4 A.Wd A.bd A.atomEmb A.aaEmb A.wc A.bc A.wn A.bn A.We A.be (ix2 n c)) (Fin.ext ?_))
    (v154_eq A hA (nodeOf (val_main_v14 (F := Ideal) A.ei (ix1 e))) c)
  show min (val_main_v167 (F := Ideal) A.ei (ix2 e (0 : Fin 1))).toInt.toNat (32768 - 1)
    = min (val_main_v14 (F := Ideal) A.ei (ix1 e)).toInt.toNat 32767
  rw [v167_at A hA e]

/-! ## The half sums -/

theorem v171_eq (A : Args) (hA : A.Ok) (e : Fin 557056) (c : Fin 128) : R171 A (ix2 e c) = avg A e c := by
  unfold R171
  rw [val_main_v171_apply, val_main_v169_apply, val_main_v170_apply, val_main_cst_30_apply,
    v161_at A hA e c, v168_at A hA e c, Ideal.mulf_def, Ideal.addf_def, Ideal.ofBits_def]
  show (he A (nodeOf (val_main_v10 (F := Ideal) A.ei (ix1 e))) c + he A (nodeOf (val_main_v14 (F := Ideal) A.ei (ix1 e))) c) * half = avg A e c
  unfold avg
  by_cases h : e.val < 524288
  · rw [dif_pos h, v10_lt A e h, v14_lt A e h]
  · have h2 : e.val - 524288 < 32768 := by have := e.isLt; omega
    rw [dif_neg h, v10_ge A e h, v14_ge A e h, nodeOf_ofNat _ h2]
    exact LibReal.add_self_mul_half (SpecFinite.he_real A hA _ c)

end Cert.RefVal

end
-- ==== Proof.RefEdgeLN.lean ====
/-
  The reference's second result: the graph layer norm of the edge rows' inputs over each graph's 34816 rows and 128 features.
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.RefNode
import proofs.«402160_j53730040873195_3_alg».proof.Proof.RefEdge

noncomputable section

namespace Cert.RefVal

open Cert.ReferenceIdeal Cert.ReferenceIdeal.Read Cert.Spec Idealize.ShloMosaic Idealize.ShloMosaic.ValueIdx
open Cert.RefEdgeAux

local macro "idx1" : tactic => `(tactic| (funext a; match a with | ⟨0, _⟩ => rfl))
local macro "idx2" : tactic => `(tactic| (funext a; match a with | ⟨0, _⟩ => rfl | ⟨1, _⟩ => rfl))

private theorem v6_at (e : Fin 557056) : val_main_v6 (F := Ideal) (ix1 e) = BitVec.ofNat 32 (gE e).val := v6_apply e

private theorem v6_nonneg (e : Fin 557056) : 0 ≤ (val_main_v6 (F := Ideal) (ix1 e)).toInt := by
  rw [v6_at e, toInt_ofNat_fin16]
  exact Int.natCast_nonneg _

/-- The three columns of start indices the scatters use: the graph id of each row. -/
private theorem v174_at (e : Fin 557056) : val_main_v174 (F := Ideal) (ix2 e (0 : Fin 1)) = BitVec.ofNat 32 (gE e).val := by
  rw [val_main_v174_apply, show idx_main_v174 (ix2 e (0 : Fin 1)) = ix1 e from by idx1]
  exact v6_at e
private theorem v180_at (e : Fin 557056) : val_main_v180 (F := Ideal) (ix2 e (0 : Fin 1)) = BitVec.ofNat 32 (gE e).val := by
  rw [val_main_v180_apply, show idx_main_v180 (ix2 e (0 : Fin 1)) = ix1 e from by idx1]
  exact v6_at e
private theorem v196_at (e : Fin 557056) : val_main_v196 (F := Ideal) (ix2 e (0 : Fin 1)) = BitVec.ofNat 32 (gE e).val := by
  rw [val_main_v196_apply, show idx_main_v196 (ix2 e (0 : Fin 1)) = ix1 e from by idx1]
  exact v6_at e

/-- The two columns of start indices the takes use: the graph id again, the wrap keeping it. -/
private theorem v188_at (e : Fin 557056) : val_main_v188 (F := Ideal) (ix2 e (0 : Fin 1)) = BitVec.ofNat 32 (gE e).val := by
  rw [val_main_v188_apply, show idx_main_v188 (ix2 e (0 : Fin 1)) = ix1 e from by idx1, val_main_v187_apply,
    val_main_v184_apply, val_main_v186_apply, val_main_v183_apply, val_main_c_36_apply]
  exact (wrap_of_nonneg _ _ (v6_nonneg e)).trans (v6_at e)
private theorem v207_at (e : Fin 557056) : val_main_v207 (F := Ideal) (ix2 e (0 : Fin 1)) = BitVec.ofNat 32 (gE e).val := by
  rw [val_main_v207_apply, show idx_main_v207 (ix2 e (0 : Fin 1)) = ix1 e from by idx1, val_main_v206_apply,
    val_main_v203_apply, val_main_v205_apply, val_main_v202_apply, val_main_c_41_apply]
  exact (wrap_of_nonneg _ _ (v6_nonneg e)).trans (v6_at e)

private theorem v171_at (A : Args) (hA : A.Ok) (e : Fin 557056) (c : Fin 128) :
    val_main_v171 (F := Ideal) A.x A.atom A.aa A.ei A.W1 A.b1 A.W2 A.b2 A.W3 A.b3 A.W4 A.b4 A.Wd A.bd A.atomEmb A.aaEmb A.wc A.bc A.wn A.bn A.We A.be (ix2 e c) = avg A e c := v171_eq A hA e c

/-! ## The edge layer norm -/

/-- Every graph's count of entries: 34816 rows, accumulated as ones, times 128. -/
private theorem v177_at (g : Fin 16) : val_main_v177 (F := Ideal) (ix1 g) = cntE := by
  have h175 : val_main_v175 (F := Ideal) (ix1 g) = ((34816 : ℝ) : EReal) := by
    unfold val_main_v175 Host.scatterAdd
    rw [Ideal.hostScatterAdd_def, scatter_gE _ rfl rfl rfl rfl _ _ v174_at _ g, val_main_v173_apply,
      val_main_cst_32_apply, Ideal.ofBits_def, LibReal.ofBits_zero, zero_add]
    refine (Finset.sum_congr rfl (fun e _ => ?_)).trans (count_gE g)
    rw [val_main_v172_apply, val_main_cst_31_apply, Ideal.ofBits_def, LibReal.ofBits_one]
  rw [val_main_v177_apply, h175, val_main_v176_apply, val_main_cst_33_apply, Ideal.mulf_def, Ideal.ofBits_def,
    LibReal.ofBits_128]
  exact count_mul

/-- A row's sum of its 128 half sums. -/
private theorem v178_at (A : Args) (hA : A.Ok) (e : Fin 557056) :
    val_main_v178 (F := Ideal) A.x A.atom A.aa A.ei A.W1 A.b1 A.W2 A.b2 A.W3 A.b3 A.W4 A.b4 A.Wd A.bd A.atomEmb A.aaEmb A.wc A.bc A.wn A.bn A.We A.be (ix1 e) = ∑ k : Fin 128, avg A e k := by
  rw [val_main_v178_apply, val_main_cst_34_apply, Ideal.ofBits_def, LibReal.ofBits_zero, zero_add]
  refine Finset.sum_congr rfl (fun k _ => ?_)
  rw [show idx_main_v178 (ix1 e) k = ix2 e k from by idx2]
  exact v171_at A hA e k

/-- Each graph's mean. -/
private theorem v182_at (A : Args) (hA : A.Ok) (g : Fin 16) :
    val_main_v182 (F := Ideal) A.x A.atom A.aa A.ei A.W1 A.b1 A.W2 A.b2 A.W3 A.b3 A.W4 A.b4 A.Wd A.bd A.atomEmb A.aaEmb A.wc A.bc A.wn A.bn A.We A.be (ix1 g) = gmean gE cntE (avg A) g := by
  have h181 : val_main_v181 (F := Ideal) A.x A.atom A.aa A.ei A.W1 A.b1 A.W2 A.b2 A.W3 A.b3 A.W4 A.b4 A.Wd A.bd A.atomEmb A.aaEmb A.wc A.bc A.wn A.bn A.We A.be (ix1 g)
      = ∑ e ∈ Finset.univ.filter (fun e => gE e = g), ∑ k : Fin 128, avg A e k := by
    unfold val_main_v181 Host.scatterAdd
    rw [Ideal.hostScatterAdd_def, scatter_gE _ rfl rfl rfl rfl _ _ v180_at _ g, val_main_v179_apply,
      val_main_cst_35_apply, Ideal.ofBits_def, LibReal.ofBits_zero, zero_add]
    exact Finset.sum_congr rfl (fun e _ => v178_at A hA e)
  rw [val_main_v182_apply, Ideal.hostDivf_def, h181, v177_at g]
  rfl

/-- A centred entry. -/
private theorem v192_at (A : Args) (hA : A.Ok) (e : Fin 557056) (c : Fin 128) :
    val_main_v192 (F := Ideal) A.x A.atom A.aa A.ei A.W1 A.b1 A.W2 A.b2 A.W3 A.b3 A.W4 A.b4 A.Wd A.bd A.atomEmb A.aaEmb A.wc A.bc A.wn A.bn A.We A.be (ix2 e c) = gcen gE cntE (avg A) e c := by
  have h189 : val_main_v189 (F := Ideal) A.x A.atom A.aa A.ei A.W1 A.b1 A.W2 A.b2 A.W3 A.b3 A.W4 A.b4 A.Wd A.bd A.atomEmb A.aaEmb A.wc A.bc A.wn A.bn A.We A.be (ix1 e) = gmean gE cntE (avg A) (gE e) := by
    unfold val_main_v189
    exact (take_gE _ rfl rfl rfl rfl _ _ e (gE e) (v188_at e)).trans (v182_at A hA (gE e))
  rw [val_main_v192_apply, Ideal.subf_def, v171_at A hA e c, val_main_v191_apply, val_main_v190_apply,
    show idx_main_v190 (idx_main_v191 (ix2 e c)) = ix1 e from by idx1, h189]
  rfl

/-- A row's sum of its 128 squared centred entries. -/
private theorem v194_at (A : Args) (hA : A.Ok) (e : Fin 557056) :
    val_main_v194 (F := Ideal) A.x A.atom A.aa A.ei A.W1 A.b1 A.W2 A.b2 A.W3 A.b3 A.W4 A.b4 A.Wd A.bd A.atomEmb A.aaEmb A.wc A.bc A.wn A.bn A.We A.be (ix1 e) = ∑ k : Fin 128, gcen gE cntE (avg A) e k * gcen gE cntE (avg A) e k := by
  rw [val_main_v194_apply, val_main_cst_38_apply, Ideal.ofBits_def, LibReal.ofBits_zero, zero_add]
  refine Finset.sum_congr rfl (fun k _ => ?_)
  rw [show idx_main_v194 (ix1 e) k = ix2 e k from by idx2, val_main_v193_apply, Ideal.mulf_def, v192_at A hA e k]

/-- The square root of each graph's variance plus epsilon. -/
private theorem v201_at (A : Args) (hA : A.Ok) (g : Fin 16) :
    val_main_v201 (F := Ideal) A.x A.atom A.aa A.ei A.W1 A.b1 A.W2 A.b2 A.W3 A.b3 A.W4 A.b4 A.Wd A.bd A.atomEmb A.aaEmb A.wc A.bc A.wn A.bn A.We A.be (ix1 g) = Ideal.sqrt (gvar gE cntE (avg A) g + eps) := by
  have h197 : val_main_v197 (F := Ideal) A.x A.atom A.aa A.ei A.W1 A.b1 A.W2 A.b2 A.W3 A.b3 A.W4 A.b4 A.Wd A.bd A.atomEmb A.aaEmb A.wc A.bc A.wn A.bn A.We A.be (ix1 g)
      = ∑ e ∈ Finset.univ.filter (fun e => gE e = g),
          ∑ k : Fin 128, gcen gE cntE (avg A) e k * gcen gE cntE (avg A) e k := by
    unfold val_main_v197 Host.scatterAdd
    rw [Ideal.hostScatterAdd_def, scatter_gE _ rfl rfl rfl rfl _ _ v196_at _ g, val_main_v195_apply,
      val_main_cst_39_apply, Ideal.ofBits_def, LibReal.ofBits_zero, zero_add]
    exact Finset.sum_congr rfl (fun e _ => v194_at A hA e)
  rw [val_main_v201_apply, Ideal.hostUnary_sqrt_def, val_main_v200_apply, Ideal.addf_def, val_main_v198_apply,
    Ideal.hostDivf_def, h197, v177_at g, val_main_v199_apply, val_main_cst_40_apply, Ideal.ofBits_def]
  rfl

theorem v217_eq (A : Args) (hA : A.Ok) (e : Fin 557056) (c : Fin 128) : R217 A (ix2 e c) = attr A e c := by
  have h208 : val_main_v208 (F := Ideal) A.x A.atom A.aa A.ei A.W1 A.b1 A.W2 A.b2 A.W3 A.b3 A.W4 A.b4 A.Wd A.bd A.atomEmb A.aaEmb A.wc A.bc A.wn A.bn A.We A.be (ix1 e) = Ideal.sqrt (gvar gE cntE (avg A) (gE e) + eps) := by
    unfold val_main_v208
    exact (take_gE _ rfl rfl rfl rfl _ _ e (gE e) (v207_at e)).trans (v201_at A hA (gE e))
  obtain ⟨h0, hr⟩ : 0 ≤ gvar gE cntE (avg A) (gE e) ∧ IsReal (gvar gE cntE (avg A) (gE e)) :=
    SpecFinite.gvar_nonneg gE 4456448 (by norm_num) (avg A) (SpecFinite.avg_real A hA) (gE e)
  unfold R217
  rw [val_main_v217_apply, val_main_v214_apply, val_main_v211_apply, v192_at A hA e c, val_main_v210_apply,
    val_main_v209_apply, show idx_main_v209 (idx_main_v210 (ix2 e c)) = ix1 e from by idx1, h208,
    val_main_v213_apply, val_main_v212_apply, show idx_main_v212 (idx_main_v213 (ix2 e c)) = ix1 c from by idx1,
    val_main_v216_apply, val_main_v215_apply, show idx_main_v215 (idx_main_v216 (ix2 e c)) = ix1 c from by idx1,
    Ideal.addf_def, Ideal.mulf_def, Ideal.hostDivf_def, LibReal.div_sqrt_eq_mul_rsqrt _ _ hr h0]
  rfl

end Cert.RefVal

end
-- ==== Proof.RefGlob.lean ====
/-
  The reference's global stretch: the dense layer on the edge rows and the per-graph averages of its rows.
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.RefEdge
import proofs.«402160_j53730040873195_3_alg».proof.Proof.RefEdgeLN

noncomputable section

namespace Cert.RefVal

open Cert.ReferenceIdeal Cert.ReferenceIdeal.Read Cert.Spec Idealize.ShloMosaic Idealize.ShloMosaic.ValueIdx

/-- An index built coordinate by coordinate from another is the index with those coordinates. -/
local macro "idx1" : tactic => `(tactic| (funext a; match a with | ⟨0, _⟩ => rfl))
local macro "idx2" : tactic => `(tactic| (funext a; match a with | ⟨0, _⟩ => rfl | ⟨1, _⟩ => rfl))

/-- A filtered sum over a rank-1 index set is the filtered sum over its coordinate range. -/
private theorem sum_filter_idx1 {M : Type} [AddCommMonoid M] {R : ℕ} (P : Fin R → Prop) [DecidablePred P]
    (f : (⟨1, ![R]⟩ : Shape).Idx → M) :
    ∑ n ∈ Finset.univ.filter (fun n : (⟨1, ![R]⟩ : Shape).Idx => P (idxEquiv1 n)), f n
      = ∑ e ∈ Finset.univ.filter (fun e : Fin R => P e), f (ix1 e) := by
  rw [Finset.sum_filter, Finset.sum_filter, ← Equiv.sum_comp (idxEquiv1 (n := R)).symm]
  rfl

/-- A sum of ones is the number of terms. -/
private theorem sum_one_eq {ι : Type} (S : Finset ι) : ∑ _n ∈ S, (1 : EReal) = ((S.card : ℝ) : EReal) := by
  classical
  induction S using Finset.induction_on with
  | empty => simp
  | insert a s ha ih =>
    rw [Finset.sum_insert ha, ih, Finset.card_insert_of_notMem ha, Nat.cast_add, Nat.cast_one, EReal.coe_add, EReal.coe_one, add_comm]

/-- The host's accumulating scatter at the extended reals is the exact one. -/
private theorem hostScatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- The word of a number below 16 reads back, signed, as that number. -/
private theorem toInt_ofNat_lt16 (k : ℕ) (hk : k < 16) : (BitVec.ofNat 32 k).toInt = (k : ℤ) := by
  refine Idealize.ShloMosaic.HostIdx2.toInt_ofNat_of_lt ?_
  have h2 : (2 : ℕ) ^ 32 = 4294967296 := by norm_num
  omega

/-- Two numbers below 16 whose words read the same are the same. -/
private theorem toInt_ofNat_eq_iff (a p : Fin 16) : (BitVec.ofNat 32 a.val).toInt = (p.val : ℤ) ↔ a = p := by
  rw [toInt_ofNat_lt16 _ a.isLt]
  constructor
  · intro h; exact Fin.ext (by exact_mod_cast h)
  · intro h; rw [h]

/-- Start indices that are the words of the rows' graph ids select, for graph g, the rows of graph g. -/
private theorem filter_gE (idx : IVec ⟨2, ![557056, 1]⟩ 32)
    (hidx : ∀ e : Fin 557056, idx (ix2 e (0 : Fin 1)) = BitVec.ofNat 32 (gE e).val) (g : Fin 16) :
    Finset.univ.filter (fun e : Fin 557056 => (idx (ix2 e (0 : Fin 1))).toInt = (g.val : ℤ))
      = Finset.univ.filter (fun e => gE e = g) :=
  Finset.filter_congr fun e _ => by rw [hidx e]; exact toInt_ofNat_eq_iff (gE e) g

/-! ## The dense layer on the edge rows -/

theorem v222_eq (A : Args) (hA : A.Ok) (e : Fin 557056) (c : Fin 128) : R222 A (ix2 e c) = gact A e c := by
  have hsum : (∑ k : Fin 128, val_main_v217 (F := Ideal) A.x A.atom A.aa A.ei A.W1 A.b1 A.W2 A.b2 A.W3 A.b3 A.W4 A.b4 A.Wd A.bd A.atomEmb A.aaEmb A.wc A.bc A.wn A.bn A.We A.be A.wle A.ble (lidx_main_v218 (ix2 e c) k) * A.Wg (ridx_main_v218 (ix2 e c) k))
      = ∑ k : Fin 128, attr A e k * A.Wg (ix2 k c) :=
    Finset.sum_congr rfl fun k _ => by
      rw [show lidx_main_v218 (ix2 e c) k = ix2 e k from by idx2, show ridx_main_v218 (ix2 e c) k = ix2 k c from by idx2]
      exact congrArg (· * A.Wg (ix2 k c)) (v217_eq A hA e k)
  unfold R222
  rw [val_main_v222_apply, val_main_v221_apply, val_main_v218_apply, hsum, val_main_v220_apply, val_main_v219_apply,
    show idx_main_v219 (idx_main_v220 (ix2 e c)) = ix1 c from by idx1, val_main_call6_v0_apply, val_main_call6_cst_apply,
    Ideal.ofBits_def, Cert.LibReal.ofBits_zero]
  rfl

/-! ## The per-graph averages -/

/-- The start indices of the two scatters by graph: row e's is the word of its graph id. -/
private theorem h225 (e : Fin 557056) : val_main_v225 (F := Ideal) (ix2 e (0 : Fin 1)) = BitVec.ofNat 32 (gE e).val := by
  rw [val_main_v225_apply, show idx_main_v225 (ix2 e (0 : Fin 1)) = ix1 e from by idx1]
  exact v6_apply e
private theorem h228 (e : Fin 557056) : val_main_v228 (F := Ideal) (ix2 e (0 : Fin 1)) = BitVec.ofNat 32 (gE e).val := by
  rw [val_main_v228_apply, show idx_main_v228 (ix2 e (0 : Fin 1)) = ix1 e from by idx1]
  exact v6_apply e

/-- Scattering a one per edge row by graph counts each graph's 34816 rows. -/
private theorem L226 (g : Fin 16) : val_main_v226 (F := Ideal) (ix1 g) = cntP := by
  have h223 : ∀ n, val_main_v223 (F := Ideal) n = (1 : EReal) := fun n => by
    rw [val_main_v223_apply, val_main_cst_43_apply, Ideal.ofBits_def, Cert.LibReal.ofBits_one]
  unfold val_main_v226
  rw [hostScatterAdd_eq, Cert.LibScatterAdd.scatterAdd_flat_apply scatter_S16_S557056x1_S557056_n_0_0_1 rfl rfl rfl rfl,
    val_main_v224_apply, val_main_cst_44_apply, Ideal.ofBits_def, Cert.LibReal.ofBits_zero, zero_add]
  refine (sum_filter_idx1 (fun e : Fin 557056 => (val_main_v225 (F := Ideal) (ix2 e (0 : Fin 1))).toInt = (g.val : ℤ)) _).trans ?_
  rw [filter_gE _ h225 g]
  simp only [h223]
  rw [sum_one_eq, Cert.LibSeg.card_filter_gE g]
  show (((34816 : ℕ) : ℝ) : EReal) = ((34816 : ℝ) : EReal)
  norm_num

/-- Scattering the dense layer's rows by graph sums each graph's rows. -/
private theorem L229 (A : Args) (hA : A.Ok) (g : Fin 16) (c : Fin 128) :
    val_main_v229 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix2 g c) = ∑ e ∈ Finset.univ.filter (fun e => gE e = g), gact A e c := by
  unfold val_main_v229
  rw [hostScatterAdd_eq, Cert.LibScatterAdd.scatterAdd_rows_apply scatter_S16x128_S557056x1_S557056x128_1_0_0_1 rfl rfl rfl rfl,
    val_main_v227_apply, val_main_cst_45_apply, Ideal.ofBits_def, Cert.LibReal.ofBits_zero, zero_add, filter_gE _ h228 g]
  exact Finset.sum_congr rfl fun e _ => v222_eq A hA e c

theorem v232_eq (A : Args) (hA : A.Ok) (g : Fin 16) (c : Fin 128) : R232 A (ix2 g c) = pooled A g c := by
  unfold R232
  rw [val_main_v232_apply, L229 A hA g c, val_main_v231_apply, val_main_v230_apply,
    show idx_main_v230 (idx_main_v231 (ix2 g c)) = ix1 g from by idx1, L226 g]
  rfl

end Cert.RefVal

end
-- ==== Proof.RefGlobLN.lean ====
/-
  The reference's third result: each graph's 128 pooled values normalised by themselves (a graph layer norm whose groups are
  the single rows).
-/
import proofs.«402160_j53730040873195_3_alg».proof.Proof.RefStages
import proofs.«402160_j53730040873195_3_alg».proof.Proof.LibHostIdx
import proofs.«402160_j53730040873195_3_alg».proof.Proof.LibHostIdx2
import proofs.«402160_j53730040873195_3_alg».proof.Proof.LibGatherRowsAt
import proofs.«402160_j53730040873195_3_alg».proof.Proof.LibScatterAdd
import proofs.«402160_j53730040873195_3_alg».proof.Proof.LibPlainDot
import proofs.«402160_j53730040873195_3_alg».proof.Proof.LibReal
import proofs.«402160_j53730040873195_3_alg».proof.Proof.LibSeg
import proofs.«402160_j53730040873195_3_alg».proof.Proof.SpecFinite
import proofs.«402160_j53730040873195_3_alg».proof.Proof.RefEdge
import proofs.«402160_j53730040873195_3_alg».proof.Proof.RefGlob
import proofs.«402160_j53730040873195_3_alg».proof.Proof.RefNodeAux1

noncomputable section

namespace Cert.RefVal

open Cert.ReferenceIdeal Cert.ReferenceIdeal.Read Cert.Spec Idealize.ShloMosaic Idealize.ShloMosaic.ValueIdx
open Cert.LibReal Cert.RefNodeAux

/-! ## Sixteen rows, each its own group

The reference spells this layer norm like the others: sums per group by an accumulating scatter at a column of start
indices, reads per row by a take at the same column. Here the column holds the word of the row number itself, so a
group is one row: the scatter into zeros holds at g the update of row g, and the take reads entry n at row n. -/

/-- The word of a row number below sixteen reads back, signed, as the number. -/
private theorem toInt_id (g : Fin 16) : (BitVec.ofNat 32 g.val).toInt = (g.val : ℤ) :=
  HostIdx2.toInt_ofNat_of_lt (by have := g.isLt; omega)

section
variable (idx : IVec ⟨2, ![16, 1]⟩ 32) (hidx : ∀ m : Fin 16, idx (ix2 m (0 : Fin 1)) = BitVec.ofNat 32 m.val)
include hidx

/-- Row m's start index points at g exactly when m is g. -/
private theorem lands16 (m g : Fin 16) : (idx (ix2 m (0 : Fin 1))).toInt = (g.val : ℤ) ↔ m = g := by
  rw [hidx m, toInt_id m]
  constructor
  · intro h; exact Fin.ext (Nat.cast_inj.mp h)
  · intro h; rw [h]

/-- The accumulating scatter into zeros at that column holds at g the sum of the updates of the rows equal to g. -/
private theorem segsum16 (d : ScatterDims ⟨1, ![16]⟩ ⟨2, ![16, 1]⟩ ⟨1, ![16]⟩)
    (huw : d.updateWindowDims = []) (hiw : d.insertedWindowDims = [0]) (hsd : d.scatterDimsToOperandDims = [0])
    (hiv : d.indexVectorDim = 1)
    (x : (⟨1, ![16]⟩ : Shape).Idx → EReal) (hx : ∀ i, x i = 0)
    (upd : (⟨1, ![16]⟩ : Shape).Idx → EReal) (g : Fin 16) :
    Ideal.hostScatterAdd d x idx upd (ix1 g)
      = ∑ m ∈ Finset.univ.filter (fun m : Fin 16 => m = g), upd (ix1 m) := by
  rw [Cert.LibScatterAdd.scatterAdd_flat_apply d huw hiw hsd hiv, hx, zero_add]
  refine Finset.sum_nbij' (fun n => n 0) (fun m => ix1 m) ?_ ?_ ?_ ?_ ?_
  · intro n hn
    exact Finset.mem_filter.mpr ⟨Finset.mem_univ _, (lands16 idx hidx (n 0) g).mp (Finset.mem_filter.mp hn).2⟩
  · intro m hm
    exact Finset.mem_filter.mpr ⟨Finset.mem_univ _, (lands16 idx hidx m g).mpr (Finset.mem_filter.mp hm).2⟩
  · intro n _; exact (eq_ix1 n).symm
  · intro m _; rfl
  · intro n _; exact congrArg upd (eq_ix1 n)

/-- The take of a sixteen-entry vector at that column reads entry n at row n: the start index, read signed and clamped
    into the vector, is n. -/
private theorem take16 {α : Type} (d : GatherDims ⟨1, ![16]⟩ ⟨2, ![16, 1]⟩ ⟨1, ![16]⟩)
    (hcoll : d.collapsedSliceDims = [0]) (hob : d.operandBatchingDims = [])
    (hsim : d.startIndexMap = [0]) (hivd : d.indexVectorDim = 1)
    (x : (⟨1, ![16]⟩ : Shape).Idx → α) (n : Fin 16) :
    Host.gather d x idx (ix1 n) = x (ix1 n) := by
  rw [HostIdx.gather_take_ix d hcoll hob hsim hivd (by decide) x idx n]
  refine congrArg (fun k => x (ix1 k)) (Fin.ext ?_)
  show min (idx (ix2 n (0 : Fin 1))).toInt.toNat (16 - 1) = n.val
  have := n.isLt
  rw [hidx n, toInt_id n, Int.toNat_natCast]
  omega

end

/-! ## The columns of start indices: row m holds the word of m -/

private theorem v233_at (m : Fin 16) : val_main_v233 (F := Ideal) (ix1 m) = BitVec.ofNat 32 m.val :=
  val_main_v233_apply (ix1 m)

private theorem col_v236 (m : Fin 16) : val_main_v236 (F := Ideal) (ix2 m (0 : Fin 1)) = BitVec.ofNat 32 m.val := by
  have e : idx_main_v236 (ix2 m (0 : Fin 1)) = ix1 m := funext fun a => by match a with | ⟨0, _⟩ => rfl
  rw [val_main_v236_apply, e]
  exact v233_at m

private theorem col_v242 (m : Fin 16) : val_main_v242 (F := Ideal) (ix2 m (0 : Fin 1)) = BitVec.ofNat 32 m.val := by
  have e : idx_main_v242 (ix2 m (0 : Fin 1)) = ix1 m := funext fun a => by match a with | ⟨0, _⟩ => rfl
  rw [val_main_v242_apply, e]
  exact v233_at m

private theorem col_v258 (m : Fin 16) : val_main_v258 (F := Ideal) (ix2 m (0 : Fin 1)) = BitVec.ofNat 32 m.val := by
  have e : idx_main_v258 (ix2 m (0 : Fin 1)) = ix1 m := funext fun a => by match a with | ⟨0, _⟩ => rfl
  rw [val_main_v258_apply, e]
  exact v233_at m

/-- The wrap of negative start indices leaves a row number below sixteen alone. -/
private theorem col_v250 (m : Fin 16) : val_main_v250 (F := Ideal) (ix2 m (0 : Fin 1)) = BitVec.ofNat 32 m.val := by
  have e : idx_main_v250 (ix2 m (0 : Fin 1)) = ix1 m := funext fun a => by match a with | ⟨0, _⟩ => rfl
  rw [val_main_v250_apply, e, val_main_v249_apply, val_main_v246_apply, val_main_v248_apply, val_main_v245_apply,
    val_main_v247_apply, val_main_c_51_apply, val_main_c_52_apply, v233_at m]
  exact wrap_id m

private theorem col_v269 (m : Fin 16) : val_main_v269 (F := Ideal) (ix2 m (0 : Fin 1)) = BitVec.ofNat 32 m.val := by
  have e : idx_main_v269 (ix2 m (0 : Fin 1)) = ix1 m := funext fun a => by match a with | ⟨0, _⟩ => rfl
  rw [val_main_v269_apply, e, val_main_v268_apply, val_main_v265_apply, val_main_v267_apply, val_main_v264_apply,
    val_main_v266_apply, val_main_c_56_apply, val_main_c_57_apply, v233_at m]
  exact wrap_id m

/-! ## The count of a group's entries: one row of 128 features -/

private theorem s237 (g : Fin 16) : val_main_v237 (F := Ideal) (ix1 g) = 1 := by
  have e : ∀ m : Fin 16, val_main_v234 (F := Ideal) (ix1 m) = 1 :=
    fun m => (val_main_v234_apply (ix1 m)).trans ((val_main_cst_46_apply _).trans ofBits_one)
  refine (segsum16 (val_main_v236 (F := Ideal)) col_v236 scatter_S16_S16x1_S16_n_0_0_1 rfl rfl rfl rfl (val_main_v235 (F := Ideal))
    (fun i => (val_main_v235_apply i).trans ((val_main_cst_47_apply _).trans ofBits_zero)) (val_main_v234 (F := Ideal)) g).trans ?_
  simp only [e]
  exact Cert.LibSeg.sum_filter_eq (fun _ => (1 : EReal)) g

private theorem s239 (g : Fin 16) : val_main_v239 (F := Ideal) (ix1 g) = cntG := by
  rw [val_main_v239_apply, s237 g, val_main_v238_apply, val_main_cst_48_apply, Ideal.ofBits_def, ofBits_128, Ideal.mulf_def]
  exact one_mul _

/-! ## The mean -/

private theorem s240 (A : Args) (hA : A.Ok) (g : Fin 16) : val_main_v240 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = ∑ c, pooled A g c := by
  rw [val_main_v240_apply, val_main_cst_49_apply, Ideal.ofBits_def, ofBits_zero, zero_add]
  refine Finset.sum_congr rfl fun c _ => ?_
  have e : idx_main_v240 (ix1 g) c = ix2 g c := funext fun a => by match a with | ⟨0, _⟩ => rfl | ⟨1, _⟩ => rfl
  rw [e]
  exact v232_eq A hA g c

private theorem s243 (A : Args) (hA : A.Ok) (g : Fin 16) :
    val_main_v243 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = ∑ m ∈ Finset.univ.filter (fun m : Fin 16 => m = g), ∑ c, pooled A m c := by
  refine (segsum16 (val_main_v242 (F := Ideal)) col_v242 scatter_S16_S16x1_S16_n_0_0_1 rfl rfl rfl rfl (val_main_v241 (F := Ideal))
    (fun i => (val_main_v241_apply i).trans ((val_main_cst_50_apply _).trans ofBits_zero)) (val_main_v240 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg) g).trans ?_
  exact Finset.sum_congr rfl fun m _ => s240 A hA m

private theorem s244 (A : Args) (hA : A.Ok) (g : Fin 16) : val_main_v244 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = gmean (fun g : Fin 16 => g) cntG (pooled A) g := by
  rw [val_main_v244_apply, s243 A hA g, s239 g]
  rfl

private theorem s251 (A : Args) (hA : A.Ok) (n : Fin 16) : val_main_v251 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 n) = gmean (fun g : Fin 16 => g) cntG (pooled A) n :=
  (take16 (val_main_v250 (F := Ideal)) col_v250 gather_S16_S16x1_S16_n_0_n_n_0_1_1 rfl rfl rfl rfl (val_main_v244 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg) n).trans (s244 A hA n)

private theorem s253 (A : Args) (hA : A.Ok) (g : Fin 16) (c : Fin 128) : val_main_v253 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix2 g c) = gmean (fun g : Fin 16 => g) cntG (pooled A) g := by
  have e : idx_main_v252 (idx_main_v253 (ix2 g c)) = ix1 g := funext fun a => by match a with | ⟨0, _⟩ => rfl
  rw [val_main_v253_apply, val_main_v252_apply, e]
  exact s251 A hA g

/-! ## The centred entries and the variance -/

private theorem s254 (A : Args) (hA : A.Ok) (g : Fin 16) (c : Fin 128) : val_main_v254 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix2 g c) = gcen (fun g : Fin 16 => g) cntG (pooled A) g c := by
  have h2 : val_main_v232 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix2 g c) = pooled A g c := v232_eq A hA g c
  rw [val_main_v254_apply, s253 A hA g c, h2]
  rfl

private theorem s256 (A : Args) (hA : A.Ok) (g : Fin 16) :
    val_main_v256 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = ∑ c, gcen (fun g : Fin 16 => g) cntG (pooled A) g c * gcen (fun g : Fin 16 => g) cntG (pooled A) g c := by
  rw [val_main_v256_apply, val_main_cst_53_apply, Ideal.ofBits_def, ofBits_zero, zero_add]
  refine Finset.sum_congr rfl fun c _ => ?_
  have e : idx_main_v256 (ix1 g) c = ix2 g c := funext fun a => by match a with | ⟨0, _⟩ => rfl | ⟨1, _⟩ => rfl
  rw [e, val_main_v255_apply, s254 A hA g c]
  rfl

private theorem s259 (A : Args) (hA : A.Ok) (g : Fin 16) :
    val_main_v259 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = ∑ m ∈ Finset.univ.filter (fun m : Fin 16 => m = g),
      ∑ c, gcen (fun g : Fin 16 => g) cntG (pooled A) m c * gcen (fun g : Fin 16 => g) cntG (pooled A) m c := by
  refine (segsum16 (val_main_v258 (F := Ideal)) col_v258 scatter_S16_S16x1_S16_n_0_0_1 rfl rfl rfl rfl (val_main_v257 (F := Ideal))
    (fun i => (val_main_v257_apply i).trans ((val_main_cst_54_apply _).trans ofBits_zero)) (val_main_v256 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg) g).trans ?_
  exact Finset.sum_congr rfl fun m _ => s256 A hA m

private theorem s260 (A : Args) (hA : A.Ok) (g : Fin 16) : val_main_v260 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = gvar (fun g : Fin 16 => g) cntG (pooled A) g := by
  rw [val_main_v260_apply, s259 A hA g, s239 g]
  rfl

/-! ## The square root per group, read per row -/

private theorem s263 (A : Args) (hA : A.Ok) (g : Fin 16) : val_main_v263 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 g) = Ideal.sqrt (gvar (fun g : Fin 16 => g) cntG (pooled A) g + eps) := by
  rw [val_main_v263_apply, val_main_v262_apply, s260 A hA g, val_main_v261_apply, val_main_cst_55_apply]
  rfl

private theorem s270 (A : Args) (hA : A.Ok) (n : Fin 16) : val_main_v270 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix1 n) = Ideal.sqrt (gvar (fun g : Fin 16 => g) cntG (pooled A) n + eps) :=
  (take16 (val_main_v269 (F := Ideal)) col_v269 gather_S16_S16x1_S16_n_0_n_n_0_1_1 rfl rfl rfl rfl (val_main_v263 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg) n).trans (s263 A hA n)

private theorem s272 (A : Args) (hA : A.Ok) (g : Fin 16) (c : Fin 128) :
    val_main_v272 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix2 g c) = Ideal.sqrt (gvar (fun g : Fin 16 => g) cntG (pooled A) g + eps) := by
  have e : idx_main_v271 (idx_main_v272 (ix2 g c)) = ix1 g := funext fun a => by match a with | ⟨0, _⟩ => rfl
  rw [val_main_v272_apply, val_main_v271_apply, e]
  exact s270 A hA g

/-- The quotient by the square root is the product with the reciprocal square root: the variance is a non-negative real. -/
private theorem s273 (A : Args) (hA : A.Ok) (g : Fin 16) (c : Fin 128) :
    val_main_v273 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg (ix2 g c) = gcen (fun g : Fin 16 => g) cntG (pooled A) g c * Ideal.rsqrt (gvar (fun g : Fin 16 => g) cntG (pooled A) g + eps) := by
  obtain ⟨h0, hr⟩ := Cert.SpecFinite.gvar_nonneg (fun g : Fin 16 => g) 128 (by norm_num) (pooled A) (Cert.SpecFinite.pooled_real A hA) g
  rw [val_main_v273_apply, s254 A hA g c, s272 A hA g c, Ideal.hostDivf_def]
  exact div_sqrt_eq_mul_rsqrt _ _ hr h0

/-! ## The third result -/

theorem v279_eq (A : Args) (hA : A.Ok) (g : Fin 16) (c : Fin 128) : R279 A (ix2 g c) = u A g c := by
  have e1 : idx_main_v274 (idx_main_v275 (ix2 g c)) = ix1 c := funext fun a => by match a with | ⟨0, _⟩ => rfl
  have e2 : idx_main_v277 (idx_main_v278 (ix2 g c)) = ix1 c := funext fun a => by match a with | ⟨0, _⟩ => rfl
  show val_main_v279 (F := Ideal) A.x A.atom A.aa A.ei A.W1 A.b1 A.W2 A.b2 A.W3 A.b3 A.W4 A.b4 A.Wd A.bd A.atomEmb A.aaEmb A.wc A.bc A.wn A.bn A.We A.be A.wle A.ble A.Wg A.bg A.wlg A.blg (ix2 g c) = _
  rw [val_main_v279_apply, val_main_v276_apply, s273 A hA g c, val_main_v275_apply, val_main_v274_apply, e1,
    val_main_v278_apply, val_main_v277_apply, e2]
  rfl

end Cert.RefVal

end
-- ==== Proof.RefRunSeq.lean ====
/-
  The reference's @main as ONE list of its operations, in order, and its run in the form: every weakly fair execution
  terminates, nothing faulting, and every buffer ends at what the operations, applied in order, leave of the launch contents.
-/
import proofs.«402160_j53730040873195_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All 354 operations of @main, in order: the six windows' lists joined. -/
def opsAll : List (HloOp τ sig (Elt F)) :=
  ops_part0 ++ (ops_part1 ++ (ops_part2 ++ (ops_part3 ++ (ops_part4 ++ ops_part5))))

/-! ## Each window of @main is the straight line of its list

A window is a chain of single-operation steps; a called function's body is such a chain over the call's own buffers, so
with the calls unfolded the window and the line over its list are the same chain once sequencing is re-associated, which
holds by computation. -/

set_option maxRecDepth 8192 in
set_option maxHeartbeats 4000000 in
private theorem main_part0_eq (c : Dev nD) : main_part0 (F := F) c = seq ops_part0 := rfl

set_option maxRecDepth 8192 in
set_option maxHeartbeats 4000000 in
private theorem main_part1_eq (c : Dev nD) : main_part1 (F := F) c = seq ops_part1 := rfl

set_option maxRecDepth 8192 in
set_option maxHeartbeats 4000000 in
private theorem main_part2_eq (c : Dev nD) : main_part2 (F := F) c = seq ops_part2 := rfl

set_option maxRecDepth 8192 in
set_option maxHeartbeats 4000000 in
private theorem main_part3_eq (c : Dev nD) : main_part3 (F := F) c = seq ops_part3 := rfl

set_option maxRecDepth 8192 in
set_option maxHeartbeats 4000000 in
private theorem main_part4_eq (c : Dev nD) : main_part4 (F := F) c = seq ops_part4 := rfl

set_option maxRecDepth 8192 in
set_option maxHeartbeats 4000000 in
private theorem main_part5_eq (c : Dev nD) : main_part5 (F := F) c = seq ops_part5 := rfl

/-- @main runs its six windows one after the other, and two lines run one after the other are their concatenation run as
    one (`seq_append`). -/
private theorem main_eq (c : Dev nD) : main (F := F) c = seq (opsAll (F := F)) := by
  simp only [opsAll, seq_append, ← main_part0_eq c, ← main_part1_eq c, ← main_part2_eq c, ← main_part3_eq c,
    ← main_part4_eq c, ← main_part5_eq c]
  rfl

/-- The signature scopes no TensorCore reference and no semaphore. -/
private theorem scopedRefs_eq : (Finset.univ.filter fun b : Ref sig .tc => b.isScoped) = ∅ := by decide
private theorem scopedSems_eq : (Finset.univ.filter fun sm : SemLoc sig => sm.isScoped .tc) = ∅ := by decide

/-! ## Every operation touches TensorCore references only, and determines all it writes

Both are facts of each builder (its buffers are the references it is given; it marks no written buffer as left to the
machine), stated operation by operation along each window's list and carried to the joined list through membership in a
concatenation. -/

set_option maxRecDepth 8192 in
private theorem ops_part0_sub : (ops_part0 : List (HloOp τ sig (Elt F))).Forall fun op => op.bufs ⊆ tcRefs τ sig := by
  unfold ops_part0
  exact ⟨
    nullary_bufs_sub .., unary_bufs_sub .., reshape_bufs_sub .., nullary_bufs_sub .., unary_bufs_sub .., reshape_bufs_sub ..,
    binary_bufs_sub .., unary_bufs_sub .., reshape_bufs_sub .., nullary_bufs_sub .., binary_bufs_sub .., unary_bufs_sub ..,
    reshape_bufs_sub .., nullary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    nullary_bufs_sub .., binary_bufs_sub .., nullary_bufs_sub .., unary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    unary_bufs_sub .., ternary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..⟩

set_option maxRecDepth 8192 in
private theorem ops_part0_fresh : (ops_part0 : List (HloOp τ sig (Elt F))).Forall fun op => op.fresh = ∅ := by
  unfold ops_part0
  exact ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
private theorem ops_part1_sub : (ops_part1 : List (HloOp τ sig (Elt F))).Forall fun op => op.bufs ⊆ tcRefs τ sig := by
  unfold ops_part1
  exact ⟨
    binary_bufs_sub .., ternary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., reshape_bufs_sub .., binary_bufs_sub .., binary_bufs_sub ..⟩

set_option maxRecDepth 8192 in
private theorem ops_part1_fresh : (ops_part1 : List (HloOp τ sig (Elt F))).Forall fun op => op.fresh = ∅ := by
  unfold ops_part1
  exact ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
private theorem ops_part2_sub : (ops_part2 : List (HloOp τ sig (Elt F))).Forall fun op => op.bufs ⊆ tcRefs τ sig := by
  unfold ops_part2
  exact ⟨
    nullary_bufs_sub .., unary_bufs_sub .., nullary_bufs_sub .., unary_bufs_sub .., unary_bufs_sub .., ternary_bufs_sub ..,
    nullary_bufs_sub .., unary_bufs_sub .., binary_bufs_sub .., nullary_bufs_sub .., binary_bufs_sub .., nullary_bufs_sub ..,
    unary_bufs_sub .., unary_bufs_sub .., ternary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., unary_bufs_sub .., ternary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..⟩

set_option maxRecDepth 8192 in
private theorem ops_part2_fresh : (ops_part2 : List (HloOp τ sig (Elt F))).Forall fun op => op.fresh = ∅ := by
  unfold ops_part2
  exact ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
private theorem ops_part3_sub : (ops_part3 : List (HloOp τ sig (Elt F))).Forall fun op => op.bufs ⊆ tcRefs τ sig := by
  unfold ops_part3
  exact ⟨
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    nullary_bufs_sub .., binary_bufs_sub .., nullary_bufs_sub .., unary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    unary_bufs_sub .., ternary_bufs_sub ..⟩

set_option maxRecDepth 8192 in
private theorem ops_part3_fresh : (ops_part3 : List (HloOp τ sig (Elt F))).Forall fun op => op.fresh = ∅ := by
  unfold ops_part3
  exact ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 8192 in
private theorem ops_part4_sub : (ops_part4 : List (HloOp τ sig (Elt F))).Forall fun op => op.bufs ⊆ tcRefs τ sig := by
  unfold ops_part4
  exact ⟨
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., nullary_bufs_sub .., unary_bufs_sub .., unary_bufs_sub .., ternary_bufs_sub ..,
    nullary_bufs_sub .., unary_bufs_sub .., unary_bufs_sub .., ternary_bufs_sub .., unary_bufs_sub .., unary_bufs_sub ..,
    binary_bufs_sub .., nullary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    binary_bufs_sub .., nullary_bufs_sub .., unary_bufs_sub .., unary_bufs_sub .., ternary_bufs_sub .., binary_bufs_sub ..,
    nullary_bufs_sub .., unary_bufs_sub ..⟩

set_option maxRecDepth 8192 in
private theorem ops_part4_fresh : (ops_part4 : List (HloOp τ sig (Elt F))).Forall fun op => op.fresh = ∅ := by
  unfold ops_part4
  exact ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

set_option maxRecDepth 8192 in
private theorem ops_part5_sub : (ops_part5 : List (HloOp τ sig (Elt F))).Forall fun op => op.bufs ⊆ tcRefs τ sig := by
  unfold ops_part5
  exact ⟨
    binary_bufs_sub .., nullary_bufs_sub .., unary_bufs_sub .., binary_bufs_sub .., ternary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., unary_bufs_sub .., ternary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

set_option maxRecDepth 8192 in
private theorem ops_part5_fresh : (ops_part5 : List (HloOp τ sig (Elt F))).Forall fun op => op.fresh = ∅ := by
  unfold ops_part5
  exact ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Membership in the joined list is membership in one of the six. -/
private theorem mem_opsAll {op : HloOp τ sig (Elt F)} (h : op ∈ (opsAll (F := F))) :
    op ∈ (ops_part0 (F := F)) ∨ op ∈ (ops_part1 (F := F)) ∨ op ∈ (ops_part2 (F := F)) ∨ op ∈ (ops_part3 (F := F))
      ∨ op ∈ (ops_part4 (F := F)) ∨ op ∈ (ops_part5 (F := F)) := by
  simpa only [opsAll, List.mem_append] using h

private theorem opsAll_sub : (opsAll : List (HloOp τ sig (Elt F))).Forall fun op => op.bufs ⊆ tcRefs τ sig :=
  List.forall_iff_forall_mem.mpr fun op h => by
    rcases mem_opsAll h with h | h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h]

private theorem opsAll_fresh : ∀ op ∈ (opsAll : List (HloOp τ sig (Elt F))), op.fresh = ∅ := fun op h => by
  rcases mem_opsAll h with h | h | h | h | h | h
  exacts [List.forall_iff_forall_mem.mp ops_part0_fresh op h, List.forall_iff_forall_mem.mp ops_part1_fresh op h,
    List.forall_iff_forall_mem.mp ops_part2_fresh op h, List.forall_iff_forall_mem.mp ops_part3_fresh op h,
    List.forall_iff_forall_mem.mp ops_part4_fresh op h, List.forall_iff_forall_mem.mp ops_part5_fresh op h]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (opsAll (F := F)) (StableHlo.launchContents m d) (Proc.devRef .tc b) :=
  run_seq scopedRefs_eq scopedSems_eq defs main (fun _ => opsAll) main_eq (fun _ => opsAll_sub) m ρ
    (hfresh := fun _ => opsAll_fresh)

end Cert.ReferenceIdeal.RefRun

end
-- ==== Proof.RefRunValsAux0.lean ====
/-
  The reference's 354 operations cut at the positions 0, 60, 130, 190, 252, 314, 354: for each cut, the buffers an operation at or after the cut
  still reads (and the three results once written), each at its stage as a function of the contents V0 of the arguments, and the
  arguments still to be read, each at its contents in V0. A table: one line per buffer.
-/
import proofs.«402160_j53730040873195_3_alg».proof.Proof.RefRead
import proofs.«402160_j53730040873195_3_alg».proof.Proof.RefRunSeq

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- What is still to be read before operation 0. -/
def Cut0 (V V0 : Valuation τ sig (Elt F)) : Prop :=
  V (Proc.devRef .tc main_arg0) = V0 (Proc.devRef .tc main_arg0)
  ∧ V (Proc.devRef .tc main_arg1) = V0 (Proc.devRef .tc main_arg1)
  ∧ V (Proc.devRef .tc main_arg2) = V0 (Proc.devRef .tc main_arg2)
  ∧ V (Proc.devRef .tc main_arg3) = V0 (Proc.devRef .tc main_arg3)
  ∧ V (Proc.devRef .tc main_arg4) = V0 (Proc.devRef .tc main_arg4)
  ∧ V (Proc.devRef .tc main_arg5) = V0 (Proc.devRef .tc main_arg5)
  ∧ V (Proc.devRef .tc main_arg6) = V0 (Proc.devRef .tc main_arg6)
  ∧ V (Proc.devRef .tc main_arg7) = V0 (Proc.devRef .tc main_arg7)
  ∧ V (Proc.devRef .tc main_arg8) = V0 (Proc.devRef .tc main_arg8)
  ∧ V (Proc.devRef .tc main_arg9) = V0 (Proc.devRef .tc main_arg9)
  ∧ V (Proc.devRef .tc main_arg10) = V0 (Proc.devRef .tc main_arg10)
  ∧ V (Proc.devRef .tc main_arg11) = V0 (Proc.devRef .tc main_arg11)
  ∧ V (Proc.devRef .tc main_arg12) = V0 (Proc.devRef .tc main_arg12)
  ∧ V (Proc.devRef .tc main_arg13) = V0 (Proc.devRef .tc main_arg13)
  ∧ V (Proc.devRef .tc main_arg14) = V0 (Proc.devRef .tc main_arg14)
  ∧ V (Proc.devRef .tc main_arg15) = V0 (Proc.devRef .tc main_arg15)
  ∧ V (Proc.devRef .tc main_arg16) = V0 (Proc.devRef .tc main_arg16)
  ∧ V (Proc.devRef .tc main_arg17) = V0 (Proc.devRef .tc main_arg17)
  ∧ V (Proc.devRef .tc main_arg18) = V0 (Proc.devRef .tc main_arg18)
  ∧ V (Proc.devRef .tc main_arg19) = V0 (Proc.devRef .tc main_arg19)
  ∧ V (Proc.devRef .tc main_arg20) = V0 (Proc.devRef .tc main_arg20)
  ∧ V (Proc.devRef .tc main_arg21) = V0 (Proc.devRef .tc main_arg21)
  ∧ V (Proc.devRef .tc main_arg22) = V0 (Proc.devRef .tc main_arg22)
  ∧ V (Proc.devRef .tc main_arg23) = V0 (Proc.devRef .tc main_arg23)
  ∧ V (Proc.devRef .tc main_arg24) = V0 (Proc.devRef .tc main_arg24)
  ∧ V (Proc.devRef .tc main_arg25) = V0 (Proc.devRef .tc main_arg25)
  ∧ V (Proc.devRef .tc main_arg26) = V0 (Proc.devRef .tc main_arg26)
  ∧ V (Proc.devRef .tc main_arg27) = V0 (Proc.devRef .tc main_arg27)

/-- What is still to be read before operation 60. -/
def Cut1 (V V0 : Valuation τ sig (Elt F)) : Prop :=
  V (Proc.devRef .tc main_v2) = val_main_v2 (F := F)
  ∧ V (Proc.devRef .tc main_v6) = val_main_v6 (F := F)
  ∧ V (Proc.devRef .tc main_v10) = val_main_v10 (F := F) (V0 (Proc.devRef .tc main_arg3))
  ∧ V (Proc.devRef .tc main_v14) = val_main_v14 (F := F) (V0 (Proc.devRef .tc main_arg3))
  ∧ V (Proc.devRef .tc main_v35) = val_main_v35 (F := F) (V0 (Proc.devRef .tc main_arg0))
  ∧ V (Proc.devRef .tc main_v44) = val_main_v44 (F := F) (V0 (Proc.devRef .tc main_arg0))
  ∧ V (Proc.devRef .tc main_v46) = val_main_v46 (F := F)
  ∧ V (Proc.devRef .tc main_v47) = val_main_v47 (F := F)
  ∧ V (Proc.devRef .tc main_arg1) = V0 (Proc.devRef .tc main_arg1)
  ∧ V (Proc.devRef .tc main_arg2) = V0 (Proc.devRef .tc main_arg2)
  ∧ V (Proc.devRef .tc main_arg4) = V0 (Proc.devRef .tc main_arg4)
  ∧ V (Proc.devRef .tc main_arg5) = V0 (Proc.devRef .tc main_arg5)
  ∧ V (Proc.devRef .tc main_arg6) = V0 (Proc.devRef .tc main_arg6)
  ∧ V (Proc.devRef .tc main_arg7) = V0 (Proc.devRef .tc main_arg7)
  ∧ V (Proc.devRef .tc main_arg8) = V0 (Proc.devRef .tc main_arg8)
  ∧ V (Proc.devRef .tc main_arg9) = V0 (Proc.devRef .tc main_arg9)
  ∧ V (Proc.devRef .tc main_arg10) = V0 (Proc.devRef .tc main_arg10)
  ∧ V (Proc.devRef .tc main_arg11) = V0 (Proc.devRef .tc main_arg11)
  ∧ V (Proc.devRef .tc main_arg12) = V0 (Proc.devRef .tc main_arg12)
  ∧ V (Proc.devRef .tc main_arg13) = V0 (Proc.devRef .tc main_arg13)
  ∧ V (Proc.devRef .tc main_arg14) = V0 (Proc.devRef .tc main_arg14)
  ∧ V (Proc.devRef .tc main_arg15) = V0 (Proc.devRef .tc main_arg15)
  ∧ V (Proc.devRef .tc main_arg16) = V0 (Proc.devRef .tc main_arg16)
  ∧ V (Proc.devRef .tc main_arg17) = V0 (Proc.devRef .tc main_arg17)
  ∧ V (Proc.devRef .tc main_arg18) = V0 (Proc.devRef .tc main_arg18)
  ∧ V (Proc.devRef .tc main_arg19) = V0 (Proc.devRef .tc main_arg19)
  ∧ V (Proc.devRef .tc main_arg20) = V0 (Proc.devRef .tc main_arg20)
  ∧ V (Proc.devRef .tc main_arg21) = V0 (Proc.devRef .tc main_arg21)
  ∧ V (Proc.devRef .tc main_arg22) = V0 (Proc.devRef .tc main_arg22)
  ∧ V (Proc.devRef .tc main_arg23) = V0 (Proc.devRef .tc main_arg23)
  ∧ V (Proc.devRef .tc main_arg24) = V0 (Proc.devRef .tc main_arg24)
  ∧ V (Proc.devRef .tc main_arg25) = V0 (Proc.devRef .tc main_arg25)
  ∧ V (Proc.devRef .tc main_arg26) = V0 (Proc.devRef .tc main_arg26)
  ∧ V (Proc.devRef .tc main_arg27) = V0 (Proc.devRef .tc main_arg27)

/-- What is still to be read before operation 130. -/
def Cut2 (V V0 : Valuation τ sig (Elt F)) : Prop :=
  V (Proc.devRef .tc main_v2) = val_main_v2 (F := F)
  ∧ V (Proc.devRef .tc main_v6) = val_main_v6 (F := F)
  ∧ V (Proc.devRef .tc main_v10) = val_main_v10 (F := F) (V0 (Proc.devRef .tc main_arg3))
  ∧ V (Proc.devRef .tc main_v14) = val_main_v14 (F := F) (V0 (Proc.devRef .tc main_arg3))
  ∧ V (Proc.devRef .tc main_v103) = val_main_v103 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))
  ∧ V (Proc.devRef .tc main_arg18) = V0 (Proc.devRef .tc main_arg18)
  ∧ V (Proc.devRef .tc main_arg19) = V0 (Proc.devRef .tc main_arg19)
  ∧ V (Proc.devRef .tc main_arg20) = V0 (Proc.devRef .tc main_arg20)
  ∧ V (Proc.devRef .tc main_arg21) = V0 (Proc.devRef .tc main_arg21)
  ∧ V (Proc.devRef .tc main_arg22) = V0 (Proc.devRef .tc main_arg22)
  ∧ V (Proc.devRef .tc main_arg23) = V0 (Proc.devRef .tc main_arg23)
  ∧ V (Proc.devRef .tc main_arg24) = V0 (Proc.devRef .tc main_arg24)
  ∧ V (Proc.devRef .tc main_arg25) = V0 (Proc.devRef .tc main_arg25)
  ∧ V (Proc.devRef .tc main_arg26) = V0 (Proc.devRef .tc main_arg26)
  ∧ V (Proc.devRef .tc main_arg27) = V0 (Proc.devRef .tc main_arg27)

/-- What is still to be read before operation 190. -/
def Cut3 (V V0 : Valuation τ sig (Elt F)) : Prop :=
  V (Proc.devRef .tc main_v6) = val_main_v6 (F := F)
  ∧ V (Proc.devRef .tc main_v10) = val_main_v10 (F := F) (V0 (Proc.devRef .tc main_arg3))
  ∧ V (Proc.devRef .tc main_v14) = val_main_v14 (F := F) (V0 (Proc.devRef .tc main_arg3))
  ∧ V (Proc.devRef .tc main_v149) = val_main_v149 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))
  ∧ V (Proc.devRef .tc main_v150) = val_main_v150 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))
  ∧ V (Proc.devRef .tc main_v151) = val_main_v151 (F := F) (V0 (Proc.devRef .tc main_arg21))
  ∧ V (Proc.devRef .tc main_arg22) = V0 (Proc.devRef .tc main_arg22)
  ∧ V (Proc.devRef .tc main_arg23) = V0 (Proc.devRef .tc main_arg23)
  ∧ V (Proc.devRef .tc main_arg24) = V0 (Proc.devRef .tc main_arg24)
  ∧ V (Proc.devRef .tc main_arg25) = V0 (Proc.devRef .tc main_arg25)
  ∧ V (Proc.devRef .tc main_arg26) = V0 (Proc.devRef .tc main_arg26)
  ∧ V (Proc.devRef .tc main_arg27) = V0 (Proc.devRef .tc main_arg27)

/-- What is still to be read before operation 252. -/
def Cut4 (V V0 : Valuation τ sig (Elt F)) : Prop :=
  V (Proc.devRef .tc main_v6) = val_main_v6 (F := F)
  ∧ V (Proc.devRef .tc main_v149) = val_main_v149 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))
  ∧ V (Proc.devRef .tc main_v177) = val_main_v177 (F := F)
  ∧ V (Proc.devRef .tc main_v192) = val_main_v192 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))
  ∧ V (Proc.devRef .tc main_v197) = val_main_v197 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21))
  ∧ V (Proc.devRef .tc main_arg22) = V0 (Proc.devRef .tc main_arg22)
  ∧ V (Proc.devRef .tc main_arg23) = V0 (Proc.devRef .tc main_arg23)
  ∧ V (Proc.devRef .tc main_arg24) = V0 (Proc.devRef .tc main_arg24)
  ∧ V (Proc.devRef .tc main_arg25) = V0 (Proc.devRef .tc main_arg25)
  ∧ V (Proc.devRef .tc main_arg26) = V0 (Proc.devRef .tc main_arg26)
  ∧ V (Proc.devRef .tc main_arg27) = V0 (Proc.devRef .tc main_arg27)

/-- What is still to be read before operation 314. -/
def Cut5 (V V0 : Valuation τ sig (Elt F)) : Prop :=
  V (Proc.devRef .tc main_v149) = val_main_v149 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))
  ∧ V (Proc.devRef .tc main_v217) = val_main_v217 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23))
  ∧ V (Proc.devRef .tc main_v232) = val_main_v232 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25))
  ∧ V (Proc.devRef .tc main_v233) = val_main_v233 (F := F)
  ∧ V (Proc.devRef .tc main_v239) = val_main_v239 (F := F)
  ∧ V (Proc.devRef .tc main_v244) = val_main_v244 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25))
  ∧ V (Proc.devRef .tc main_v245) = val_main_v245 (F := F)
  ∧ V (Proc.devRef .tc main_arg26) = V0 (Proc.devRef .tc main_arg26)
  ∧ V (Proc.devRef .tc main_arg27) = V0 (Proc.devRef .tc main_arg27)

/-- What is still to be read before operation 354. -/
def Cut6 (V V0 : Valuation τ sig (Elt F)) : Prop :=
  V (Proc.devRef .tc main_v149) = val_main_v149 (F := F) (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))
  ∧ V (Proc.devRef .tc main_v217) = val_main_v217 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23))
  ∧ V (Proc.devRef .tc main_v279) = val_main_v279 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27))

end Cert.ReferenceIdeal.RefRun

end
-- ==== Proof.RefRunValsAux1.lean ====
/-
  Operations 0 to 59 of the reference: if, before them, every buffer still to be read is at its stage of the
  arguments' launch contents, then so is, after them, every buffer still to be read then.
-/
import proofs.«402160_j53730040873195_3_alg».proof.Proof.RefRunValsAux0

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- One operation's result read at a buffer, rewritten in place (also inside a joined list of operands): at the operation's own
    result buffer its function's value, at any other buffer what was there before. -/
local macro "peel_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 2000000 in
theorem step0 (V V0 : Valuation τ sig (Elt F)) (h : Cut0 V V0) :
    Cut1 (StableHlo.after (ops_part0 (F := F)) V) V0 := by
  unfold Cut0 at h
  have h3 : V (Proc.devRef .tc main_arg3) = V0 (Proc.devRef .tc main_arg3) := h.2.2.2.1
  unfold Cut1
  delta ops_part0
  after_results_simp
  simp only [h, TRef.ofBuf, TRef.toBuf, cast_eq, and_true, true_and]
  repeat' apply And.intro
  all_goals first | rfl | (peel_results; rw [h3]; rfl)

end Cert.ReferenceIdeal.RefRun

end
-- ==== Proof.RefRunValsAux2.lean ====
/-
  Operations 60 to 129 of the reference: if, before them, every buffer still to be read is at its stage of the
  arguments' launch contents, then so is, after them, every buffer still to be read then.
-/
import proofs.«402160_j53730040873195_3_alg».proof.Proof.RefRunValsAux0

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 2000000 in
theorem step1 (V V0 : Valuation τ sig (Elt F)) (h : Cut1 V V0) :
    Cut2 (StableHlo.after (ops_part1 (F := F)) V) V0 := by
  unfold Cut1 at h
  unfold Cut2
  delta ops_part1
  after_results_simp
  simp only [h, TRef.ofBuf, TRef.toBuf, cast_eq, and_true, true_and]
  repeat' apply And.intro
  all_goals rfl

end Cert.ReferenceIdeal.RefRun

end
-- ==== Proof.RefRunValsAux3.lean ====
/-
  Operations 130 to 189 of the reference: if, before them, every buffer still to be read is at its stage of the
  arguments' launch contents, then so is, after them, every buffer still to be read then.
-/
import proofs.«402160_j53730040873195_3_alg».proof.Proof.RefRunValsAux0

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 2000000 in
theorem step2 (V V0 : Valuation τ sig (Elt F)) (h : Cut2 V V0) :
    Cut3 (StableHlo.after (ops_part2 (F := F)) V) V0 := by
  unfold Cut2 at h
  unfold Cut3
  delta ops_part2
  after_results_simp
  simp only [h, TRef.ofBuf, TRef.toBuf, cast_eq, and_true, true_and]
  repeat' apply And.intro
  all_goals rfl

end Cert.ReferenceIdeal.RefRun

end
-- ==== Proof.RefRunValsAux4.lean ====
/-
  The reference's operations 190 … 251 (window 3 of @main) carry what is known of the buffers before operation 190 to what is
  known before operation 252.
-/
import proofs.«402160_j53730040873195_3_alg».proof.Proof.RefRunValsAux0

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 2000000 in
/-- After the window, a buffer the window does not write holds what it held, which the fact before the window names; a buffer
    the window writes holds the composition of the window's operations over the buffers live at its start, and with those read
    at their stages (the fact before the window) that composition is the buffer's own stage, by the stages' definitions
    (a called function's operation reads and writes through the identity conversions of its typed references). -/
theorem step3 (V V0 : Valuation τ sig (Elt F)) (h : Cut3 V V0) :
    Cut4 (StableHlo.after (ops_part3 (F := F)) V) V0 := by
  unfold Cut3 at h
  unfold Cut4
  delta ops_part3
  after_results_simp
  simp only [h, TRef.ofBuf, TRef.toBuf, cast_eq, true_and, and_true]
  repeat' apply And.intro
  all_goals rfl

end Cert.ReferenceIdeal.RefRun

end
-- ==== Proof.RefRunValsAux5.lean ====
/-
  The reference's operations 252 … 313 (window 4 of @main) carry what is known of the buffers before operation 252 to what is
  known before operation 314.
-/
import proofs.«402160_j53730040873195_3_alg».proof.Proof.RefRunValsAux0

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 2000000 in
/-- After the window, a buffer the window does not write holds what it held, which the fact before the window names; a buffer
    the window writes holds the composition of the window's operations over the buffers live at its start, and with those read
    at their stages (the fact before the window) that composition is the buffer's own stage, by the stages' definitions
    (a called function's operation reads and writes through the identity conversions of its typed references). -/
theorem step4 (V V0 : Valuation τ sig (Elt F)) (h : Cut4 V V0) :
    Cut5 (StableHlo.after (ops_part4 (F := F)) V) V0 := by
  unfold Cut4 at h
  unfold Cut5
  delta ops_part4
  after_results_simp
  simp only [h, TRef.ofBuf, TRef.toBuf, cast_eq, true_and, and_true]
  repeat' apply And.intro
  all_goals rfl

end Cert.ReferenceIdeal.RefRun

end
-- ==== Proof.RefRunValsAux6.lean ====
/-
  The reference's operations 314 … 353 (window 5 of @main) carry what is known of the buffers before operation 314 to what is
  known before operation 354.
-/
import proofs.«402160_j53730040873195_3_alg».proof.Proof.RefRunValsAux0

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 2000000 in
/-- After the window, a buffer the window does not write holds what it held, which the fact before the window names; a buffer
    the window writes holds the composition of the window's operations over the buffers live at its start, and with those read
    at their stages (the fact before the window) that composition is the buffer's own stage, by the stages' definitions
    (a called function's operation reads and writes through the identity conversions of its typed references). -/
theorem step5 (V V0 : Valuation τ sig (Elt F)) (h : Cut5 V V0) :
    Cut6 (StableHlo.after (ops_part5 (F := F)) V) V0 := by
  unfold Cut5 at h
  unfold Cut6
  delta ops_part5
  after_results_simp
  simp only [h, TRef.ofBuf, TRef.toBuf, cast_eq, true_and, and_true]
  repeat' apply And.intro
  all_goals rfl

end Cert.ReferenceIdeal.RefRun

end
-- ==== Proof.RefRunVals.lean ====
/-
  What the reference's operations leave in the three result buffers and in the argument buffers, from the launch contents:
  each result is its stage as a function of the arguments, and no operation writes an argument.
-/
import proofs.«402160_j53730040873195_3_alg».proof.Proof.RefRead
import proofs.«402160_j53730040873195_3_alg».proof.Proof.RefRunSeq
import proofs.«402160_j53730040873195_3_alg».proof.Proof.RefRunValsAux0
import proofs.«402160_j53730040873195_3_alg».proof.Proof.RefRunValsAux1
import proofs.«402160_j53730040873195_3_alg».proof.Proof.RefRunValsAux2
import proofs.«402160_j53730040873195_3_alg».proof.Proof.RefRunValsAux3
import proofs.«402160_j53730040873195_3_alg».proof.Proof.RefRunValsAux4
import proofs.«402160_j53730040873195_3_alg».proof.Proof.RefRunValsAux5
import proofs.«402160_j53730040873195_3_alg».proof.Proof.RefRunValsAux6

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The operations of two lists run one after the other are those of the joined list. -/
private theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- Before the first operation every argument is at its launch contents. -/
private theorem cut0_init (V0 : Valuation τ sig (Elt F)) : Cut0 V0 V0 := by
  unfold Cut0
  repeat' apply And.intro
  all_goals rfl

/-- After all operations the three results are at their stages of the launch contents of the arguments. -/
private theorem cut6_all (V0 : Valuation τ sig (Elt F)) : Cut6 (StableHlo.after (opsAll (F := F)) V0) V0 := by
  unfold opsAll
  rw [after_app, after_app, after_app, after_app, after_app]
  exact step5 _ _ (step4 _ _ (step3 _ _ (step2 _ _ (step1 _ _ (step0 _ _ (cut0_init V0))))))

variable (m : (ℓ : Loc nD τ sig) → Buf (Elt F) ℓ) (d : Dev nD)

theorem after_v149 :
    StableHlo.after (opsAll (F := F)) (StableHlo.launchContents m d) (Proc.devRef .tc main_v149)
      = val_main_v149 (F := F) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) := by
  have h := cut6_all (F := F) (StableHlo.launchContents m d)
  unfold Cut6 at h
  exact h.1
theorem after_v217 :
    StableHlo.after (opsAll (F := F)) (StableHlo.launchContents m d) (Proc.devRef .tc main_v217)
      = val_main_v217 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) := by
  have h := cut6_all (F := F) (StableHlo.launchContents m d)
  unfold Cut6 at h
  exact h.2.1
theorem after_v279 :
    StableHlo.after (opsAll (F := F)) (StableHlo.launchContents m d) (Proc.devRef .tc main_v279)
      = val_main_v279 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) (m ((d.tc : Thread nD τ).loc main_arg27)) := by
  have h := cut6_all (F := F) (StableHlo.launchContents m d)
  unfold Cut6 at h
  exact h.2.2

end Cert.ReferenceIdeal.RefRun

end
-- ==== Proof.RefRunArgs.lean ====
/-
  No operation of the reference's @main writes an argument buffer: after all of them each argument holds its launch contents.
-/
import proofs.«402160_j53730040873195_3_alg».proof.Proof.RefRunSeq

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is a reference of index at least 28. The 28 arguments are the references of
    index 0 to 27; every value an operation of @main defines has a later index. -/
private def WritesHigh (op : HloOp τ sig (Elt F)) : Prop :=
  ∃ y : Ref sig .tc, 28 ≤ y.idx.val ∧ op.writes = {Proc.devRef (τ := τ) .tc y}

/-- Such an operation writes no reference of index below 28: two references that are one device buffer are equal,
    and an index is not both below 28 and at least 28. -/
private theorem arg_not_written {op : HloOp τ sig (Elt F)} (h : WritesHigh op) {r : Ref sig .tc} (hr : r.idx.val < 28) :
    Proc.devRef (τ := τ) .tc r ∉ op.writes := by
  obtain ⟨y, hy, hw⟩ := h
  rw [hw, Finset.mem_singleton]
  intro e
  rw [Proc.devRef_injective _ e] at hr
  omega

/-! Each window's operations, one conjunct per operation: the written buffer is read off the operation (every builder
    writes its result reference and nothing else) and its index compared with 28. -/

private theorem high_part0 : (ops_part0 (F := F)).Forall WritesHigh := by
  unfold ops_part0
  simp only [List.Forall]
  repeat' apply And.intro
  all_goals exact ⟨_, by decide, rfl⟩

private theorem high_part1 : (ops_part1 (F := F)).Forall WritesHigh := by
  unfold ops_part1
  simp only [List.Forall]
  repeat' apply And.intro
  all_goals exact ⟨_, by decide, rfl⟩

private theorem high_part2 : (ops_part2 (F := F)).Forall WritesHigh := by
  unfold ops_part2
  simp only [List.Forall]
  repeat' apply And.intro
  all_goals exact ⟨_, by decide, rfl⟩

private theorem high_part3 : (ops_part3 (F := F)).Forall WritesHigh := by
  unfold ops_part3
  simp only [List.Forall]
  repeat' apply And.intro
  all_goals exact ⟨_, by decide, rfl⟩

private theorem high_part4 : (ops_part4 (F := F)).Forall WritesHigh := by
  unfold ops_part4
  simp only [List.Forall]
  repeat' apply And.intro
  all_goals exact ⟨_, by decide, rfl⟩

private theorem high_part5 : (ops_part5 (F := F)).Forall WritesHigh := by
  unfold ops_part5
  simp only [List.Forall]
  repeat' apply And.intro
  all_goals exact ⟨_, by decide, rfl⟩

/-- Every operation of @main is of that kind: a member of the joined list is a member of one of the six windows. -/
private theorem high_all : ∀ op ∈ (opsAll (F := F)), WritesHigh op := by
  intro op h
  unfold opsAll at h
  rcases List.mem_append.mp h with h | h
  · exact List.forall_iff_forall_mem.mp high_part0 op h
  rcases List.mem_append.mp h with h | h
  · exact List.forall_iff_forall_mem.mp high_part1 op h
  rcases List.mem_append.mp h with h | h
  · exact List.forall_iff_forall_mem.mp high_part2 op h
  rcases List.mem_append.mp h with h | h
  · exact List.forall_iff_forall_mem.mp high_part3 op h
  rcases List.mem_append.mp h with h | h
  · exact List.forall_iff_forall_mem.mp high_part4 op h
  · exact List.forall_iff_forall_mem.mp high_part5 op h

variable (m : (ℓ : Loc nD τ sig) → Buf (Elt F) ℓ) (d : Dev nD)

/-- A reference of index below 28 is written by no operation of @main, so after all of them it holds its launch
    contents. -/
private theorem arg_kept (r : Ref sig .tc) (hr : r.idx.val < 28) :
    StableHlo.after (opsAll (F := F)) (StableHlo.launchContents m d) (Proc.devRef .tc r) = m ((d.tc : Thread nD τ).loc r) :=
  StableHlo.after_of_forall_not_mem _ _ fun op hop => arg_not_written (high_all op hop) hr

theorem after_arg0 :
    StableHlo.after (opsAll (F := F)) (StableHlo.launchContents m d) (Proc.devRef .tc main_arg0) = m ((d.tc : Thread nD τ).loc main_arg0) := arg_kept m d main_arg0 (by decide)
theorem after_arg1 :
    StableHlo.after (opsAll (F := F)) (StableHlo.launchContents m d) (Proc.devRef .tc main_arg1) = m ((d.tc : Thread nD τ).loc main_arg1) := arg_kept m d main_arg1 (by decide)
theorem after_arg2 :
    StableHlo.after (opsAll (F := F)) (StableHlo.launchContents m d) (Proc.devRef .tc main_arg2) = m ((d.tc : Thread nD τ).loc main_arg2) := arg_kept m d main_arg2 (by decide)
theorem after_arg3 :
    StableHlo.after (opsAll (F := F)) (StableHlo.launchContents m d) (Proc.devRef .tc main_arg3) = m ((d.tc : Thread nD τ).loc main_arg3) := arg_kept m d main_arg3 (by decide)
theorem after_arg4 :
    StableHlo.after (opsAll (F := F)) (StableHlo.launchContents m d) (Proc.devRef .tc main_arg4) = m ((d.tc : Thread nD τ).loc main_arg4) := arg_kept m d main_arg4 (by decide)
theorem after_arg5 :
    StableHlo.after (opsAll (F := F)) (StableHlo.launchContents m d) (Proc.devRef .tc main_arg5) = m ((d.tc : Thread nD τ).loc main_arg5) := arg_kept m d main_arg5 (by decide)
theorem after_arg6 :
    StableHlo.after (opsAll (F := F)) (StableHlo.launchContents m d) (Proc.devRef .tc main_arg6) = m ((d.tc : Thread nD τ).loc main_arg6) := arg_kept m d main_arg6 (by decide)
theorem after_arg7 :
    StableHlo.after (opsAll (F := F)) (StableHlo.launchContents m d) (Proc.devRef .tc main_arg7) = m ((d.tc : Thread nD τ).loc main_arg7) := arg_kept m d main_arg7 (by decide)
theorem after_arg8 :
    StableHlo.after (opsAll (F := F)) (StableHlo.launchContents m d) (Proc.devRef .tc main_arg8) = m ((d.tc : Thread nD τ).loc main_arg8) := arg_kept m d main_arg8 (by decide)
theorem after_arg9 :
    StableHlo.after (opsAll (F := F)) (StableHlo.launchContents m d) (Proc.devRef .tc main_arg9) = m ((d.tc : Thread nD τ).loc main_arg9) := arg_kept m d main_arg9 (by decide)
theorem after_arg10 :
    StableHlo.after (opsAll (F := F)) (StableHlo.launchContents m d) (Proc.devRef .tc main_arg10) = m ((d.tc : Thread nD τ).loc main_arg10) := arg_kept m d main_arg10 (by decide)
theorem after_arg11 :
    StableHlo.after (opsAll (F := F)) (StableHlo.launchContents m d) (Proc.devRef .tc main_arg11) = m ((d.tc : Thread nD τ).loc main_arg11) := arg_kept m d main_arg11 (by decide)
theorem after_arg12 :
    StableHlo.after (opsAll (F := F)) (StableHlo.launchContents m d) (Proc.devRef .tc main_arg12) = m ((d.tc : Thread nD τ).loc main_arg12) := arg_kept m d main_arg12 (by decide)
theorem after_arg13 :
    StableHlo.after (opsAll (F := F)) (StableHlo.launchContents m d) (Proc.devRef .tc main_arg13) = m ((d.tc : Thread nD τ).loc main_arg13) := arg_kept m d main_arg13 (by decide)
theorem after_arg14 :
    StableHlo.after (opsAll (F := F)) (StableHlo.launchContents m d) (Proc.devRef .tc main_arg14) = m ((d.tc : Thread nD τ).loc main_arg14) := arg_kept m d main_arg14 (by decide)
theorem after_arg15 :
    StableHlo.after (opsAll (F := F)) (StableHlo.launchContents m d) (Proc.devRef .tc main_arg15) = m ((d.tc : Thread nD τ).loc main_arg15) := arg_kept m d main_arg15 (by decide)
theorem after_arg16 :
    StableHlo.after (opsAll (F := F)) (StableHlo.launchContents m d) (Proc.devRef .tc main_arg16) = m ((d.tc : Thread nD τ).loc main_arg16) := arg_kept m d main_arg16 (by decide)
theorem after_arg17 :
    StableHlo.after (opsAll (F := F)) (StableHlo.launchContents m d) (Proc.devRef .tc main_arg17) = m ((d.tc : Thread nD τ).loc main_arg17) := arg_kept m d main_arg17 (by decide)
theorem after_arg18 :
    StableHlo.after (opsAll (F := F)) (StableHlo.launchContents m d) (Proc.devRef .tc main_arg18) = m ((d.tc : Thread nD τ).loc main_arg18) := arg_kept m d main_arg18 (by decide)
theorem after_arg19 :
    StableHlo.after (opsAll (F := F)) (StableHlo.launchContents m d) (Proc.devRef .tc main_arg19) = m ((d.tc : Thread nD τ).loc main_arg19) := arg_kept m d main_arg19 (by decide)
theorem after_arg20 :
    StableHlo.after (opsAll (F := F)) (StableHlo.launchContents m d) (Proc.devRef .tc main_arg20) = m ((d.tc : Thread nD τ).loc main_arg20) := arg_kept m d main_arg20 (by decide)
theorem after_arg21 :
    StableHlo.after (opsAll (F := F)) (StableHlo.launchContents m d) (Proc.devRef .tc main_arg21) = m ((d.tc : Thread nD τ).loc main_arg21) := arg_kept m d main_arg21 (by decide)
theorem after_arg22 :
    StableHlo.after (opsAll (F := F)) (StableHlo.launchContents m d) (Proc.devRef .tc main_arg22) = m ((d.tc : Thread nD τ).loc main_arg22) := arg_kept m d main_arg22 (by decide)
theorem after_arg23 :
    StableHlo.after (opsAll (F := F)) (StableHlo.launchContents m d) (Proc.devRef .tc main_arg23) = m ((d.tc : Thread nD τ).loc main_arg23) := arg_kept m d main_arg23 (by decide)
theorem after_arg24 :
    StableHlo.after (opsAll (F := F)) (StableHlo.launchContents m d) (Proc.devRef .tc main_arg24) = m ((d.tc : Thread nD τ).loc main_arg24) := arg_kept m d main_arg24 (by decide)
theorem after_arg25 :
    StableHlo.after (opsAll (F := F)) (StableHlo.launchContents m d) (Proc.devRef .tc main_arg25) = m ((d.tc : Thread nD τ).loc main_arg25) := arg_kept m d main_arg25 (by decide)
theorem after_arg26 :
    StableHlo.after (opsAll (F := F)) (StableHlo.launchContents m d) (Proc.devRef .tc main_arg26) = m ((d.tc : Thread nD τ).loc main_arg26) := arg_kept m d main_arg26 (by decide)
theorem after_arg27 :
    StableHlo.after (opsAll (F := F)) (StableHlo.launchContents m d) (Proc.devRef .tc main_arg27) = m ((d.tc : Thread nD τ).loc main_arg27) := arg_kept m d main_arg27 (by decide)

end Cert.ReferenceIdeal.RefRun

end
-- ==== Proof.RefRun.lean ====
/-
  The reference's run: every weakly fair execution of its @main terminates, nothing faulting, with each of the three results at
  its stage as a function of the launch contents of the arguments, and the arguments unchanged.
-/
import proofs.«402160_j53730040873195_3_alg».proof.Proof.RefRead
import proofs.«402160_j53730040873195_3_alg».proof.Proof.RefRunSeq
import proofs.«402160_j53730040873195_3_alg».proof.Proof.RefRunVals
import proofs.«402160_j53730040873195_3_alg».proof.Proof.RefRunArgs

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = val_main_v149 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v217) = val_main_v217 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v279) = val_main_v279 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v149).trans (after_v149 m c), (h c main_v217).trans (after_v217 m c), (h c main_v279).trans (after_v279 m c),
    (h c main_arg0).trans (after_arg0 m c), (h c main_arg1).trans (after_arg1 m c), (h c main_arg2).trans (after_arg2 m c), (h c main_arg3).trans (after_arg3 m c), (h c main_arg4).trans (after_arg4 m c), (h c main_arg5).trans (after_arg5 m c), (h c main_arg6).trans (after_arg6 m c), (h c main_arg7).trans (after_arg7 m c), (h c main_arg8).trans (after_arg8 m c), (h c main_arg9).trans (after_arg9 m c), (h c main_arg10).trans (after_arg10 m c), (h c main_arg11).trans (after_arg11 m c), (h c main_arg12).trans (after_arg12 m c), (h c main_arg13).trans (after_arg13 m c), (h c main_arg14).trans (after_arg14 m c), (h c main_arg15).trans (after_arg15 m c), (h c main_arg16).trans (after_arg16 m c), (h c main_arg17).trans (after_arg17 m c), (h c main_arg18).trans (after_arg18 m c), (h c main_arg19).trans (after_arg19 m c), (h c main_arg20).trans (after_arg20 m c), (h c main_arg21).trans (after_arg21 m c), (h c main_arg22).trans (after_arg22 m c), (h c main_arg23).trans (after_arg23 m c), (h c main_arg24).trans (after_arg24 m c), (h c main_arg25).trans (after_arg25 m c), (h c main_arg26).trans (after_arg26 m c), (h c main_arg27).trans (after_arg27 m c)⟩) (run_after m ρ)

end Cert.ReferenceIdeal.RefRun

end
-- ==== Proof.PreDecode.lean ====
/-
  The precondition decoded: where it holds, every float argument entry is a real number and every id and edge endpoint is in range.
-/
import proofs.«402160_j53730040873195_3_alg».proof.Defs
import proofs.«402160_j53730040873195_3_alg».proof.Proof.Gen.Pre_finite_inputs
import proofs.«402160_j53730040873195_3_alg».proof.Proof.KArgs
import proofs.«402160_j53730040873195_3_alg».proof.Proof.LibReal
import Idealize.ShloMosaic.Lib.ReduceAll
import Idealize.ShloMosaic.Lib.StableHlo.Predicate

noncomputable section

namespace Cert.PreDecode

open Idealize.ShloMosaic Idealize.SL.Sem Cert.Spec

/-- The scalar shape has a single index. -/
instance : Subsingleton Cert.Pre_finite_inputs.S_.Idx := ⟨fun a b => funext fun d => d.elim0⟩

/-- The word every absolute value is compared with is plus infinity. -/
theorem ofBits_inf : Ideal.ofBits .f32 0x7F800000#32 = ⊤ := by simp [Ideal.ofBits, Ideal.ieee]

/-- An extended real whose absolute value max v (-v) lies below plus infinity is neither infinity, so it is a real. -/
theorem isReal_of_abs_lt_top (v : EReal) (h : max v (-v) < ⊤) : IsReal v := by
  induction v using EReal.rec with
  | bot => simp at h
  | top => simp at h
  | coe r => exact ⟨r, rfl⟩

section
variable {s : Shape} {axes : List (Fin s.rank)}
  (hb : Cert.Pre_finite_inputs.S_.BroadcastsInDim s (![] : Fin 0 → Fin s.rank))
  (hr : s.ReducesTo axes Cert.Pre_finite_inputs.S_) (h0 : 0 < Cert.Pre_finite_inputs.S_.numel)
  (init : IVec Cert.Pre_finite_inputs.S_ 1)

/-- One float conjunct: if "all |x| < +inf" came out true, every entry of x is a real. -/
theorem real_of_all (x : FVec Ideal s .f32)
    (e : Host.reduce IntOp.andi
          (cmpf .olt (Host.absf x) (broadcastInDim s ![] hb (constant (F := Ideal) Cert.Pre_finite_inputs.S_ .f32 0x7F800000#32)))
          init hr h0 ValueIdx.ix0 = 1#1) (i : s.Idx) : IsReal (x i) := by
  have h1 := Host.reduce_andi_all _ _ hr h0 _ e i
  change Ideal.cmp .olt (max (x i) (-(x i))) (Ideal.ofBits .f32 0x7F800000#32) = 1#1 at h1
  rw [ofBits_inf] at h1
  simp only [Ideal.cmp, StableHlo.Predicate.ofBool_eq_one_iff, decide_eq_true_eq] at h1
  exact isReal_of_abs_lt_top _ h1

/-- One lower-bound conjunct: if "all x >= k" (signed) came out true, every word of x reads at least k. -/
theorem sge_of_all (x : IVec s 32) (k : BitVec 32)
    (e : Host.reduce IntOp.andi (cmpi .sge x (broadcastInDim s ![] hb (constantI Cert.Pre_finite_inputs.S_ 32 k)))
          init hr h0 ValueIdx.ix0 = 1#1) (i : s.Idx) : k.toInt ≤ (x i).toInt := by
  have h1 := Host.reduce_andi_all _ _ hr h0 _ e i
  exact IntOp.cmpi_sge.1 h1

/-- One upper-bound conjunct: if "all x < k" (signed) came out true, every word of x reads below k. -/
theorem slt_of_all (x : IVec s 32) (k : BitVec 32)
    (e : Host.reduce IntOp.andi (cmpi .slt x (broadcastInDim s ![] hb (constantI Cert.Pre_finite_inputs.S_ 32 k)))
          init hr h0 ValueIdx.ix0 = 1#1) (i : s.Idx) : (x i).toInt < k.toInt := by
  have h1 := Host.reduce_andi_all _ _ hr h0 _ e i
  exact IntOp.cmpi_slt.1 h1
end

/-- The precondition read back on device c. The predicate is a left-nested "and" of 31 one-bit words, one per `jnp.all`:
    the 25 float arrays in argument order, then atom ≥ 0, atom < 100, aa ≥ 0, aa < 25, ei ≥ 0, ei < 32768. The whole
    word is 1, so each of the 31 is 1; each float word gives "every entry is a real", each integer word one bound. -/
theorem ok_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KArgs.argsK m c).Ok := by
  -- the predicate's value at its one index, as the nested "and" of the 31 reductions
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8, andi] at e
  -- peel the conjuncts off from the outside: the last one first
  obtain ⟨e, ei_hi⟩ := IntOp.andi_eq_one.1 e
  obtain ⟨e, ei_lo⟩ := IntOp.andi_eq_one.1 e
  obtain ⟨e, aa_hi⟩ := IntOp.andi_eq_one.1 e
  obtain ⟨e, aa_lo⟩ := IntOp.andi_eq_one.1 e
  obtain ⟨e, atom_hi⟩ := IntOp.andi_eq_one.1 e
  obtain ⟨e, atom_lo⟩ := IntOp.andi_eq_one.1 e
  obtain ⟨e, r_blg⟩ := IntOp.andi_eq_one.1 e
  obtain ⟨e, r_wlg⟩ := IntOp.andi_eq_one.1 e
  obtain ⟨e, r_bg⟩ := IntOp.andi_eq_one.1 e
  obtain ⟨e, r_Wg⟩ := IntOp.andi_eq_one.1 e
  obtain ⟨e, r_ble⟩ := IntOp.andi_eq_one.1 e
  obtain ⟨e, r_wle⟩ := IntOp.andi_eq_one.1 e
  obtain ⟨e, r_be⟩ := IntOp.andi_eq_one.1 e
  obtain ⟨e, r_We⟩ := IntOp.andi_eq_one.1 e
  obtain ⟨e, r_bn⟩ := IntOp.andi_eq_one.1 e
  obtain ⟨e, r_wn⟩ := IntOp.andi_eq_one.1 e
  obtain ⟨e, r_bc⟩ := IntOp.andi_eq_one.1 e
  obtain ⟨e, r_wc⟩ := IntOp.andi_eq_one.1 e
  obtain ⟨e, r_aaEmb⟩ := IntOp.andi_eq_one.1 e
  obtain ⟨e, r_atomEmb⟩ := IntOp.andi_eq_one.1 e
  obtain ⟨e, r_bd⟩ := IntOp.andi_eq_one.1 e
  obtain ⟨e, r_Wd⟩ := IntOp.andi_eq_one.1 e
  obtain ⟨e, r_b4⟩ := IntOp.andi_eq_one.1 e
  obtain ⟨e, r_W4⟩ := IntOp.andi_eq_one.1 e
  obtain ⟨e, r_b3⟩ := IntOp.andi_eq_one.1 e
  obtain ⟨e, r_W3⟩ := IntOp.andi_eq_one.1 e
  obtain ⟨e, r_b2⟩ := IntOp.andi_eq_one.1 e
  obtain ⟨e, r_W2⟩ := IntOp.andi_eq_one.1 e
  obtain ⟨e, r_b1⟩ := IntOp.andi_eq_one.1 e
  obtain ⟨r_x, r_W1⟩ := IntOp.andi_eq_one.1 e
  -- the literal bounds, read as integers
  have z0 : (0#32 : BitVec 32).toInt = 0 := by decide
  have z100 : (100#32 : BitVec 32).toInt = 100 := by decide
  have z25 : (25#32 : BitVec 32).toInt = 25 := by decide
  have z32768 : (32768#32 : BitVec 32).toInt = 32768 := by decide
  have atom_lo' := sge_of_all _ _ _ _ _ _ atom_lo
  have atom_hi' := slt_of_all _ _ _ _ _ _ atom_hi
  have aa_lo' := sge_of_all _ _ _ _ _ _ aa_lo
  have aa_hi' := slt_of_all _ _ _ _ _ _ aa_hi
  have ei_lo' := sge_of_all _ _ _ _ _ _ ei_lo
  have ei_hi' := slt_of_all _ _ _ _ _ _ ei_hi
  rw [z0] at atom_lo' aa_lo' ei_lo'
  rw [z100] at atom_hi'
  rw [z25] at aa_hi'
  rw [z32768] at ei_hi'
  exact
    { x := real_of_all _ _ _ _ _ r_x
      W1 := real_of_all _ _ _ _ _ r_W1
      b1 := real_of_all _ _ _ _ _ r_b1
      W2 := real_of_all _ _ _ _ _ r_W2
      b2 := real_of_all _ _ _ _ _ r_b2
      W3 := real_of_all _ _ _ _ _ r_W3
      b3 := real_of_all _ _ _ _ _ r_b3
      W4 := real_of_all _ _ _ _ _ r_W4
      b4 := real_of_all _ _ _ _ _ r_b4
      Wd := real_of_all _ _ _ _ _ r_Wd
      bd := real_of_all _ _ _ _ _ r_bd
      atomEmb := real_of_all _ _ _ _ _ r_atomEmb
      aaEmb := real_of_all _ _ _ _ _ r_aaEmb
      wc := real_of_all _ _ _ _ _ r_wc
      bc := real_of_all _ _ _ _ _ r_bc
      wn := real_of_all _ _ _ _ _ r_wn
      bn := real_of_all _ _ _ _ _ r_bn
      We := real_of_all _ _ _ _ _ r_We
      be := real_of_all _ _ _ _ _ r_be
      wle := real_of_all _ _ _ _ _ r_wle
      ble := real_of_all _ _ _ _ _ r_ble
      Wg := real_of_all _ _ _ _ _ r_Wg
      bg := real_of_all _ _ _ _ _ r_bg
      wlg := real_of_all _ _ _ _ _ r_wlg
      blg := real_of_all _ _ _ _ _ r_blg
      atom := fun i => ⟨atom_lo' i, atom_hi' i⟩
      aa := fun i => ⟨aa_lo' i, aa_hi' i⟩
      ei := fun i => ⟨ei_lo' i, ei_hi' i⟩ }

end Cert.PreDecode

end
-- ==== Proof.lean ====
/-
  The certificate. A message-passing graph network's three first stages — node features, edge features, global
  features — computed by three fused kernels with host glue between them, against the plain array program.

  On the statement's domain (every float argument a real number, every atom id below 100, amino-acid id below 25 and
  edge endpoint below 32768, none negative) both programs compute the three arrays of Proof/Spec.lean: the per-graph
  layer norm of the node features, the per-graph layer norm of the half sums of the endpoint features over a graph's
  edges and self loops, and the layer norm of each graph's pooled global features. The kernel's side is read off its
  run region by region (Proof/KNode*.lean, KHost1.lean, KEdge*.lean, KTail.lean), the reference's side stage by stage
  (Proof/Ref*.lean); what joins them is regrouping of sums, a one-hot product against a gather, x / sqrt v against
  x * rsqrt v above zero, and the mean of squares of centred values against the mean square minus the squared mean.
-/
import proofs.«402160_j53730040873195_3_alg».proof.Defs
import proofs.«402160_j53730040873195_3_alg».proof.Proof.Gen.Kernel
import proofs.«402160_j53730040873195_3_alg».proof.Proof.Gen.Kernel.Skeleton
import proofs.«402160_j53730040873195_3_alg».proof.Proof.Gen.Kernel.Launch
import proofs.«402160_j53730040873195_3_alg».proof.Proof.Gen.Kernel.Points
import proofs.«402160_j53730040873195_3_alg».proof.Proof.Gen.Kernel.Frame
import proofs.«402160_j53730040873195_3_alg».proof.Proof.Gen.KernelIdeal
import proofs.«402160_j53730040873195_3_alg».proof.Proof.Gen.KernelIdeal.Skeleton
import proofs.«402160_j53730040873195_3_alg».proof.Proof.Gen.KernelIdeal.Launch
import proofs.«402160_j53730040873195_3_alg».proof.Proof.Gen.KernelIdeal.Points
import proofs.«402160_j53730040873195_3_alg».proof.Proof.Gen.KernelIdeal.Frame
import proofs.«402160_j53730040873195_3_alg».proof.Proof.Gen.ReferenceIdeal
import proofs.«402160_j53730040873195_3_alg».proof.Proof.Gen.Pre_finite_inputs
import proofs.«402160_j53730040873195_3_alg».proof.Proof.RunVals
import proofs.«402160_j53730040873195_3_alg».proof.Proof.KTail
import proofs.«402160_j53730040873195_3_alg».proof.Proof.RefGlob
import proofs.«402160_j53730040873195_3_alg».proof.Proof.RefGlobLN
import proofs.«402160_j53730040873195_3_alg».proof.Proof.RefRun
import proofs.«402160_j53730040873195_3_alg».proof.Proof.PreDecode
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program terminates and keeps its arguments: the generated frame. -/
theorem frame_k : Cert.frame_Kernel := fun m ρ _ => Cert.Kernel.Gen.frame m ρ
/-- The same program over the extended reals. -/
theorem frame_ki : Cert.frame_KernelIdeal := fun m ρ _ => Cert.KernelIdeal.Gen.frame m ρ
/-- The reference terminates and keeps its arguments: its run, with the results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)
/-- The idealization rewrote no operation. -/
theorem preserves : Cert.preserves_Kernel_KernelIdeal := trivial

/-- Both programs end with the three arrays of the specification at the (agreeing) arguments. -/
theorem algebraic : Cert.algebraic_KernelIdeal_ReferenceIdeal := by
  intro m ρ m' ρ' hpre hagree
  refine ⟨fun c => Cert.KernelIdeal.Gen.W10 m ρ c (Proc.devRef .tc Cert.KernelIdeal.main_v10_0),
    fun c => Cert.KernelIdeal.Gen.W10 m ρ c (Proc.devRef .tc Cert.KernelIdeal.main_v44_0),
    fun c => Cert.KernelIdeal.Gen.W10 m ρ c (Proc.devRef .tc Cert.KernelIdeal.main_v73),
    Cert.KernelIdeal.Gen.run_vals (F := Ideal) m ρ, ?_⟩
  refine (θ_run Cert.ReferenceIdeal.defs _ _).mono (fun _ h c => ?_) (Cert.ReferenceIdeal.RefRun.run (F := Ideal) m' ρ')
  have hok := Cert.PreDecode.ok_of_pre m hpre c
  obtain ⟨a0, a1, a2, a3, a4, a5, a6, a7, a8, a9, a10, a11, a12, a13, a14, a15, a16, a17, a18, a19, a20, a21, a22, a23, a24, a25, a26, a27⟩ := hagree c
  refine ⟨(h c).1.trans ?_, (h c).2.1.trans ?_, (h c).2.2.1.trans ?_, (h c).2.2.2⟩
  · simp only [a0, a1, a2, a3, a4, a5, a6, a7, a8, a9, a10, a11, a12, a13, a14, a15, a16, a17, a18, a19, a20, a21, a22, a23, a24, a25, a26, a27]
    refine funext fun i => ?_
    obtain ⟨n, f, rfl⟩ : ∃ (n : Fin 32768) (f : Fin 768), i = ix2 n f := ⟨i 0, i 1, eq_ix2 i⟩
    exact (Cert.RefVal.v149_eq (Cert.KArgs.argsK m c) hok n f).trans (Cert.KVal.W10_h m ρ c hok n f).symm
  · simp only [a0, a1, a2, a3, a4, a5, a6, a7, a8, a9, a10, a11, a12, a13, a14, a15, a16, a17, a18, a19, a20, a21, a22, a23, a24, a25, a26, a27]
    refine funext fun i => ?_
    obtain ⟨e, f, rfl⟩ : ∃ (e : Fin 557056) (f : Fin 128), i = ix2 e f := ⟨i 0, i 1, eq_ix2 i⟩
    exact (Cert.RefVal.v217_eq (Cert.KArgs.argsK m c) hok e f).trans (Cert.KVal.W10_attr m ρ c hok e f).symm
  · simp only [a0, a1, a2, a3, a4, a5, a6, a7, a8, a9, a10, a11, a12, a13, a14, a15, a16, a17, a18, a19, a20, a21, a22, a23, a24, a25, a26, a27]
    refine funext fun i => ?_
    obtain ⟨g, f, rfl⟩ : ∃ (g : Fin 16) (f : Fin 128), i = ix2 g f := ⟨i 0, i 1, eq_ix2 i⟩
    exact (Cert.RefVal.v279_eq (Cert.KArgs.argsK m c) hok g f).trans (Cert.KVal.W10_u m ρ c hok g f).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
